-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v51)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v51) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v91) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144 : Shape := ⟨1, ![262144]⟩
abbrev S60x256 : Shape := ⟨2, ![60, 256]⟩
abbrev S2x256x256 : Shape := ⟨3, ![2, 256, 256]⟩
abbrev S2x256 : Shape := ⟨2, ![2, 256]⟩
abbrev S_ : Shape := ⟨0, ![]⟩

class Facts : Prop where
  bcast_S_S60x256 : S_.BroadcastsInDim S60x256 (![] : Fin 0 → Fin S60x256.rank)
  reducesTo_S60x256_S_d0_1 : S60x256.ReducesTo [0, 1] S_
  h_S_ : 0 < S_.numel
  bcast_S_S2x256x256 : S_.BroadcastsInDim S2x256x256 (![] : Fin 0 → Fin S2x256x256.rank)
  reducesTo_S2x256x256_S_d0_1_2 : S2x256x256.ReducesTo [0, 1, 2] S_
  bcast_S_S2x256 : S_.BroadcastsInDim S2x256 (![] : Fin 0 → Fin S2x256.rank)
  reducesTo_S2x256_S_d0_1 : S2x256.ReducesTo [0, 1] S_
  bcast_S_S262144 : S_.BroadcastsInDim S262144 (![] : Fin 0 → Fin S262144.rank)
  reducesTo_S262144_S_d0 : S262144.ReducesTo [0] S_

variable [Facts]

def fn_part2 {F : FTy → Type} [FloatOps F] (main_arg1 : IVec S262144 32) (main_arg2 : IVec S262144 32) (main_v30 : IVec S_ 1) (main_v32 : IVec S262144 1) (main_c_12 : IVec S_ 32) : IVec S_ 1 :=
  let main_v33 : IVec S262144 32 := broadcastInDim S262144 ![] bcast_S_S262144 main_c_12
  let main_v34 : IVec S262144 1 := cmpi .slt main_arg1 main_v33
  let main_v35 : IVec S262144 1 := andi main_v32 main_v34
  let main_c_13 : IVec S_ 1 := constantI S_ 1 1#1
  let main_v36 : IVec S_ 1 := (fun x v => Host.reduce IntOp.andi x v reducesTo_S262144_S_d0 h_S_) main_v35 main_c_13
  let main_v37 : IVec S_ 1 := andi main_v30 main_v36
  let main_c_14 : IVec S_ 32 := constantI S_ 32 0#32
  let main_v38 : IVec S262144 32 := broadcastInDim S262144 ![] bcast_S_S262144 main_c_14
  let main_v39 : IVec S262144 1 := cmpi .sge main_arg2 main_v38
  let main_c_15 : IVec S_ 32 := constantI S_ 32 262144#32
  let main_v40 : IVec S262144 32 := broadcastInDim S262144 ![] bcast_S_S262144 main_c_15
  let main_v41 : IVec S262144 1 := cmpi .slt main_arg2 main_v40
  let main_v42 : IVec S262144 1 := andi main_v39 main_v41
  let main_c_16 : IVec S_ 1 := constantI S_ 1 1#1
  let main_v43 : IVec S_ 1 := (fun x v => Host.reduce IntOp.andi x v reducesTo_S262144_S_d0 h_S_) main_v42 main_c_16
  let main_v44 : IVec S_ 1 := andi main_v37 main_v43
  main_v44

def fn_part1 {F : FTy → Type} [FloatOps F] (main_arg0 : IVec S262144 32) (main_arg1 : IVec S262144 32) (main_arg2 : IVec S262144 32) (main_arg8 : FVec F S2x256 .f32) (main_v13 : IVec S_ 1) (main_v16 : IVec S2x256x256 1) : IVec S_ 1 :=
  let main_c_5 : IVec S_ 1 := constantI S_ 1 1#1
  let main_v17 : IVec S_ 1 := (fun x v => Host.reduce IntOp.andi x v reducesTo_S2x256x256_S_d0_1_2 h_S_) main_v16 main_c_5
  let main_v18 : IVec S_ 1 := andi main_v13 main_v17
  let main_v19 : FVec F S2x256 .f32 := Host.absf main_arg8
  let main_cst_6 : FVec F S_ .f32 := constant S_ .f32 0x7F800000#32
  let main_v20 : FVec F S2x256 .f32 := broadcastInDim S2x256 ![] bcast_S_S2x256 main_cst_6
  let main_v21 : IVec S2x256 1 := cmpf .olt main_v19 main_v20
  let main_c_7 : IVec S_ 1 := constantI S_ 1 1#1
  let main_v22 : IVec S_ 1 := (fun x v => Host.reduce IntOp.andi x v reducesTo_S2x256_S_d0_1 h_S_) main_v21 main_c_7
  let main_v23 : IVec S_ 1 := andi main_v18 main_v22
  let main_c_8 : IVec S_ 32 := constantI S_ 32 0#32
  let main_v24 : IVec S262144 32 := broadcastInDim S262144 ![] bcast_S_S262144 main_c_8
  let main_v25 : IVec S262144 1 := cmpi .sge main_arg0 main_v24
  let main_c_9 : IVec S_ 32 := constantI S_ 32 60#32
  let main_v26 : IVec S262144 32 := broadcastInDim S262144 ![] bcast_S_S262144 main_c_9
  let main_v27 : IVec S262144 1 := cmpi .slt main_arg0 main_v26
  let main_v28 : IVec S262144 1 := andi main_v25 main_v27
  let main_c_10 : IVec S_ 1 := constantI S_ 1 1#1
  let main_v29 : IVec S_ 1 := (fun x v => Host.reduce IntOp.andi x v reducesTo_S262144_S_d0 h_S_) main_v28 main_c_10
  let main_v30 : IVec S_ 1 := andi main_v23 main_v29
  let main_c_11 : IVec S_ 32 := constantI S_ 32 0#32
  let main_v31 : IVec S262144 32 := broadcastInDim S262144 ![] bcast_S_S262144 main_c_11
  let main_v32 : IVec S262144 1 := cmpi .sge main_arg1 main_v31
  let main_c_12 : IVec S_ 32 := constantI S_ 32 262144#32
  fn_part2 (F := F) main_arg1 main_arg2 main_v30 main_v32 main_c_12

def fn {F : FTy → Type} [FloatOps F] (main_arg0 : IVec S262144 32) (main_arg1 : IVec S262144 32) (main_arg2 : IVec S262144 32) (main_arg3 : IVec S262144 32) (main_arg4 : FVec F S60x256 .f32) (main_arg5 : FVec F S2x256x256 .f32) (main_arg6 : FVec F S2x256x256 .f32) (main_arg7 : FVec F S2x256x256 .f32) (main_arg8 : FVec F S2x256 .f32) : IVec S_ 1 :=
  let main_v0 : FVec F S60x256 .f32 := Host.absf main_arg4
  let main_cst : FVec F S_ .f32 := constant S_ .f32 0x7F800000#32
  let main_v1 : FVec F S60x256 .f32 := broadcastInDim S60x256 ![] bcast_S_S60x256 main_cst
  let main_v2 : IVec S60x256 1 := cmpf .olt main_v0 main_v1
  let main_c : IVec S_ 1 := constantI S_ 1 1#1
  let main_v3 : IVec S_ 1 := (fun x v => Host.reduce IntOp.andi x v reducesTo_S60x256_S_d0_1 h_S_) main_v2 main_c
  let main_v4 : FVec F S2x256x256 .f32 := Host.absf main_arg5
  let main_cst_0 : FVec F S_ .f32 := constant S_ .f32 0x7F800000#32
  let main_v5 : FVec F S2x256x256 .f32 := broadcastInDim S2x256x256 ![] bcast_S_S2x256x256 main_cst_0
  let main_v6 : IVec S2x256x256 1 := cmpf .olt main_v4 main_v5
  let main_c_1 : IVec S_ 1 := constantI S_ 1 1#1
  let main_v7 : IVec S_ 1 := (fun x v => Host.reduce IntOp.andi x v reducesTo_S2x256x256_S_d0_1_2 h_S_) main_v6 main_c_1
  let main_v8 : IVec S_ 1 := andi main_v3 main_v7
  let main_v9 : FVec F S2x256x256 .f32 := Host.absf main_arg6
  let main_cst_2 : FVec F S_ .f32 := constant S_ .f32 0x7F800000#32
  let main_v10 : FVec F S2x256x256 .f32 := broadcastInDim S2x256x256 ![] bcast_S_S2x256x256 main_cst_2
  let main_v11 : IVec S2x256x256 1 := cmpf .olt main_v9 main_v10
  let main_c_3 : IVec S_ 1 := constantI S_ 1 1#1
  let main_v12 : IVec S_ 1 := (fun x v => Host.reduce IntOp.andi x v reducesTo_S2x256x256_S_d0_1_2 h_S_) main_v11 main_c_3
  let main_v13 : IVec S_ 1 := andi main_v8 main_v12
  let main_v14 : FVec F S2x256x256 .f32 := Host.absf main_arg7
  let main_cst_4 : FVec F S_ .f32 := constant S_ .f32 0x7F800000#32
  let main_v15 : FVec F S2x256x256 .f32 := broadcastInDim S2x256x256 ![] bcast_S_S2x256x256 main_cst_4
  let main_v16 : IVec S2x256x256 1 := cmpf .olt main_v14 main_v15
  fn_part1 (F := F) main_arg0 main_arg1 main_arg2 main_arg8 main_v13 main_v16
-- ==== Kernel.lean ====
abbrev S262144 : Shape := ⟨1, ![262144]⟩
abbrev S60x256 : Shape := ⟨2, ![60, 256]⟩
abbrev S2x256x256 : Shape := ⟨3, ![2, 256, 256]⟩
abbrev S2x256 : Shape := ⟨2, ![2, 256]⟩
abbrev S_ : Shape := ⟨0, ![]⟩
abbrev S262144x1 : Shape := ⟨2, ![262144, 1]⟩
abbrev S1 : Shape := ⟨1, ![1]⟩
abbrev S1x1 : Shape := ⟨2, ![1, 1]⟩
abbrev S262144x256 : Shape := ⟨2, ![262144, 256]⟩
abbrev S1x256 : Shape := ⟨2, ![1, 256]⟩
abbrev S256 : Shape := ⟨1, ![256]⟩
abbrev S1x256x256 : Shape := ⟨3, ![1, 256, 256]⟩
abbrev S256x256 : Shape := ⟨2, ![256, 256]⟩
abbrev S4096x256 : Shape := ⟨2, ![4096, 256]⟩
abbrev S2x512x256 : Shape := ⟨3, ![2, 512, 256]⟩
abbrev S4096x1 : Shape := ⟨2, ![4096, 1]⟩
abbrev S1x512x256 : Shape := ⟨3, ![1, 512, 256]⟩
abbrev S512x256 : Shape := ⟨2, ![512, 256]⟩
abbrev S4096x512 : Shape := ⟨2, ![4096, 512]⟩
abbrev S512x1 : Shape := ⟨2, ![512, 1]⟩

abbrev nBuf : Space → Nat
  | .hbm => 178
  | .vmem => 31
  | .smem => 0
  | _ => 0

abbrev hbmTy0_0 (i : Nat) : BufTy := match i % 128 with
  | 0 => ⟨S262144, .i32⟩
  | 1 => ⟨S262144, .i32⟩
  | 2 => ⟨S262144, .i32⟩
  | 3 => ⟨S262144, .i32⟩
  | 4 => ⟨S60x256, .f32⟩
  | 5 => ⟨S2x256x256, .f32⟩
  | 6 => ⟨S2x256x256, .f32⟩
  | 7 => ⟨S2x256x256, .f32⟩
  | 8 => ⟨S2x256, .f32⟩
  | 9 => ⟨S_, .i32⟩
  | 10 => ⟨S262144, .i32⟩
  | 11 => ⟨S262144, .i1⟩
  | 12 => ⟨S_, .i32⟩
  | 13 => ⟨S262144, .i32⟩
  | 14 => ⟨S262144, .i32⟩
  | 15 => ⟨S262144, .i32⟩
  | 16 => ⟨S262144x1, .i32⟩
  | 17 => ⟨S1, .i32⟩
  | 18 => ⟨S_, .i32⟩
  | 19 => ⟨S262144x1, .i32⟩
  | 20 => ⟨S262144x1, .i1⟩
  | 21 => ⟨S1x1, .i32⟩
  | 22 => ⟨S262144x1, .i32⟩
  | 23 => ⟨S262144x1, .i1⟩
  | 24 => ⟨S262144x1, .i1⟩
  | 25 => ⟨S_, .i1⟩
  | 26 => ⟨S262144, .i1⟩
  | 27 => ⟨S262144x256, .f32⟩
  | 28 => ⟨S262144x256, .i1⟩
  | 29 => ⟨S_, .f32⟩
  | 30 => ⟨S262144x256, .f32⟩
  | 31 => ⟨S262144x256, .f32⟩
  | 32 => ⟨S_, .i32⟩
  | 33 => ⟨S262144, .i32⟩
  | 34 => ⟨S262144, .i1⟩
  | 35 => ⟨S_, .i32⟩
  | 36 => ⟨S262144, .i32⟩
  | 37 => ⟨S262144, .i32⟩
  | 38 => ⟨S262144, .i32⟩
  | 39 => ⟨S262144x1, .i32⟩
  | 40 => ⟨S1, .i32⟩
  | 41 => ⟨S_, .i32⟩
  | 42 => ⟨S262144x1, .i32⟩
  | 43 => ⟨S262144x1, .i1⟩
  | 44 => ⟨S1x1, .i32⟩
  | 45 => ⟨S262144x1, .i32⟩
  | 46 => ⟨S262144x1, .i1⟩
  | 47 => ⟨S262144x1, .i1⟩
  | 48 => ⟨S_, .i1⟩
  | 49 => ⟨S262144, .i1⟩
  | 50 => ⟨S262144x256, .f32⟩
  | 51 => ⟨S262144x256, .i1⟩
  | 52 => ⟨S_, .f32⟩
  | 53 => ⟨S262144x256, .f32⟩
  | 54 => ⟨S262144x256, .f32⟩
  | 55 => ⟨S_, .i32⟩
  | 56 => ⟨S262144, .i32⟩
  | 57 => ⟨S262144, .i1⟩
  | 58 => ⟨S_, .i32⟩
  | 59 => ⟨S262144, .i32⟩
  | 60 => ⟨S262144, .i32⟩
  | 61 => ⟨S262144, .i32⟩
  | 62 => ⟨S262144x1, .i32⟩
  | 63 => ⟨S1, .i32⟩
  | 64 => ⟨S_, .i32⟩
  | 65 => ⟨S262144x1, .i32⟩
  | 66 => ⟨S262144x1, .i1⟩
  | 67 => ⟨S1x1, .i32⟩
  | 68 => ⟨S262144x1, .i32⟩
  | 69 => ⟨S262144x1, .i1⟩
  | 70 => ⟨S262144x1, .i1⟩
  | 71 => ⟨S_, .i1⟩
  | 72 => ⟨S262144, .i1⟩
  | 73 => ⟨S262144x256, .f32⟩
  | 74 => ⟨S262144x256, .i1⟩
  | 75 => ⟨S_, .f32⟩
  | 76 => ⟨S262144x256, .f32⟩
  | 77 => ⟨S262144x256, .f32⟩
  | 78 => ⟨S_, .f32⟩
  | 79 => ⟨S262144x256, .f32⟩
  | 80 => ⟨S262144x1, .i32⟩
  | 81 => ⟨S262144x256, .f32⟩
  | 82 => ⟨S_, .f32⟩
  | 83 => ⟨S262144x256, .f32⟩
  | 84 => ⟨S262144x1, .i32⟩
  | 85 => ⟨S262144x256, .f32⟩
  | 86 => ⟨S1x256, .f32⟩
  | 87 => ⟨S256, .f32⟩
  | 88 => ⟨S1x256, .f32⟩
  | 89 => ⟨S1x256x256, .f32⟩
  | 90 => ⟨S256x256, .f32⟩
  | 91 => ⟨S1x256x256, .f32⟩
  | 92 => ⟨S256x256, .f32⟩
  | 93 => ⟨S1x256x256, .f32⟩
  | 94 => ⟨S256x256, .f32⟩
  | 95 => ⟨S262144x256, .f32⟩
  | 96 => ⟨S_, .i32⟩
  | 97 => ⟨S262144, .i32⟩
  | 98 => ⟨S262144, .i1⟩
  | 99 => ⟨S_, .i32⟩
  | 100 => ⟨S262144, .i32⟩
  | 101 => ⟨S262144, .i32⟩
  | 102 => ⟨S262144, .i32⟩
  | 103 => ⟨S262144x1, .i32⟩
  | 104 => ⟨S1, .i32⟩
  | 105 => ⟨S_, .i32⟩
  | 106 => ⟨S262144x1, .i32⟩
  | 107 => ⟨S262144x1, .i1⟩
  | 108 => ⟨S1x1, .i32⟩
  | 109 => ⟨S262144x1, .i32⟩
  | 110 => ⟨S262144x1, .i1⟩
  | 111 => ⟨S262144x1, .i1⟩
  | 112 => ⟨S_, .i1⟩
  | 113 => ⟨S262144, .i1⟩
  | 114 => ⟨S262144x256, .f32⟩
  | 115 => ⟨S262144x256, .i1⟩
  | 116 => ⟨S_, .f32⟩
  | 117 => ⟨S262144x256, .f32⟩
  | 118 => ⟨S262144x256, .f32⟩
  | 119 => ⟨S_, .i32⟩
  | 120 => ⟨S262144, .i32⟩
  | 121 => ⟨S262144, .i1⟩
  | 122 => ⟨S_, .i32⟩
  | 123 => ⟨S262144, .i32⟩
  | 124 => ⟨S262144, .i32⟩
  | 125 => ⟨S262144, .i32⟩
  | 126 => ⟨S262144x1, .i32⟩
  | 127 => ⟨S1, .i32⟩
  | _ => ⟨S262144, .i32⟩

abbrev hbmTy0_1 (i : Nat) : BufTy := match i % 128 with
  | 0 => ⟨S_, .i32⟩
  | 1 => ⟨S262144x1, .i32⟩
  | 2 => ⟨S262144x1, .i1⟩
  | 3 => ⟨S1x1, .i32⟩
  | 4 => ⟨S262144x1, .i32⟩
  | 5 => ⟨S262144x1, .i1⟩
  | 6 => ⟨S262144x1, .i1⟩
  | 7 => ⟨S_, .i1⟩
  | 8 => ⟨S262144, .i1⟩
  | 9 => ⟨S262144x256, .f32⟩
  | 10 => ⟨S262144x256, .i1⟩
  | 11 => ⟨S_, .f32⟩
  | 12 => ⟨S262144x256, .f32⟩
  | 13 => ⟨S262144x256, .f32⟩
  | 14 => ⟨S_, .f32⟩
  | 15 => ⟨S262144x256, .f32⟩
  | 16 => ⟨S262144x1, .i32⟩
  | 17 => ⟨S262144x256, .f32⟩
  | 18 => ⟨S_, .f32⟩
  | 19 => ⟨S262144x256, .f32⟩
  | 20 => ⟨S262144x1, .i32⟩
  | 21 => ⟨S262144x256, .f32⟩
  | 22 => ⟨S1x256, .f32⟩
  | 23 => ⟨S256, .f32⟩
  | 24 => ⟨S1x256, .f32⟩
  | 25 => ⟨S1x256x256, .f32⟩
  | 26 => ⟨S256x256, .f32⟩
  | 27 => ⟨S1x256x256, .f32⟩
  | 28 => ⟨S256x256, .f32⟩
  | 29 => ⟨S1x256x256, .f32⟩
  | 30 => ⟨S256x256, .f32⟩
  | 31 => ⟨S262144x256, .f32⟩
  | 32 => ⟨S262144x1, .i32⟩
  | 33 => ⟨S2x512x256, .f32⟩
  | 34 => ⟨S1x512x256, .f32⟩
  | 35 => ⟨S512x256, .f32⟩
  | 36 => ⟨S1x512x256, .f32⟩
  | 37 => ⟨S512x256, .f32⟩
  | 38 => ⟨S512x256, .f32⟩
  | 39 => ⟨S_, .f32⟩
  | 40 => ⟨S262144x1, .f32⟩
  | 41 => ⟨S_, .f32⟩
  | 42 => ⟨S512x1, .f32⟩
  | 43 => ⟨S262144x1, .i32⟩
  | 44 => ⟨S512x1, .f32⟩
  | 45 => ⟨S_, .f32⟩
  | 46 => ⟨S512x1, .f32⟩
  | 47 => ⟨S512x1, .f32⟩
  | 48 => ⟨S512x256, .f32⟩
  | 49 => ⟨S512x256, .f32⟩
  | _ => ⟨S262144, .i32⟩

abbrev hbmTy (i : Nat) : BufTy := match i / 128 with
  | 0 => hbmTy0_0 i
  | 1 => hbmTy0_1 i
  | _ => ⟨S262144, .i32⟩

abbrev bufTy : (tb : Table) → Fin (tcTables nBuf tb) → BufTy
  | .hbm, ⟨i, _⟩ => hbmTy i
  | .local _ .vmem, ⟨0, _⟩ => ⟨S4096x256, .f32⟩
  | .local _ .vmem, ⟨1, _⟩ => ⟨S4096x256, .f32⟩
  | .local _ .vmem, ⟨2, _⟩ => ⟨S4096x256, .f32⟩
  | .local _ .vmem, ⟨3, _⟩ => ⟨S4096x256, .f32⟩
  | .local _ .vmem, ⟨4, _⟩ => ⟨S4096x256, .f32⟩
  | .local _ .vmem, ⟨5, _⟩ => ⟨S4096x256, .f32⟩
  | .local _ .vmem, ⟨6, _⟩ => ⟨S256x256, .f32⟩
  | .local _ .vmem, ⟨7, _⟩ => ⟨S256x256, .f32⟩
  | .local _ .vmem, ⟨8, _⟩ => ⟨S256x256, .f32⟩
  | .local _ .vmem, ⟨9, _⟩ => ⟨S1x256, .f32⟩
  | .local _ .vmem, ⟨10, _⟩ => ⟨S4096x256, .f32⟩
  | .local _ .vmem, ⟨11, _⟩ => ⟨S4096x256, .f32⟩
  | .local _ .vmem, ⟨12, _⟩ => ⟨S4096x256, .f32⟩
  | .local _ .vmem, ⟨13, _⟩ => ⟨S4096x256, .f32⟩
  | .local _ .vmem, ⟨14, _⟩ => ⟨S4096x256, .f32⟩
  | .local _ .vmem, ⟨15, _⟩ => ⟨S4096x256, .f32⟩
  | .local _ .vmem, ⟨16, _⟩ => ⟨S4096x256, .f32⟩
  | .local _ .vmem, ⟨17, _⟩ => ⟨S4096x256, .f32⟩
  | .local _ .vmem, ⟨18, _⟩ => ⟨S256x256, .f32⟩
  | .local _ .vmem, ⟨19, _⟩ => ⟨S256x256, .f32⟩
  | .local _ .vmem, ⟨20, _⟩ => ⟨S256x256, .f32⟩
  | .local _ .vmem, ⟨21, _⟩ => ⟨S1x256, .f32⟩
  | .local _ .vmem, ⟨22, _⟩ => ⟨S4096x256, .f32⟩
  | .local _ .vmem, ⟨23, _⟩ => ⟨S4096x256, .f32⟩
  | .local _ .vmem, ⟨24, _⟩ => ⟨S4096x256, .f32⟩
  | .local _ .vmem, ⟨25, _⟩ => ⟨S4096x256, .f32⟩
  | .local _ .vmem, ⟨26, _⟩ => ⟨S4096x1, .i32⟩
  | .local _ .vmem, ⟨27, _⟩ => ⟨S4096x1, .i32⟩
  | .local _ .vmem, ⟨28, _⟩ => ⟨S1x512x256, .f32⟩
  | .local _ .vmem, ⟨29, _⟩ => ⟨S1x512x256, .f32⟩
  | .local _ .vmem, ⟨30, _⟩ => ⟨S512x256, .f32⟩
  | _, _ => ⟨S262144, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_call0_c : Ref sig .tc := ⟨.hbm, 9, rfl⟩
abbrev main_call0_v0 : Ref sig .tc := ⟨.hbm, 10, rfl⟩
abbrev main_call0_v1 : Ref sig .tc := ⟨.hbm, 11, rfl⟩
abbrev main_call0_c_0 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_c_1 : Ref sig .tc := ⟨.hbm, 17, rfl⟩
abbrev main_call0_c_2 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_3 : Ref sig .tc := ⟨.hbm, 25, rfl⟩
abbrev main_call0_v12 : Ref sig .tc := ⟨.hbm, 26, rfl⟩
abbrev main_call0_v13 : Ref sig .tc := ⟨.hbm, 27, rfl⟩
abbrev main_call0_v14 : Ref sig .tc := ⟨.hbm, 28, rfl⟩
abbrev main_call0_cst : Ref sig .tc := ⟨.hbm, 29, rfl⟩
abbrev main_call0_v15 : Ref sig .tc := ⟨.hbm, 30, rfl⟩
abbrev main_v0 : Ref sig .tc := ⟨.hbm, 31, rfl⟩
abbrev main_call1_c : Ref sig .tc := ⟨.hbm, 32, rfl⟩
abbrev main_call1_v0 : Ref sig .tc := ⟨.hbm, 33, rfl⟩
abbrev main_call1_v1 : Ref sig .tc := ⟨.hbm, 34, rfl⟩
abbrev main_call1_c_0 : Ref sig .tc := ⟨.hbm, 35, rfl⟩
abbrev main_call1_v2 : Ref sig .tc := ⟨.hbm, 36, rfl⟩
abbrev main_call1_v3 : Ref sig .tc := ⟨.hbm, 37, rfl⟩
abbrev main_call1_v4 : Ref sig .tc := ⟨.hbm, 38, rfl⟩
abbrev main_call1_v5 : Ref sig .tc := ⟨.hbm, 39, rfl⟩
abbrev main_call1_c_1 : Ref sig .tc := ⟨.hbm, 40, rfl⟩
abbrev main_call1_c_2 : Ref sig .tc := ⟨.hbm, 41, rfl⟩
abbrev main_call1_v6 : Ref sig .tc := ⟨.hbm, 42, rfl⟩
abbrev main_call1_v7 : Ref sig .tc := ⟨.hbm, 43, rfl⟩
abbrev main_call1_v8 : Ref sig .tc := ⟨.hbm, 44, rfl⟩
abbrev main_call1_v9 : Ref sig .tc := ⟨.hbm, 45, rfl⟩
abbrev main_call1_v10 : Ref sig .tc := ⟨.hbm, 46, rfl⟩
abbrev main_call1_v11 : Ref sig .tc := ⟨.hbm, 47, rfl⟩
abbrev main_call1_c_3 : Ref sig .tc := ⟨.hbm, 48, rfl⟩
abbrev main_call1_v12 : Ref sig .tc := ⟨.hbm, 49, rfl⟩
abbrev main_call1_v13 : Ref sig .tc := ⟨.hbm, 50, rfl⟩
abbrev main_call1_v14 : Ref sig .tc := ⟨.hbm, 51, rfl⟩
abbrev main_call1_cst : Ref sig .tc := ⟨.hbm, 52, rfl⟩
abbrev main_call1_v15 : Ref sig .tc := ⟨.hbm, 53, rfl⟩
abbrev main_v1 : Ref sig .tc := ⟨.hbm, 54, rfl⟩
abbrev main_call2_c : Ref sig .tc := ⟨.hbm, 55, rfl⟩
abbrev main_call2_v0 : Ref sig .tc := ⟨.hbm, 56, rfl⟩
abbrev main_call2_v1 : Ref sig .tc := ⟨.hbm, 57, rfl⟩
abbrev main_call2_c_0 : Ref sig .tc := ⟨.hbm, 58, rfl⟩
abbrev main_call2_v2 : Ref sig .tc := ⟨.hbm, 59, rfl⟩
abbrev main_call2_v3 : Ref sig .tc := ⟨.hbm, 60, rfl⟩
abbrev main_call2_v4 : Ref sig .tc := ⟨.hbm, 61, rfl⟩
abbrev main_call2_v5 : Ref sig .tc := ⟨.hbm, 62, rfl⟩
abbrev main_call2_c_1 : Ref sig .tc := ⟨.hbm, 63, rfl⟩
abbrev main_call2_c_2 : Ref sig .tc := ⟨.hbm, 64, rfl⟩
abbrev main_call2_v6 : Ref sig .tc := ⟨.hbm, 65, rfl⟩
abbrev main_call2_v7 : Ref sig .tc := ⟨.hbm, 66, rfl⟩
abbrev main_call2_v8 : Ref sig .tc := ⟨.hbm, 67, rfl⟩
abbrev main_call2_v9 : Ref sig .tc := ⟨.hbm, 68, rfl⟩
abbrev main_call2_v10 : Ref sig .tc := ⟨.hbm, 69, rfl⟩
abbrev main_call2_v11 : Ref sig .tc := ⟨.hbm, 70, rfl⟩
abbrev main_call2_c_3 : Ref sig .tc := ⟨.hbm, 71, rfl⟩
abbrev main_call2_v12 : Ref sig .tc := ⟨.hbm, 72, rfl⟩
abbrev main_call2_v13 : Ref sig .tc := ⟨.hbm, 73, rfl⟩
abbrev main_call2_v14 : Ref sig .tc := ⟨.hbm, 74, rfl⟩
abbrev main_call2_cst : Ref sig .tc := ⟨.hbm, 75, rfl⟩
abbrev main_call2_v15 : Ref sig .tc := ⟨.hbm, 76, rfl⟩
abbrev main_v2 : Ref sig .tc := ⟨.hbm, 77, rfl⟩
abbrev main_cst : Ref sig .tc := ⟨.hbm, 78, rfl⟩
abbrev main_v3 : Ref sig .tc := ⟨.hbm, 79, rfl⟩
abbrev main_v4 : Ref sig .tc := ⟨.hbm, 80, rfl⟩
abbrev main_v5 : Ref sig .tc := ⟨.hbm, 81, rfl⟩
abbrev main_cst_0 : Ref sig .tc := ⟨.hbm, 82, rfl⟩
abbrev main_v6 : Ref sig .tc := ⟨.hbm, 83, rfl⟩
abbrev main_v7 : Ref sig .tc := ⟨.hbm, 84, rfl⟩
abbrev main_v8 : Ref sig .tc := ⟨.hbm, 85, rfl⟩
abbrev main_v9 : Ref sig .tc := ⟨.hbm, 86, rfl⟩
abbrev main_v10 : Ref sig .tc := ⟨.hbm, 87, rfl⟩
abbrev main_v11 : Ref sig .tc := ⟨.hbm, 88, rfl⟩
abbrev main_v12 : Ref sig .tc := ⟨.hbm, 89, rfl⟩
abbrev main_v13 : Ref sig .tc := ⟨.hbm, 90, rfl⟩
abbrev main_v14 : Ref sig .tc := ⟨.hbm, 91, rfl⟩
abbrev main_v15 : Ref sig .tc := ⟨.hbm, 92, rfl⟩
abbrev main_v16 : Ref sig .tc := ⟨.hbm, 93, rfl⟩
abbrev main_v17 : Ref sig .tc := ⟨.hbm, 94, rfl⟩
abbrev main_v18 : Ref sig .tc := ⟨.hbm, 95, rfl⟩
abbrev main_call3_c : Ref sig .tc := ⟨.hbm, 96, rfl⟩
abbrev main_call3_v0 : Ref sig .tc := ⟨.hbm, 97, rfl⟩
abbrev main_call3_v1 : Ref sig .tc := ⟨.hbm, 98, rfl⟩
abbrev main_call3_c_0 : Ref sig .tc := ⟨.hbm, 99, rfl⟩
abbrev main_call3_v2 : Ref sig .tc := ⟨.hbm, 100, rfl⟩
abbrev main_call3_v3 : Ref sig .tc := ⟨.hbm, 101, rfl⟩
abbrev main_call3_v4 : Ref sig .tc := ⟨.hbm, 102, rfl⟩
abbrev main_call3_v5 : Ref sig .tc := ⟨.hbm, 103, rfl⟩
abbrev main_call3_c_1 : Ref sig .tc := ⟨.hbm, 104, rfl⟩
abbrev main_call3_c_2 : Ref sig .tc := ⟨.hbm, 105, rfl⟩
abbrev main_call3_v6 : Ref sig .tc := ⟨.hbm, 106, rfl⟩
abbrev main_call3_v7 : Ref sig .tc := ⟨.hbm, 107, rfl⟩
abbrev main_call3_v8 : Ref sig .tc := ⟨.hbm, 108, rfl⟩
abbrev main_call3_v9 : Ref sig .tc := ⟨.hbm, 109, rfl⟩
abbrev main_call3_v10 : Ref sig .tc := ⟨.hbm, 110, rfl⟩
abbrev main_call3_v11 : Ref sig .tc := ⟨.hbm, 111, rfl⟩
abbrev main_call3_c_3 : Ref sig .tc := ⟨.hbm, 112, rfl⟩
abbrev main_call3_v12 : Ref sig .tc := ⟨.hbm, 113, rfl⟩
abbrev main_call3_v13 : Ref sig .tc := ⟨.hbm, 114, rfl⟩
abbrev main_call3_v14 : Ref sig .tc := ⟨.hbm, 115, rfl⟩
abbrev main_call3_cst : Ref sig .tc := ⟨.hbm, 116, rfl⟩
abbrev main_call3_v15 : Ref sig .tc := ⟨.hbm, 117, rfl⟩
abbrev main_v19 : Ref sig .tc := ⟨.hbm, 118, rfl⟩
abbrev main_call4_c : Ref sig .tc := ⟨.hbm, 119, rfl⟩
abbrev main_call4_v0 : Ref sig .tc := ⟨.hbm, 120, rfl⟩
abbrev main_call4_v1 : Ref sig .tc := ⟨.hbm, 121, rfl⟩
abbrev main_call4_c_0 : Ref sig .tc := ⟨.hbm, 122, rfl⟩
abbrev main_call4_v2 : Ref sig .tc := ⟨.hbm, 123, rfl⟩
abbrev main_call4_v3 : Ref sig .tc := ⟨.hbm, 124, rfl⟩
abbrev main_call4_v4 : Ref sig .tc := ⟨.hbm, 125, rfl⟩
abbrev main_call4_v5 : Ref sig .tc := ⟨.hbm, 126, rfl⟩
abbrev main_call4_c_1 : Ref sig .tc := ⟨.hbm, 127, rfl⟩
abbrev main_call4_c_2 : Ref sig .tc := ⟨.hbm, 128, rfl⟩
abbrev main_call4_v6 : Ref sig .tc := ⟨.hbm, 129, rfl⟩
abbrev main_call4_v7 : Ref sig .tc := ⟨.hbm, 130, rfl⟩
abbrev main_call4_v8 : Ref sig .tc := ⟨.hbm, 131, rfl⟩
abbrev main_call4_v9 : Ref sig .tc := ⟨.hbm, 132, rfl⟩
abbrev main_call4_v10 : Ref sig .tc := ⟨.hbm, 133, rfl⟩
abbrev main_call4_v11 : Ref sig .tc := ⟨.hbm, 134, rfl⟩
abbrev main_call4_c_3 : Ref sig .tc := ⟨.hbm, 135, rfl⟩
abbrev main_call4_v12 : Ref sig .tc := ⟨.hbm, 136, rfl⟩
abbrev main_call4_v13 : Ref sig .tc := ⟨.hbm, 137, rfl⟩
abbrev main_call4_v14 : Ref sig .tc := ⟨.hbm, 138, rfl⟩
abbrev main_call4_cst : Ref sig .tc := ⟨.hbm, 139, rfl⟩
abbrev main_call4_v15 : Ref sig .tc := ⟨.hbm, 140, rfl⟩
abbrev main_v20 : Ref sig .tc := ⟨.hbm, 141, rfl⟩
abbrev main_cst_1 : Ref sig .tc := ⟨.hbm, 142, rfl⟩
abbrev main_v21 : Ref sig .tc := ⟨.hbm, 143, rfl⟩
abbrev main_v22 : Ref sig .tc := ⟨.hbm, 144, rfl⟩
abbrev main_v23 : Ref sig .tc := ⟨.hbm, 145, rfl⟩
abbrev main_cst_2 : Ref sig .tc := ⟨.hbm, 146, rfl⟩
abbrev main_v24 : Ref sig .tc := ⟨.hbm, 147, rfl⟩
abbrev main_v25 : Ref sig .tc := ⟨.hbm, 148, rfl⟩
abbrev main_v26 : Ref sig .tc := ⟨.hbm, 149, rfl⟩
abbrev main_v27 : Ref sig .tc := ⟨.hbm, 150, rfl⟩
abbrev main_v28 : Ref sig .tc := ⟨.hbm, 151, rfl⟩
abbrev main_v29 : Ref sig .tc := ⟨.hbm, 152, rfl⟩
abbrev main_v30 : Ref sig .tc := ⟨.hbm, 153, rfl⟩
abbrev main_v31 : Ref sig .tc := ⟨.hbm, 154, rfl⟩
abbrev main_v32 : Ref sig .tc := ⟨.hbm, 155, rfl⟩
abbrev main_v33 : Ref sig .tc := ⟨.hbm, 156, rfl⟩
abbrev main_v34 : Ref sig .tc := ⟨.hbm, 157, rfl⟩
abbrev main_v35 : Ref sig .tc := ⟨.hbm, 158, rfl⟩
abbrev main_v36 : Ref sig .tc := ⟨.hbm, 159, rfl⟩
abbrev main_v37 : Ref sig .tc := ⟨.hbm, 160, rfl⟩
abbrev main_v38 : Ref sig .tc := ⟨.hbm, 161, rfl⟩
abbrev main_v39 : Ref sig .tc := ⟨.hbm, 162, rfl⟩
abbrev main_v40 : Ref sig .tc := ⟨.hbm, 163, rfl⟩
abbrev main_v41 : Ref sig .tc := ⟨.hbm, 164, rfl⟩
abbrev main_v42 : Ref sig .tc := ⟨.hbm, 165, rfl⟩
abbrev main_v43 : Ref sig .tc := ⟨.hbm, 166, rfl⟩
abbrev main_cst_3 : Ref sig .tc := ⟨.hbm, 167, rfl⟩
abbrev main_v44 : Ref sig .tc := ⟨.hbm, 168, rfl⟩
abbrev main_cst_4 : Ref sig .tc := ⟨.hbm, 169, rfl⟩
abbrev main_v45 : Ref sig .tc := ⟨.hbm, 170, rfl⟩
abbrev main_v46 : Ref sig .tc := ⟨.hbm, 171, rfl⟩
abbrev main_v47 : Ref sig .tc := ⟨.hbm, 172, rfl⟩
abbrev main_cst_5 : Ref sig .tc := ⟨.hbm, 173, rfl⟩
abbrev main_v48 : Ref sig .tc := ⟨.hbm, 174, rfl⟩
abbrev main_v49 : Ref sig .tc := ⟨.hbm, 175, rfl⟩
abbrev main_v50 : Ref sig .tc := ⟨.hbm, 176, rfl⟩
abbrev main_v51 : Ref sig .tc := ⟨.hbm, 177, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg4_0 : Ref sig .tc := ⟨.vmem, 19, rfl⟩
abbrev cc1_stg5_0 : Ref sig .tc := ⟨.vmem, 20, rfl⟩
abbrev cc1_stg6_0 : Ref sig .tc := ⟨.vmem, 21, rfl⟩
abbrev cc1_stg7_0 : Ref sig .tc := ⟨.vmem, 22, rfl⟩
abbrev cc1_stg7_1 : Ref sig .tc := ⟨.vmem, 23, rfl⟩
abbrev cc2_stg0_0 : Ref sig .tc := ⟨.vmem, 24, rfl⟩
abbrev cc2_stg0_1 : Ref sig .tc := ⟨.vmem, 25, rfl⟩
abbrev cc2_stg1_0 : Ref sig .tc := ⟨.vmem, 26, rfl⟩
abbrev cc2_stg1_1 : Ref sig .tc := ⟨.vmem, 27, rfl⟩
abbrev cc2_stg2_0 : Ref sig .tc := ⟨.vmem, 28, rfl⟩
abbrev cc2_stg2_1 : Ref sig .tc := ⟨.vmem, 29, rfl⟩
abbrev cc2_scratch0 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem4_0 : DmaSem sig := 19
abbrev cc1_sem5_0 : DmaSem sig := 20
abbrev cc1_sem6_0 : DmaSem sig := 21
abbrev cc1_sem7_0 : DmaSem sig := 22
abbrev cc1_sem7_1 : DmaSem sig := 23
abbrev cc2_sem0_0 : DmaSem sig := 24
abbrev cc2_sem0_1 : DmaSem sig := 25
abbrev cc2_sem1_0 : DmaSem sig := 26
abbrev cc2_sem1_1 : DmaSem sig := 27
abbrev cc2_sem2_0 : DmaSem sig := 28
abbrev cc2_sem2_1 : DmaSem sig := 29

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S4096x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![64], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4096x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4096x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4096x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S256x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S256x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S256x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x256 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S4096x256 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨2, ![2, 32], ![false, false]⟩

def k2_cond2 (i : grid2.Coords) : BitVec 1 :=
  let arg1 : BitVec 32 := BitVec.ofNat 32 (i 1).val
  let c31_i32 : BitVec 32 := 31#32
  let v20 : BitVec 1 := Scalar.cmpi .eq arg1 c31_i32
  let v21 : BitVec 32 := Scalar.extui v20
  let c0_i32_8 : BitVec 32 := 0#32
  let v22 : BitVec 1 := Scalar.cmpi .ne v21 c0_i32_8
  v22

def cc2_transform_0 (i : grid2.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc2_transform_1 (i : grid2.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc2_transform_2 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S4096x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S4096x1 .i32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 2 → Memref sig .tc .vmem S1x512x256 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

class Facts₀ : Prop where
  bcast_S_S262144 : S_.BroadcastsInDim S262144 (![] : Fin 0 → Fin S262144.rank)
  bcast_S262144_S262144x1_0 : S262144.BroadcastsInDim S262144x1 (![0] : Fin 1 → Fin S262144x1.rank)
  bcast_S_S262144x1 : S_.BroadcastsInDim S262144x1 (![] : Fin 0 → Fin S262144x1.rank)
  bcast_S1_S1x1_1 : S1.BroadcastsInDim S1x1 (![1] : Fin 1 → Fin S1x1.rank)
  bcast_S1x1_S262144x1_0_1 : S1x1.BroadcastsInDim S262144x1 (![0, 1] : Fin 2 → Fin S262144x1.rank)
  reducesTo_S262144x1_S262144_d1 : S262144x1.ReducesTo [1] S262144
  h_S_ : 0 < S_.numel
  bcast_S262144_S262144x256_0 : S262144.BroadcastsInDim S262144x256 (![0] : Fin 1 → Fin S262144x256.rank)
  bcast_S_S262144x256 : S_.BroadcastsInDim S262144x256 (![] : Fin 0 → Fin S262144x256.rank)
  slices_S2x256_S1x256_0_0 : S2x256.Slices ![0, 0] S1x256
  shapeCasts_S1x256_S256 : S1x256.ShapeCasts S256
  shapeCasts_S256_S1x256 : S256.ShapeCasts S1x256
  slices_S2x256x256_S1x256x256_0_0_0 : S2x256x256.Slices ![0, 0, 0] S1x256x256
  shapeCasts_S1x256x256_S256x256 : S1x256x256.ShapeCasts S256x256
  inb_S4096x256_S4096x256_0_0 : ∀ a, (![0, 0] : Fin 2 → Nat) a + S4096x256.size a ≤ S4096x256.size a
  h_S4096x256 : 0 < S4096x256.numel
  shapeCasts_S4096x256_S4096x256 : S4096x256.ShapeCasts S4096x256
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S4096x256 : S1x256.Broadcasts S4096x256
  slices_S2x256_S1x256_1_0 : S2x256.Slices ![1, 0] S1x256
  slices_S2x256x256_S1x256x256_1_0_0 : S2x256x256.Slices ![1, 0, 0] S1x256x256
  shapeCasts_S262144_S262144x1 : S262144.ShapeCasts S262144x1
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S4096x1_S4096x1_0_0 : ∀ a, (![0, 0] : Fin 2 → Nat) a + S4096x1.size a ≤ S4096x1.size a
  h_S4096x1 : 0 < S4096x1.numel
  shapeCasts_S4096x1_S4096x1 : S4096x1.ShapeCasts S4096x1
  iota_S4096x512_d1_w32 : S4096x512.Iotas .tc 32 [1]
  broadcasts_S4096x1_S4096x512 : S4096x1.Broadcasts S4096x512
  natLt_1_32 : 1 < 32
  inb_S1x512x256_S1x512x256_0_0_0 : ∀ a, (![0, 0, 0] : Fin 3 → Nat) a + S1x512x256.size a ≤ S1x512x256.size a
  h_S1x512x256 : 0 < S1x512x256.numel
  shapeCasts_S1x512x256_S512x256 : S1x512x256.ShapeCasts S512x256
  shapeCasts_S512x256_S1x512x256 : S512x256.ShapeCasts S1x512x256
  slices_S2x512x256_S1x512x256_0_0_0 : S2x512x256.Slices ![0, 0, 0] S1x512x256
  slices_S2x512x256_S1x512x256_1_0_0 : S2x512x256.Slices ![1, 0, 0] S1x512x256
  bcast_S_S512x1 : S_.BroadcastsInDim S512x1 (![] : Fin 0 → Fin S512x1.rank)
  bcast_S512x1_S512x256_0_1 : S512x1.BroadcastsInDim S512x256 (![0, 1] : Fin 2 → Fin S512x256.rank)
  gather_S60x256_S262144x1_S262144x256_1_0_n_n_0_1_1256_wf : GatherDims.WF S60x256 S262144x1 S262144x256 [1] [0] [] [0] [] 1 ![1, 256]
  gather_S262144x256_S262144x1_S262144x256_1_0_n_n_0_1_1256_wf : GatherDims.WF S262144x256 S262144x1 S262144x256 [1] [0] [] [0] [] 1 ![1, 256]
  scatter_S262144x256_S262144x1_S262144x256_1_0_0_1_wf : ScatterDims.WF S262144x256 S262144x1 S262144x256 [1] [0] [0] 1
  dot_S4096x256_S256x256_S4096x256_1_0_0_1_n_n_wf : DotDims.WF S4096x256 S256x256 S4096x256 [1] [0] [0] [1] [] []
  dot_S4096x512_S4096x256_S512x256_0_0_1_1_n_n_wf : DotDims.WF S4096x512 S4096x256 S512x256 [0] [0] [1] [1] [] []
  scatter_S512x1_S262144x1_S262144x1_1_0_0_1_wf : ScatterDims.WF S512x1 S262144x1 S262144x1 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x256.size a ≤ S262144x256.size a
  hwx0_0 : ∀ i : grid0.Coords, EltTy.bits .f32 = 32 ∨ (Rect.block (s := S262144x256) S4096x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x256.size a ≤ S262144x256.size a
  hwx0_1 : ∀ i : grid0.Coords, EltTy.bits .f32 = 32 ∨ (Rect.block (s := S262144x256) S4096x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x256.size a ≤ S262144x256.size a
  hwx0_2 : ∀ i : grid0.Coords, EltTy.bits .f32 = 32 ∨ (Rect.block (s := S262144x256) S4096x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .f32 = 32 ∨ (Rect.block (s := S256x256) S256x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x256.size a ≤ S256x256.size a
  hwx0_4 : ∀ i : grid0.Coords, EltTy.bits .f32 = 32 ∨ (Rect.block (s := S256x256) S256x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x256.size a ≤ S256x256.size a
  hwx0_5 : ∀ i : grid0.Coords, EltTy.bits .f32 = 32 ∨ (Rect.block (s := S256x256) S256x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x256.size a
  hwx0_6 : ∀ i : grid0.Coords, EltTy.bits .f32 = 32 ∨ (Rect.block (s := S1x256) S1x256.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S4096x256.size a ≤ S262144x256.size a
  hwx0_7 : ∀ i : grid0.Coords, EltTy.bits .f32 = 32 ∨ (Rect.block (s := S262144x256) S4096x256.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4096x256.size a ≤ S262144x256.size a
  hwx1_0 : ∀ i : grid1.Coords, EltTy.bits .f32 = 32 ∨ (Rect.block (s := S262144x256) S4096x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4096x256.size a ≤ S262144x256.size a
  hwx1_1 : ∀ i : grid1.Coords, EltTy.bits .f32 = 32 ∨ (Rect.block (s := S262144x256) S4096x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4096x256.size a ≤ S262144x256.size a
  hwx1_2 : ∀ i : grid1.Coords, EltTy.bits .f32 = 32 ∨ (Rect.block (s := S262144x256) S4096x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x256.size a ≤ S256x256.size a
  hwx1_3 : ∀ i : grid1.Coords, EltTy.bits .f32 = 32 ∨ (Rect.block (s := S256x256) S256x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256x256.size a ≤ S256x256.size a
  hwx1_4 : ∀ i : grid1.Coords, EltTy.bits .f32 = 32 ∨ (Rect.block (s := S256x256) S256x256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S256x256.size a ≤ S256x256.size a
  hwx1_5 : ∀ i : grid1.Coords, EltTy.bits .f32 = 32 ∨ (Rect.block (s := S256x256) S256x256.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x256.size a ≤ S1x256.size a
  hwx1_6 : ∀ i : grid1.Coords, EltTy.bits .f32 = 32 ∨ (Rect.block (s := S1x256) S1x256.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S4096x256.size a ≤ S262144x256.size a
  hwx1_7 : ∀ i : grid1.Coords, EltTy.bits .f32 = 32 ∨ (Rect.block (s := S262144x256) S4096x256.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4096x256.size a ≤ S262144x256.size a
  hwx2_0 : ∀ i : grid2.Coords, EltTy.bits .f32 = 32 ∨ (Rect.block (s := S262144x256) S4096x256.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4096x1.size a ≤ S262144x1.size a
  hwx2_1 : ∀ i : grid2.Coords, EltTy.bits .i32 = 32 ∨ (Rect.block (s := S262144x1) S4096x1.size (cc2_transform_1 i) (hinb2_1 i)).WholeWords (EltTy.packing .i32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x512x256.size a ≤ S2x512x256.size a
  hwx2_2 : ∀ i : grid2.Coords, EltTy.bits .f32 = 32 ∨ (Rect.block (s := S2x512x256) S1x512x256.size (cc2_transform_2 i) (hinb2_2 i)).WholeWords (EltTy.packing .f32)

variable [Facts₀]

def gather_S60x256_S262144x1_S262144x256_1_0_n_n_0_1_1256 : GatherDims S60x256 S262144x1 S262144x256 where
  offsetDims := [1]
  collapsedSliceDims := [0]
  operandBatchingDims := []
  startIndicesBatchingDims := []
  startIndexMap := [0]
  indexVectorDim := 1
  sliceSizes := ![1, 256]
  wf := gather_S60x256_S262144x1_S262144x256_1_0_n_n_0_1_1256_wf
def gather_S262144x256_S262144x1_S262144x256_1_0_n_n_0_1_1256 : GatherDims S262144x256 S262144x1 S262144x256 where
  offsetDims := [1]
  collapsedSliceDims := [0]
  operandBatchingDims := []
  startIndicesBatchingDims := []
  startIndexMap := [0]
  indexVectorDim := 1
  sliceSizes := ![1, 256]
  wf := gather_S262144x256_S262144x1_S262144x256_1_0_n_n_0_1_1256_wf
def scatter_S262144x256_S262144x1_S262144x256_1_0_0_1 : ScatterDims S262144x256 S262144x1 S262144x256 where
  updateWindowDims := [1]
  insertedWindowDims := [0]
  scatterDimsToOperandDims := [0]
  indexVectorDim := 1
  wf := scatter_S262144x256_S262144x1_S262144x256_1_0_0_1_wf
def dot_S4096x256_S256x256_S4096x256_1_0_0_1_n_n : DotDims S4096x256 S256x256 S4096x256 where
  lhsContracting := [1]
  rhsContracting := [0]
  lhsNonContracting := [0]
  rhsNonContracting := [1]
  lhsBatch := []
  rhsBatch := []
  wf := dot_S4096x256_S256x256_S4096x256_1_0_0_1_n_n_wf
def dot_S4096x512_S4096x256_S512x256_0_0_1_1_n_n : DotDims S4096x512 S4096x256 S512x256 where
  lhsContracting := [0]
  rhsContracting := [0]
  lhsNonContracting := [1]
  rhsNonContracting := [1]
  lhsBatch := []
  rhsBatch := []
  wf := dot_S4096x512_S4096x256_S512x256_0_0_1_1_n_n_wf
def scatter_S512x1_S262144x1_S262144x1_1_0_0_1 : ScatterDims S512x1 S262144x1 S262144x1 where
  updateWindowDims := [1]
  insertedWindowDims := [0]
  scatterDimsToOperandDims := [0]
  indexVectorDim := 1
  wf := scatter_S512x1_S262144x1_S262144x1_1_0_0_1_wf

abbrev win0_0 : Pipeline.Window sig grid0 :=
  Pipeline.Window.ofSpec (Memref.whole main_v0) S4096x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S4096x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S4096x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v13) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v15) S256x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v17) S256x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v11) S1x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v18) S4096x256.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v18) S4096x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v23) S4096x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v26) S4096x256.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v31) S256x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v33) S256x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v35) S256x256.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v29) S1x256.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v36) S4096x256.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v36) S4096x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v37) S4096x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v38) S1x512x256.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev idle2 : Fin 3 → grid2.Coords → Bool := fun | 0 => fun _ => false | 1 => fun _ => false | 2 => fun i => !(k2_cond2 i == 1#1) | ⟨_ + 3, h⟩ => absurd h (Nat.not_lt.2 (Nat.le_add_left _ _))

class Facts : Prop extends Facts₀ where

variable [Facts]
-- ==== ReferenceIdeal.lean ====
abbrev S262144 : Shape := ⟨1, ![262144]⟩
abbrev S60x256 : Shape := ⟨2, ![60, 256]⟩
abbrev S2x256x256 : Shape := ⟨3, ![2, 256, 256]⟩
abbrev S2x256 : Shape := ⟨2, ![2, 256]⟩
abbrev S_ : Shape := ⟨0, ![]⟩
abbrev S262144x1 : Shape := ⟨2, ![262144, 1]⟩
abbrev S262144x256 : Shape := ⟨2, ![262144, 256]⟩
abbrev S1x256x256 : Shape := ⟨3, ![1, 256, 256]⟩
abbrev S256x256 : Shape := ⟨2, ![256, 256]⟩
abbrev S1x256 : Shape := ⟨2, ![1, 256]⟩
abbrev S256 : Shape := ⟨1, ![256]⟩
abbrev S512x256 : Shape := ⟨2, ![512, 256]⟩
abbrev S512x1 : Shape := ⟨2, ![512, 1]⟩

abbrev nBuf : Space → Nat
  | .hbm => 123
  | .vmem => 0
  | .smem => 0
  | _ => 0

abbrev bufTy : (tb : Table) → Fin (tcTables nBuf tb) → BufTy
  | .hbm, ⟨0, _⟩ => ⟨S262144, .i32⟩
  | .hbm, ⟨1, _⟩ => ⟨S262144, .i32⟩
  | .hbm, ⟨2, _⟩ => ⟨S262144, .i32⟩
  | .hbm, ⟨3, _⟩ => ⟨S262144, .i32⟩
  | .hbm, ⟨4, _⟩ => ⟨S60x256, .f32⟩
  | .hbm, ⟨5, _⟩ => ⟨S2x256x256, .f32⟩
  | .hbm, ⟨6, _⟩ => ⟨S2x256x256, .f32⟩
  | .hbm, ⟨7, _⟩ => ⟨S2x256x256, .f32⟩
  | .hbm, ⟨8, _⟩ => ⟨S2x256, .f32⟩
  | .hbm, ⟨9, _⟩ => ⟨S_, .i32⟩
  | .hbm, ⟨10, _⟩ => ⟨S262144, .i32⟩
  | .hbm, ⟨11, _⟩ => ⟨S262144, .i1⟩
  | .hbm, ⟨12, _⟩ => ⟨S_, .i32⟩
  | .hbm, ⟨13, _⟩ => ⟨S262144, .i32⟩
  | .hbm, ⟨14, _⟩ => ⟨S262144, .i32⟩
  | .hbm, ⟨15, _⟩ => ⟨S262144, .i32⟩
  | .hbm, ⟨16, _⟩ => ⟨S262144x1, .i32⟩
  | .hbm, ⟨17, _⟩ => ⟨S262144x256, .f32⟩
  | .hbm, ⟨18, _⟩ => ⟨S_, .i32⟩
  | .hbm, ⟨19, _⟩ => ⟨S262144, .i32⟩
  | .hbm, ⟨20, _⟩ => ⟨S262144, .i1⟩
  | .hbm, ⟨21, _⟩ => ⟨S_, .i32⟩
  | .hbm, ⟨22, _⟩ => ⟨S262144, .i32⟩
  | .hbm, ⟨23, _⟩ => ⟨S262144, .i32⟩
  | .hbm, ⟨24, _⟩ => ⟨S262144, .i32⟩
  | .hbm, ⟨25, _⟩ => ⟨S262144x1, .i32⟩
  | .hbm, ⟨26, _⟩ => ⟨S262144x256, .f32⟩
  | .hbm, ⟨27, _⟩ => ⟨S1x256x256, .f32⟩
  | .hbm, ⟨28, _⟩ => ⟨S256x256, .f32⟩
  | .hbm, ⟨29, _⟩ => ⟨S262144x256, .f32⟩
  | .hbm, ⟨30, _⟩ => ⟨S_, .f32⟩
  | .hbm, ⟨31, _⟩ => ⟨S262144x256, .f32⟩
  | .hbm, ⟨32, _⟩ => ⟨S262144x1, .i32⟩
  | .hbm, ⟨33, _⟩ => ⟨S262144x256, .f32⟩
  | .hbm, ⟨34, _⟩ => ⟨S_, .i32⟩
  | .hbm, ⟨35, _⟩ => ⟨S262144, .i32⟩
  | .hbm, ⟨36, _⟩ => ⟨S262144, .i1⟩
  | .hbm, ⟨37, _⟩ => ⟨S_, .i32⟩
  | .hbm, ⟨38, _⟩ => ⟨S262144, .i32⟩
  | .hbm, ⟨39, _⟩ => ⟨S262144, .i32⟩
  | .hbm, ⟨40, _⟩ => ⟨S262144, .i32⟩
  | .hbm, ⟨41, _⟩ => ⟨S262144x1, .i32⟩
  | .hbm, ⟨42, _⟩ => ⟨S262144x256, .f32⟩
  | .hbm, ⟨43, _⟩ => ⟨S1x256x256, .f32⟩
  | .hbm, ⟨44, _⟩ => ⟨S256x256, .f32⟩
  | .hbm, ⟨45, _⟩ => ⟨S262144x256, .f32⟩
  | .hbm, ⟨46, _⟩ => ⟨S_, .f32⟩
  | .hbm, ⟨47, _⟩ => ⟨S262144x256, .f32⟩
  | .hbm, ⟨48, _⟩ => ⟨S262144x1, .i32⟩
  | .hbm, ⟨49, _⟩ => ⟨S262144x256, .f32⟩
  | .hbm, ⟨50, _⟩ => ⟨S1x256x256, .f32⟩
  | .hbm, ⟨51, _⟩ => ⟨S256x256, .f32⟩
  | .hbm, ⟨52, _⟩ => ⟨S262144x256, .f32⟩
  | .hbm, ⟨53, _⟩ => ⟨S262144x256, .f32⟩
  | .hbm, ⟨54, _⟩ => ⟨S262144x256, .f32⟩
  | .hbm, ⟨55, _⟩ => ⟨S1x256, .f32⟩
  | .hbm, ⟨56, _⟩ => ⟨S256, .f32⟩
  | .hbm, ⟨57, _⟩ => ⟨S1x256, .f32⟩
  | .hbm, ⟨58, _⟩ => ⟨S262144x256, .f32⟩
  | .hbm, ⟨59, _⟩ => ⟨S262144x256, .f32⟩
  | .hbm, ⟨60, _⟩ => ⟨S_, .f32⟩
  | .hbm, ⟨61, _⟩ => ⟨S262144x256, .f32⟩
  | .hbm, ⟨62, _⟩ => ⟨S262144x256, .f32⟩
  | .hbm, ⟨63, _⟩ => ⟨S_, .i32⟩
  | .hbm, ⟨64, _⟩ => ⟨S262144, .i32⟩
  | .hbm, ⟨65, _⟩ => ⟨S262144, .i1⟩
  | .hbm, ⟨66, _⟩ => ⟨S_, .i32⟩
  | .hbm, ⟨67, _⟩ => ⟨S262144, .i32⟩
  | .hbm, ⟨68, _⟩ => ⟨S262144, .i32⟩
  | .hbm, ⟨69, _⟩ => ⟨S262144, .i32⟩
  | .hbm, ⟨70, _⟩ => ⟨S262144x1, .i32⟩
  | .hbm, ⟨71, _⟩ => ⟨S262144x256, .f32⟩
  | .hbm, ⟨72, _⟩ => ⟨S1x256x256, .f32⟩
  | .hbm, ⟨73, _⟩ => ⟨S256x256, .f32⟩
  | .hbm, ⟨74, _⟩ => ⟨S262144x256, .f32⟩
  | .hbm, ⟨75, _⟩ => ⟨S_, .f32⟩
  | .hbm, ⟨76, _⟩ => ⟨S262144x256, .f32⟩
  | .hbm, ⟨77, _⟩ => ⟨S262144x1, .i32⟩
  | .hbm, ⟨78, _⟩ => ⟨S262144x256, .f32⟩
  | .hbm, ⟨79, _⟩ => ⟨S_, .i32⟩
  | .hbm, ⟨80, _⟩ => ⟨S262144, .i32⟩
  | .hbm, ⟨81, _⟩ => ⟨S262144, .i1⟩
  | .hbm, ⟨82, _⟩ => ⟨S_, .i32⟩
  | .hbm, ⟨83, _⟩ => ⟨S262144, .i32⟩
  | .hbm, ⟨84, _⟩ => ⟨S262144, .i32⟩
  | .hbm, ⟨85, _⟩ => ⟨S262144, .i32⟩
  | .hbm, ⟨86, _⟩ => ⟨S262144x1, .i32⟩
  | .hbm, ⟨87, _⟩ => ⟨S262144x256, .f32⟩
  | .hbm, ⟨88, _⟩ => ⟨S1x256x256, .f32⟩
  | .hbm, ⟨89, _⟩ => ⟨S256x256, .f32⟩
  | .hbm, ⟨90, _⟩ => ⟨S262144x256, .f32⟩
  | .hbm, ⟨91, _⟩ => ⟨S_, .f32⟩
  | .hbm, ⟨92, _⟩ => ⟨S262144x256, .f32⟩
  | .hbm, ⟨93, _⟩ => ⟨S262144x1, .i32⟩
  | .hbm, ⟨94, _⟩ => ⟨S262144x256, .f32⟩
  | .hbm, ⟨95, _⟩ => ⟨S1x256x256, .f32⟩
  | .hbm, ⟨96, _⟩ => ⟨S256x256, .f32⟩
  | .hbm, ⟨97, _⟩ => ⟨S262144x256, .f32⟩
  | .hbm, ⟨98, _⟩ => ⟨S262144x256, .f32⟩
  | .hbm, ⟨99, _⟩ => ⟨S262144x256, .f32⟩
  | .hbm, ⟨100, _⟩ => ⟨S1x256, .f32⟩
  | .hbm, ⟨101, _⟩ => ⟨S256, .f32⟩
  | .hbm, ⟨102, _⟩ => ⟨S1x256, .f32⟩
  | .hbm, ⟨103, _⟩ => ⟨S262144x256, .f32⟩
  | .hbm, ⟨104, _⟩ => ⟨S262144x256, .f32⟩
  | .hbm, ⟨105, _⟩ => ⟨S_, .f32⟩
  | .hbm, ⟨106, _⟩ => ⟨S262144x256, .f32⟩
  | .hbm, ⟨107, _⟩ => ⟨S262144x256, .f32⟩
  | .hbm, ⟨108, _⟩ => ⟨S_, .f32⟩
  | .hbm, ⟨109, _⟩ => ⟨S512x256, .f32⟩
  | .hbm, ⟨110, _⟩ => ⟨S262144x1, .i32⟩
  | .hbm, ⟨111, _⟩ => ⟨S512x256, .f32⟩
  | .hbm, ⟨112, _⟩ => ⟨S_, .f32⟩
  | .hbm, ⟨113, _⟩ => ⟨S262144x1, .f32⟩
  | .hbm, ⟨114, _⟩ => ⟨S_, .f32⟩
  | .hbm, ⟨115, _⟩ => ⟨S512x1, .f32⟩
  | .hbm, ⟨116, _⟩ => ⟨S262144x1, .i32⟩
  | .hbm, ⟨117, _⟩ => ⟨S512x1, .f32⟩
  | .hbm, ⟨118, _⟩ => ⟨S_, .f32⟩
  | .hbm, ⟨119, _⟩ => ⟨S512x1, .f32⟩
  | .hbm, ⟨120, _⟩ => ⟨S512x1, .f32⟩
  | .hbm, ⟨121, _⟩ => ⟨S512x256, .f32⟩
  | .hbm, ⟨122, _⟩ => ⟨S512x256, .f32⟩
  | _, _ => ⟨S262144, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_c_1 : Ref sig .tc := ⟨.hbm, 18, rfl⟩
abbrev main_v7 : Ref sig .tc := ⟨.hbm, 19, rfl⟩
abbrev main_v8 : Ref sig .tc := ⟨.hbm, 20, rfl⟩
abbrev main_c_2 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_c_3 : Ref sig .tc := ⟨.hbm, 34, rfl⟩
abbrev main_v20 : Ref sig .tc := ⟨.hbm, 35, rfl⟩
abbrev main_v21 : Ref sig .tc := ⟨.hbm, 36, rfl⟩
abbrev main_c_4 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_5 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_call0_cst : Ref sig .tc := ⟨.hbm, 60, rfl⟩
abbrev main_call0_v0 : Ref sig .tc := ⟨.hbm, 61, rfl⟩
abbrev main_v43 : Ref sig .tc := ⟨.hbm, 62, rfl⟩
abbrev main_c_6 : Ref sig .tc := ⟨.hbm, 63, rfl⟩
abbrev main_v44 : Ref sig .tc := ⟨.hbm, 64, rfl⟩
abbrev main_v45 : Ref sig .tc := ⟨.hbm, 65, rfl⟩
abbrev main_c_7 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_cst_8 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_c_9 : Ref sig .tc := ⟨.hbm, 79, rfl⟩
abbrev main_v57 : Ref sig .tc := ⟨.hbm, 80, rfl⟩
abbrev main_v58 : Ref sig .tc := ⟨.hbm, 81, rfl⟩
abbrev main_c_10 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_cst_11 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_call1_cst : Ref sig .tc := ⟨.hbm, 105, rfl⟩
abbrev main_call1_v0 : Ref sig .tc := ⟨.hbm, 106, rfl⟩
abbrev main_v80 : Ref sig .tc := ⟨.hbm, 107, rfl⟩
abbrev main_cst_12 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_cst_13 : Ref sig .tc := ⟨.hbm, 112, rfl⟩
abbrev main_v84 : Ref sig .tc := ⟨.hbm, 113, rfl⟩
abbrev main_cst_14 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_cst_15 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩

abbrev nD : Nat := 1
abbrev τ : Topo := Topo.v7x

variable {F : FTy → Type} [FloatOps F]

class Facts₀ : Prop where
  bcast_S_S262144 : S_.BroadcastsInDim S262144 (![] : Fin 0 → Fin S262144.rank)
  bcast_S262144_S262144x1_0 : S262144.BroadcastsInDim S262144x1 (![0] : Fin 1 → Fin S262144x1.rank)
  slices_S2x256x256_S1x256x256_0_0_0 : S2x256x256.Slices ![0, 0, 0] S1x256x256
  shapeCasts_S1x256x256_S256x256 : S1x256x256.ShapeCasts S256x256
  bcast_S_S262144x256 : S_.BroadcastsInDim S262144x256 (![] : Fin 0 → Fin S262144x256.rank)
  slices_S2x256_S1x256_0_0 : S2x256.Slices ![0, 0] S1x256
  shapeCasts_S1x256_S256 : S1x256.ShapeCasts S256
  bcast_S256_S1x256_1 : S256.BroadcastsInDim S1x256 (![1] : Fin 1 → Fin S1x256.rank)
  bcast_S1x256_S262144x256_0_1 : S1x256.BroadcastsInDim S262144x256 (![0, 1] : Fin 2 → Fin S262144x256.rank)
  slices_S2x256x256_S1x256x256_1_0_0 : S2x256x256.Slices ![1, 0, 0] S1x256x256
  slices_S2x256_S1x256_1_0 : S2x256.Slices ![1, 0] S1x256
  bcast_S_S512x256 : S_.BroadcastsInDim S512x256 (![] : Fin 0 → Fin S512x256.rank)
  bcast_S_S262144x1 : S_.BroadcastsInDim S262144x1 (![] : Fin 0 → Fin S262144x1.rank)
  bcast_S_S512x1 : S_.BroadcastsInDim S512x1 (![] : Fin 0 → Fin S512x1.rank)
  bcast_S512x1_S512x256_0_1 : S512x1.BroadcastsInDim S512x256 (![0, 1] : Fin 2 → Fin S512x256.rank)
  gather_S60x256_S262144x1_S262144x256_1_0_n_n_0_1_1256_wf : GatherDims.WF S60x256 S262144x1 S262144x256 [1] [0] [] [0] [] 1 ![1, 256]
  gather_S262144x256_S262144x1_S262144x256_1_0_n_n_0_1_1256_wf : GatherDims.WF S262144x256 S262144x1 S262144x256 [1] [0] [] [0] [] 1 ![1, 256]
  dot_S262144x256_S256x256_S262144x256_1_0_0_1_n_n_wf : DotDims.WF S262144x256 S256x256 S262144x256 [1] [0] [0] [1] [] []
  scatter_S262144x256_S262144x1_S262144x256_1_0_0_1_wf : ScatterDims.WF S262144x256 S262144x1 S262144x256 [1] [0] [0] 1
  scatter_S512x256_S262144x1_S262144x256_1_0_0_1_wf : ScatterDims.WF S512x256 S262144x1 S262144x256 [1] [0] [0] 1
  scatter_S512x1_S262144x1_S262144x1_1_0_0_1_wf : ScatterDims.WF S512x1 S262144x1 S262144x1 [1] [0] [0] 1

variable [Facts₀]

def gather_S60x256_S262144x1_S262144x256_1_0_n_n_0_1_1256 : GatherDims S60x256 S262144x1 S262144x256 where
  offsetDims := [1]
  collapsedSliceDims := [0]
  operandBatchingDims := []
  startIndicesBatchingDims := []
  startIndexMap := [0]
  indexVectorDim := 1
  sliceSizes := ![1, 256]
  wf := gather_S60x256_S262144x1_S262144x256_1_0_n_n_0_1_1256_wf
def gather_S262144x256_S262144x1_S262144x256_1_0_n_n_0_1_1256 : GatherDims S262144x256 S262144x1 S262144x256 where
  offsetDims := [1]
  collapsedSliceDims := [0]
  operandBatchingDims := []
  startIndicesBatchingDims := []
  startIndexMap := [0]
  indexVectorDim := 1
  sliceSizes := ![1, 256]
  wf := gather_S262144x256_S262144x1_S262144x256_1_0_n_n_0_1_1256_wf
def dot_S262144x256_S256x256_S262144x256_1_0_0_1_n_n : DotDims S262144x256 S256x256 S262144x256 where
  lhsContracting := [1]
  rhsContracting := [0]
  lhsNonContracting := [0]
  rhsNonContracting := [1]
  lhsBatch := []
  rhsBatch := []
  wf := dot_S262144x256_S256x256_S262144x256_1_0_0_1_n_n_wf
def scatter_S262144x256_S262144x1_S262144x256_1_0_0_1 : ScatterDims S262144x256 S262144x1 S262144x256 where
  updateWindowDims := [1]
  insertedWindowDims := [0]
  scatterDimsToOperandDims := [0]
  indexVectorDim := 1
  wf := scatter_S262144x256_S262144x1_S262144x256_1_0_0_1_wf
def scatter_S512x256_S262144x1_S262144x256_1_0_0_1 : ScatterDims S512x256 S262144x1 S262144x256 where
  updateWindowDims := [1]
  insertedWindowDims := [0]
  scatterDimsToOperandDims := [0]
  indexVectorDim := 1
  wf := scatter_S512x256_S262144x1_S262144x256_1_0_0_1_wf
def scatter_S512x1_S262144x1_S262144x1_1_0_0_1 : ScatterDims S512x1 S262144x1 S262144x1 where
  updateWindowDims := [1]
  insertedWindowDims := [0]
  scatterDimsToOperandDims := [0]
  indexVectorDim := 1
  wf := scatter_S512x1_S262144x1_S262144x1_1_0_0_1_wf

class Facts : Prop extends Facts₀ where

variable [Facts]
-- ==== Proof.Kernel.Hop0.lean ====
import proofs.«401558_j47940424958092_2_alg».proof.Proof.Gen.Kernel.Launch
import proofs.«401558_j47940424958092_2_alg».proof.Proof.Gen.Kernel.Skeleton
import proofs.«401558_j47940424958092_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

/-! The first hop's kernel region, at any float instance: a grid of 64 points, point `t` taking rows
    `4096 t … 4096 t + 4095` of the node features and of the two aggregated neighbour arrays, the three weight
    matrices and the bias row whole, and writing the same rows of the new features. The body loads its seven input
    blocks whole, computes one value from them and stores it over the whole output block; so the output block after
    the body is that value of the seven input blocks, whatever the block held before. -/
namespace Cert.Kernel.Hop0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the region is entered, per core
variable (V : (c : Dev nD) → (b : Ref sig .tc) → Buf (Elt F) ((c : Thread nD τ).loc b))

/-- Window `w`'s block at point `t`, read off its array as the region finds it. -/
def blk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The whole-block rectangles of the three block shapes. -/
abbrev rRows : Rect S4096x256 := Rect.unit (s := S4096x256) ![0, 0] S4096x256.size inb_S4096x256_S4096x256_0_0
abbrev rMat : Rect S256x256 := Rect.unit (s := S256x256) ![0, 0] S256x256.size inb_S256x256_S256x256_0_0
abbrev rRow : Rect S1x256 := Rect.unit (s := S1x256) ![0, 0] S1x256.size inb_S1x256_S1x256_0_0

/-- The output block after the body, from the seven input blocks: its one store, over the whole block. -/
def outBlk (x0 x1 x2 : Vec F S4096x256 .f32) (x3 x4 x5 : Vec F S256x256 .f32) (x6 : Vec F S1x256 .f32) : Vec F S4096x256 .f32 :=
  View.canon [⟨rRows, k0_pay1 (View.ld x0 rRows) (View.ld x1 rRows) (View.ld x2 rRows) (View.ld x3 rMat) (View.ld x4 rMat) (View.ld x5 rMat) (View.ld x6 rRow)⟩]

/-- The one store covers the block. -/
theorem outBlk_cover (p0 : Vec F S4096x256 .f32) (y : S4096x256.Idx) :
    ∃ pc ∈ ([⟨rRows, p0⟩] : List (View.Piece (Elt F) S4096x256 .f32)), y ∈ pc.1.set :=
  View.cover_of_tiled [⟨rRows, p0⟩] S4096x256.size (by rfl) y

set_option maxHeartbeats 4000000 in
/-- The body on whole staging memrefs — the inputs' at contents `x0 … x6`, the output's at anything — runs to the
    continuation with the inputs' as they were and the output's at `outBlk` of the inputs'. -/
theorem body_triple (c : Dev nD) (E : Set ℕ) (i : grid0.Coords)
    (a1 : Memref sig .tc .vmem S4096x256 .f32) (h1 : a1.IsWhole) (a2 : Memref sig .tc .vmem S4096x256 .f32) (h2 : a2.IsWhole)
    (a3 : Memref sig .tc .vmem S4096x256 .f32) (h3 : a3.IsWhole) (a4 : Memref sig .tc .vmem S256x256 .f32) (h4 : a4.IsWhole)
    (a5 : Memref sig .tc .vmem S256x256 .f32) (h5 : a5.IsWhole) (a6 : Memref sig .tc .vmem S256x256 .f32) (h6 : a6.IsWhole)
    (a7 : Memref sig .tc .vmem S1x256 .f32) (h7 : a7.IsWhole) (a8 : Memref sig .tc .vmem S4096x256 .f32) (h8 : a8.IsWhole)
    (x0 x1 x2 : Vec F S4096x256 .f32) (x3 x4 x5 : Vec F S256x256 .f32) (x6 : Vec F S1x256 .f32) (K : PUnit → sProp 𝕄) :
    iprop(owns (c : Thread nD τ) a1 fullShare x0 ∗ owns (c : Thread nD τ) a2 fullShare x1 ∗ owns (c : Thread nD τ) a3 fullShare x2
        ∗ owns (c : Thread nD τ) a4 fullShare x3 ∗ owns (c : Thread nD τ) a5 fullShare x4 ∗ owns (c : Thread nD τ) a6 fullShare x5
        ∗ owns (c : Thread nD τ) a7 fullShare x6 ∗ (∃ d, owns (c : Thread nD τ) a8 fullShare d)
        ∗ (iprop(owns (c : Thread nD τ) a1 fullShare x0 ∗ owns (c : Thread nD τ) a2 fullShare x1 ∗ owns (c : Thread nD τ) a3 fullShare x2
            ∗ owns (c : Thread nD τ) a4 fullShare x3 ∗ owns (c : Thread nD τ) a5 fullShare x4 ∗ owns (c : Thread nD τ) a6 fullShare x5
            ∗ owns (c : Thread nD τ) a7 fullShare x6 ∗ owns (c : Thread nD τ) a8 fullShare (outBlk x0 x1 x2 x3 x4 x5 x6)) -∗ K ⟨⟩))
      ⊢ wp frame (wpE (defs₀ (F := F)) Variants.none c none) E (cc0__fused_hop_kernel i a1 h1 a2 h2 a3 h3 a4 h4 a5 h5 a6 h6 a7 h7 a8 h8) K := by
  simp only [cc0__fused_hop_kernel_eq_skeleton]; unfold cc0__fused_hop_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (outBlk_cover _)

/-! ## The staging buffers at a point

An input window's current staging buffer holds its block at every point, whether the point fetched it or not: the
three row windows are fetched at every point, the weights and the bias once, and their block index never moves. -/

theorem found0 {c : Dev nD} (dat : Dat τ (Elt F) Unit ℕ (UR sig nD τ) ℕ cfg0 c) (hA : dat.A 0 = V c (Pipeline.arrRef spec0 0))
    (hafter : ∀ t, dat.after 0 t = blk V c 0 t) (t : Fin cfg0.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)

theorem found1 {c : Dev nD} (dat : Dat τ (Elt F) Unit ℕ (UR sig nD τ) ℕ cfg0 c) (hA : dat.A 1 = V c (Pipeline.arrRef spec0 1))
    (hafter : ∀ t, dat.after 1 t = blk V c 1 t) (t : Fin cfg0.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)

theorem found2 {c : Dev nD} (dat : Dat τ (Elt F) Unit ℕ (UR sig nD τ) ℕ cfg0 c) (hA : dat.A 2 = V c (Pipeline.arrRef spec0 2))
    (hafter : ∀ t, dat.after 2 t = blk V c 2 t) (t : Fin cfg0.N) (d) : dat.before 2 t d = blk V c 2 t :=
  (dat.before_in_eq_fetched 2 rfl (fun _ => rfl) (fun _ _ _ => rfl) (fun t => by rw [hafter]; unfold Dat.blockOf blk; rw [hA]; try rfl) t d).trans
    (by unfold Dat.fetched Dat.blockOf blk; rw [hA]; try rfl)

theorem found3 {c : Dev nD} (dat : Dat τ (Elt F) Unit ℕ (UR sig nD τ) ℕ cfg0 c) (hA : dat.A 3 = V c (Pipeline.arrRef spec0 3))
    (hafter : ∀ t, dat.after 3 t = blk V c 3 t) (t : Fin cfg0.N) (d) : dat.before 3 t d = blk V c 3 t :=
  (dat.before_in_eq_fetched 3 rfl (fun _ => rfl) (fun _ _ _ => rfl) (fun t => by rw [hafter]; unfold Dat.blockOf blk; rw [hA]; try rfl) t d).trans
    (by unfold Dat.fetched Dat.blockOf blk; rw [hA]; try rfl)

theorem found4 {c : Dev nD} (dat : Dat τ (Elt F) Unit ℕ (UR sig nD τ) ℕ cfg0 c) (hA : dat.A 4 = V c (Pipeline.arrRef spec0 4))
    (hafter : ∀ t, dat.after 4 t = blk V c 4 t) (t : Fin cfg0.N) (d) : dat.before 4 t d = blk V c 4 t :=
  (dat.before_in_eq_fetched 4 rfl (fun _ => rfl) (fun _ _ _ => rfl) (fun t => by rw [hafter]; unfold Dat.blockOf blk; rw [hA]; try rfl) t d).trans
    (by unfold Dat.fetched Dat.blockOf blk; rw [hA]; try rfl)

theorem found5 {c : Dev nD} (dat : Dat τ (Elt F) Unit ℕ (UR sig nD τ) ℕ cfg0 c) (hA : dat.A 5 = V c (Pipeline.arrRef spec0 5))
    (hafter : ∀ t, dat.after 5 t = blk V c 5 t) (t : Fin cfg0.N) (d) : dat.before 5 t d = blk V c 5 t :=
  (dat.before_in_eq_fetched 5 rfl (fun _ => rfl) (fun _ _ _ => rfl) (fun t => by rw [hafter]; unfold Dat.blockOf blk; rw [hA]; try rfl) t d).trans
    (by unfold Dat.fetched Dat.blockOf blk; rw [hA]; try rfl)

theorem found6 {c : Dev nD} (dat : Dat τ (Elt F) Unit ℕ (UR sig nD τ) ℕ cfg0 c) (hA : dat.A 6 = V c (Pipeline.arrRef spec0 6))
    (hafter : ∀ t, dat.after 6 t = blk V c 6 t) (t : Fin cfg0.N) (d) : dat.before 6 t d = blk V c 6 t :=
  (dat.before_in_eq_fetched 6 rfl (fun _ => rfl) (fun _ _ _ => rfl) (fun t => by rw [hafter]; unfold Dat.blockOf blk; rw [hA]; try rfl) t d).trans
    (by unfold Dat.fetched Dat.blockOf blk; rw [hA]; try rfl)

/-! ## The proof data -/

/-- The pipeline's proof data on core `c`: the arrays as the region finds them; after the body at point `t` each
    input's buffer at its block and the output's at `outBlk` of the input blocks; the kernel keeps nothing between
    points, signals no one and owes nothing. -/
def dat (c : Dev nD) : Dat τ (Elt F) Unit ℕ (UR sig nD τ) ℕ cfg0 c where
  A w := V c (Pipeline.arrRef spec0 w)
  after w t := match w with
    | ⟨0, _⟩ => blk V c 0 t
    | ⟨1, _⟩ => blk V c 1 t
    | ⟨2, _⟩ => blk V c 2 t
    | ⟨3, _⟩ => blk V c 3 t
    | ⟨4, _⟩ => blk V c 4 t
    | ⟨5, _⟩ => blk V c 5 t
    | ⟨6, _⟩ => blk V c 6 t
    | ⟨7, _⟩ => outBlk (blk V c 0 t) (blk V c 1 t) (blk V c 2 t) (blk V c 3 t) (blk V c 4 t) (blk V c 5 t) (blk V c 6 t)
  Φ _ := Pipeline.ΦA spec0 c
  q _ := fullShare
  owed _ := 0

theorem dat_A (c : Dev nD) (w : Fin cfg0.W) : (dat V c).A w = V c (Pipeline.arrRef spec0 w) := by
  dsimp only [dat]

theorem after0 (c : Dev nD) (t : Fin cfg0.N) : (dat V c).after 0 t = blk V c 0 t := by dsimp only [dat]
theorem after1 (c : Dev nD) (t : Fin cfg0.N) : (dat V c).after 1 t = blk V c 1 t := by dsimp only [dat]
theorem after2 (c : Dev nD) (t : Fin cfg0.N) : (dat V c).after 2 t = blk V c 2 t := by dsimp only [dat]
theorem after3 (c : Dev nD) (t : Fin cfg0.N) : (dat V c).after 3 t = blk V c 3 t := by dsimp only [dat]
theorem after4 (c : Dev nD) (t : Fin cfg0.N) : (dat V c).after 4 t = blk V c 4 t := by dsimp only [dat]
theorem after5 (c : Dev nD) (t : Fin cfg0.N) : (dat V c).after 5 t = blk V c 5 t := by dsimp only [dat]
theorem after6 (c : Dev nD) (t : Fin cfg0.N) : (dat V c).after 6 t = blk V c 6 t := by dsimp only [dat]
theorem after7 (c : Dev nD) (t : Fin cfg0.N) :
    (dat V c).after 7 t = outBlk (blk V c 0 t) (blk V c 1 t) (blk V c 2 t) (blk V c 3 t) (blk V c 4 t) (blk V c 5 t) (blk V c 6 t) := by
  dsimp only [dat]

theorem before0 (c : Dev nD) (t : Fin cfg0.N) (d) : (dat V c).before 0 t d = blk V c 0 t :=
  found0 V (dat V c) (dat_A V c 0) (after0 V c) t d
theorem before1 (c : Dev nD) (t : Fin cfg0.N) (d) : (dat V c).before 1 t d = blk V c 1 t :=
  found1 V (dat V c) (dat_A V c 1) (after1 V c) t d
theorem before2 (c : Dev nD) (t : Fin cfg0.N) (d) : (dat V c).before 2 t d = blk V c 2 t :=
  found2 V (dat V c) (dat_A V c 2) (after2 V c) t d
theorem before3 (c : Dev nD) (t : Fin cfg0.N) (d) : (dat V c).before 3 t d = blk V c 3 t :=
  found3 V (dat V c) (dat_A V c 3) (after3 V c) t d
theorem before4 (c : Dev nD) (t : Fin cfg0.N) (d) : (dat V c).before 4 t d = blk V c 4 t :=
  found4 V (dat V c) (dat_A V c 4) (after4 V c) t d
theorem before5 (c : Dev nD) (t : Fin cfg0.N) (d) : (dat V c).before 5 t d = blk V c 5 t :=
  found5 V (dat V c) (dat_A V c 5) (after5 V c) t d
theorem before6 (c : Dev nD) (t : Fin cfg0.N) (d) : (dat V c).before 6 t d = blk V c 6 t :=
  found6 V (dat V c) (dat_A V c 6) (after6 V c) t d

/-! ## The body obligation -/

/-- What the body is called with at point `t`, the windows one by one, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d))
    ∗ (∃ d, owns (c : Thread nD τ) (st0_4 t) fullShare ((dat V c).before 4 t d))
    ∗ (∃ d, owns (c : Thread nD τ) (st0_5 t) fullShare ((dat V c).before 5 t d))
    ∗ (∃ d, owns (c : Thread nD τ) (st0_6 t) fullShare ((dat V c).before 6 t d))
    ∗ (∃ d, owns (c : Thread nD τ) (st0_7 t) fullShare ((dat V c).before 7 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t)
    ∗ owns (c : Thread nD τ) (st0_4 t) fullShare ((dat V c).after 4 t)
    ∗ owns (c : Thread nD τ) (st0_5 t) fullShare ((dat V c).after 5 t)
    ∗ owns (c : Thread nD τ) (st0_6 t) fullShare ((dat V c).after 6 t)
    ∗ owns (c : Thread nD τ) (st0_7 t) fullShare ((dat V c).after 7 t))

/-- The body at any point: the inputs' memrefs hold their blocks, so the body's triple applies; the invariant and the
    core's dues pass through unread. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0, before1, before2, before3, before4, before5, before6]
  rw [show (dat V c).Φ t.succ = (dat V c).Φ t.castSucc from rfl,
    show (dat V c).owesAt () t.succ = (dat V c).owesAt () t.castSucc from rfl,
    after0, after1, after2, after3, after4, after5, after6, after7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (body_triple c Set.univ _ _ _ _ _ _ _ _ _ _ _ _ _ _ _ _ _ (blk V c 0 t) (blk V c 1 t) (blk V c 2 t) (blk V c 3 t) (blk V c 4 t) (blk V c 5 t) (blk V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation (c : Dev nD) : BodyObligation (dat (F := F) V c) (defs₀ (F := F)) Variants.none () Set.univ := fun t => by
  rw [bigSep_W0, bigSep_W0]
  exact sound_body V c t

end Cert.Kernel.Hop0

end
-- ==== Proof.Kernel.Hop1.lean ====
import proofs.«401558_j47940424958092_2_alg».proof.Proof.Gen.Kernel.Launch
import proofs.«401558_j47940424958092_2_alg».proof.Proof.Gen.Kernel.Skeleton
import proofs.«401558_j47940424958092_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

/-! The second hop's kernel region, at any float instance: a grid of 64 points, point `t` taking rows
    `4096 t … 4096 t + 4095` of the node features and of the two aggregated neighbour arrays, the three weight
    matrices and the bias row whole, and writing the same rows of the new features. The body loads its seven input
    blocks whole, computes one value from them and stores it over the whole output block; so the output block after
    the body is that value of the seven input blocks, whatever the block held before. -/
namespace Cert.Kernel.Hop1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the region is entered, per core
variable (V : (c : Dev nD) → (b : Ref sig .tc) → Buf (Elt F) ((c : Thread nD τ).loc b))

/-- Window `w`'s block at point `t`, read off its array as the region finds it. -/
def blk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The whole-block rectangles of the three block shapes. -/
abbrev rRows : Rect S4096x256 := Rect.unit (s := S4096x256) ![0, 0] S4096x256.size inb_S4096x256_S4096x256_0_0
abbrev rMat : Rect S256x256 := Rect.unit (s := S256x256) ![0, 0] S256x256.size inb_S256x256_S256x256_0_0
abbrev rRow : Rect S1x256 := Rect.unit (s := S1x256) ![0, 0] S1x256.size inb_S1x256_S1x256_0_0

/-- The output block after the body, from the seven input blocks: its one store, over the whole block. -/
def outBlk (x0 x1 x2 : Vec F S4096x256 .f32) (x3 x4 x5 : Vec F S256x256 .f32) (x6 : Vec F S1x256 .f32) : Vec F S4096x256 .f32 :=
  View.canon [⟨rRows, k1_pay1 (View.ld x0 rRows) (View.ld x1 rRows) (View.ld x2 rRows) (View.ld x3 rMat) (View.ld x4 rMat) (View.ld x5 rMat) (View.ld x6 rRow)⟩]

/-- The one store covers the block. -/
theorem outBlk_cover (p0 : Vec F S4096x256 .f32) (y : S4096x256.Idx) :
    ∃ pc ∈ ([⟨rRows, p0⟩] : List (View.Piece (Elt F) S4096x256 .f32)), y ∈ pc.1.set :=
  View.cover_of_tiled [⟨rRows, p0⟩] S4096x256.size (by rfl) y

set_option maxHeartbeats 4000000 in
/-- The body on whole staging memrefs — the inputs' at contents `x0 … x6`, the output's at anything — runs to the
    continuation with the inputs' as they were and the output's at `outBlk` of the inputs'. -/
theorem body_triple (c : Dev nD) (E : Set ℕ) (i : grid1.Coords)
    (a1 : Memref sig .tc .vmem S4096x256 .f32) (h1 : a1.IsWhole) (a2 : Memref sig .tc .vmem S4096x256 .f32) (h2 : a2.IsWhole)
    (a3 : Memref sig .tc .vmem S4096x256 .f32) (h3 : a3.IsWhole) (a4 : Memref sig .tc .vmem S256x256 .f32) (h4 : a4.IsWhole)
    (a5 : Memref sig .tc .vmem S256x256 .f32) (h5 : a5.IsWhole) (a6 : Memref sig .tc .vmem S256x256 .f32) (h6 : a6.IsWhole)
    (a7 : Memref sig .tc .vmem S1x256 .f32) (h7 : a7.IsWhole) (a8 : Memref sig .tc .vmem S4096x256 .f32) (h8 : a8.IsWhole)
    (x0 x1 x2 : Vec F S4096x256 .f32) (x3 x4 x5 : Vec F S256x256 .f32) (x6 : Vec F S1x256 .f32) (K : PUnit → sProp 𝕄) :
    iprop(owns (c : Thread nD τ) a1 fullShare x0 ∗ owns (c : Thread nD τ) a2 fullShare x1 ∗ owns (c : Thread nD τ) a3 fullShare x2
        ∗ owns (c : Thread nD τ) a4 fullShare x3 ∗ owns (c : Thread nD τ) a5 fullShare x4 ∗ owns (c : Thread nD τ) a6 fullShare x5
        ∗ owns (c : Thread nD τ) a7 fullShare x6 ∗ (∃ d, owns (c : Thread nD τ) a8 fullShare d)
        ∗ (iprop(owns (c : Thread nD τ) a1 fullShare x0 ∗ owns (c : Thread nD τ) a2 fullShare x1 ∗ owns (c : Thread nD τ) a3 fullShare x2
            ∗ owns (c : Thread nD τ) a4 fullShare x3 ∗ owns (c : Thread nD τ) a5 fullShare x4 ∗ owns (c : Thread nD τ) a6 fullShare x5
            ∗ owns (c : Thread nD τ) a7 fullShare x6 ∗ owns (c : Thread nD τ) a8 fullShare (outBlk x0 x1 x2 x3 x4 x5 x6)) -∗ K ⟨⟩))
      ⊢ wp frame (wpE (defs₀ (F := F)) Variants.none c none) E (cc1__fused_hop_kernel i a1 h1 a2 h2 a3 h3 a4 h4 a5 h5 a6 h6 a7 h7 a8 h8) K := by
  simp only [cc1__fused_hop_kernel_eq_skeleton]; unfold cc1__fused_hop_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (outBlk_cover _)

/-! ## The staging buffers at a point

An input window's current staging buffer holds its block at every point, whether the point fetched it or not: the
three row windows are fetched at every point, the weights and the bias once, and their block index never moves. -/

theorem found0 {c : Dev nD} (dat : Dat τ (Elt F) Unit ℕ (UR sig nD τ) ℕ cfg1 c) (hA : dat.A 0 = V c (Pipeline.arrRef spec1 0))
    (hafter : ∀ t, dat.after 0 t = blk V c 0 t) (t : Fin cfg1.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)

theorem found1 {c : Dev nD} (dat : Dat τ (Elt F) Unit ℕ (UR sig nD τ) ℕ cfg1 c) (hA : dat.A 1 = V c (Pipeline.arrRef spec1 1))
    (hafter : ∀ t, dat.after 1 t = blk V c 1 t) (t : Fin cfg1.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)

theorem found2 {c : Dev nD} (dat : Dat τ (Elt F) Unit ℕ (UR sig nD τ) ℕ cfg1 c) (hA : dat.A 2 = V c (Pipeline.arrRef spec1 2))
    (hafter : ∀ t, dat.after 2 t = blk V c 2 t) (t : Fin cfg1.N) (d) : dat.before 2 t d = blk V c 2 t :=
  (dat.before_in_eq_fetched 2 rfl (fun _ => rfl) (fun _ _ _ => rfl) (fun t => by rw [hafter]; unfold Dat.blockOf blk; rw [hA]; try rfl) t d).trans
    (by unfold Dat.fetched Dat.blockOf blk; rw [hA]; try rfl)

theorem found3 {c : Dev nD} (dat : Dat τ (Elt F) Unit ℕ (UR sig nD τ) ℕ cfg1 c) (hA : dat.A 3 = V c (Pipeline.arrRef spec1 3))
    (hafter : ∀ t, dat.after 3 t = blk V c 3 t) (t : Fin cfg1.N) (d) : dat.before 3 t d = blk V c 3 t :=
  (dat.before_in_eq_fetched 3 rfl (fun _ => rfl) (fun _ _ _ => rfl) (fun t => by rw [hafter]; unfold Dat.blockOf blk; rw [hA]; try rfl) t d).trans
    (by unfold Dat.fetched Dat.blockOf blk; rw [hA]; try rfl)

theorem found4 {c : Dev nD} (dat : Dat τ (Elt F) Unit ℕ (UR sig nD τ) ℕ cfg1 c) (hA : dat.A 4 = V c (Pipeline.arrRef spec1 4))
    (hafter : ∀ t, dat.after 4 t = blk V c 4 t) (t : Fin cfg1.N) (d) : dat.before 4 t d = blk V c 4 t :=
  (dat.before_in_eq_fetched 4 rfl (fun _ => rfl) (fun _ _ _ => rfl) (fun t => by rw [hafter]; unfold Dat.blockOf blk; rw [hA]; try rfl) t d).trans
    (by unfold Dat.fetched Dat.blockOf blk; rw [hA]; try rfl)

theorem found5 {c : Dev nD} (dat : Dat τ (Elt F) Unit ℕ (UR sig nD τ) ℕ cfg1 c) (hA : dat.A 5 = V c (Pipeline.arrRef spec1 5))
    (hafter : ∀ t, dat.after 5 t = blk V c 5 t) (t : Fin cfg1.N) (d) : dat.before 5 t d = blk V c 5 t :=
  (dat.before_in_eq_fetched 5 rfl (fun _ => rfl) (fun _ _ _ => rfl) (fun t => by rw [hafter]; unfold Dat.blockOf blk; rw [hA]; try rfl) t d).trans
    (by unfold Dat.fetched Dat.blockOf blk; rw [hA]; try rfl)

theorem found6 {c : Dev nD} (dat : Dat τ (Elt F) Unit ℕ (UR sig nD τ) ℕ cfg1 c) (hA : dat.A 6 = V c (Pipeline.arrRef spec1 6))
    (hafter : ∀ t, dat.after 6 t = blk V c 6 t) (t : Fin cfg1.N) (d) : dat.before 6 t d = blk V c 6 t :=
  (dat.before_in_eq_fetched 6 rfl (fun _ => rfl) (fun _ _ _ => rfl) (fun t => by rw [hafter]; unfold Dat.blockOf blk; rw [hA]; try rfl) t d).trans
    (by unfold Dat.fetched Dat.blockOf blk; rw [hA]; try rfl)

/-! ## The proof data -/

/-- The pipeline's proof data on core `c`: the arrays as the region finds them; after the body at point `t` each
    input's buffer at its block and the output's at `outBlk` of the input blocks; the kernel keeps nothing between
    points, signals no one and owes nothing. -/
def dat (c : Dev nD) : Dat τ (Elt F) Unit ℕ (UR sig nD τ) ℕ cfg1 c where
  A w := V c (Pipeline.arrRef spec1 w)
  after w t := match w with
    | ⟨0, _⟩ => blk V c 0 t
    | ⟨1, _⟩ => blk V c 1 t
    | ⟨2, _⟩ => blk V c 2 t
    | ⟨3, _⟩ => blk V c 3 t
    | ⟨4, _⟩ => blk V c 4 t
    | ⟨5, _⟩ => blk V c 5 t
    | ⟨6, _⟩ => blk V c 6 t
    | ⟨7, _⟩ => outBlk (blk V c 0 t) (blk V c 1 t) (blk V c 2 t) (blk V c 3 t) (blk V c 4 t) (blk V c 5 t) (blk V c 6 t)
  Φ _ := Pipeline.ΦA spec1 c
  q _ := fullShare
  owed _ := 0

theorem dat_A (c : Dev nD) (w : Fin cfg1.W) : (dat V c).A w = V c (Pipeline.arrRef spec1 w) := by
  dsimp only [dat]

theorem after0 (c : Dev nD) (t : Fin cfg1.N) : (dat V c).after 0 t = blk V c 0 t := by dsimp only [dat]
theorem after1 (c : Dev nD) (t : Fin cfg1.N) : (dat V c).after 1 t = blk V c 1 t := by dsimp only [dat]
theorem after2 (c : Dev nD) (t : Fin cfg1.N) : (dat V c).after 2 t = blk V c 2 t := by dsimp only [dat]
theorem after3 (c : Dev nD) (t : Fin cfg1.N) : (dat V c).after 3 t = blk V c 3 t := by dsimp only [dat]
theorem after4 (c : Dev nD) (t : Fin cfg1.N) : (dat V c).after 4 t = blk V c 4 t := by dsimp only [dat]
theorem after5 (c : Dev nD) (t : Fin cfg1.N) : (dat V c).after 5 t = blk V c 5 t := by dsimp only [dat]
theorem after6 (c : Dev nD) (t : Fin cfg1.N) : (dat V c).after 6 t = blk V c 6 t := by dsimp only [dat]
theorem after7 (c : Dev nD) (t : Fin cfg1.N) :
    (dat V c).after 7 t = outBlk (blk V c 0 t) (blk V c 1 t) (blk V c 2 t) (blk V c 3 t) (blk V c 4 t) (blk V c 5 t) (blk V c 6 t) := by
  dsimp only [dat]

theorem before0 (c : Dev nD) (t : Fin cfg1.N) (d) : (dat V c).before 0 t d = blk V c 0 t :=
  found0 V (dat V c) (dat_A V c 0) (after0 V c) t d
theorem before1 (c : Dev nD) (t : Fin cfg1.N) (d) : (dat V c).before 1 t d = blk V c 1 t :=
  found1 V (dat V c) (dat_A V c 1) (after1 V c) t d
theorem before2 (c : Dev nD) (t : Fin cfg1.N) (d) : (dat V c).before 2 t d = blk V c 2 t :=
  found2 V (dat V c) (dat_A V c 2) (after2 V c) t d
theorem before3 (c : Dev nD) (t : Fin cfg1.N) (d) : (dat V c).before 3 t d = blk V c 3 t :=
  found3 V (dat V c) (dat_A V c 3) (after3 V c) t d
theorem before4 (c : Dev nD) (t : Fin cfg1.N) (d) : (dat V c).before 4 t d = blk V c 4 t :=
  found4 V (dat V c) (dat_A V c 4) (after4 V c) t d
theorem before5 (c : Dev nD) (t : Fin cfg1.N) (d) : (dat V c).before 5 t d = blk V c 5 t :=
  found5 V (dat V c) (dat_A V c 5) (after5 V c) t d
theorem before6 (c : Dev nD) (t : Fin cfg1.N) (d) : (dat V c).before 6 t d = blk V c 6 t :=
  found6 V (dat V c) (dat_A V c 6) (after6 V c) t d

/-! ## The body obligation -/

/-- What the body is called with at point `t`, the windows one by one, -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d))
    ∗ (∃ d, owns (c : Thread nD τ) (st1_4 t) fullShare ((dat V c).before 4 t d))
    ∗ (∃ d, owns (c : Thread nD τ) (st1_5 t) fullShare ((dat V c).before 5 t d))
    ∗ (∃ d, owns (c : Thread nD τ) (st1_6 t) fullShare ((dat V c).before 6 t d))
    ∗ (∃ d, owns (c : Thread nD τ) (st1_7 t) fullShare ((dat V c).before 7 t d)))

/-- and what it returns. -/
def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t)
    ∗ owns (c : Thread nD τ) (st1_3 t) fullShare ((dat V c).after 3 t)
    ∗ owns (c : Thread nD τ) (st1_4 t) fullShare ((dat V c).after 4 t)
    ∗ owns (c : Thread nD τ) (st1_5 t) fullShare ((dat V c).after 5 t)
    ∗ owns (c : Thread nD τ) (st1_6 t) fullShare ((dat V c).after 6 t)
    ∗ owns (c : Thread nD τ) (st1_7 t) fullShare ((dat V c).after 7 t))

/-- The body at any point: the inputs' memrefs hold their blocks, so the body's triple applies; the invariant and the
    core's dues pass through unread. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before0, before1, before2, before3, before4, before5, before6]
  rw [show (dat V c).Φ t.succ = (dat V c).Φ t.castSucc from rfl,
    show (dat V c).owesAt () t.succ = (dat V c).owesAt () t.castSucc from rfl,
    after0, after1, after2, after3, after4, after5, after6, after7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (body_triple c Set.univ _ _ _ _ _ _ _ _ _ _ _ _ _ _ _ _ _ (blk V c 0 t) (blk V c 1 t) (blk V c 2 t) (blk V c 3 t) (blk V c 4 t) (blk V c 5 t) (blk V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation (c : Dev nD) : BodyObligation (dat (F := F) V c) (defs₀ (F := F)) Variants.none () Set.univ := fun t => by
  rw [bigSep_W1, bigSep_W1]
  exact sound_body V c t

end Cert.Kernel.Hop1

end
-- ==== Proof.Kernel.Pool.lean ====
import proofs.«401558_j47940424958092_2_alg».proof.Proof.Gen.Kernel.Launch
import proofs.«401558_j47940424958092_2_alg».proof.Proof.Gen.Kernel.Skeleton
import proofs.«401558_j47940424958092_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

/-! The pooling kernel's region, at any float instance: a grid of 2 × 32 points; point `t` takes block `t` (4096 rows)
    of the node features and of the graph numbers. A scratch accumulator is carried from point to point: the first point
    of each half (`t % 32 = 0`) restarts it from zero, every point adds its block's one-hot product, and the last point of
    each half (`t % 32 = 31`) copies it into the half's output block, which is written back only then. -/
namespace Cert.Kernel.Pool

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body, case by case -/

abbrev rH : Rect S4096x256 := Rect.unit (s := S4096x256) ![0, 0] S4096x256.size inb_S4096x256_S4096x256_0_0
abbrev rG : Rect S4096x1 := Rect.unit (s := S4096x1) ![0, 0] S4096x1.size inb_S4096x1_S4096x1_0_0
abbrev rS : Rect S512x256 := Rect.unit (s := S512x256) ![0, 0] S512x256.size inb_S512x256_S512x256_0_0
abbrev rO : Rect S1x512x256 := Rect.unit (s := S1x512x256) ![0, 0, 0] S1x512x256.size inb_S1x512x256_S1x512x256_0_0_0

/-- The first branch's condition over the grid point: the inner coordinate is zero. -/
def cond1 (i : grid2.Coords) : BitVec 1 :=
  Scalar.cmpi .ne (Scalar.extui (Scalar.cmpi .eq (BitVec.ofNat 32 (i 1).val) 0#32)) 0#32

/-- The accumulator a half starts from. -/
def accZero : Vec F S512x256 .f32 := k2_pay1

/-- One block's update of the accumulator: the feature block `x0`, the graph-number block `x1`, the accumulator `s`. -/
def accStep (x0 : Vec F S4096x256 .f32) (x1 : Vec F S4096x1 .i32) (s : Vec F S512x256 .f32) : Vec F S512x256 .f32 :=
  k2_pay2 x1 x0 s

/-- The output block written from the accumulator. -/
def outOf (s : Vec F S512x256 .f32) : Vec F S1x512x256 .f32 := k2_pay3 s

/-- The zero offsets, as the functions the whole-block lemmas ask for. -/
theorem hz2 : (![0, 0] : Fin 2 → Nat) = fun _ => 0 := by
  funext a; match a with
  | ⟨0, _⟩ => rfl
  | ⟨1, _⟩ => rfl
theorem hz3 : (![0, 0, 0] : Fin 3 → Nat) = fun _ => 0 := by
  funext a; match a with
  | ⟨0, _⟩ => rfl
  | ⟨1, _⟩ => rfl
  | ⟨2, _⟩ => rfl

/-- A store over the whole accumulator covers it, whatever was stored before. -/
theorem cover_rS (p0 : Vec F S512x256 .f32) (L : List (View.Piece (Elt F) S512x256 .f32)) (y : S512x256.Idx) :
    ∃ pc ∈ (⟨rS, p0⟩ :: L : List (View.Piece (Elt F) S512x256 .f32)), y ∈ pc.1.set := by
  obtain ⟨pc, hpc, hy⟩ := View.cover_of_tiled ([⟨rS, p0⟩] : List (View.Piece (Elt F) S512x256 .f32)) S512x256.size (by rfl) y
  rw [List.mem_singleton] at hpc; subst hpc
  exact ⟨_, List.mem_cons_self, hy⟩

theorem cover_rO (p0 : Vec F S1x512x256 .f32) (y : S1x512x256.Idx) :
    ∃ pc ∈ ([⟨rO, p0⟩] : List (View.Piece (Elt F) S1x512x256 .f32)), y ∈ pc.1.set :=
  View.cover_of_tiled [⟨rO, p0⟩] S1x512x256.size (by rfl) y

set_option maxHeartbeats 4000000 in
/-- The first point of a half: the accumulator, whatever it held, ends at one update of zero. The output block is not touched. -/
theorem body_first (c : Dev nD) (E : Set ℕ) (i : grid2.Coords) (hc1 : cond1 i = 1#1) (hc2 : ¬ k2_cond2 i = 1#1)
    (a2 : Memref sig .tc .vmem S4096x256 .f32) (h2 : a2.IsWhole) (a3 : Memref sig .tc .vmem S4096x1 .i32) (h3 : a3.IsWhole)
    (a4 : Memref sig .tc .vmem S1x512x256 .f32) (h4 : a4.IsWhole) (a5 : Memref sig .tc .vmem S512x256 .f32) (h5 : a5.IsWhole)
    (x0 : Vec F S4096x256 .f32) (x1 : Vec F S4096x1 .i32) (K : PUnit → sProp 𝕄) :
    iprop(owns (c : Thread nD τ) a2 fullShare x0 ∗ owns (c : Thread nD τ) a3 fullShare x1 ∗ (∃ s, owns (c : Thread nD τ) a5 fullShare s)
        ∗ (iprop(owns (c : Thread nD τ) a2 fullShare x0 ∗ owns (c : Thread nD τ) a3 fullShare x1
            ∗ owns (c : Thread nD τ) a5 fullShare (accStep x0 x1 accZero)) -∗ K ⟨⟩))
      ⊢ wp frame (wpE (defs₀ (F := F)) Variants.none c none) E (cc2__pool_kernel i a2 h2 a3 h3 a4 h4 a5 h5) K := by
  simp only [cc2__pool_kernel_eq_skeleton]; unfold cc2__pool_kernel_skel
  unfold owns
  iintro ⟨⟨%f0, %hf0, H0⟩, ⟨%f1, %hf1, H1⟩, ⟨%s, %fs, -, Hs⟩, Hk⟩
  subst hf0 hf1
  unfold cond1 at hc1
  sl_exec (disch := first | exact hc1 | exact hc2)
  sl_step
  iapply Hk
  isplitl [H0]
  · iexists f0; isplitr; · ipureintro; rfl
    iexact H0
  isplitl [H1]
  · iexists f1; isplitr; · ipureintro; rfl
    iexact H1
  iexists _; isplitr
  swap; · iexact Hs
  ipureintro
  rw [View.read_writes_eq_canon _ _ _ (cover_rS _ _), View.canon_cons_unit_zero (S := S512x256) hz2]
  sl_unfold_run_names
  simp only [View.readAt_eq_ld, View.ld_unit_zero (S := S4096x256) hz2, View.ld_unit_zero (S := S4096x1) hz2,
    View.readCov_unit_zero (S := S512x256) _ hz2]
  rfl

set_option maxHeartbeats 4000000 in
/-- A point that neither starts nor ends a half: the accumulator gains this block's update. The output block is not touched. -/
theorem body_mid (c : Dev nD) (E : Set ℕ) (i : grid2.Coords) (hc1 : ¬ cond1 i = 1#1) (hc2 : ¬ k2_cond2 i = 1#1)
    (a2 : Memref sig .tc .vmem S4096x256 .f32) (h2 : a2.IsWhole) (a3 : Memref sig .tc .vmem S4096x1 .i32) (h3 : a3.IsWhole)
    (a4 : Memref sig .tc .vmem S1x512x256 .f32) (h4 : a4.IsWhole) (a5 : Memref sig .tc .vmem S512x256 .f32) (h5 : a5.IsWhole)
    (x0 : Vec F S4096x256 .f32) (x1 : Vec F S4096x1 .i32) (s : Vec F S512x256 .f32) (K : PUnit → sProp 𝕄) :
    iprop(owns (c : Thread nD τ) a2 fullShare x0 ∗ owns (c : Thread nD τ) a3 fullShare x1 ∗ owns (c : Thread nD τ) a5 fullShare s
        ∗ (iprop(owns (c : Thread nD τ) a2 fullShare x0 ∗ owns (c : Thread nD τ) a3 fullShare x1
            ∗ owns (c : Thread nD τ) a5 fullShare (accStep x0 x1 s)) -∗ K ⟨⟩))
      ⊢ wp frame (wpE (defs₀ (F := F)) Variants.none c none) E (cc2__pool_kernel i a2 h2 a3 h3 a4 h4 a5 h5) K := by
  simp only [cc2__pool_kernel_eq_skeleton]; unfold cc2__pool_kernel_skel
  unfold owns
  iintro ⟨⟨%f0, %hf0, H0⟩, ⟨%f1, %hf1, H1⟩, ⟨%fs, %hfs, Hs⟩, Hk⟩
  subst hf0 hf1 hfs
  unfold cond1 at hc1
  sl_exec (disch := first | exact hc1 | exact hc2)
  sl_step
  iapply Hk
  isplitl [H0]
  · iexists f0; isplitr; · ipureintro; rfl
    iexact H0
  isplitl [H1]
  · iexists f1; isplitr; · ipureintro; rfl
    iexact H1
  iexists _; isplitr
  swap; · iexact Hs
  ipureintro
  rw [View.read_writes_eq_canon _ _ _ (cover_rS _ _), View.canon_unit_zero (S := S512x256) hz2]
  simp only [View.readAt_eq_ld, View.ld_unit_zero (S := S4096x256) hz2, View.ld_unit_zero (S := S4096x1) hz2,
    View.ld_unit_zero (S := S512x256) hz2]
  rfl

set_option maxHeartbeats 4000000 in
/-- The last point of a half: the accumulator gains this block's update and is copied over the whole output block. -/
theorem body_last (c : Dev nD) (E : Set ℕ) (i : grid2.Coords) (hc1 : ¬ cond1 i = 1#1) (hc2 : k2_cond2 i = 1#1)
    (a2 : Memref sig .tc .vmem S4096x256 .f32) (h2 : a2.IsWhole) (a3 : Memref sig .tc .vmem S4096x1 .i32) (h3 : a3.IsWhole)
    (a4 : Memref sig .tc .vmem S1x512x256 .f32) (h4 : a4.IsWhole) (a5 : Memref sig .tc .vmem S512x256 .f32) (h5 : a5.IsWhole)
    (x0 : Vec F S4096x256 .f32) (x1 : Vec F S4096x1 .i32) (s : Vec F S512x256 .f32) (K : PUnit → sProp 𝕄) :
    iprop(owns (c : Thread nD τ) a2 fullShare x0 ∗ owns (c : Thread nD τ) a3 fullShare x1 ∗ owns (c : Thread nD τ) a5 fullShare s
        ∗ (∃ d, owns (c : Thread nD τ) a4 fullShare d)
        ∗ (iprop(owns (c : Thread nD τ) a2 fullShare x0 ∗ owns (c : Thread nD τ) a3 fullShare x1
            ∗ owns (c : Thread nD τ) a5 fullShare (accStep x0 x1 s) ∗ owns (c : Thread nD τ) a4 fullShare (outOf (accStep x0 x1 s))) -∗ K ⟨⟩))
      ⊢ wp frame (wpE (defs₀ (F := F)) Variants.none c none) E (cc2__pool_kernel i a2 h2 a3 h3 a4 h4 a5 h5) K := by
  simp only [cc2__pool_kernel_eq_skeleton]; unfold cc2__pool_kernel_skel
  unfold owns
  iintro ⟨⟨%f0, %hf0, H0⟩, ⟨%f1, %hf1, H1⟩, ⟨%fs, %hfs, Hs⟩, ⟨%d, %fd, -, Hd⟩, Hk⟩
  subst hf0 hf1 hfs
  unfold cond1 at hc1
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [Hs]
  · iexists _; isplitr
    swap; · iexact Hs
    ipureintro
    sl_unfold_run_names
    rw [View.read_writes_eq_canon _ _ _ (cover_rS _ _), View.canon_unit_zero (S := S512x256) hz2]
    simp only [View.readAt_eq_ld, View.ld_unit_zero (S := S4096x256) hz2, View.ld_unit_zero (S := S4096x1) hz2,
      View.ld_unit_zero (S := S512x256) hz2]
    rfl
  iexists _; isplitr
  swap; · iexact Hd
  ipureintro
  rw [View.read_writes_eq_canon _ _ _ (cover_rO _), View.canon_unit_zero (S := S1x512x256) hz3]
  sl_unfold_run_names
  simp only [View.readAt_eq_ld, View.ld_unit_zero (S := S4096x256) hz2, View.ld_unit_zero (S := S4096x1) hz2,
    View.ld_unit_zero (S := S512x256) hz2, View.readCov_unit_zero (S := S512x256) _ hz2]
  rfl

/-! ## The points

The two branch conditions in closed form over the 64 points. -/

theorem cond1_iff : ∀ t : Fin cfg2.N, cond1 (grid2.coords t) = 1#1 ↔ t.val % 32 = 0 :=
  (by decide +kernel : ∀ t : Fin grid2.N, cond1 (grid2.coords t) = 1#1 ↔ t.val % 32 = 0)

theorem cond2_iff : ∀ t : Fin cfg2.N, k2_cond2 (grid2.coords t) = 1#1 ↔ t.val % 32 = 31 :=
  (by decide +kernel : ∀ t : Fin grid2.N, k2_cond2 (grid2.coords t) = 1#1 ↔ t.val % 32 = 31)

-- the buffers' contents when the region is entered, per core
variable (V : (c : Dev nD) → (b : Ref sig .tc) → Buf (Elt F) ((c : Thread nD τ).loc b))

/-- Window `w`'s block at point `t`, read off its array as the region finds it. -/
def blk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The accumulator after point `n`: restarted from zero where a half begins, else continued from the point before. -/
def acc (c : Dev nD) : (n : ℕ) → n < cfg2.N → Vec F S512x256 .f32
  | 0, h => accStep (blk V c 0 ⟨0, h⟩) (blk V c 1 ⟨0, h⟩) accZero
  | n + 1, h => accStep (blk V c 0 ⟨n + 1, h⟩) (blk V c 1 ⟨n + 1, h⟩)
      (if (n + 1) % 32 = 0 then accZero else acc c n (Nat.lt_of_succ_lt h))

theorem acc_first (c : Dev nD) (t : Fin cfg2.N) (h0 : t.val % 32 = 0) :
    acc V c t.val t.isLt = accStep (blk V c 0 t) (blk V c 1 t) accZero := by
  obtain ⟨n, hn⟩ := t
  cases n with
  | zero => rfl
  | succ n => show accStep _ _ (if (n + 1) % 32 = 0 then accZero else _) = _; rw [if_pos h0]

theorem acc_next (c : Dev nD) (t : Fin cfg2.N) (h0 : ¬ t.val % 32 = 0) :
    acc V c t.val t.isLt = accStep (blk V c 0 t) (blk V c 1 t) (acc V c (t.val - 1) (by omega)) := by
  obtain ⟨n, hn⟩ := t
  cases n with
  | zero => exact absurd rfl h0
  | succ n => show accStep _ _ (if (n + 1) % 32 = 0 then accZero else _) = _; rw [if_neg h0]; rfl

/-! ## The staging buffers at a point -/

theorem found0 {c : Dev nD} (dat : Dat τ (Elt F) Unit ℕ (UR sig nD τ) ℕ cfg2 c) (hA : dat.A 0 = V c (Pipeline.arrRef spec2 0))
    (hafter : ∀ t, dat.after 0 t = blk V c 0 t) (t : Fin cfg2.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)

theorem found1 {c : Dev nD} (dat : Dat τ (Elt F) Unit ℕ (UR sig nD τ) ℕ cfg2 c) (hA : dat.A 1 = V c (Pipeline.arrRef spec2 1))
    (hafter : ∀ t, dat.after 1 t = blk V c 1 t) (t : Fin cfg2.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)

/-! ## The invariant and the proof data -/

/-- The region's invariant before position `k`: the scratch accumulator whole, at what the point before left in it
    (before the first point: at anything); every other scoped buffer unopened; the generator register at some state. -/
def Phi (c : Dev nD) (k : Fin (cfg2.N + 1)) : sProp 𝕄 :=
  iprop((∃ f : Buf (Elt F) ((c : Thread nD τ).loc cc2_scratch0),
      ⌜∀ h : 0 < k.val, f = acc V c (k.val - 1) (by have := k.isLt; omega)⌝ ∗ (((c : Thread nD τ).loc cc2_scratch0) ↦{fullShare} f))
    ∗ Pipeline.scopedRestBut (Ix := Unit) (Name := ℕ) (U := UR sig nD τ) (Lvl := ℕ) (Val := Elt F) spec2 c [cc2_scratch0]
    ∗ ∃ r, prngReg c r)

/-- The pipeline's proof data on core `c`: the arrays as the region finds them; after the body at point `t` each
    input's buffer at its block and the output's at the accumulator then (read only where the block is written back);
    the invariant above; the kernel signals no one and owes nothing. -/
def dat (c : Dev nD) : Dat τ (Elt F) Unit ℕ (UR sig nD τ) ℕ cfg2 c where
  A w := V c (Pipeline.arrRef spec2 w)
  after w t := match w with
    | ⟨0, _⟩ => blk V c 0 t
    | ⟨1, _⟩ => blk V c 1 t
    | ⟨2, _⟩ => outOf (acc V c t.val t.isLt)
  Φ k := Phi V c k
  q _ := fullShare
  owed _ := 0

theorem dat_A (c : Dev nD) (w : Fin cfg2.W) : (dat V c).A w = V c (Pipeline.arrRef spec2 w) := by
  dsimp only [dat]
theorem after0 (c : Dev nD) (t : Fin cfg2.N) : (dat V c).after 0 t = blk V c 0 t := by dsimp only [dat]
theorem after1 (c : Dev nD) (t : Fin cfg2.N) : (dat V c).after 1 t = blk V c 1 t := by dsimp only [dat]
theorem after2 (c : Dev nD) (t : Fin cfg2.N) : (dat V c).after 2 t = outOf (acc V c t.val t.isLt) := by dsimp only [dat]
theorem before0 (c : Dev nD) (t : Fin cfg2.N) (d) : (dat V c).before 0 t d = blk V c 0 t :=
  found0 V (dat V c) (dat_A V c 0) (after0 V c) t d
theorem before1 (c : Dev nD) (t : Fin cfg2.N) (d) : (dat V c).before 1 t d = blk V c 1 t :=
  found1 V (dat V c) (dat_A V c 1) (after1 V c) t d

/-! ## The body obligation -/

/-- What the body is called with at point `t`, the windows one by one, -/
def bodyPre (c : Dev nD) (t : Fin cfg2.N) : sProp 𝕄 :=
  iprop((dat V c).Φ t.castSucc ∗ (dat V c).owesAt () t.castSucc
    ∗ (∃ d, owns (c : Thread nD τ) (st2_0 t) fullShare ((dat V c).before 0 t d))
    ∗ (∃ d, owns (c : Thread nD τ) (st2_1 t) fullShare ((dat V c).before 1 t d))
    ∗ (∃ d, owns (c : Thread nD τ) (st2_2 t) fullShare ((dat V c).before 2 t d)))

/-- What the body leaves of the output window's buffer: as found at a point that does not write it back, else copied from
    the accumulator. -/
def post2 (c : Dev nD) (t : Fin cfg2.N) : sProp 𝕄 :=
  match cfg2.idle 2 (cfg2.grid.coords t) with
  | true =>
    match (cfg2.win 2).flush t with
    | false => iprop(∃ d, owns (c : Thread nD τ) (st2_2 t) fullShare ((dat V c).before 2 t d))
    | true => owns (c : Thread nD τ) (st2_2 t) fullShare ((dat V c).after 2 t)
  | false => owns (c : Thread nD τ) (st2_2 t) fullShare ((dat V c).after 2 t)

/-- and what it returns. -/
def bodyPost (c : Dev nD) (t : Fin cfg2.N) : sProp 𝕄 :=
  iprop((dat V c).Φ t.succ ∗ (dat V c).owesAt () t.succ
    ∗ owns (c : Thread nD τ) (st2_0 t) fullShare ((dat V c).after 0 t)
    ∗ owns (c : Thread nD τ) (st2_1 t) fullShare ((dat V c).after 1 t)
    ∗ post2 V c t)

theorem idle_iff (t : Fin cfg2.N) : cfg2.idle 2 (cfg2.grid.coords t) = true ↔ ¬ t.val % 32 = 31 := by
  show (!(k2_cond2 (grid2.coords t) == 1#1)) = true ↔ _
  rw [← cond2_iff t]
  by_cases h : k2_cond2 (grid2.coords t) = 1#1 <;> simp [h]

theorem post2_not_last (c : Dev nD) (t : Fin cfg2.N) (hl : ¬ t.val % 32 = 31) :
    post2 V c t = iprop(∃ d, owns (c : Thread nD τ) (st2_2 t) fullShare ((dat V c).before 2 t d)) := by
  unfold post2
  split
  · split
    · rfl
    · rename_i hfl; exact absurd ((flush2_2 t).mp hfl) hl
  · rename_i hid
    have := (idle_iff t).mpr hl
    exact Bool.noConfusion (hid.symm.trans this)

theorem post2_last (c : Dev nD) (t : Fin cfg2.N) (hl : t.val % 32 = 31) :
    post2 V c t = owns (c : Thread nD τ) (st2_2 t) fullShare ((dat V c).after 2 t) := by
  unfold post2
  split
  · rename_i hid; exact absurd hl ((idle_iff t).mp hid)
  · rfl

set_option maxHeartbeats 2000000 in
/-- The body at any point, by the point's place in its half. -/
theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before0, before1]
  rw [show (dat V c).owesAt () t.succ = (dat V c).owesAt () t.castSucc from rfl, after0, after1,
    show (dat V c).Φ t.castSucc = Phi V c t.castSucc from rfl, show (dat V c).Φ t.succ = Phi V c t.succ from rfl]
  unfold Phi
  have toOwns : ∀ f : Buf (Elt F) ((c : Thread nD τ).loc cc2_scratch0),
      ((((c : Thread nD τ).loc cc2_scratch0) ↦{fullShare} f : sProp 𝕄)) ⊢ owns (c : Thread nD τ) (Memref.whole cc2_scratch0) fullShare f :=
    fun f => Entails.of_eq (owns_whole (c : Thread nD τ) cc2_scratch0 fullShare f).symm
  have ofOwns : ∀ f : Buf (Elt F) ((c : Thread nD τ).loc cc2_scratch0),
      (owns (c : Thread nD τ) (Memref.whole cc2_scratch0) fullShare f : sProp 𝕄) ⊢ (((c : Thread nD τ).loc cc2_scratch0) ↦{fullShare} f) :=
    fun f => Entails.of_eq (owns_whole (c : Thread nD τ) cc2_scratch0 fullShare f)
  by_cases h0 : t.val % 32 = 0
  · -- a half's first point
    have hl : ¬ t.val % 32 = 31 := by omega
    rw [post2_not_last V c t hl]
    iintro ⟨⟨⟨%f, %hf, Hs⟩, Hrest, Hg⟩, Ho, ⟨%d0, H0⟩, ⟨%d1, H1⟩, ⟨%d2, H2⟩⟩
    iapply (body_first c Set.univ (grid2.coords t) ((cond1_iff t).mpr h0) (fun e => hl ((cond2_iff t).mp e)) _ _ _ _ _ _ _ _ (blk V c 0 t) (blk V c 1 t) _)
    isplitl [H0]; · iexact H0
    isplitl [H1]; · iexact H1
    isplitl [Hs]; · iexists _; iapply (toOwns f); iexact Hs
    iintro ⟨H0, H1, Hs⟩
    isplitl [Hs Hrest Hg]
    · isplitl [Hs]
      · iexists _; isplitr
        swap; · iapply (ofOwns _); iexact Hs
        ipureintro; intro _
        simp only [Fin.val_succ, Nat.add_sub_cancel]
        exact (acc_first V c t h0).symm
      isplitl [Hrest]; · iexact Hrest
      iexact Hg
    isplitl [Ho]; · iexact Ho
    isplitl [H0]; · iexact H0
    isplitl [H1]; · iexact H1
    iexists _; iexact H2
  · have hpos : 0 < (t.castSucc : Fin (cfg2.N + 1)).val := by rw [Fin.coe_castSucc]; omega
    by_cases hl : t.val % 32 = 31
    · -- a half's last point
      rw [post2_last V c t hl, after2]
      iintro ⟨⟨⟨%f, %hf, Hs⟩, Hrest, Hg⟩, Ho, ⟨%d0, H0⟩, ⟨%d1, H1⟩, ⟨%d2, H2⟩⟩
      have hf' := hf hpos
      simp only [Fin.coe_castSucc] at hf'
      subst hf'
      iapply (body_last c Set.univ (grid2.coords t) (fun e => h0 ((cond1_iff t).mp e)) ((cond2_iff t).mpr hl) _ _ _ _ _ _ _ _ (blk V c 0 t) (blk V c 1 t) _ _)
      isplitl [H0]; · iexact H0
      isplitl [H1]; · iexact H1
      isplitl [Hs]; · iapply (toOwns _); iexact Hs
      isplitl [H2]; · iexists _; iexact H2
      iintro ⟨H0, H1, Hs, H2⟩
      isplitl [Hs Hrest Hg]
      · isplitl [Hs]
        · iexists _; isplitr
          swap; · iapply (ofOwns _); iexact Hs
          ipureintro; intro _
          simp only [Fin.val_succ, Nat.add_sub_cancel]
          exact (acc_next V c t h0).symm
        isplitl [Hrest]; · iexact Hrest
        iexact Hg
      isplitl [Ho]; · iexact Ho
      isplitl [H0]; · iexact H0
      isplitl [H1]; · iexact H1
      rw [acc_next V c t h0]; iexact H2
    · -- a point inside a half
      rw [post2_not_last V c t hl]
      iintro ⟨⟨⟨%f, %hf, Hs⟩, Hrest, Hg⟩, Ho, ⟨%d0, H0⟩, ⟨%d1, H1⟩, ⟨%d2, H2⟩⟩
      have hf' := hf hpos
      simp only [Fin.coe_castSucc] at hf'
      subst hf'
      iapply (body_mid c Set.univ (grid2.coords t) (fun e => h0 ((cond1_iff t).mp e)) (fun e => hl ((cond2_iff t).mp e)) _ _ _ _ _ _ _ _ (blk V c 0 t) (blk V c 1 t) _ _)
      isplitl [H0]; · iexact H0
      isplitl [H1]; · iexact H1
      isplitl [Hs]; · iapply (toOwns _); iexact Hs
      iintro ⟨H0, H1, Hs⟩
      isplitl [Hs Hrest Hg]
      · isplitl [Hs]
        · iexists _; isplitr
          swap; · iapply (ofOwns _); iexact Hs
          ipureintro; intro _
          simp only [Fin.val_succ, Nat.add_sub_cancel]
          exact (acc_next V c t h0).symm
        isplitl [Hrest]; · iexact Hrest
        iexact Hg
      isplitl [Ho]; · iexact Ho
      isplitl [H0]; · iexact H0
      isplitl [H1]; · iexact H1
      iexists _; iexact H2

/-- The library's body obligation, at every point. -/
theorem body_obligation (c : Dev nD) : BodyObligation (dat (F := F) V c) (defs₀ (F := F)) Variants.none () Set.univ := fun t => by
  rw [bigSep_W2, bigSep_W2]
  exact sound_body V c t

/-! ## The invariant at the region's ends -/

/-- What the region is handed — the generator register and the scoped buffers no window stages — is the invariant
    before the first point: the scratch's contents there are not named. -/
theorem Phi_in (c : Dev nD) :
    iprop((∃ r, prngReg c r) ∗ Pipeline.scopedRest (Ix := Unit) (Name := ℕ) (U := UR sig nD τ) (Lvl := ℕ) (Val := Elt F) spec2 c)
      ⊢ (Phi V c 0 : sProp 𝕄) := by
  rw [scopedRest2_split]
  unfold Phi
  iintro ⟨Hg, ⟨%f, Hs⟩, Hrest⟩
  isplitl [Hs]
  · iexists f; isplitr
    · ipureintro; intro h; exact absurd h (Nat.lt_irrefl 0)
    iexact Hs
  isplitl [Hrest]; · iexact Hrest
  iexact Hg

/-- After the last point the invariant gives the same back: the accumulator's contents are forgotten. -/
theorem Phi_out (c : Dev nD) (k : Fin (cfg2.N + 1)) :
    (Phi V c k : sProp 𝕄)
      ⊢ iprop((∃ r, prngReg c r) ∗ Pipeline.scopedRest (Ix := Unit) (Name := ℕ) (U := UR sig nD τ) (Lvl := ℕ) (Val := Elt F) spec2 c) := by
  rw [scopedRest2_split]
  unfold Phi
  iintro ⟨⟨%f, -, Hs⟩, Hrest, Hg⟩
  isplitl [Hg]; · iexact Hg
  isplitl [Hs]; · iexists f; iexact Hs
  iexact Hrest

end Cert.Kernel.Pool

end
-- ==== Proof.Kernel.Regs.lean ====
import proofs.«401558_j47940424958092_2_alg».proof.Proof.Gen.Kernel.Regions
import proofs.«401558_j47940424958092_2_alg».proof.Proof.Kernel.Hop0
import proofs.«401558_j47940424958092_2_alg».proof.Proof.Kernel.Hop1
import proofs.«401558_j47940424958092_2_alg».proof.Proof.Kernel.Pool

set_option maxRecDepth 16384

noncomputable section

/-! The three kernel regions as records for the program's run: what each region leaves in its output array (the
    pipeline's write-backs folded), the buffers' contents between @main's items built from those, every pipeline's proof
    data at its region's entry contents, and per region the four entailments around the thread state "every unscoped
    buffer at the boundary's contents, the generator register at some state, nothing owed". -/
namespace Cert.Kernel.Regs

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ)

/-! ## The contents between the items -/

/-- Region 0's entry contents, read at the TensorCore's references. -/
abbrev E0 : (c : Dev nD) → (b : Ref sig .tc) → Buf (Elt F) ((c : Thread nD τ).loc b) := fun c b => V4 m c b
/-- What region 0 leaves in its output array. -/
def o5 (c : Dev nD) : Buf (Elt F) ((c : Thread nD τ).loc main_v18) := (Hop0.dat (E0 m) c).arrAt 7 cfg0.N
abbrev X5 (c : Dev nD) : Valuation τ sig (Elt F) := Function.update (V4 m c) main_v18 (o5 m c)
abbrev X6 (c : Dev nD) : Valuation τ sig (Elt F) := StableHlo.after hostOps1 (X5 m c)
abbrev X7 (c : Dev nD) : Valuation τ sig (Elt F) := StableHlo.after hostOps1_1 (X6 m c)
abbrev X8 (c : Dev nD) : Valuation τ sig (Elt F) := StableHlo.after hostOps1_2 (X7 m c)
/-- Region 1's entry contents. -/
abbrev E1 : (c : Dev nD) → (b : Ref sig .tc) → Buf (Elt F) ((c : Thread nD τ).loc b) := fun c b => X8 m c b
/-- What region 1 leaves in its output array. -/
def o9 (c : Dev nD) : Buf (Elt F) ((c : Thread nD τ).loc main_v36) := (Hop1.dat (E1 m) c).arrAt 7 cfg1.N
abbrev X9 (c : Dev nD) : Valuation τ sig (Elt F) := Function.update (X8 m c) main_v36 (o9 m c)
abbrev X10 (c : Dev nD) : Valuation τ sig (Elt F) := StableHlo.after hostOps2 (X9 m c)
/-- Region 2's entry contents. -/
abbrev E2 : (c : Dev nD) → (b : Ref sig .tc) → Buf (Elt F) ((c : Thread nD τ).loc b) := fun c b => X10 m c b
/-- What region 2 leaves in its output array. -/
def o11 (c : Dev nD) : Buf (Elt F) ((c : Thread nD τ).loc main_v38) := (Pool.dat (E2 m) c).arrAt 2 cfg2.N
abbrev X11 (c : Dev nD) : Valuation τ sig (Elt F) := Function.update (X10 m c) main_v38 (o11 m c)

/-- What the regions leave, in the form the run's valuations take it: read only at (5, main_v18), (9, main_v36), (11, main_v38). -/
def outs : Outs (F := F) := fun j r c => match j with
  | 5 => X5 m c r
  | 9 => X9 m c r
  | _ => X11 m c r

theorem outs5 (c : Dev nD) : outs m 5 main_v18 c = o5 m c := by
  show Function.update (V4 m c) main_v18 (o5 m c) main_v18 = _; exact Function.update_self ..
theorem V5_eq (c : Dev nD) : V5 m (outs m) c = X5 m c := by
  show Function.update (V4 m c) main_v18 (outs m 5 main_v18 c) = _; rw [outs5]
theorem V8_eq (c : Dev nD) : V8 m (outs m) c = X8 m c := by
  show StableHlo.after hostOps1_2 (StableHlo.after hostOps1_1 (StableHlo.after hostOps1 (V5 m (outs m) c))) = _; rw [V5_eq]
theorem outs9 (c : Dev nD) : outs m 9 main_v36 c = o9 m c := by
  show Function.update (X8 m c) main_v36 (o9 m c) main_v36 = _; exact Function.update_self ..
theorem V9_eq (c : Dev nD) : V9 m (outs m) c = X9 m c := by
  show Function.update (V8 m (outs m) c) main_v36 (outs m 9 main_v36 c) = _; rw [outs9, V8_eq]
theorem V10_eq (c : Dev nD) : V10 m (outs m) c = X10 m c := by
  show StableHlo.after hostOps2 (V9 m (outs m) c) = _; rw [V9_eq]
theorem outs11 (c : Dev nD) : outs m 11 main_v38 c = o11 m c := by
  show Function.update (X10 m c) main_v38 (o11 m c) main_v38 = _; exact Function.update_self ..
theorem V11_eq (c : Dev nD) : V11 m (outs m) c = X11 m c := by
  show Function.update (V10 m (outs m) c) main_v38 (outs m 11 main_v38 c) = _; rw [outs11, V10_eq]

/-! ## The proof data family and the thread state -/

/-- Every pipeline's proof data, each at its region's entry contents. -/
def pdats : (p : Fin 3) → (c : Dev nD) → Dat τ (Elt F) Unit ℕ (UR sig nD τ) ℕ (cfgs p) c
  | ⟨0, _⟩ => fun c => Hop0.dat (E0 m) c
  | ⟨1, _⟩ => fun c => Hop1.dat (E1 m) c
  | ⟨2, _⟩ => fun c => Pool.dat (E2 m) c

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the generator register at some state, and nothing owed. -/
abbrev Rst (c : Dev nD) : sProp 𝕄 := iprop((∃ r, prngReg c r) ∗ ∃ W, owes (c : Thread nD τ) (0 : CellTallies nD τ sig Unit) W)

/-! ## What a region's exit holds: its output array replaced, every other buffer as entered -/

theorem ne18 (b : Ref sig .tc) (h : b ≠ main_v18) (c : Dev nD) : X5 m c b = V4 m c b :=
  Function.update_of_ne (StableHlo.devRef_ne_of_ne h) _ _
theorem ne36 (b : Ref sig .tc) (h : b ≠ main_v36) (c : Dev nD) : X9 m c b = X8 m c b :=
  Function.update_of_ne (StableHlo.devRef_ne_of_ne h) _ _
theorem ne38 (b : Ref sig .tc) (h : b ≠ main_v38) (c : Dev nD) : X11 m c b = X10 m c b :=
  Function.update_of_ne (StableHlo.devRef_ne_of_ne h) _ _

theorem X5_self (c : Dev nD) : X5 m c main_v18 = o5 m c := by
  show Function.update (V4 m c) main_v18 _ main_v18 = _; exact Function.update_self ..
theorem hF0_in (c : Dev nD) (w : Fin cfg0.W) (hin : (cfg0.win w).isOut = false) (hne : Pipeline.arrRef spec0 w ≠ main_v18) :
    (Hop0.dat (E0 m) c).arrAt w cfg0.N = X5 m c (Pipeline.arrRef spec0 w) :=
  ((Hop0.dat (E0 m) c).arrAt_in w hin _).trans ((Hop0.dat_A (E0 m) c w).trans (ne18 m (Pipeline.arrRef spec0 w) hne c).symm)
theorem hF0 (c : Dev nD) : ∀ w : Fin cfg0.W, (pdats m 0 c).arrAt w cfg0.N = (fun b => X5 m c b) (Pipeline.arrRef spec0 w)
  | ⟨0, _⟩ => hF0_in m c 0 rfl (by decide)
  | ⟨1, _⟩ => hF0_in m c 1 rfl (by decide)
  | ⟨2, _⟩ => hF0_in m c 2 rfl (by decide)
  | ⟨3, _⟩ => hF0_in m c 3 rfl (by decide)
  | ⟨4, _⟩ => hF0_in m c 4 rfl (by decide)
  | ⟨5, _⟩ => hF0_in m c 5 rfl (by decide)
  | ⟨6, _⟩ => hF0_in m c 6 rfl (by decide)
  | ⟨7, _⟩ => (X5_self m c).symm
theorem hrest0 (c : Dev nD) : ∀ b, b ∉ Finset.univ.image (Pipeline.arrRef spec0) → (fun b => X5 m c b) b = E0 m c b :=
  fun b hb => ne18 m b (fun e => hb (Finset.mem_image.mpr ⟨7, Finset.mem_univ _, e.symm⟩)) c

theorem X9_self (c : Dev nD) : X9 m c main_v36 = o9 m c := by
  show Function.update (X8 m c) main_v36 _ main_v36 = _; exact Function.update_self ..
theorem hF1_in (c : Dev nD) (w : Fin cfg1.W) (hin : (cfg1.win w).isOut = false) (hne : Pipeline.arrRef spec1 w ≠ main_v36) :
    (Hop1.dat (E1 m) c).arrAt w cfg1.N = X9 m c (Pipeline.arrRef spec1 w) :=
  ((Hop1.dat (E1 m) c).arrAt_in w hin _).trans ((Hop1.dat_A (E1 m) c w).trans (ne36 m (Pipeline.arrRef spec1 w) hne c).symm)
theorem hF1 (c : Dev nD) : ∀ w : Fin cfg1.W, (pdats m 1 c).arrAt w cfg1.N = (fun b => X9 m c b) (Pipeline.arrRef spec1 w)
  | ⟨0, _⟩ => hF1_in m c 0 rfl (by decide)
  | ⟨1, _⟩ => hF1_in m c 1 rfl (by decide)
  | ⟨2, _⟩ => hF1_in m c 2 rfl (by decide)
  | ⟨3, _⟩ => hF1_in m c 3 rfl (by decide)
  | ⟨4, _⟩ => hF1_in m c 4 rfl (by decide)
  | ⟨5, _⟩ => hF1_in m c 5 rfl (by decide)
  | ⟨6, _⟩ => hF1_in m c 6 rfl (by decide)
  | ⟨7, _⟩ => (X9_self m c).symm
theorem hrest1 (c : Dev nD) : ∀ b, b ∉ Finset.univ.image (Pipeline.arrRef spec1) → (fun b => X9 m c b) b = E1 m c b :=
  fun b hb => ne36 m b (fun e => hb (Finset.mem_image.mpr ⟨7, Finset.mem_univ _, e.symm⟩)) c

theorem X11_self (c : Dev nD) : X11 m c main_v38 = o11 m c := by
  show Function.update (X10 m c) main_v38 _ main_v38 = _; exact Function.update_self ..
theorem hF2_in (c : Dev nD) (w : Fin cfg2.W) (hin : (cfg2.win w).isOut = false) (hne : Pipeline.arrRef spec2 w ≠ main_v38) :
    (Pool.dat (E2 m) c).arrAt w cfg2.N = X11 m c (Pipeline.arrRef spec2 w) :=
  ((Pool.dat (E2 m) c).arrAt_in w hin _).trans ((Pool.dat_A (E2 m) c w).trans (ne38 m (Pipeline.arrRef spec2 w) hne c).symm)
theorem hF2 (c : Dev nD) : ∀ w : Fin cfg2.W, (pdats m 2 c).arrAt w cfg2.N = (fun b => X11 m c b) (Pipeline.arrRef spec2 w)
  | ⟨0, _⟩ => hF2_in m c 0 rfl (by decide)
  | ⟨1, _⟩ => hF2_in m c 1 rfl (by decide)
  | ⟨2, _⟩ => (X11_self m c).symm
theorem hrest2 (c : Dev nD) : ∀ b, b ∉ Finset.univ.image (Pipeline.arrRef spec2) → (fun b => X11 m c b) b = E2 m c b :=
  fun b hb => ne38 m b (fun e => hb (Finset.mem_image.mpr ⟨2, Finset.mem_univ _, e.symm⟩)) c

/-! ## The regions as records -/

set_option backward.isDefEq.respectTransparency.types false in
/-- Region 0 over the thread state: entered from every unscoped buffer at its entry contents, left with its output
    array at what the pipeline leaves and every other buffer as entered. Its arrays are split out of the unscoped buffers
    and put back; the generator register goes into the kernel's invariant and comes out; nothing is owed; the kernel has
    no semaphore of its own. -/
def reg0 : RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (Hop0.body_obligation (E0 m) c).loose
  hwaits := Pipeline.hwaits_of_owed_zero _ _ _ _ L lv 0 fun _ _ => rfl
  pre c := iprop(StableHlo.held (c : Thread nD τ) (Pipeline.ucRefs τ sig) (V4 m c) ∗ Rst c)
  post c := iprop(StableHlo.held (c : Thread nD τ) (Pipeline.ucRefs τ sig) (X5 m c) ∗ Rst c)
  X c := iprop(∃ r, prngReg c r)
  Y c := iprop(∃ r, prngReg c r)
  Z c := Pipeline.unscopedRest (Ix := Unit) (Name := ℕ) (U := UR sig nD τ) (Lvl := ℕ) spec0 c (E0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E0 m c) (fun b => X5 m c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at its entry contents, left with its output
    array at what the pipeline leaves and every other buffer as entered. Its arrays are split out of the unscoped buffers
    and put back; the generator register goes into the kernel's invariant and comes out; nothing is owed; the kernel has
    no semaphore of its own. -/
def reg1 : RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (Hop1.body_obligation (E1 m) c).loose
  hwaits := Pipeline.hwaits_of_owed_zero _ _ _ _ L lv 1 fun _ _ => rfl
  pre c := iprop(StableHlo.held (c : Thread nD τ) (Pipeline.ucRefs τ sig) (X8 m c) ∗ Rst c)
  post c := iprop(StableHlo.held (c : Thread nD τ) (Pipeline.ucRefs τ sig) (X9 m c) ∗ Rst c)
  X c := iprop(∃ r, prngReg c r)
  Y c := iprop(∃ r, prngReg c r)
  Z c := Pipeline.unscopedRest (Ix := Unit) (Name := ℕ) (U := UR sig nD τ) (Lvl := ℕ) spec1 c (E1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E1 m c) (fun b => X9 m c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at its entry contents, left with its output
    array at what the pipeline leaves and every other buffer as entered. Its arrays are split out of the unscoped buffers
    and put back; the generator register goes into the kernel's invariant and comes out; nothing is owed; the kernel has
    no semaphore of its own. -/
def reg2 : RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (Pool.body_obligation (E2 m) c).loose
  hwaits := Pipeline.hwaits_of_owed_zero _ _ _ _ L lv 2 fun _ _ => rfl
  pre c := iprop(StableHlo.held (c : Thread nD τ) (Pipeline.ucRefs τ sig) (X10 m c) ∗ Rst c)
  post c := iprop(StableHlo.held (c : Thread nD τ) (Pipeline.ucRefs τ sig) (X11 m c) ∗ Rst c)
  X c := iprop(∃ r, prngReg c r)
  Y c := iprop(∃ r, prngReg c r)
  Z c := Pipeline.unscopedRest (Ix := Unit) (Name := ℕ) (U := UR sig nD τ) (Lvl := ℕ) spec2 c (E2 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (E2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pool.Phi (E2 m) c 0 from rfl]
    iintro ⟨Hp, -, Hr⟩
    iapply (Pool.Phi_in (E2 m) c)
    isplitl [Hp]; · iexact Hp
    iexact Hr
  hout c := by
    rw [Pipeline.ownSems0_none, show (pdats m 2 c).Φ (Fin.last _) = Pool.Phi (E2 m) c (Fin.last _) from rfl]
    iintro H
    ihave H' := (Pool.Phi_out (E2 m) c (Fin.last _)) $$ H
    icases H' with ⟨Hp, Hr⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (E2 m c) (fun b => X11 m c b) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Regs

end
-- ==== Proof.Kernel.Frame.lean ====
import proofs.«401558_j47940424958092_2_alg».proof.Proof.Kernel.Regs

set_option maxRecDepth 16384

noncomputable section

/-! The kernel program at any float instance, its frame: every weakly fair execution from any memory with zero counters terminates and
    every argument ends as launched. -/
namespace Cert.Kernel.Launched

open Cert.Kernel Cert.Kernel.Gen Cert.Kernel.Regs
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
theorem run : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Gen.frame_cond m (Ix := Unit) (U := UR sig nD τ) (Lvl := ℕ) emb₁ () Regs.𝒱₀ Regs.L Regs.lv (fun _ _ => rfl) ρ (outs m) (pdats m)
    (O₀ := fun _ => 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => Rst c)
    (hE0 := Pipeline.initEach Regs.L Regs.lv fun c => by
      iintro ⟨⟨-, HO, -, Hp, -⟩, -⟩
      imodintro
      isplitl [Hp]; · iexists _; iexact Hp
      iexists ∅; iexact HO)
    (hE3 := fun c => by iintro ⟨-, H⟩; iexact H)
    (R0 := reg0 m) (hpre0 := fun c => .rfl) (hpost0 := fun c => by rw [V5_eq]; exact .rfl)
    (R1 := reg1 m) (hpre1 := fun c => by rw [V8_eq]; exact .rfl) (hpost1 := fun c => by rw [V9_eq]; exact .rfl)
    (R2 := reg2 m) (hpre2 := fun c => by rw [V10_eq]; exact .rfl) (hpost2 := fun c => by rw [V11_eq]; exact .rfl)

end Cert.Kernel.Launched

end
-- ==== Proof.KernelIdeal.Hop0.lean ====
import proofs.«401558_j47940424958092_2_alg».proof.Proof.Gen.KernelIdeal.Launch
import proofs.«401558_j47940424958092_2_alg».proof.Proof.Gen.KernelIdeal.Skeleton
import proofs.«401558_j47940424958092_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

/-! The first hop's kernel region, at any float instance: a grid of 64 points, point `t` taking rows
    `4096 t … 4096 t + 4095` of the node features and of the two aggregated neighbour arrays, the three weight
    matrices and the bias row whole, and writing the same rows of the new features. The body loads its seven input
    blocks whole, computes one value from them and stores it over the whole output block; so the output block after
    the body is that value of the seven input blocks, whatever the block held before. -/
namespace Cert.KernelIdeal.Hop0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the region is entered, per core
variable (V : (c : Dev nD) → (b : Ref sig .tc) → Buf (Elt F) ((c : Thread nD τ).loc b))

/-- Window `w`'s block at point `t`, read off its array as the region finds it. -/
def blk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The whole-block rectangles of the three block shapes. -/
abbrev rRows : Rect S4096x256 := Rect.unit (s := S4096x256) ![0, 0] S4096x256.size inb_S4096x256_S4096x256_0_0
abbrev rMat : Rect S256x256 := Rect.unit (s := S256x256) ![0, 0] S256x256.size inb_S256x256_S256x256_0_0
abbrev rRow : Rect S1x256 := Rect.unit (s := S1x256) ![0, 0] S1x256.size inb_S1x256_S1x256_0_0

/-- The output block after the body, from the seven input blocks: its one store, over the whole block. -/
def outBlk (x0 x1 x2 : Vec F S4096x256 .f32) (x3 x4 x5 : Vec F S256x256 .f32) (x6 : Vec F S1x256 .f32) : Vec F S4096x256 .f32 :=
  View.canon [⟨rRows, k0_pay1 (View.ld x0 rRows) (View.ld x1 rRows) (View.ld x2 rRows) (View.ld x3 rMat) (View.ld x4 rMat) (View.ld x5 rMat) (View.ld x6 rRow)⟩]

/-- The one store covers the block. -/
theorem outBlk_cover (p0 : Vec F S4096x256 .f32) (y : S4096x256.Idx) :
    ∃ pc ∈ ([⟨rRows, p0⟩] : List (View.Piece (Elt F) S4096x256 .f32)), y ∈ pc.1.set :=
  View.cover_of_tiled [⟨rRows, p0⟩] S4096x256.size (by rfl) y

set_option maxHeartbeats 4000000 in
/-- The body on whole staging memrefs — the inputs' at contents `x0 … x6`, the output's at anything — runs to the
    continuation with the inputs' as they were and the output's at `outBlk` of the inputs'. -/
theorem body_triple (c : Dev nD) (E : Set ℕ) (i : grid0.Coords)
    (a1 : Memref sig .tc .vmem S4096x256 .f32) (h1 : a1.IsWhole) (a2 : Memref sig .tc .vmem S4096x256 .f32) (h2 : a2.IsWhole)
    (a3 : Memref sig .tc .vmem S4096x256 .f32) (h3 : a3.IsWhole) (a4 : Memref sig .tc .vmem S256x256 .f32) (h4 : a4.IsWhole)
    (a5 : Memref sig .tc .vmem S256x256 .f32) (h5 : a5.IsWhole) (a6 : Memref sig .tc .vmem S256x256 .f32) (h6 : a6.IsWhole)
    (a7 : Memref sig .tc .vmem S1x256 .f32) (h7 : a7.IsWhole) (a8 : Memref sig .tc .vmem S4096x256 .f32) (h8 : a8.IsWhole)
    (x0 x1 x2 : Vec F S4096x256 .f32) (x3 x4 x5 : Vec F S256x256 .f32) (x6 : Vec F S1x256 .f32) (K : PUnit → sProp 𝕄) :
    iprop(owns (c : Thread nD τ) a1 fullShare x0 ∗ owns (c : Thread nD τ) a2 fullShare x1 ∗ owns (c : Thread nD τ) a3 fullShare x2
        ∗ owns (c : Thread nD τ) a4 fullShare x3 ∗ owns (c : Thread nD τ) a5 fullShare x4 ∗ owns (c : Thread nD τ) a6 fullShare x5
        ∗ owns (c : Thread nD τ) a7 fullShare x6 ∗ (∃ d, owns (c : Thread nD τ) a8 fullShare d)
        ∗ (iprop(owns (c : Thread nD τ) a1 fullShare x0 ∗ owns (c : Thread nD τ) a2 fullShare x1 ∗ owns (c : Thread nD τ) a3 fullShare x2
            ∗ owns (c : Thread nD τ) a4 fullShare x3 ∗ owns (c : Thread nD τ) a5 fullShare x4 ∗ owns (c : Thread nD τ) a6 fullShare x5
            ∗ owns (c : Thread nD τ) a7 fullShare x6 ∗ owns (c : Thread nD τ) a8 fullShare (outBlk x0 x1 x2 x3 x4 x5 x6)) -∗ K ⟨⟩))
      ⊢ wp frame (wpE (defs₀ (F := F)) Variants.none c none) E (cc0__fused_hop_kernel i a1 h1 a2 h2 a3 h3 a4 h4 a5 h5 a6 h6 a7 h7 a8 h8) K := by
  simp only [cc0__fused_hop_kernel_eq_skeleton]; unfold cc0__fused_hop_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (outBlk_cover _)

/-! ## The staging buffers at a point

An input window's current staging buffer holds its block at every point, whether the point fetched it or not: the
three row windows are fetched at every point, the weights and the bias once, and their block index never moves. -/

theorem found0 {c : Dev nD} (dat : Dat τ (Elt F) Unit ℕ (UR sig nD τ) ℕ cfg0 c) (hA : dat.A 0 = V c (Pipeline.arrRef spec0 0))
    (hafter : ∀ t, dat.after 0 t = blk V c 0 t) (t : Fin cfg0.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)

theorem found1 {c : Dev nD} (dat : Dat τ (Elt F) Unit ℕ (UR sig nD τ) ℕ cfg0 c) (hA : dat.A 1 = V c (Pipeline.arrRef spec0 1))
    (hafter : ∀ t, dat.after 1 t = blk V c 1 t) (t : Fin cfg0.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)

theorem found2 {c : Dev nD} (dat : Dat τ (Elt F) Unit ℕ (UR sig nD τ) ℕ cfg0 c) (hA : dat.A 2 = V c (Pipeline.arrRef spec0 2))
    (hafter : ∀ t, dat.after 2 t = blk V c 2 t) (t : Fin cfg0.N) (d) : dat.before 2 t d = blk V c 2 t :=
  (dat.before_in_eq_fetched 2 rfl (fun _ => rfl) (fun _ _ _ => rfl) (fun t => by rw [hafter]; unfold Dat.blockOf blk; rw [hA]; try rfl) t d).trans
    (by unfold Dat.fetched Dat.blockOf blk; rw [hA]; try rfl)

theorem found3 {c : Dev nD} (dat : Dat τ (Elt F) Unit ℕ (UR sig nD τ) ℕ cfg0 c) (hA : dat.A 3 = V c (Pipeline.arrRef spec0 3))
    (hafter : ∀ t, dat.after 3 t = blk V c 3 t) (t : Fin cfg0.N) (d) : dat.before 3 t d = blk V c 3 t :=
  (dat.before_in_eq_fetched 3 rfl (fun _ => rfl) (fun _ _ _ => rfl) (fun t => by rw [hafter]; unfold Dat.blockOf blk; rw [hA]; try rfl) t d).trans
    (by unfold Dat.fetched Dat.blockOf blk; rw [hA]; try rfl)

theorem found4 {c : Dev nD} (dat : Dat τ (Elt F) Unit ℕ (UR sig nD τ) ℕ cfg0 c) (hA : dat.A 4 = V c (Pipeline.arrRef spec0 4))
    (hafter : ∀ t, dat.after 4 t = blk V c 4 t) (t : Fin cfg0.N) (d) : dat.before 4 t d = blk V c 4 t :=
  (dat.before_in_eq_fetched 4 rfl (fun _ => rfl) (fun _ _ _ => rfl) (fun t => by rw [hafter]; unfold Dat.blockOf blk; rw [hA]; try rfl) t d).trans
    (by unfold Dat.fetched Dat.blockOf blk; rw [hA]; try rfl)

theorem found5 {c : Dev nD} (dat : Dat τ (Elt F) Unit ℕ (UR sig nD τ) ℕ cfg0 c) (hA : dat.A 5 = V c (Pipeline.arrRef spec0 5))
    (hafter : ∀ t, dat.after 5 t = blk V c 5 t) (t : Fin cfg0.N) (d) : dat.before 5 t d = blk V c 5 t :=
  (dat.before_in_eq_fetched 5 rfl (fun _ => rfl) (fun _ _ _ => rfl) (fun t => by rw [hafter]; unfold Dat.blockOf blk; rw [hA]; try rfl) t d).trans
    (by unfold Dat.fetched Dat.blockOf blk; rw [hA]; try rfl)

theorem found6 {c : Dev nD} (dat : Dat τ (Elt F) Unit ℕ (UR sig nD τ) ℕ cfg0 c) (hA : dat.A 6 = V c (Pipeline.arrRef spec0 6))
    (hafter : ∀ t, dat.after 6 t = blk V c 6 t) (t : Fin cfg0.N) (d) : dat.before 6 t d = blk V c 6 t :=
  (dat.before_in_eq_fetched 6 rfl (fun _ => rfl) (fun _ _ _ => rfl) (fun t => by rw [hafter]; unfold Dat.blockOf blk; rw [hA]; try rfl) t d).trans
    (by unfold Dat.fetched Dat.blockOf blk; rw [hA]; try rfl)

/-! ## The proof data -/

/-- The pipeline's proof data on core `c`: the arrays as the region finds them; after the body at point `t` each
    input's buffer at its block and the output's at `outBlk` of the input blocks; the kernel keeps nothing between
    points, signals no one and owes nothing. -/
def dat (c : Dev nD) : Dat τ (Elt F) Unit ℕ (UR sig nD τ) ℕ cfg0 c where
  A w := V c (Pipeline.arrRef spec0 w)
  after w t := match w with
    | ⟨0, _⟩ => blk V c 0 t
    | ⟨1, _⟩ => blk V c 1 t
    | ⟨2, _⟩ => blk V c 2 t
    | ⟨3, _⟩ => blk V c 3 t
    | ⟨4, _⟩ => blk V c 4 t
    | ⟨5, _⟩ => blk V c 5 t
    | ⟨6, _⟩ => blk V c 6 t
    | ⟨7, _⟩ => outBlk (blk V c 0 t) (blk V c 1 t) (blk V c 2 t) (blk V c 3 t) (blk V c 4 t) (blk V c 5 t) (blk V c 6 t)
  Φ _ := Pipeline.ΦA spec0 c
  q _ := fullShare
  owed _ := 0

theorem dat_A (c : Dev nD) (w : Fin cfg0.W) : (dat V c).A w = V c (Pipeline.arrRef spec0 w) := by
  dsimp only [dat]

theorem after0 (c : Dev nD) (t : Fin cfg0.N) : (dat V c).after 0 t = blk V c 0 t := by dsimp only [dat]
theorem after1 (c : Dev nD) (t : Fin cfg0.N) : (dat V c).after 1 t = blk V c 1 t := by dsimp only [dat]
theorem after2 (c : Dev nD) (t : Fin cfg0.N) : (dat V c).after 2 t = blk V c 2 t := by dsimp only [dat]
theorem after3 (c : Dev nD) (t : Fin cfg0.N) : (dat V c).after 3 t = blk V c 3 t := by dsimp only [dat]
theorem after4 (c : Dev nD) (t : Fin cfg0.N) : (dat V c).after 4 t = blk V c 4 t := by dsimp only [dat]
theorem after5 (c : Dev nD) (t : Fin cfg0.N) : (dat V c).after 5 t = blk V c 5 t := by dsimp only [dat]
theorem after6 (c : Dev nD) (t : Fin cfg0.N) : (dat V c).after 6 t = blk V c 6 t := by dsimp only [dat]
theorem after7 (c : Dev nD) (t : Fin cfg0.N) :
    (dat V c).after 7 t = outBlk (blk V c 0 t) (blk V c 1 t) (blk V c 2 t) (blk V c 3 t) (blk V c 4 t) (blk V c 5 t) (blk V c 6 t) := by
  dsimp only [dat]

theorem before0 (c : Dev nD) (t : Fin cfg0.N) (d) : (dat V c).before 0 t d = blk V c 0 t :=
  found0 V (dat V c) (dat_A V c 0) (after0 V c) t d
theorem before1 (c : Dev nD) (t : Fin cfg0.N) (d) : (dat V c).before 1 t d = blk V c 1 t :=
  found1 V (dat V c) (dat_A V c 1) (after1 V c) t d
theorem before2 (c : Dev nD) (t : Fin cfg0.N) (d) : (dat V c).before 2 t d = blk V c 2 t :=
  found2 V (dat V c) (dat_A V c 2) (after2 V c) t d
theorem before3 (c : Dev nD) (t : Fin cfg0.N) (d) : (dat V c).before 3 t d = blk V c 3 t :=
  found3 V (dat V c) (dat_A V c 3) (after3 V c) t d
theorem before4 (c : Dev nD) (t : Fin cfg0.N) (d) : (dat V c).before 4 t d = blk V c 4 t :=
  found4 V (dat V c) (dat_A V c 4) (after4 V c) t d
theorem before5 (c : Dev nD) (t : Fin cfg0.N) (d) : (dat V c).before 5 t d = blk V c 5 t :=
  found5 V (dat V c) (dat_A V c 5) (after5 V c) t d
theorem before6 (c : Dev nD) (t : Fin cfg0.N) (d) : (dat V c).before 6 t d = blk V c 6 t :=
  found6 V (dat V c) (dat_A V c 6) (after6 V c) t d

/-! ## The body obligation -/

/-- What the body is called with at point `t`, the windows one by one, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d))
    ∗ (∃ d, owns (c : Thread nD τ) (st0_4 t) fullShare ((dat V c).before 4 t d))
    ∗ (∃ d, owns (c : Thread nD τ) (st0_5 t) fullShare ((dat V c).before 5 t d))
    ∗ (∃ d, owns (c : Thread nD τ) (st0_6 t) fullShare ((dat V c).before 6 t d))
    ∗ (∃ d, owns (c : Thread nD τ) (st0_7 t) fullShare ((dat V c).before 7 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t)
    ∗ owns (c : Thread nD τ) (st0_4 t) fullShare ((dat V c).after 4 t)
    ∗ owns (c : Thread nD τ) (st0_5 t) fullShare ((dat V c).after 5 t)
    ∗ owns (c : Thread nD τ) (st0_6 t) fullShare ((dat V c).after 6 t)
    ∗ owns (c : Thread nD τ) (st0_7 t) fullShare ((dat V c).after 7 t))

/-- The body at any point: the inputs' memrefs hold their blocks, so the body's triple applies; the invariant and the
    core's dues pass through unread. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0, before1, before2, before3, before4, before5, before6]
  rw [show (dat V c).Φ t.succ = (dat V c).Φ t.castSucc from rfl,
    show (dat V c).owesAt () t.succ = (dat V c).owesAt () t.castSucc from rfl,
    after0, after1, after2, after3, after4, after5, after6, after7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (body_triple c Set.univ _ _ _ _ _ _ _ _ _ _ _ _ _ _ _ _ _ (blk V c 0 t) (blk V c 1 t) (blk V c 2 t) (blk V c 3 t) (blk V c 4 t) (blk V c 5 t) (blk V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation (c : Dev nD) : BodyObligation (dat (F := F) V c) (defs₀ (F := F)) Variants.none () Set.univ := fun t => by
  rw [bigSep_W0, bigSep_W0]
  exact sound_body V c t

end Cert.KernelIdeal.Hop0

end
-- ==== Proof.KernelIdeal.Hop1.lean ====
import proofs.«401558_j47940424958092_2_alg».proof.Proof.Gen.KernelIdeal.Launch
import proofs.«401558_j47940424958092_2_alg».proof.Proof.Gen.KernelIdeal.Skeleton
import proofs.«401558_j47940424958092_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

/-! The second hop's kernel region, at any float instance: a grid of 64 points, point `t` taking rows
    `4096 t … 4096 t + 4095` of the node features and of the two aggregated neighbour arrays, the three weight
    matrices and the bias row whole, and writing the same rows of the new features. The body loads its seven input
    blocks whole, computes one value from them and stores it over the whole output block; so the output block after
    the body is that value of the seven input blocks, whatever the block held before. -/
namespace Cert.KernelIdeal.Hop1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the region is entered, per core
variable (V : (c : Dev nD) → (b : Ref sig .tc) → Buf (Elt F) ((c : Thread nD τ).loc b))

/-- Window `w`'s block at point `t`, read off its array as the region finds it. -/
def blk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The whole-block rectangles of the three block shapes. -/
abbrev rRows : Rect S4096x256 := Rect.unit (s := S4096x256) ![0, 0] S4096x256.size inb_S4096x256_S4096x256_0_0
abbrev rMat : Rect S256x256 := Rect.unit (s := S256x256) ![0, 0] S256x256.size inb_S256x256_S256x256_0_0
abbrev rRow : Rect S1x256 := Rect.unit (s := S1x256) ![0, 0] S1x256.size inb_S1x256_S1x256_0_0

/-- The output block after the body, from the seven input blocks: its one store, over the whole block. -/
def outBlk (x0 x1 x2 : Vec F S4096x256 .f32) (x3 x4 x5 : Vec F S256x256 .f32) (x6 : Vec F S1x256 .f32) : Vec F S4096x256 .f32 :=
  View.canon [⟨rRows, k1_pay1 (View.ld x0 rRows) (View.ld x1 rRows) (View.ld x2 rRows) (View.ld x3 rMat) (View.ld x4 rMat) (View.ld x5 rMat) (View.ld x6 rRow)⟩]

/-- The one store covers the block. -/
theorem outBlk_cover (p0 : Vec F S4096x256 .f32) (y : S4096x256.Idx) :
    ∃ pc ∈ ([⟨rRows, p0⟩] : List (View.Piece (Elt F) S4096x256 .f32)), y ∈ pc.1.set :=
  View.cover_of_tiled [⟨rRows, p0⟩] S4096x256.size (by rfl) y

set_option maxHeartbeats 4000000 in
/-- The body on whole staging memrefs — the inputs' at contents `x0 … x6`, the output's at anything — runs to the
    continuation with the inputs' as they were and the output's at `outBlk` of the inputs'. -/
theorem body_triple (c : Dev nD) (E : Set ℕ) (i : grid1.Coords)
    (a1 : Memref sig .tc .vmem S4096x256 .f32) (h1 : a1.IsWhole) (a2 : Memref sig .tc .vmem S4096x256 .f32) (h2 : a2.IsWhole)
    (a3 : Memref sig .tc .vmem S4096x256 .f32) (h3 : a3.IsWhole) (a4 : Memref sig .tc .vmem S256x256 .f32) (h4 : a4.IsWhole)
    (a5 : Memref sig .tc .vmem S256x256 .f32) (h5 : a5.IsWhole) (a6 : Memref sig .tc .vmem S256x256 .f32) (h6 : a6.IsWhole)
    (a7 : Memref sig .tc .vmem S1x256 .f32) (h7 : a7.IsWhole) (a8 : Memref sig .tc .vmem S4096x256 .f32) (h8 : a8.IsWhole)
    (x0 x1 x2 : Vec F S4096x256 .f32) (x3 x4 x5 : Vec F S256x256 .f32) (x6 : Vec F S1x256 .f32) (K : PUnit → sProp 𝕄) :
    iprop(owns (c : Thread nD τ) a1 fullShare x0 ∗ owns (c : Thread nD τ) a2 fullShare x1 ∗ owns (c : Thread nD τ) a3 fullShare x2
        ∗ owns (c : Thread nD τ) a4 fullShare x3 ∗ owns (c : Thread nD τ) a5 fullShare x4 ∗ owns (c : Thread nD τ) a6 fullShare x5
        ∗ owns (c : Thread nD τ) a7 fullShare x6 ∗ (∃ d, owns (c : Thread nD τ) a8 fullShare d)
        ∗ (iprop(owns (c : Thread nD τ) a1 fullShare x0 ∗ owns (c : Thread nD τ) a2 fullShare x1 ∗ owns (c : Thread nD τ) a3 fullShare x2
            ∗ owns (c : Thread nD τ) a4 fullShare x3 ∗ owns (c : Thread nD τ) a5 fullShare x4 ∗ owns (c : Thread nD τ) a6 fullShare x5
            ∗ owns (c : Thread nD τ) a7 fullShare x6 ∗ owns (c : Thread nD τ) a8 fullShare (outBlk x0 x1 x2 x3 x4 x5 x6)) -∗ K ⟨⟩))
      ⊢ wp frame (wpE (defs₀ (F := F)) Variants.none c none) E (cc1__fused_hop_kernel i a1 h1 a2 h2 a3 h3 a4 h4 a5 h5 a6 h6 a7 h7 a8 h8) K := by
  simp only [cc1__fused_hop_kernel_eq_skeleton]; unfold cc1__fused_hop_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (outBlk_cover _)

/-! ## The staging buffers at a point

An input window's current staging buffer holds its block at every point, whether the point fetched it or not: the
three row windows are fetched at every point, the weights and the bias once, and their block index never moves. -/

theorem found0 {c : Dev nD} (dat : Dat τ (Elt F) Unit ℕ (UR sig nD τ) ℕ cfg1 c) (hA : dat.A 0 = V c (Pipeline.arrRef spec1 0))
    (hafter : ∀ t, dat.after 0 t = blk V c 0 t) (t : Fin cfg1.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)

theorem found1 {c : Dev nD} (dat : Dat τ (Elt F) Unit ℕ (UR sig nD τ) ℕ cfg1 c) (hA : dat.A 1 = V c (Pipeline.arrRef spec1 1))
    (hafter : ∀ t, dat.after 1 t = blk V c 1 t) (t : Fin cfg1.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)

theorem found2 {c : Dev nD} (dat : Dat τ (Elt F) Unit ℕ (UR sig nD τ) ℕ cfg1 c) (hA : dat.A 2 = V c (Pipeline.arrRef spec1 2))
    (hafter : ∀ t, dat.after 2 t = blk V c 2 t) (t : Fin cfg1.N) (d) : dat.before 2 t d = blk V c 2 t :=
  (dat.before_in_eq_fetched 2 rfl (fun _ => rfl) (fun _ _ _ => rfl) (fun t => by rw [hafter]; unfold Dat.blockOf blk; rw [hA]; try rfl) t d).trans
    (by unfold Dat.fetched Dat.blockOf blk; rw [hA]; try rfl)

theorem found3 {c : Dev nD} (dat : Dat τ (Elt F) Unit ℕ (UR sig nD τ) ℕ cfg1 c) (hA : dat.A 3 = V c (Pipeline.arrRef spec1 3))
    (hafter : ∀ t, dat.after 3 t = blk V c 3 t) (t : Fin cfg1.N) (d) : dat.before 3 t d = blk V c 3 t :=
  (dat.before_in_eq_fetched 3 rfl (fun _ => rfl) (fun _ _ _ => rfl) (fun t => by rw [hafter]; unfold Dat.blockOf blk; rw [hA]; try rfl) t d).trans
    (by unfold Dat.fetched Dat.blockOf blk; rw [hA]; try rfl)

theorem found4 {c : Dev nD} (dat : Dat τ (Elt F) Unit ℕ (UR sig nD τ) ℕ cfg1 c) (hA : dat.A 4 = V c (Pipeline.arrRef spec1 4))
    (hafter : ∀ t, dat.after 4 t = blk V c 4 t) (t : Fin cfg1.N) (d) : dat.before 4 t d = blk V c 4 t :=
  (dat.before_in_eq_fetched 4 rfl (fun _ => rfl) (fun _ _ _ => rfl) (fun t => by rw [hafter]; unfold Dat.blockOf blk; rw [hA]; try rfl) t d).trans
    (by unfold Dat.fetched Dat.blockOf blk; rw [hA]; try rfl)

theorem found5 {c : Dev nD} (dat : Dat τ (Elt F) Unit ℕ (UR sig nD τ) ℕ cfg1 c) (hA : dat.A 5 = V c (Pipeline.arrRef spec1 5))
    (hafter : ∀ t, dat.after 5 t = blk V c 5 t) (t : Fin cfg1.N) (d) : dat.before 5 t d = blk V c 5 t :=
  (dat.before_in_eq_fetched 5 rfl (fun _ => rfl) (fun _ _ _ => rfl) (fun t => by rw [hafter]; unfold Dat.blockOf blk; rw [hA]; try rfl) t d).trans
    (by unfold Dat.fetched Dat.blockOf blk; rw [hA]; try rfl)

theorem found6 {c : Dev nD} (dat : Dat τ (Elt F) Unit ℕ (UR sig nD τ) ℕ cfg1 c) (hA : dat.A 6 = V c (Pipeline.arrRef spec1 6))
    (hafter : ∀ t, dat.after 6 t = blk V c 6 t) (t : Fin cfg1.N) (d) : dat.before 6 t d = blk V c 6 t :=
  (dat.before_in_eq_fetched 6 rfl (fun _ => rfl) (fun _ _ _ => rfl) (fun t => by rw [hafter]; unfold Dat.blockOf blk; rw [hA]; try rfl) t d).trans
    (by unfold Dat.fetched Dat.blockOf blk; rw [hA]; try rfl)

/-! ## The proof data -/

/-- The pipeline's proof data on core `c`: the arrays as the region finds them; after the body at point `t` each
    input's buffer at its block and the output's at `outBlk` of the input blocks; the kernel keeps nothing between
    points, signals no one and owes nothing. -/
def dat (c : Dev nD) : Dat τ (Elt F) Unit ℕ (UR sig nD τ) ℕ cfg1 c where
  A w := V c (Pipeline.arrRef spec1 w)
  after w t := match w with
    | ⟨0, _⟩ => blk V c 0 t
    | ⟨1, _⟩ => blk V c 1 t
    | ⟨2, _⟩ => blk V c 2 t
    | ⟨3, _⟩ => blk V c 3 t
    | ⟨4, _⟩ => blk V c 4 t
    | ⟨5, _⟩ => blk V c 5 t
    | ⟨6, _⟩ => blk V c 6 t
    | ⟨7, _⟩ => outBlk (blk V c 0 t) (blk V c 1 t) (blk V c 2 t) (blk V c 3 t) (blk V c 4 t) (blk V c 5 t) (blk V c 6 t)
  Φ _ := Pipeline.ΦA spec1 c
  q _ := fullShare
  owed _ := 0

theorem dat_A (c : Dev nD) (w : Fin cfg1.W) : (dat V c).A w = V c (Pipeline.arrRef spec1 w) := by
  dsimp only [dat]

theorem after0 (c : Dev nD) (t : Fin cfg1.N) : (dat V c).after 0 t = blk V c 0 t := by dsimp only [dat]
theorem after1 (c : Dev nD) (t : Fin cfg1.N) : (dat V c).after 1 t = blk V c 1 t := by dsimp only [dat]
theorem after2 (c : Dev nD) (t : Fin cfg1.N) : (dat V c).after 2 t = blk V c 2 t := by dsimp only [dat]
theorem after3 (c : Dev nD) (t : Fin cfg1.N) : (dat V c).after 3 t = blk V c 3 t := by dsimp only [dat]
theorem after4 (c : Dev nD) (t : Fin cfg1.N) : (dat V c).after 4 t = blk V c 4 t := by dsimp only [dat]
theorem after5 (c : Dev nD) (t : Fin cfg1.N) : (dat V c).after 5 t = blk V c 5 t := by dsimp only [dat]
theorem after6 (c : Dev nD) (t : Fin cfg1.N) : (dat V c).after 6 t = blk V c 6 t := by dsimp only [dat]
theorem after7 (c : Dev nD) (t : Fin cfg1.N) :
    (dat V c).after 7 t = outBlk (blk V c 0 t) (blk V c 1 t) (blk V c 2 t) (blk V c 3 t) (blk V c 4 t) (blk V c 5 t) (blk V c 6 t) := by
  dsimp only [dat]

theorem before0 (c : Dev nD) (t : Fin cfg1.N) (d) : (dat V c).before 0 t d = blk V c 0 t :=
  found0 V (dat V c) (dat_A V c 0) (after0 V c) t d
theorem before1 (c : Dev nD) (t : Fin cfg1.N) (d) : (dat V c).before 1 t d = blk V c 1 t :=
  found1 V (dat V c) (dat_A V c 1) (after1 V c) t d
theorem before2 (c : Dev nD) (t : Fin cfg1.N) (d) : (dat V c).before 2 t d = blk V c 2 t :=
  found2 V (dat V c) (dat_A V c 2) (after2 V c) t d
theorem before3 (c : Dev nD) (t : Fin cfg1.N) (d) : (dat V c).before 3 t d = blk V c 3 t :=
  found3 V (dat V c) (dat_A V c 3) (after3 V c) t d
theorem before4 (c : Dev nD) (t : Fin cfg1.N) (d) : (dat V c).before 4 t d = blk V c 4 t :=
  found4 V (dat V c) (dat_A V c 4) (after4 V c) t d
theorem before5 (c : Dev nD) (t : Fin cfg1.N) (d) : (dat V c).before 5 t d = blk V c 5 t :=
  found5 V (dat V c) (dat_A V c 5) (after5 V c) t d
theorem before6 (c : Dev nD) (t : Fin cfg1.N) (d) : (dat V c).before 6 t d = blk V c 6 t :=
  found6 V (dat V c) (dat_A V c 6) (after6 V c) t d

/-! ## The body obligation -/

/-- What the body is called with at point `t`, the windows one by one, -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d))
    ∗ (∃ d, owns (c : Thread nD τ) (st1_4 t) fullShare ((dat V c).before 4 t d))
    ∗ (∃ d, owns (c : Thread nD τ) (st1_5 t) fullShare ((dat V c).before 5 t d))
    ∗ (∃ d, owns (c : Thread nD τ) (st1_6 t) fullShare ((dat V c).before 6 t d))
    ∗ (∃ d, owns (c : Thread nD τ) (st1_7 t) fullShare ((dat V c).before 7 t d)))

/-- and what it returns. -/
def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t)
    ∗ owns (c : Thread nD τ) (st1_3 t) fullShare ((dat V c).after 3 t)
    ∗ owns (c : Thread nD τ) (st1_4 t) fullShare ((dat V c).after 4 t)
    ∗ owns (c : Thread nD τ) (st1_5 t) fullShare ((dat V c).after 5 t)
    ∗ owns (c : Thread nD τ) (st1_6 t) fullShare ((dat V c).after 6 t)
    ∗ owns (c : Thread nD τ) (st1_7 t) fullShare ((dat V c).after 7 t))

/-- The body at any point: the inputs' memrefs hold their blocks, so the body's triple applies; the invariant and the
    core's dues pass through unread. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before0, before1, before2, before3, before4, before5, before6]
  rw [show (dat V c).Φ t.succ = (dat V c).Φ t.castSucc from rfl,
    show (dat V c).owesAt () t.succ = (dat V c).owesAt () t.castSucc from rfl,
    after0, after1, after2, after3, after4, after5, after6, after7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (body_triple c Set.univ _ _ _ _ _ _ _ _ _ _ _ _ _ _ _ _ _ (blk V c 0 t) (blk V c 1 t) (blk V c 2 t) (blk V c 3 t) (blk V c 4 t) (blk V c 5 t) (blk V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation (c : Dev nD) : BodyObligation (dat (F := F) V c) (defs₀ (F := F)) Variants.none () Set.univ := fun t => by
  rw [bigSep_W1, bigSep_W1]
  exact sound_body V c t

end Cert.KernelIdeal.Hop1

end
-- ==== Proof.KernelIdeal.Pool.lean ====
import proofs.«401558_j47940424958092_2_alg».proof.Proof.Gen.KernelIdeal.Launch
import proofs.«401558_j47940424958092_2_alg».proof.Proof.Gen.KernelIdeal.Skeleton
import proofs.«401558_j47940424958092_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

/-! The pooling kernel's region, at any float instance: a grid of 2 × 32 points; point `t` takes block `t` (4096 rows)
    of the node features and of the graph numbers. A scratch accumulator is carried from point to point: the first point
    of each half (`t % 32 = 0`) restarts it from zero, every point adds its block's one-hot product, and the last point of
    each half (`t % 32 = 31`) copies it into the half's output block, which is written back only then. -/
namespace Cert.KernelIdeal.Pool

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body, case by case -/

abbrev rH : Rect S4096x256 := Rect.unit (s := S4096x256) ![0, 0] S4096x256.size inb_S4096x256_S4096x256_0_0
abbrev rG : Rect S4096x1 := Rect.unit (s := S4096x1) ![0, 0] S4096x1.size inb_S4096x1_S4096x1_0_0
abbrev rS : Rect S512x256 := Rect.unit (s := S512x256) ![0, 0] S512x256.size inb_S512x256_S512x256_0_0
abbrev rO : Rect S1x512x256 := Rect.unit (s := S1x512x256) ![0, 0, 0] S1x512x256.size inb_S1x512x256_S1x512x256_0_0_0

/-- The first branch's condition over the grid point: the inner coordinate is zero. -/
def cond1 (i : grid2.Coords) : BitVec 1 :=
  Scalar.cmpi .ne (Scalar.extui (Scalar.cmpi .eq (BitVec.ofNat 32 (i 1).val) 0#32)) 0#32

/-- The accumulator a half starts from. -/
def accZero : Vec F S512x256 .f32 := k2_pay1

/-- One block's update of the accumulator: the feature block `x0`, the graph-number block `x1`, the accumulator `s`. -/
def accStep (x0 : Vec F S4096x256 .f32) (x1 : Vec F S4096x1 .i32) (s : Vec F S512x256 .f32) : Vec F S512x256 .f32 :=
  k2_pay2 x1 x0 s

/-- The output block written from the accumulator. -/
def outOf (s : Vec F S512x256 .f32) : Vec F S1x512x256 .f32 := k2_pay3 s

/-- The zero offsets, as the functions the whole-block lemmas ask for. -/
theorem hz2 : (![0, 0] : Fin 2 → Nat) = fun _ => 0 := by
  funext a; match a with
  | ⟨0, _⟩ => rfl
  | ⟨1, _⟩ => rfl
theorem hz3 : (![0, 0, 0] : Fin 3 → Nat) = fun _ => 0 := by
  funext a; match a with
  | ⟨0, _⟩ => rfl
  | ⟨1, _⟩ => rfl
  | ⟨2, _⟩ => rfl

/-- A store over the whole accumulator covers it, whatever was stored before. -/
theorem cover_rS (p0 : Vec F S512x256 .f32) (L : List (View.Piece (Elt F) S512x256 .f32)) (y : S512x256.Idx) :
    ∃ pc ∈ (⟨rS, p0⟩ :: L : List (View.Piece (Elt F) S512x256 .f32)), y ∈ pc.1.set := by
  obtain ⟨pc, hpc, hy⟩ := View.cover_of_tiled ([⟨rS, p0⟩] : List (View.Piece (Elt F) S512x256 .f32)) S512x256.size (by rfl) y
  rw [List.mem_singleton] at hpc; subst hpc
  exact ⟨_, List.mem_cons_self, hy⟩

theorem cover_rO (p0 : Vec F S1x512x256 .f32) (y : S1x512x256.Idx) :
    ∃ pc ∈ ([⟨rO, p0⟩] : List (View.Piece (Elt F) S1x512x256 .f32)), y ∈ pc.1.set :=
  View.cover_of_tiled [⟨rO, p0⟩] S1x512x256.size (by rfl) y

set_option maxHeartbeats 4000000 in
/-- The first point of a half: the accumulator, whatever it held, ends at one update of zero. The output block is not touched. -/
theorem body_first (c : Dev nD) (E : Set ℕ) (i : grid2.Coords) (hc1 : cond1 i = 1#1) (hc2 : ¬ k2_cond2 i = 1#1)
    (a2 : Memref sig .tc .vmem S4096x256 .f32) (h2 : a2.IsWhole) (a3 : Memref sig .tc .vmem S4096x1 .i32) (h3 : a3.IsWhole)
    (a4 : Memref sig .tc .vmem S1x512x256 .f32) (h4 : a4.IsWhole) (a5 : Memref sig .tc .vmem S512x256 .f32) (h5 : a5.IsWhole)
    (x0 : Vec F S4096x256 .f32) (x1 : Vec F S4096x1 .i32) (K : PUnit → sProp 𝕄) :
    iprop(owns (c : Thread nD τ) a2 fullShare x0 ∗ owns (c : Thread nD τ) a3 fullShare x1 ∗ (∃ s, owns (c : Thread nD τ) a5 fullShare s)
        ∗ (iprop(owns (c : Thread nD τ) a2 fullShare x0 ∗ owns (c : Thread nD τ) a3 fullShare x1
            ∗ owns (c : Thread nD τ) a5 fullShare (accStep x0 x1 accZero)) -∗ K ⟨⟩))
      ⊢ wp frame (wpE (defs₀ (F := F)) Variants.none c none) E (cc2__pool_kernel i a2 h2 a3 h3 a4 h4 a5 h5) K := by
  simp only [cc2__pool_kernel_eq_skeleton]; unfold cc2__pool_kernel_skel
  unfold owns
  iintro ⟨⟨%f0, %hf0, H0⟩, ⟨%f1, %hf1, H1⟩, ⟨%s, %fs, -, Hs⟩, Hk⟩
  subst hf0 hf1
  unfold cond1 at hc1
  sl_exec (disch := first | exact hc1 | exact hc2)
  sl_step
  iapply Hk
  isplitl [H0]
  · iexists f0; isplitr; · ipureintro; rfl
    iexact H0
  isplitl [H1]
  · iexists f1; isplitr; · ipureintro; rfl
    iexact H1
  iexists _; isplitr
  swap; · iexact Hs
  ipureintro
  rw [View.read_writes_eq_canon _ _ _ (cover_rS _ _), View.canon_cons_unit_zero (S := S512x256) hz2]
  sl_unfold_run_names
  simp only [View.readAt_eq_ld, View.ld_unit_zero (S := S4096x256) hz2, View.ld_unit_zero (S := S4096x1) hz2,
    View.readCov_unit_zero (S := S512x256) _ hz2]
  rfl

set_option maxHeartbeats 4000000 in
/-- A point that neither starts nor ends a half: the accumulator gains this block's update. The output block is not touched. -/
theorem body_mid (c : Dev nD) (E : Set ℕ) (i : grid2.Coords) (hc1 : ¬ cond1 i = 1#1) (hc2 : ¬ k2_cond2 i = 1#1)
    (a2 : Memref sig .tc .vmem S4096x256 .f32) (h2 : a2.IsWhole) (a3 : Memref sig .tc .vmem S4096x1 .i32) (h3 : a3.IsWhole)
    (a4 : Memref sig .tc .vmem S1x512x256 .f32) (h4 : a4.IsWhole) (a5 : Memref sig .tc .vmem S512x256 .f32) (h5 : a5.IsWhole)
    (x0 : Vec F S4096x256 .f32) (x1 : Vec F S4096x1 .i32) (s : Vec F S512x256 .f32) (K : PUnit → sProp 𝕄) :
    iprop(owns (c : Thread nD τ) a2 fullShare x0 ∗ owns (c : Thread nD τ) a3 fullShare x1 ∗ owns (c : Thread nD τ) a5 fullShare s
        ∗ (iprop(owns (c : Thread nD τ) a2 fullShare x0 ∗ owns (c : Thread nD τ) a3 fullShare x1
            ∗ owns (c : Thread nD τ) a5 fullShare (accStep x0 x1 s)) -∗ K ⟨⟩))
      ⊢ wp frame (wpE (defs₀ (F := F)) Variants.none c none) E (cc2__pool_kernel i a2 h2 a3 h3 a4 h4 a5 h5) K := by
  simp only [cc2__pool_kernel_eq_skeleton]; unfold cc2__pool_kernel_skel
  unfold owns
  iintro ⟨⟨%f0, %hf0, H0⟩, ⟨%f1, %hf1, H1⟩, ⟨%fs, %hfs, Hs⟩, Hk⟩
  subst hf0 hf1 hfs
  unfold cond1 at hc1
  sl_exec (disch := first | exact hc1 | exact hc2)
  sl_step
  iapply Hk
  isplitl [H0]
  · iexists f0; isplitr; · ipureintro; rfl
    iexact H0
  isplitl [H1]
  · iexists f1; isplitr; · ipureintro; rfl
    iexact H1
  iexists _; isplitr
  swap; · iexact Hs
  ipureintro
  rw [View.read_writes_eq_canon _ _ _ (cover_rS _ _), View.canon_unit_zero (S := S512x256) hz2]
  simp only [View.readAt_eq_ld, View.ld_unit_zero (S := S4096x256) hz2, View.ld_unit_zero (S := S4096x1) hz2,
    View.ld_unit_zero (S := S512x256) hz2]
  rfl

set_option maxHeartbeats 4000000 in
/-- The last point of a half: the accumulator gains this block's update and is copied over the whole output block. -/
theorem body_last (c : Dev nD) (E : Set ℕ) (i : grid2.Coords) (hc1 : ¬ cond1 i = 1#1) (hc2 : k2_cond2 i = 1#1)
    (a2 : Memref sig .tc .vmem S4096x256 .f32) (h2 : a2.IsWhole) (a3 : Memref sig .tc .vmem S4096x1 .i32) (h3 : a3.IsWhole)
    (a4 : Memref sig .tc .vmem S1x512x256 .f32) (h4 : a4.IsWhole) (a5 : Memref sig .tc .vmem S512x256 .f32) (h5 : a5.IsWhole)
    (x0 : Vec F S4096x256 .f32) (x1 : Vec F S4096x1 .i32) (s : Vec F S512x256 .f32) (K : PUnit → sProp 𝕄) :
    iprop(owns (c : Thread nD τ) a2 fullShare x0 ∗ owns (c : Thread nD τ) a3 fullShare x1 ∗ owns (c : Thread nD τ) a5 fullShare s
        ∗ (∃ d, owns (c : Thread nD τ) a4 fullShare d)
        ∗ (iprop(owns (c : Thread nD τ) a2 fullShare x0 ∗ owns (c : Thread nD τ) a3 fullShare x1
            ∗ owns (c : Thread nD τ) a5 fullShare (accStep x0 x1 s) ∗ owns (c : Thread nD τ) a4 fullShare (outOf (accStep x0 x1 s))) -∗ K ⟨⟩))
      ⊢ wp frame (wpE (defs₀ (F := F)) Variants.none c none) E (cc2__pool_kernel i a2 h2 a3 h3 a4 h4 a5 h5) K := by
  simp only [cc2__pool_kernel_eq_skeleton]; unfold cc2__pool_kernel_skel
  unfold owns
  iintro ⟨⟨%f0, %hf0, H0⟩, ⟨%f1, %hf1, H1⟩, ⟨%fs, %hfs, Hs⟩, ⟨%d, %fd, -, Hd⟩, Hk⟩
  subst hf0 hf1 hfs
  unfold cond1 at hc1
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [Hs]
  · iexists _; isplitr
    swap; · iexact Hs
    ipureintro
    sl_unfold_run_names
    rw [View.read_writes_eq_canon _ _ _ (cover_rS _ _), View.canon_unit_zero (S := S512x256) hz2]
    simp only [View.readAt_eq_ld, View.ld_unit_zero (S := S4096x256) hz2, View.ld_unit_zero (S := S4096x1) hz2,
      View.ld_unit_zero (S := S512x256) hz2]
    rfl
  iexists _; isplitr
  swap; · iexact Hd
  ipureintro
  rw [View.read_writes_eq_canon _ _ _ (cover_rO _), View.canon_unit_zero (S := S1x512x256) hz3]
  sl_unfold_run_names
  simp only [View.readAt_eq_ld, View.ld_unit_zero (S := S4096x256) hz2, View.ld_unit_zero (S := S4096x1) hz2,
    View.ld_unit_zero (S := S512x256) hz2, View.readCov_unit_zero (S := S512x256) _ hz2]
  rfl

/-! ## The points

The two branch conditions in closed form over the 64 points. -/

theorem cond1_iff : ∀ t : Fin cfg2.N, cond1 (grid2.coords t) = 1#1 ↔ t.val % 32 = 0 :=
  (by decide +kernel : ∀ t : Fin grid2.N, cond1 (grid2.coords t) = 1#1 ↔ t.val % 32 = 0)

theorem cond2_iff : ∀ t : Fin cfg2.N, k2_cond2 (grid2.coords t) = 1#1 ↔ t.val % 32 = 31 :=
  (by decide +kernel : ∀ t : Fin grid2.N, k2_cond2 (grid2.coords t) = 1#1 ↔ t.val % 32 = 31)

-- the buffers' contents when the region is entered, per core
variable (V : (c : Dev nD) → (b : Ref sig .tc) → Buf (Elt F) ((c : Thread nD τ).loc b))

/-- Window `w`'s block at point `t`, read off its array as the region finds it. -/
def blk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The accumulator after point `n`: restarted from zero where a half begins, else continued from the point before. -/
def acc (c : Dev nD) : (n : ℕ) → n < cfg2.N → Vec F S512x256 .f32
  | 0, h => accStep (blk V c 0 ⟨0, h⟩) (blk V c 1 ⟨0, h⟩) accZero
  | n + 1, h => accStep (blk V c 0 ⟨n + 1, h⟩) (blk V c 1 ⟨n + 1, h⟩)
      (if (n + 1) % 32 = 0 then accZero else acc c n (Nat.lt_of_succ_lt h))

theorem acc_first (c : Dev nD) (t : Fin cfg2.N) (h0 : t.val % 32 = 0) :
    acc V c t.val t.isLt = accStep (blk V c 0 t) (blk V c 1 t) accZero := by
  obtain ⟨n, hn⟩ := t
  cases n with
  | zero => rfl
  | succ n => show accStep _ _ (if (n + 1) % 32 = 0 then accZero else _) = _; rw [if_pos h0]

theorem acc_next (c : Dev nD) (t : Fin cfg2.N) (h0 : ¬ t.val % 32 = 0) :
    acc V c t.val t.isLt = accStep (blk V c 0 t) (blk V c 1 t) (acc V c (t.val - 1) (by omega)) := by
  obtain ⟨n, hn⟩ := t
  cases n with
  | zero => exact absurd rfl h0
  | succ n => show accStep _ _ (if (n + 1) % 32 = 0 then accZero else _) = _; rw [if_neg h0]; rfl

/-! ## The staging buffers at a point -/

theorem found0 {c : Dev nD} (dat : Dat τ (Elt F) Unit ℕ (UR sig nD τ) ℕ cfg2 c) (hA : dat.A 0 = V c (Pipeline.arrRef spec2 0))
    (hafter : ∀ t, dat.after 0 t = blk V c 0 t) (t : Fin cfg2.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)

theorem found1 {c : Dev nD} (dat : Dat τ (Elt F) Unit ℕ (UR sig nD τ) ℕ cfg2 c) (hA : dat.A 1 = V c (Pipeline.arrRef spec2 1))
    (hafter : ∀ t, dat.after 1 t = blk V c 1 t) (t : Fin cfg2.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)

/-! ## The invariant and the proof data -/

/-- The region's invariant before position `k`: the scratch accumulator whole, at what the point before left in it
    (before the first point: at anything); every other scoped buffer unopened; the generator register at some state. -/
def Phi (c : Dev nD) (k : Fin (cfg2.N + 1)) : sProp 𝕄 :=
  iprop((∃ f : Buf (Elt F) ((c : Thread nD τ).loc cc2_scratch0),
      ⌜∀ h : 0 < k.val, f = acc V c (k.val - 1) (by have := k.isLt; omega)⌝ ∗ (((c : Thread nD τ).loc cc2_scratch0) ↦{fullShare} f))
    ∗ Pipeline.scopedRestBut (Ix := Unit) (Name := ℕ) (U := UR sig nD τ) (Lvl := ℕ) (Val := Elt F) spec2 c [cc2_scratch0]
    ∗ ∃ r, prngReg c r)

/-- The pipeline's proof data on core `c`: the arrays as the region finds them; after the body at point `t` each
    input's buffer at its block and the output's at the accumulator then (read only where the block is written back);
    the invariant above; the kernel signals no one and owes nothing. -/
def dat (c : Dev nD) : Dat τ (Elt F) Unit ℕ (UR sig nD τ) ℕ cfg2 c where
  A w := V c (Pipeline.arrRef spec2 w)
  after w t := match w with
    | ⟨0, _⟩ => blk V c 0 t
    | ⟨1, _⟩ => blk V c 1 t
    | ⟨2, _⟩ => outOf (acc V c t.val t.isLt)
  Φ k := Phi V c k
  q _ := fullShare
  owed _ := 0

theorem dat_A (c : Dev nD) (w : Fin cfg2.W) : (dat V c).A w = V c (Pipeline.arrRef spec2 w) := by
  dsimp only [dat]
theorem after0 (c : Dev nD) (t : Fin cfg2.N) : (dat V c).after 0 t = blk V c 0 t := by dsimp only [dat]
theorem after1 (c : Dev nD) (t : Fin cfg2.N) : (dat V c).after 1 t = blk V c 1 t := by dsimp only [dat]
theorem after2 (c : Dev nD) (t : Fin cfg2.N) : (dat V c).after 2 t = outOf (acc V c t.val t.isLt) := by dsimp only [dat]
theorem before0 (c : Dev nD) (t : Fin cfg2.N) (d) : (dat V c).before 0 t d = blk V c 0 t :=
  found0 V (dat V c) (dat_A V c 0) (after0 V c) t d
theorem before1 (c : Dev nD) (t : Fin cfg2.N) (d) : (dat V c).before 1 t d = blk V c 1 t :=
  found1 V (dat V c) (dat_A V c 1) (after1 V c) t d

/-! ## The body obligation -/

/-- What the body is called with at point `t`, the windows one by one, -/
def bodyPre (c : Dev nD) (t : Fin cfg2.N) : sProp 𝕄 :=
  iprop((dat V c).Φ t.castSucc ∗ (dat V c).owesAt () t.castSucc
    ∗ (∃ d, owns (c : Thread nD τ) (st2_0 t) fullShare ((dat V c).before 0 t d))
    ∗ (∃ d, owns (c : Thread nD τ) (st2_1 t) fullShare ((dat V c).before 1 t d))
    ∗ (∃ d, owns (c : Thread nD τ) (st2_2 t) fullShare ((dat V c).before 2 t d)))

/-- What the body leaves of the output window's buffer: as found at a point that does not write it back, else copied from
    the accumulator. -/
def post2 (c : Dev nD) (t : Fin cfg2.N) : sProp 𝕄 :=
  match cfg2.idle 2 (cfg2.grid.coords t) with
  | true =>
    match (cfg2.win 2).flush t with
    | false => iprop(∃ d, owns (c : Thread nD τ) (st2_2 t) fullShare ((dat V c).before 2 t d))
    | true => owns (c : Thread nD τ) (st2_2 t) fullShare ((dat V c).after 2 t)
  | false => owns (c : Thread nD τ) (st2_2 t) fullShare ((dat V c).after 2 t)

/-- and what it returns. -/
def bodyPost (c : Dev nD) (t : Fin cfg2.N) : sProp 𝕄 :=
  iprop((dat V c).Φ t.succ ∗ (dat V c).owesAt () t.succ
    ∗ owns (c : Thread nD τ) (st2_0 t) fullShare ((dat V c).after 0 t)
    ∗ owns (c : Thread nD τ) (st2_1 t) fullShare ((dat V c).after 1 t)
    ∗ post2 V c t)

theorem idle_iff (t : Fin cfg2.N) : cfg2.idle 2 (cfg2.grid.coords t) = true ↔ ¬ t.val % 32 = 31 := by
  show (!(k2_cond2 (grid2.coords t) == 1#1)) = true ↔ _
  rw [← cond2_iff t]
  by_cases h : k2_cond2 (grid2.coords t) = 1#1 <;> simp [h]

theorem post2_not_last (c : Dev nD) (t : Fin cfg2.N) (hl : ¬ t.val % 32 = 31) :
    post2 V c t = iprop(∃ d, owns (c : Thread nD τ) (st2_2 t) fullShare ((dat V c).before 2 t d)) := by
  unfold post2
  split
  · split
    · rfl
    · rename_i hfl; exact absurd ((flush2_2 t).mp hfl) hl
  · rename_i hid
    have := (idle_iff t).mpr hl
    exact Bool.noConfusion (hid.symm.trans this)

theorem post2_last (c : Dev nD) (t : Fin cfg2.N) (hl : t.val % 32 = 31) :
    post2 V c t = owns (c : Thread nD τ) (st2_2 t) fullShare ((dat V c).after 2 t) := by
  unfold post2
  split
  · rename_i hid; exact absurd hl ((idle_iff t).mp hid)
  · rfl

set_option maxHeartbeats 2000000 in
/-- The body at any point, by the point's place in its half. -/
theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before0, before1]
  rw [show (dat V c).owesAt () t.succ = (dat V c).owesAt () t.castSucc from rfl, after0, after1,
    show (dat V c).Φ t.castSucc = Phi V c t.castSucc from rfl, show (dat V c).Φ t.succ = Phi V c t.succ from rfl]
  unfold Phi
  have toOwns : ∀ f : Buf (Elt F) ((c : Thread nD τ).loc cc2_scratch0),
      ((((c : Thread nD τ).loc cc2_scratch0) ↦{fullShare} f : sProp 𝕄)) ⊢ owns (c : Thread nD τ) (Memref.whole cc2_scratch0) fullShare f :=
    fun f => Entails.of_eq (owns_whole (c : Thread nD τ) cc2_scratch0 fullShare f).symm
  have ofOwns : ∀ f : Buf (Elt F) ((c : Thread nD τ).loc cc2_scratch0),
      (owns (c : Thread nD τ) (Memref.whole cc2_scratch0) fullShare f : sProp 𝕄) ⊢ (((c : Thread nD τ).loc cc2_scratch0) ↦{fullShare} f) :=
    fun f => Entails.of_eq (owns_whole (c : Thread nD τ) cc2_scratch0 fullShare f)
  by_cases h0 : t.val % 32 = 0
  · -- a half's first point
    have hl : ¬ t.val % 32 = 31 := by omega
    rw [post2_not_last V c t hl]
    iintro ⟨⟨⟨%f, %hf, Hs⟩, Hrest, Hg⟩, Ho, ⟨%d0, H0⟩, ⟨%d1, H1⟩, ⟨%d2, H2⟩⟩
    iapply (body_first c Set.univ (grid2.coords t) ((cond1_iff t).mpr h0) (fun e => hl ((cond2_iff t).mp e)) _ _ _ _ _ _ _ _ (blk V c 0 t) (blk V c 1 t) _)
    isplitl [H0]; · iexact H0
    isplitl [H1]; · iexact H1
    isplitl [Hs]; · iexists _; iapply (toOwns f); iexact Hs
    iintro ⟨H0, H1, Hs⟩
    isplitl [Hs Hrest Hg]
    · isplitl [Hs]
      · iexists _; isplitr
        swap; · iapply (ofOwns _); iexact Hs
        ipureintro; intro _
        simp only [Fin.val_succ, Nat.add_sub_cancel]
        exact (acc_first V c t h0).symm
      isplitl [Hrest]; · iexact Hrest
      iexact Hg
    isplitl [Ho]; · iexact Ho
    isplitl [H0]; · iexact H0
    isplitl [H1]; · iexact H1
    iexists _; iexact H2
  · have hpos : 0 < (t.castSucc : Fin (cfg2.N + 1)).val := by rw [Fin.coe_castSucc]; omega
    by_cases hl : t.val % 32 = 31
    · -- a half's last point
      rw [post2_last V c t hl, after2]
      iintro ⟨⟨⟨%f, %hf, Hs⟩, Hrest, Hg⟩, Ho, ⟨%d0, H0⟩, ⟨%d1, H1⟩, ⟨%d2, H2⟩⟩
      have hf' := hf hpos
      simp only [Fin.coe_castSucc] at hf'
      subst hf'
      iapply (body_last c Set.univ (grid2.coords t) (fun e => h0 ((cond1_iff t).mp e)) ((cond2_iff t).mpr hl) _ _ _ _ _ _ _ _ (blk V c 0 t) (blk V c 1 t) _ _)
      isplitl [H0]; · iexact H0
      isplitl [H1]; · iexact H1
      isplitl [Hs]; · iapply (toOwns _); iexact Hs
      isplitl [H2]; · iexists _; iexact H2
      iintro ⟨H0, H1, Hs, H2⟩
      isplitl [Hs Hrest Hg]
      · isplitl [Hs]
        · iexists _; isplitr
          swap; · iapply (ofOwns _); iexact Hs
          ipureintro; intro _
          simp only [Fin.val_succ, Nat.add_sub_cancel]
          exact (acc_next V c t h0).symm
        isplitl [Hrest]; · iexact Hrest
        iexact Hg
      isplitl [Ho]; · iexact Ho
      isplitl [H0]; · iexact H0
      isplitl [H1]; · iexact H1
      rw [acc_next V c t h0]; iexact H2
    · -- a point inside a half
      rw [post2_not_last V c t hl]
      iintro ⟨⟨⟨%f, %hf, Hs⟩, Hrest, Hg⟩, Ho, ⟨%d0, H0⟩, ⟨%d1, H1⟩, ⟨%d2, H2⟩⟩
      have hf' := hf hpos
      simp only [Fin.coe_castSucc] at hf'
      subst hf'
      iapply (body_mid c Set.univ (grid2.coords t) (fun e => h0 ((cond1_iff t).mp e)) (fun e => hl ((cond2_iff t).mp e)) _ _ _ _ _ _ _ _ (blk V c 0 t) (blk V c 1 t) _ _)
      isplitl [H0]; · iexact H0
      isplitl [H1]; · iexact H1
      isplitl [Hs]; · iapply (toOwns _); iexact Hs
      iintro ⟨H0, H1, Hs⟩
      isplitl [Hs Hrest Hg]
      · isplitl [Hs]
        · iexists _; isplitr
          swap; · iapply (ofOwns _); iexact Hs
          ipureintro; intro _
          simp only [Fin.val_succ, Nat.add_sub_cancel]
          exact (acc_next V c t h0).symm
        isplitl [Hrest]; · iexact Hrest
        iexact Hg
      isplitl [Ho]; · iexact Ho
      isplitl [H0]; · iexact H0
      isplitl [H1]; · iexact H1
      iexists _; iexact H2

/-- The library's body obligation, at every point. -/
theorem body_obligation (c : Dev nD) : BodyObligation (dat (F := F) V c) (defs₀ (F := F)) Variants.none () Set.univ := fun t => by
  rw [bigSep_W2, bigSep_W2]
  exact sound_body V c t

/-! ## The invariant at the region's ends -/

/-- What the region is handed — the generator register and the scoped buffers no window stages — is the invariant
    before the first point: the scratch's contents there are not named. -/
theorem Phi_in (c : Dev nD) :
    iprop((∃ r, prngReg c r) ∗ Pipeline.scopedRest (Ix := Unit) (Name := ℕ) (U := UR sig nD τ) (Lvl := ℕ) (Val := Elt F) spec2 c)
      ⊢ (Phi V c 0 : sProp 𝕄) := by
  rw [scopedRest2_split]
  unfold Phi
  iintro ⟨Hg, ⟨%f, Hs⟩, Hrest⟩
  isplitl [Hs]
  · iexists f; isplitr
    · ipureintro; intro h; exact absurd h (Nat.lt_irrefl 0)
    iexact Hs
  isplitl [Hrest]; · iexact Hrest
  iexact Hg

/-- After the last point the invariant gives the same back: the accumulator's contents are forgotten. -/
theorem Phi_out (c : Dev nD) (k : Fin (cfg2.N + 1)) :
    (Phi V c k : sProp 𝕄)
      ⊢ iprop((∃ r, prngReg c r) ∗ Pipeline.scopedRest (Ix := Unit) (Name := ℕ) (U := UR sig nD τ) (Lvl := ℕ) (Val := Elt F) spec2 c) := by
  rw [scopedRest2_split]
  unfold Phi
  iintro ⟨⟨%f, -, Hs⟩, Hrest, Hg⟩
  isplitl [Hg]; · iexact Hg
  isplitl [Hs]; · iexists f; iexact Hs
  iexact Hrest

end Cert.KernelIdeal.Pool

end
-- ==== Proof.KernelIdeal.Regs.lean ====
import proofs.«401558_j47940424958092_2_alg».proof.Proof.Gen.KernelIdeal.Regions
import proofs.«401558_j47940424958092_2_alg».proof.Proof.KernelIdeal.Hop0
import proofs.«401558_j47940424958092_2_alg».proof.Proof.KernelIdeal.Hop1
import proofs.«401558_j47940424958092_2_alg».proof.Proof.KernelIdeal.Pool

set_option maxRecDepth 16384

noncomputable section

/-! The three kernel regions as records for the program's run: what each region leaves in its output array (the
    pipeline's write-backs folded), the buffers' contents between @main's items built from those, every pipeline's proof
    data at its region's entry contents, and per region the four entailments around the thread state "every unscoped
    buffer at the boundary's contents, the generator register at some state, nothing owed". -/
namespace Cert.KernelIdeal.Regs

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ)

/-! ## The contents between the items -/

/-- Region 0's entry contents, read at the TensorCore's references. -/
abbrev E0 : (c : Dev nD) → (b : Ref sig .tc) → Buf (Elt F) ((c : Thread nD τ).loc b) := fun c b => V4 m c b
/-- What region 0 leaves in its output array. -/
def o5 (c : Dev nD) : Buf (Elt F) ((c : Thread nD τ).loc main_v18) := (Hop0.dat (E0 m) c).arrAt 7 cfg0.N
abbrev X5 (c : Dev nD) : Valuation τ sig (Elt F) := Function.update (V4 m c) main_v18 (o5 m c)
abbrev X6 (c : Dev nD) : Valuation τ sig (Elt F) := StableHlo.after hostOps1 (X5 m c)
abbrev X7 (c : Dev nD) : Valuation τ sig (Elt F) := StableHlo.after hostOps1_1 (X6 m c)
abbrev X8 (c : Dev nD) : Valuation τ sig (Elt F) := StableHlo.after hostOps1_2 (X7 m c)
/-- Region 1's entry contents. -/
abbrev E1 : (c : Dev nD) → (b : Ref sig .tc) → Buf (Elt F) ((c : Thread nD τ).loc b) := fun c b => X8 m c b
/-- What region 1 leaves in its output array. -/
def o9 (c : Dev nD) : Buf (Elt F) ((c : Thread nD τ).loc main_v36) := (Hop1.dat (E1 m) c).arrAt 7 cfg1.N
abbrev X9 (c : Dev nD) : Valuation τ sig (Elt F) := Function.update (X8 m c) main_v36 (o9 m c)
abbrev X10 (c : Dev nD) : Valuation τ sig (Elt F) := StableHlo.after hostOps2 (X9 m c)
/-- Region 2's entry contents. -/
abbrev E2 : (c : Dev nD) → (b : Ref sig .tc) → Buf (Elt F) ((c : Thread nD τ).loc b) := fun c b => X10 m c b
/-- What region 2 leaves in its output array. -/
def o11 (c : Dev nD) : Buf (Elt F) ((c : Thread nD τ).loc main_v38) := (Pool.dat (E2 m) c).arrAt 2 cfg2.N
abbrev X11 (c : Dev nD) : Valuation τ sig (Elt F) := Function.update (X10 m c) main_v38 (o11 m c)

/-- What the regions leave, in the form the run's valuations take it: read only at (5, main_v18), (9, main_v36), (11, main_v38). -/
def outs : Outs (F := F) := fun j r c => match j with
  | 5 => X5 m c r
  | 9 => X9 m c r
  | _ => X11 m c r

theorem outs5 (c : Dev nD) : outs m 5 main_v18 c = o5 m c := by
  show Function.update (V4 m c) main_v18 (o5 m c) main_v18 = _; exact Function.update_self ..
theorem V5_eq (c : Dev nD) : V5 m (outs m) c = X5 m c := by
  show Function.update (V4 m c) main_v18 (outs m 5 main_v18 c) = _; rw [outs5]
theorem V8_eq (c : Dev nD) : V8 m (outs m) c = X8 m c := by
  show StableHlo.after hostOps1_2 (StableHlo.after hostOps1_1 (StableHlo.after hostOps1 (V5 m (outs m) c))) = _; rw [V5_eq]
theorem outs9 (c : Dev nD) : outs m 9 main_v36 c = o9 m c := by
  show Function.update (X8 m c) main_v36 (o9 m c) main_v36 = _; exact Function.update_self ..
theorem V9_eq (c : Dev nD) : V9 m (outs m) c = X9 m c := by
  show Function.update (V8 m (outs m) c) main_v36 (outs m 9 main_v36 c) = _; rw [outs9, V8_eq]
theorem V10_eq (c : Dev nD) : V10 m (outs m) c = X10 m c := by
  show StableHlo.after hostOps2 (V9 m (outs m) c) = _; rw [V9_eq]
theorem outs11 (c : Dev nD) : outs m 11 main_v38 c = o11 m c := by
  show Function.update (X10 m c) main_v38 (o11 m c) main_v38 = _; exact Function.update_self ..
theorem V11_eq (c : Dev nD) : V11 m (outs m) c = X11 m c := by
  show Function.update (V10 m (outs m) c) main_v38 (outs m 11 main_v38 c) = _; rw [outs11, V10_eq]

/-! ## The proof data family and the thread state -/

/-- Every pipeline's proof data, each at its region's entry contents. -/
def pdats : (p : Fin 3) → (c : Dev nD) → Dat τ (Elt F) Unit ℕ (UR sig nD τ) ℕ (cfgs p) c
  | ⟨0, _⟩ => fun c => Hop0.dat (E0 m) c
  | ⟨1, _⟩ => fun c => Hop1.dat (E1 m) c
  | ⟨2, _⟩ => fun c => Pool.dat (E2 m) c

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the generator register at some state, and nothing owed. -/
abbrev Rst (c : Dev nD) : sProp 𝕄 := iprop((∃ r, prngReg c r) ∗ ∃ W, owes (c : Thread nD τ) (0 : CellTallies nD τ sig Unit) W)

/-! ## What a region's exit holds: its output array replaced, every other buffer as entered -/

theorem ne18 (b : Ref sig .tc) (h : b ≠ main_v18) (c : Dev nD) : X5 m c b = V4 m c b :=
  Function.update_of_ne (StableHlo.devRef_ne_of_ne h) _ _
theorem ne36 (b : Ref sig .tc) (h : b ≠ main_v36) (c : Dev nD) : X9 m c b = X8 m c b :=
  Function.update_of_ne (StableHlo.devRef_ne_of_ne h) _ _
theorem ne38 (b : Ref sig .tc) (h : b ≠ main_v38) (c : Dev nD) : X11 m c b = X10 m c b :=
  Function.update_of_ne (StableHlo.devRef_ne_of_ne h) _ _

theorem X5_self (c : Dev nD) : X5 m c main_v18 = o5 m c := by
  show Function.update (V4 m c) main_v18 _ main_v18 = _; exact Function.update_self ..
theorem hF0_in (c : Dev nD) (w : Fin cfg0.W) (hin : (cfg0.win w).isOut = false) (hne : Pipeline.arrRef spec0 w ≠ main_v18) :
    (Hop0.dat (E0 m) c).arrAt w cfg0.N = X5 m c (Pipeline.arrRef spec0 w) :=
  ((Hop0.dat (E0 m) c).arrAt_in w hin _).trans ((Hop0.dat_A (E0 m) c w).trans (ne18 m (Pipeline.arrRef spec0 w) hne c).symm)
theorem hF0 (c : Dev nD) : ∀ w : Fin cfg0.W, (pdats m 0 c).arrAt w cfg0.N = (fun b => X5 m c b) (Pipeline.arrRef spec0 w)
  | ⟨0, _⟩ => hF0_in m c 0 rfl (by decide)
  | ⟨1, _⟩ => hF0_in m c 1 rfl (by decide)
  | ⟨2, _⟩ => hF0_in m c 2 rfl (by decide)
  | ⟨3, _⟩ => hF0_in m c 3 rfl (by decide)
  | ⟨4, _⟩ => hF0_in m c 4 rfl (by decide)
  | ⟨5, _⟩ => hF0_in m c 5 rfl (by decide)
  | ⟨6, _⟩ => hF0_in m c 6 rfl (by decide)
  | ⟨7, _⟩ => (X5_self m c).symm
theorem hrest0 (c : Dev nD) : ∀ b, b ∉ Finset.univ.image (Pipeline.arrRef spec0) → (fun b => X5 m c b) b = E0 m c b :=
  fun b hb => ne18 m b (fun e => hb (Finset.mem_image.mpr ⟨7, Finset.mem_univ _, e.symm⟩)) c

theorem X9_self (c : Dev nD) : X9 m c main_v36 = o9 m c := by
  show Function.update (X8 m c) main_v36 _ main_v36 = _; exact Function.update_self ..
theorem hF1_in (c : Dev nD) (w : Fin cfg1.W) (hin : (cfg1.win w).isOut = false) (hne : Pipeline.arrRef spec1 w ≠ main_v36) :
    (Hop1.dat (E1 m) c).arrAt w cfg1.N = X9 m c (Pipeline.arrRef spec1 w) :=
  ((Hop1.dat (E1 m) c).arrAt_in w hin _).trans ((Hop1.dat_A (E1 m) c w).trans (ne36 m (Pipeline.arrRef spec1 w) hne c).symm)
theorem hF1 (c : Dev nD) : ∀ w : Fin cfg1.W, (pdats m 1 c).arrAt w cfg1.N = (fun b => X9 m c b) (Pipeline.arrRef spec1 w)
  | ⟨0, _⟩ => hF1_in m c 0 rfl (by decide)
  | ⟨1, _⟩ => hF1_in m c 1 rfl (by decide)
  | ⟨2, _⟩ => hF1_in m c 2 rfl (by decide)
  | ⟨3, _⟩ => hF1_in m c 3 rfl (by decide)
  | ⟨4, _⟩ => hF1_in m c 4 rfl (by decide)
  | ⟨5, _⟩ => hF1_in m c 5 rfl (by decide)
  | ⟨6, _⟩ => hF1_in m c 6 rfl (by decide)
  | ⟨7, _⟩ => (X9_self m c).symm
theorem hrest1 (c : Dev nD) : ∀ b, b ∉ Finset.univ.image (Pipeline.arrRef spec1) → (fun b => X9 m c b) b = E1 m c b :=
  fun b hb => ne36 m b (fun e => hb (Finset.mem_image.mpr ⟨7, Finset.mem_univ _, e.symm⟩)) c

theorem X11_self (c : Dev nD) : X11 m c main_v38 = o11 m c := by
  show Function.update (X10 m c) main_v38 _ main_v38 = _; exact Function.update_self ..
theorem hF2_in (c : Dev nD) (w : Fin cfg2.W) (hin : (cfg2.win w).isOut = false) (hne : Pipeline.arrRef spec2 w ≠ main_v38) :
    (Pool.dat (E2 m) c).arrAt w cfg2.N = X11 m c (Pipeline.arrRef spec2 w) :=
  ((Pool.dat (E2 m) c).arrAt_in w hin _).trans ((Pool.dat_A (E2 m) c w).trans (ne38 m (Pipeline.arrRef spec2 w) hne c).symm)
theorem hF2 (c : Dev nD) : ∀ w : Fin cfg2.W, (pdats m 2 c).arrAt w cfg2.N = (fun b => X11 m c b) (Pipeline.arrRef spec2 w)
  | ⟨0, _⟩ => hF2_in m c 0 rfl (by decide)
  | ⟨1, _⟩ => hF2_in m c 1 rfl (by decide)
  | ⟨2, _⟩ => (X11_self m c).symm
theorem hrest2 (c : Dev nD) : ∀ b, b ∉ Finset.univ.image (Pipeline.arrRef spec2) → (fun b => X11 m c b) b = E2 m c b :=
  fun b hb => ne38 m b (fun e => hb (Finset.mem_image.mpr ⟨2, Finset.mem_univ _, e.symm⟩)) c

/-! ## The regions as records -/

set_option backward.isDefEq.respectTransparency.types false in
/-- Region 0 over the thread state: entered from every unscoped buffer at its entry contents, left with its output
    array at what the pipeline leaves and every other buffer as entered. Its arrays are split out of the unscoped buffers
    and put back; the generator register goes into the kernel's invariant and comes out; nothing is owed; the kernel has
    no semaphore of its own. -/
def reg0 : RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (Hop0.body_obligation (E0 m) c).loose
  hwaits := Pipeline.hwaits_of_owed_zero _ _ _ _ L lv 0 fun _ _ => rfl
  pre c := iprop(StableHlo.held (c : Thread nD τ) (Pipeline.ucRefs τ sig) (V4 m c) ∗ Rst c)
  post c := iprop(StableHlo.held (c : Thread nD τ) (Pipeline.ucRefs τ sig) (X5 m c) ∗ Rst c)
  X c := iprop(∃ r, prngReg c r)
  Y c := iprop(∃ r, prngReg c r)
  Z c := Pipeline.unscopedRest (Ix := Unit) (Name := ℕ) (U := UR sig nD τ) (Lvl := ℕ) spec0 c (E0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E0 m c) (fun b => X5 m c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at its entry contents, left with its output
    array at what the pipeline leaves and every other buffer as entered. Its arrays are split out of the unscoped buffers
    and put back; the generator register goes into the kernel's invariant and comes out; nothing is owed; the kernel has
    no semaphore of its own. -/
def reg1 : RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (Hop1.body_obligation (E1 m) c).loose
  hwaits := Pipeline.hwaits_of_owed_zero _ _ _ _ L lv 1 fun _ _ => rfl
  pre c := iprop(StableHlo.held (c : Thread nD τ) (Pipeline.ucRefs τ sig) (X8 m c) ∗ Rst c)
  post c := iprop(StableHlo.held (c : Thread nD τ) (Pipeline.ucRefs τ sig) (X9 m c) ∗ Rst c)
  X c := iprop(∃ r, prngReg c r)
  Y c := iprop(∃ r, prngReg c r)
  Z c := Pipeline.unscopedRest (Ix := Unit) (Name := ℕ) (U := UR sig nD τ) (Lvl := ℕ) spec1 c (E1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E1 m c) (fun b => X9 m c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at its entry contents, left with its output
    array at what the pipeline leaves and every other buffer as entered. Its arrays are split out of the unscoped buffers
    and put back; the generator register goes into the kernel's invariant and comes out; nothing is owed; the kernel has
    no semaphore of its own. -/
def reg2 : RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (Pool.body_obligation (E2 m) c).loose
  hwaits := Pipeline.hwaits_of_owed_zero _ _ _ _ L lv 2 fun _ _ => rfl
  pre c := iprop(StableHlo.held (c : Thread nD τ) (Pipeline.ucRefs τ sig) (X10 m c) ∗ Rst c)
  post c := iprop(StableHlo.held (c : Thread nD τ) (Pipeline.ucRefs τ sig) (X11 m c) ∗ Rst c)
  X c := iprop(∃ r, prngReg c r)
  Y c := iprop(∃ r, prngReg c r)
  Z c := Pipeline.unscopedRest (Ix := Unit) (Name := ℕ) (U := UR sig nD τ) (Lvl := ℕ) spec2 c (E2 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (E2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pool.Phi (E2 m) c 0 from rfl]
    iintro ⟨Hp, -, Hr⟩
    iapply (Pool.Phi_in (E2 m) c)
    isplitl [Hp]; · iexact Hp
    iexact Hr
  hout c := by
    rw [Pipeline.ownSems0_none, show (pdats m 2 c).Φ (Fin.last _) = Pool.Phi (E2 m) c (Fin.last _) from rfl]
    iintro H
    ihave H' := (Pool.Phi_out (E2 m) c (Fin.last _)) $$ H
    icases H' with ⟨Hp, Hr⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (E2 m c) (fun b => X11 m c b) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Regs

end
-- ==== Proof.KernelIdeal.RunValue.lean ====
import proofs.«401558_j47940424958092_2_alg».proof.Proof.KernelIdeal.Regs
import proofs.«401558_j47940424958092_2_alg».proof.Proof.KernelIdeal.RunCond

set_option maxRecDepth 16384

noncomputable section

/-! The idealized kernel program's run: every weakly fair execution from any memory with zero counters terminates, the
    result buffer ends at the last valuation's contents (the launch contents pushed through @main's host stretches and the
    three regions' write-backs) and every argument as launched. -/
namespace Cert.KernelIdeal.Launched

open Cert.KernelIdeal Cert.KernelIdeal.Gen Cert.KernelIdeal.Regs
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
theorem run : θ_run defs (onTc (τ := τ) (main (F := F))) ⟨m, fun _ => 0, ρ⟩ (fun r => ∀ c : Dev nD,
      r.2.mem ((c.tc : Thread nD τ).loc main_v51) = V12 m (outs m) c main_v51
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  RunCond.run_cond m (Ix := Unit) (U := UR sig nD τ) (Lvl := ℕ) emb₁ () Regs.𝒱₀ Regs.L Regs.lv (fun _ _ => rfl) ρ (outs m) (pdats m)
    (O₀ := fun _ => 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => Rst c)
    (hE0 := Pipeline.initEach Regs.L Regs.lv fun c => by
      iintro ⟨⟨-, HO, -, Hp, -⟩, -⟩
      imodintro
      isplitl [Hp]; · iexists _; iexact Hp
      iexists ∅; iexact HO)
    (hE3 := fun c => by iintro ⟨-, H⟩; iexact H)
    (R0 := reg0 m) (hpre0 := fun c => .rfl) (hpost0 := fun c => by rw [V5_eq]; exact .rfl)
    (R1 := reg1 m) (hpre1 := fun c => by rw [V8_eq]; exact .rfl) (hpost1 := fun c => by rw [V9_eq]; exact .rfl)
    (R2 := reg2 m) (hpre2 := fun c => by rw [V10_eq]; exact .rfl) (hpost2 := fun c => by rw [V11_eq]; exact .rfl)

end Cert.KernelIdeal.Launched

end
-- ==== Proof.Spec.lean ====
import Idealize.ShloMosaic.PureOps.Ideal
import Idealize.ShloMosaic.Lib.ValueIdx

noncomputable section

open scoped BigOperators

/-! The two programs' common vocabulary, over extended reals and plain coordinates: a matrix is a function of a row
    and a column; a row gather clamps its row number into the table; a segment sum adds, into row `a`, the rows whose
    segment number is `a` (a number outside the table adds to no row); a hop of the message passing is a rectified
    affine map of three matrix products; the pooling is a segment sum over graph numbers, and the readout divides the
    pooled sums by the segment sizes, at least one. -/
namespace Cert.Spec

open Idealize.ShloMosaic

/-- A matrix with extended-real entries. -/
abbrev Mat (A C : Nat) : Type := Fin A → Fin C → EReal

/-- Every entry is a real number. -/
def IsRealM {A C : Nat} (x : Mat A C) : Prop := ∀ a c, x a c ≠ ⊤ ∧ x a c ≠ ⊥

/-- Every entry of a vector is a real number. -/
def IsRealV {C : Nat} (x : Fin C → EReal) : Prop := ∀ c, x c ≠ ⊤ ∧ x c ≠ ⊥

/-- A signed row number clamped into `[0, A - 1]`. -/
def rowOf (A : Nat) (hA : 0 < A) (z : Int) : Fin A := ⟨min z.toNat (A - 1), by omega⟩

/-- Row `e` of the result is the table's row at the clamped row number `z e`. -/
def gatherRows {N A C : Nat} (hA : 0 < A) (x : Mat A C) (z : Fin N → Int) : Mat N C :=
  fun e c => x (rowOf A hA (z e)) c

/-- Row `a` of the result is zero plus the sum of the rows `e` of `x` with segment number `seg e = a`. -/
def segSum {N C : Nat} (A : Nat) (seg : Fin N → Int) (x : Mat N C) : Mat A C :=
  fun a c => 0 + ∑ e : Fin N, if seg e = (a.val : Int) then x e c else 0

/-- The matrix product. -/
def mm {A K C : Nat} (x : Mat A K) (w : Mat K C) : Mat A C :=
  fun a c => ∑ k : Fin K, x a k * w k c

/-- One hop as the kernel computes it: the aggregated neighbour rows `au`, `ad` are multiplied by their weights
    after the aggregation. -/
def hopK {N D : Nat} (h au ad : Mat N D) (ws wu wd : Mat D D) (b : Fin D → EReal) : Mat N D :=
  fun n d => max (((mm h ws n d + mm au wu n d) + mm ad wd n d) + b d) 0

/-- One hop as the reference computes it: the messages `mu`, `md` were multiplied by their weights edge by edge,
    before the aggregation. -/
def hopR {N D : Nat} (h mu md : Mat N D) (ws : Mat D D) (b : Fin D → EReal) : Mat N D :=
  fun n d => max (((mm h ws n d + mu n d) + md n d) + b d) 0

/-- The kernel's hop from the node features and the edge lists: `src`, `dst` the (signed) row numbers the gathers
    use, `ssrc`, `sdst` the (signed) segment numbers the segment sums use. -/
def kernelHop {N D : Nat} (hN : 0 < N) (h : Mat N D) (src dst ssrc sdst : Fin N → Int) (ws wu wd : Mat D D)
    (b : Fin D → EReal) : Mat N D :=
  hopK h (segSum N sdst (gatherRows hN h src)) (segSum N ssrc (gatherRows hN h dst)) ws wu wd b

/-- The reference's hop from the same data. -/
def referenceHop {N D : Nat} (hN : 0 < N) (h : Mat N D) (src dst ssrc sdst : Fin N → Int) (ws wu wd : Mat D D)
    (b : Fin D → EReal) : Mat N D :=
  hopR h (segSum N sdst (mm (gatherRows hN h src) wu)) (segSum N ssrc (mm (gatherRows hN h dst) wd)) ws b

/-- The indicator of a graph number. -/
def oh (z : Int) (g : Nat) : EReal := if z = (g : Int) then 1 else 0

/-- What one block of 4096 rows adds to the pooled sums: block `t` holds the rows `4096 t … 4096 t + 4095`. -/
def blockSum (gid : Fin 262144 → Int) (h : Mat 262144 256) (t : Fin 64) : Mat 512 256 :=
  fun g d => ∑ r : Fin 4096, oh (gid ⟨t.val * 4096 + r.val, by omega⟩) g.val * h ⟨t.val * 4096 + r.val, by omega⟩ d

/-- The kernel's accumulator after block `n`: restarted from zero at the blocks `0` and `32` (each half of the
    rows is pooled on its own), otherwise the accumulator after the block before plus this block's sums. -/
def accAt (gid : Fin 262144 → Int) (h : Mat 262144 256) : (n : Nat) → n < 64 → Mat 512 256
  | 0, _ => fun g d => 0 + blockSum gid h ⟨0, by omega⟩ g d
  | n + 1, hn => fun g d =>
      (if (n + 1) % 32 = 0 then (0 : EReal) else accAt gid h n (by omega) g d) + blockSum gid h ⟨n + 1, hn⟩ g d

/-- The kernel's pooled sums: the two halves' accumulators added. -/
def poolK (gid : Fin 262144 → Int) (h : Mat 262144 256) : Mat 512 256 :=
  fun g d => accAt gid h 31 (by omega) g d + accAt gid h 63 (by omega) g d

/-- The reference's pooled sums: one segment sum over all rows. -/
def poolR (gid : Fin 262144 → Int) (h : Mat 262144 256) : Mat 512 256 := segSum 512 gid h

/-- The readout both programs share: the pooled sums over the segment sizes, the sizes at least `one`. -/
def readout (one : EReal) (gid : Fin 262144 → Int) (sums : Mat 512 256) : Mat 512 256 :=
  fun g d => Ideal.div (sums g d) (max (segSum 512 gid (fun (_ : Fin 262144) (_ : Fin 1) => one) g 0) one)

end Cert.Spec

end
-- ==== Proof.Inputs.lean ====
import proofs.«401558_j47940424958092_2_alg».proof.Proof.Spec

noncomputable section

/-! Both programs' results written over the nine inputs: the node features are the embedding rows at the node types;
    two hops follow, the first with the weights' first slices and the second with the second; the rows are pooled by
    graph number and divided by the graphs' sizes. The kernel and the reference differ only in where a hop multiplies by
    the neighbour weights (before or after the aggregation) and in how the pooling adds the rows up. -/
namespace Cert.Spec

open Idealize.ShloMosaic Idealize.ShloMosaic.ValueIdx

/-- An index vector over the nodes (or edges): 262144 words. -/
abbrev IdxVec : Type := IVec (⟨1, ![262144]⟩ : Shape) 32

/-- numpy's convention for a negative index, on a 32-bit word: a negative word has the table's size `A` added. -/
def wrapWord (A x : BitVec 32) : BitVec 32 := Scalar.select (IntOp.cmpi .slt x 0#32) (IntOp.addi x A) x

/-- Entry `e` of an index vector, read signed: a segment number. -/
def segOf (a : IdxVec) (e : Fin 262144) : Int := (a (ix1 e)).toInt

/-- Entry `e` of an index vector after the negative-index convention, read signed: a row number (the gather clamps it). -/
def rowNo (A : BitVec 32) (a : IdxVec) (e : Fin 262144) : Int := (wrapWord A (a (ix1 e))).toInt

/-- A rank-2 array as a matrix. -/
def toMat {A C : Nat} (x : (⟨2, ![A, C]⟩ : Shape).Idx → EReal) : Mat A C := fun a c => x (ix2 a c)

/-- Slice `k` of a stack of two weight matrices. -/
def sliceW (k : Fin 2) (w : (⟨3, ![2, 256, 256]⟩ : Shape).Idx → EReal) : Mat 256 256 := fun i j => w (ix3 k i j)

/-- Row `k` of the two bias rows. -/
def sliceB (k : Fin 2) (b : (⟨2, ![2, 256]⟩ : Shape).Idx → EReal) : Fin 256 → EReal := fun j => b (ix2 k j)

/-- The number one as both programs spell it. -/
def oneE : EReal := Ideal.ofBits .f32 0x3F800000#32

section
variable (nt es ed gid : IdxVec) (emb : (⟨2, ![60, 256]⟩ : Shape).Idx → EReal)
  (wup wdown wself : (⟨3, ![2, 256, 256]⟩ : Shape).Idx → EReal) (bias : (⟨2, ![2, 256]⟩ : Shape).Idx → EReal)

/-- The node features: the embedding table's rows at the node types. -/
def feat0 : Mat 262144 256 := gatherRows (by decide : 0 < 60) (toMat emb) (rowNo 60#32 nt)

/-- The reference's hop `k` from features `h`: rows gathered at the edge sources are summed into the edge targets
    (upward messages), rows gathered at the targets into the sources (downward messages). -/
def refHop (k : Fin 2) (h : Mat 262144 256) : Mat 262144 256 :=
  referenceHop (by decide : 0 < 262144) h (rowNo 262144#32 es) (rowNo 262144#32 ed) (segOf es) (segOf ed)
    (sliceW k wself) (sliceW k wup) (sliceW k wdown) (sliceB k bias)

/-- The kernel's hop `k` from features `h`. -/
def kerHop (k : Fin 2) (h : Mat 262144 256) : Mat 262144 256 :=
  kernelHop (by decide : 0 < 262144) h (rowNo 262144#32 es) (rowNo 262144#32 ed) (segOf es) (segOf ed)
    (sliceW k wself) (sliceW k wup) (sliceW k wdown) (sliceB k bias)

/-- The reference's result. -/
def refOut : Mat 512 256 :=
  readout oneE (segOf gid) (poolR (segOf gid) (refHop es ed wup wdown wself bias 1 (refHop es ed wup wdown wself bias 0 (feat0 nt emb))))

/-- The kernel's result. -/
def kerOut : Mat 512 256 :=
  readout oneE (segOf gid) (poolK (segOf gid) (kerHop es ed wup wdown wself bias 1 (kerHop es ed wup wdown wself bias 0 (feat0 nt emb))))

end

end Cert.Spec

end
-- ==== Proof.LibRows.lean ====
import Idealize.ShloMosaic.PureOps.Ideal
import Idealize.ShloMosaic.PureOps.Ideal.Laws
import Idealize.ShloMosaic.Lib.ValueIdx

set_option maxRecDepth 16384

noncomputable section

open scoped BigOperators

/-! Row gathers and row scatter-adds of a matrix, read at an index: the dimension numbers of `x[idx]` and of
    `segment_sum` over the rows of an `[A, C]` array with an `[N, 1]` column of row numbers. -/
namespace Cert.LibRows

open Idealize.ShloMosaic Idealize.ShloMosaic.ValueIdx

/-- A scatter lands on an index exactly when start plus window coordinate is that index on every axis. -/
theorem resultIdx?_eq_some_iff {s si u : Shape} (d : ScatterDims s si u) {w : Nat} (j : u.Idx) (idx : IVec si w) (i : s.Idx) :
    d.resultIdx? j idx = some i ↔ ∀ a, d.start j idx a + d.window j a = ((i a).val : Int) := by
  unfold ScatterDims.resultIdx?
  split
  · rename_i h
    constructor
    · intro heq a
      have hi := Option.some.inj heq
      rw [← hi]
      exact (Int.toNat_of_nonneg (h a).1).symm
    · intro hall
      congr 1
      funext a
      refine Fin.ext ?_
      show (d.start j idx a + d.window j a).toNat = (i a).val
      rw [hall a]; exact Int.toNat_natCast _
  · rename_i h
    constructor
    · intro heq; cases heq
    · intro hall
      exfalso; apply h; intro a
      rw [hall a]
      exact ⟨Int.natCast_nonneg _, by exact_mod_cast (i a).isLt⟩

/-- A scatter-add of rows, read at an index: the operand's element plus the sum, over the update rows whose row number
    (read signed) is this row, of the update's element in this column. A row number outside `[0, A)` matches no row. -/
theorem scatterAdd_rows_apply {A C N w : Nat} {φ : FTy} (d : ScatterDims ⟨2, ![A, C]⟩ ⟨2, ![N, 1]⟩ ⟨2, ![N, C]⟩)
    (h1 : d.updateWindowDims = [1]) (h2 : d.insertedWindowDims = [0]) (h3 : d.scatterDimsToOperandDims = [0])
    (h4 : d.indexVectorDim = 1)
    (x : FVec Ideal ⟨2, ![A, C]⟩ φ) (idx : IVec ⟨2, ![N, 1]⟩ w) (upd : FVec Ideal ⟨2, ![N, C]⟩ φ) (a : Fin A) (c : Fin C) :
    Host.scatterAdd d x idx upd (ix2 a c)
      = x (ix2 a c) + ∑ e : Fin N, if (idx (ix2 e 0)).toInt = (a.val : Int) then upd (ix2 e c) else 0 := by
  obtain ⟨uw, iw, sd, iv, wf⟩ := d
  simp only at h1 h2 h3 h4
  subst h1 h2 h3 h4
  generalize hD : (⟨[1], [0], [0], 1, wf⟩ : ScatterDims ⟨2, ![A, C]⟩ ⟨2, ![N, 1]⟩ ⟨2, ![N, C]⟩) = D
  have e1 : D.updateWindowDims = [1] := by subst hD; rfl
  have e2 : D.insertedWindowDims = [0] := by subst hD; rfl
  have e3 : D.scatterDimsToOperandDims = [0] := by subst hD; rfl
  -- the start and the window coordinate on the two axes
  have hs0 : ∀ (e : Fin N) (c' : Fin C), D.start (ix2 e c') idx 0 = (idx (ix2 e 0)).toInt := by
    intro e c'
    unfold ScatterDims.start
    have hm : (0 : Fin 2) ∈ D.scatterDimsToOperandDims := by rw [e3]; exact List.mem_singleton.mpr rfl
    rw [dif_pos hm]
    have hsi : D.siIdx (ix2 e c') ⟨List.idxOf (0 : Fin 2) D.scatterDimsToOperandDims, List.idxOf_lt_length_iff.2 hm⟩ = ix2 e 0 := by
      subst hD
      funext b; refine Fin.ext ?_
      match b with
      | ⟨0, _⟩ => rfl
      | ⟨1, _⟩ => rfl
    rw [hsi]
  have hs1 : ∀ (e : Fin N) (c' : Fin C), D.start (ix2 e c') idx 1 = 0 := by
    intro e c'
    unfold ScatterDims.start
    rw [dif_neg (by rw [e3]; intro h; exact absurd (congrArg Fin.val (List.mem_singleton.mp h)) (show (1 : Nat) ≠ 0 from Nat.one_ne_zero))]
  have hw0 : ∀ (e : Fin N) (c' : Fin C), D.window (ix2 e c') 0 = 0 := by
    intro e c'
    unfold ScatterDims.window
    rw [dif_neg (by
      intro h
      have := (List.mem_filter.mp h).2
      rw [e2] at this
      simp at this)]
  have hw1 : ∀ (e : Fin N) (c' : Fin C), D.window (ix2 e c') 1 = c'.val := by
    intro e c'
    subst hD
    rfl
  have hiff : ∀ (e : Fin N) (c' : Fin C), D.resultIdx? (ix2 e c') idx = some (ix2 a c)
      ↔ ((idx (ix2 e 0)).toInt = (a.val : Int) ∧ c' = c) := by
    intro e c'
    rw [resultIdx?_eq_some_iff]
    constructor
    · intro h
      have h0 : D.start (ix2 e c') idx 0 + D.window (ix2 e c') 0 = ((a.val : Nat) : Int) := h 0
      have h1 : D.start (ix2 e c') idx 1 + D.window (ix2 e c') 1 = ((c.val : Nat) : Int) := h 1
      rw [hs0, hw0] at h0
      rw [hs1, hw1] at h1
      refine ⟨by simpa using h0, Fin.ext ?_⟩
      have : ((c'.val : Nat) : Int) = (c.val : Int) := by simpa using h1
      exact_mod_cast this
    · rintro ⟨h0, rfl⟩ b
      match b with
      | ⟨0, _⟩ =>
        show D.start (ix2 e c') idx 0 + D.window (ix2 e c') 0 = _
        rw [hs0, hw0, h0]; simp
      | ⟨1, _⟩ =>
        show D.start (ix2 e c') idx 1 + D.window (ix2 e c') 1 = _
        rw [hs1, hw1]; simp
  show Ideal.hostScatterAdd D x idx upd (ix2 a c) = _
  unfold Ideal.hostScatterAdd
  congr 1
  rw [Finset.sum_filter, sum_idx2]
  refine Finset.sum_congr rfl fun e _ => ?_
  simp only [hiff]
  by_cases hA : (idx (ix2 e 0)).toInt = (a.val : Int)
  · simp only [hA, true_and, if_true]
    rw [Finset.sum_ite_eq' Finset.univ c]
    simp
  · simp only [hA, false_and, if_false]
    exact Finset.sum_const_zero

/-- A gather of rows, read at an index: the operand's row at the row number read signed and clamped into `[0, A - 1]`. -/
theorem gather_rows_apply {A C N w : Nat} {α : Type} (hA : 0 < A) (d : GatherDims ⟨2, ![A, C]⟩ ⟨2, ![N, 1]⟩ ⟨2, ![N, C]⟩)
    (h1 : d.offsetDims = [1]) (h2 : d.collapsedSliceDims = [0]) (h3 : d.operandBatchingDims = [])
    (h4 : d.startIndicesBatchingDims = []) (h5 : d.startIndexMap = [0]) (h6 : d.indexVectorDim = 1) (h7 : d.sliceSizes = ![1, C])
    (x : (⟨2, ![A, C]⟩ : Shape).Idx → α) (idx : IVec ⟨2, ![N, 1]⟩ w) (e : Fin N) (c : Fin C) :
    Host.gather d x idx (ix2 e c) = x (ix2 ⟨min (idx (ix2 e 0)).toInt.toNat (A - 1), by omega⟩ c) := by
  obtain ⟨od, cd, ob, sb, sm, iv, ss, wf⟩ := d
  simp only at h1 h2 h3 h4 h5 h6 h7
  subst h1 h2 h3 h4 h5 h6 h7
  generalize hD : (⟨[1], [0], [], [], [0], 1, ![1, C], wf⟩ : GatherDims ⟨2, ![A, C]⟩ ⟨2, ![N, 1]⟩ ⟨2, ![N, C]⟩) = D
  have e1 : D.offsetDims = [1] := by subst hD; rfl
  have e2 : D.collapsedSliceDims = [0] := by subst hD; rfl
  have e3 : D.operandBatchingDims = [] := by subst hD; rfl
  have e5 : D.startIndexMap = [0] := by subst hD; rfl
  unfold Host.gather
  congr 1
  funext a
  refine Fin.ext ?_
  match a with
  | ⟨0, _⟩ =>
    show D.start (ix2 e c) idx 0 + D.batchCoord (ix2 e c) 0 + D.offCoord (ix2 e c) 0 = _
    rw [GatherDims.batchCoord_eq_zero _ _ _ (by rw [e3]; exact List.not_mem_nil),
      GatherDims.offCoord_eq_zero _ _ _ (fun h => ((GatherDims.mem_sKept _ _).mp h).1 (by rw [e2]; exact List.mem_singleton.mpr rfl))]
    simp only [Nat.add_zero]
    unfold GatherDims.start
    have hm : (0 : Fin 2) ∈ D.startIndexMap := by rw [e5]; exact List.mem_singleton.mpr rfl
    rw [dif_pos hm]
    have hsi : D.siIdx (ix2 e c) ⟨List.idxOf (0 : Fin 2) D.startIndexMap, List.idxOf_lt_length_iff.2 hm⟩ = ix2 e 0 := by
      subst hD
      funext b; refine Fin.ext ?_
      match b with
      | ⟨0, _⟩ => rfl
      | ⟨1, _⟩ => rfl
    rw [hsi]
    subst hD
    rfl
  | ⟨1, _⟩ =>
    show D.start (ix2 e c) idx 1 + D.batchCoord (ix2 e c) 1 + D.offCoord (ix2 e c) 1 = c.val
    rw [GatherDims.batchCoord_eq_zero _ _ _ (by rw [e3]; exact List.not_mem_nil)]
    have hs : D.start (ix2 e c) idx 1 = 0 := by
      unfold GatherDims.start
      rw [dif_neg (by rw [e5]; intro h; exact absurd (congrArg Fin.val (List.mem_singleton.mp h)) (show (1 : Nat) ≠ 0 from Nat.one_ne_zero))]
    rw [hs]
    subst hD
    simp only [Nat.add_zero, Nat.zero_add]
    rfl

end Cert.LibRows

end
-- ==== Proof.KernelIdeal.HostLib.lean ====
import proofs.«401558_j47940424958092_2_alg».proof.Proof.Gen.KernelIdeal
import proofs.«401558_j47940424958092_2_alg».proof.Proof.Inputs
import proofs.«401558_j47940424958092_2_alg».proof.Proof.LibRows
import Idealize.ShloMosaic.Lib.StableHlo.Run
import Idealize.ShloMosaic.PureOps.Reduce
import Idealize.ShloMosaic.PureOps.Ideal.Laws
import Idealize.ShloMosaic.Lib.Pipeline.Value
import Idealize.ShloMosaic.Lib.ValueLayout
import Idealize.ShloMosaic.Lib.IdealHost

set_option maxRecDepth 16384

noncomputable section

open scoped BigOperators

/-! The host operations around the three kernel regions, read index by index: a row gather behind numpy's
    negative-index convention and an in-range mask (the mask is all ones when the indices are in range), a scatter-add
    of rows into a zero array (a segment sum), slices of the stacked weights, and the readout's division. -/
namespace Cert.KernelIdeal.HostValue

open Idealize.ShloMosaic Idealize.ShloMosaic.ValueIdx
open Cert.KernelIdeal Cert.KernelIdeal.Gen Cert.Spec

/-- Reads a fold of host operations at a reference: each operation's result at its own buffer is its function's value,
    at another buffer what was there. -/
macro "host_results" : tactic =>
  `(tactic| (simp only [StableHlo.after_cons, StableHlo.after_nil]
             repeat (first
               | rw [StableHlo.nullary_result] | rw [StableHlo.unary_result] | rw [StableHlo.binary_result]
               | rw [StableHlo.ternary_result] | rw [StableHlo.reshape_result]
               | (rw [StableHlo.nullary_result_ne]; rotate_left; decide)
               | (rw [StableHlo.unary_result_ne]; rotate_left; decide)
               | (rw [StableHlo.binary_result_ne]; rotate_left; decide)
               | (rw [StableHlo.ternary_result_ne]; rotate_left; decide)
               | (rw [StableHlo.reshape_result_ne]; rotate_left; decide))))

/-! ## The operations' terms -/

/-- The index column of a row gather: each word after numpy's negative-index convention, as an [N, 1] column. -/
def wrapCol (A : BitVec 32) (a : IVec S262144 32) : IVec S262144x1 32 :=
  broadcastInDim S262144x1 ![0] bcast_S262144_S262144x1_0
    (select (cmpi .slt a (broadcastInDim S262144 ![] bcast_S_S262144 (constantI S_ 32 0#32)))
      (addi a (broadcastInDim S262144 ![] bcast_S_S262144 (constantI S_ 32 A))) a)

/-- The rows whose index lies in [0, hi]: both comparisons, conjoined along the column's one-element axis. -/
def rangeMask (hi : BitVec 32) (col : IVec S262144x1 32) : IVec S262144 1 :=
  Host.reduce IntOp.andi
    (andi (cmpi .sge col (broadcastInDim S262144x1 ![] bcast_S_S262144x1 (constantI S_ 32 0#32)))
      (cmpi .sle col (broadcastInDim S262144x1 ![0, 1] bcast_S1x1_S262144x1_0_1
        (broadcastInDim S1x1 ![1] bcast_S1_S1x1_1 (constantI S1 32 hi)))))
    (constantI S_ 1 1#1) reducesTo_S262144x1_S262144_d1 h_S_

/-- A row gather as the program spells it: the gathered rows where the index is in range, a fill elsewhere. -/
def takeRows {R : Nat} (A hi : BitVec 32) (d : GatherDims ⟨2, ![R, 256]⟩ S262144x1 S262144x256)
    (x : (⟨2, ![R, 256]⟩ : Shape).Idx → EReal) (a : IVec S262144 32) : S262144x256.Idx → EReal :=
  select (broadcastInDim S262144x256 ![0] bcast_S262144_S262144x256_0 (rangeMask hi (wrapCol A a)))
    (Host.gather d x (wrapCol A a))
    (broadcastInDim S262144x256 ![] bcast_S_S262144x256 (constant (F := Ideal) S_ .f32 0x7FC00000#32))

/-- A segment sum of rows as the program spells it: the rows scatter-added into a zero array at an index column. -/
def segRows (idx : IVec S262144 32) (upd : S262144x256.Idx → EReal) : S262144x256.Idx → EReal :=
  Host.scatterAdd (F := Ideal) (φ := .f32) scatter_S262144x256_S262144x1_S262144x256_1_0_0_1
    (broadcastInDim S262144x256 ![] bcast_S_S262144x256 (constant (F := Ideal) S_ .f32 0x00000000#32))
    (broadcastInDim S262144x1 ![0] bcast_S262144_S262144x1_0 idx) upd

/-- Slice `k` of a stack of two matrices, as the program spells it (`hs`: the slice's shape fact at offset `k`). -/
def sliceMat (o : Fin 3 → Nat) (hs : S2x256x256.Slices o S1x256x256) (w : S2x256x256.Idx → EReal) : S256x256.Idx → EReal :=
  shapeCast S256x256 (extractStridedSlice S1x256x256 o w hs) shapeCasts_S1x256x256_S256x256

/-- Row `k` of the two bias rows as a [1, 256] array, as the program spells it. -/
def sliceRow (o : Fin 2 → Nat) (hs : S2x256.Slices o S1x256) (b : S2x256.Idx → EReal) : S1x256.Idx → EReal :=
  shapeCast S1x256 (shapeCast S256 (extractStridedSlice S1x256 o b hs) shapeCasts_S1x256_S256) shapeCasts_S256_S1x256

/-- The readout as the program spells it, from the pooling region's two partial sums and the graph numbers. -/
def readoutT (p : S2x512x256.Idx → EReal) (gid : IVec S262144 32) : S512x256.Idx → EReal :=
  Host.divf (F := Ideal)
    (addf (shapeCast S512x256 (extractStridedSlice S1x512x256 ![0, 0, 0] p slices_S2x512x256_S1x512x256_0_0_0) shapeCasts_S1x512x256_S512x256)
      (shapeCast S512x256 (extractStridedSlice S1x512x256 ![1, 0, 0] p slices_S2x512x256_S1x512x256_1_0_0) shapeCasts_S1x512x256_S512x256))
    (broadcastInDim S512x256 ![0, 1] bcast_S512x1_S512x256_0_1
      (maximumf
        (Host.scatterAdd (F := Ideal) (φ := .f32) scatter_S512x1_S262144x1_S262144x1_1_0_0_1
          (broadcastInDim S512x1 ![] bcast_S_S512x1 (constant (F := Ideal) S_ .f32 0x00000000#32))
          (broadcastInDim S262144x1 ![0] bcast_S262144_S262144x1_0 gid)
          (broadcastInDim S262144x1 ![] bcast_S_S262144x1 (constant (F := Ideal) S_ .f32 0x3F800000#32)))
        (broadcastInDim S512x1 ![] bcast_S_S512x1 (constant (F := Ideal) S_ .f32 0x3F800000#32))))

/-! ## Words -/

/-- A word that is not negative is left alone by the negative-index convention. -/
theorem wrapWord_of_nonneg (A w : BitVec 32) (h : 0 ≤ w.toInt) : wrapWord A w = w := by
  have e : w.slt 0#32 = false := by
    rw [BitVec.slt_eq_decide, decide_eq_false_iff_not, show (0#32 : BitVec 32).toInt = 0 from rfl]
    omega
  unfold wrapWord
  rw [show IntOp.cmpi .slt w 0#32 = BitVec.ofBool (w.slt 0#32) from rfl, e]
  exact select_zero _ _

/-- Both range comparisons hold of a word in the range. -/
theorem inRange_bits (w hi : BitVec 32) (h0 : 0 ≤ w.toInt) (h1 : w.toInt ≤ hi.toInt) :
    IntOp.andi (IntOp.cmpi .sge w 0#32) (IntOp.cmpi .sle w hi) = 1#1 := by
  have e0 : (0#32 : BitVec 32).sle w = true := by
    rw [BitVec.sle_eq_decide, decide_eq_true_iff, show (0#32 : BitVec 32).toInt = 0 from rfl]
    exact h0
  have e1 : w.sle hi = true := by
    rw [BitVec.sle_eq_decide, decide_eq_true_iff]
    exact h1
  rw [show IntOp.cmpi .sge w 0#32 = BitVec.ofBool ((0#32 : BitVec 32).sle w) from rfl,
    show IntOp.cmpi .sle w hi = BitVec.ofBool (w.sle hi) from rfl, e0, e1]
  rfl

/-- A left fold by `and` from 1 over 1s is 1. -/
theorem foldl_andi_ones {ι : Type} (f : ι → BitVec 1) (hf : ∀ n, f n = 1#1) :
    ∀ l : List ι, l.foldl (fun r n => IntOp.andi r (f n)) 1#1 = 1#1
  | [] => rfl
  | a :: l => by
    rw [List.foldl_cons, hf a, show IntOp.andi 1#1 1#1 = 1#1 from rfl]
    exact foldl_andi_ones f hf l

/-- A reduction by `and` of an array of 1s from 1 is 1 everywhere. -/
theorem reduce_andi_ones {s t u : Shape} {axes : List (Fin s.rank)} (x : s.Idx → BitVec 1) (init : u.Idx → BitVec 1)
    (h : s.ReducesTo axes t) (hu : 0 < u.numel) (j : t.Idx) (hx : ∀ i, x i = 1#1)
    (hinit : init (Shape.Idx.first hu) = 1#1) : Host.reduce IntOp.andi x init h hu j = 1#1 := by
  rw [Host.reduce_eq_foldl, hinit]
  exact foldl_andi_ones x hx _

/-! ## Reads at an index -/

/-- A vector laid as an [N, 1] column reads, at row `e`, the vector at `e`. -/
theorem bcol_apply {α : Type} (v : S262144.Idx → α) (e : Fin 262144) (q : Fin 1) :
    broadcastInDim S262144x1 ![0] bcast_S262144_S262144x1_0 v (ix2 e q) = v (ix1 e) :=
  broadcastInDim_apply _ _ _ _ (ix1 e) (fun a => match a with
    | ⟨0, _⟩ => by show e.val = if (262144 : ℕ) = 1 then 0 else e.val; rw [if_neg (by decide)])

/-- A vector laid along the rows of an [N, 256] array reads, at `(e, k)`, the vector at `e`. -/
theorem brows_apply {α : Type} (v : S262144.Idx → α) (e : Fin 262144) (k : Fin 256) :
    broadcastInDim S262144x256 ![0] bcast_S262144_S262144x256_0 v (ix2 e k) = v (ix1 e) :=
  broadcastInDim_apply _ _ _ _ (ix1 e) (fun a => match a with
    | ⟨0, _⟩ => by show e.val = if (262144 : ℕ) = 1 then 0 else e.val; rw [if_neg (by decide)])

/-- The index column at row `e`: the word after the negative-index convention. -/
theorem wrapCol_apply (A : BitVec 32) (a : IVec S262144 32) (e : Fin 262144) (q : Fin 1) :
    wrapCol A a (ix2 e q) = wrapWord A (a (ix1 e)) :=
  (bcol_apply _ e q).trans rfl

/-- The mask is all ones over a column of words in the range. -/
theorem rangeMask_ones (hi : BitVec 32) (col : IVec S262144x1 32)
    (h : ∀ (e : Fin 262144) (q : Fin 1), 0 ≤ (col (ix2 e q)).toInt ∧ (col (ix2 e q)).toInt ≤ hi.toInt) (j : S262144.Idx) :
    rangeMask hi col j = 1#1 := by
  unfold rangeMask
  refine reduce_andi_ones _ _ _ _ j (fun i => ?_) rfl
  obtain ⟨e, q, rfl⟩ : ∃ (e : Fin 262144) (q : Fin 1), i = ix2 e q := ⟨i 0, i 1, eq_ix2 i⟩
  exact inRange_bits _ _ (h e q).1 (h e q).2

/-- THE ROW GATHER, with its indices in range: row `e` of the result is the table's row at the row number of `e`. -/
theorem takeRows_apply {R : Nat} (hR : 0 < R) (A hi : BitVec 32) (d : GatherDims ⟨2, ![R, 256]⟩ S262144x1 S262144x256)
    (h1 : d.offsetDims = [1]) (h2 : d.collapsedSliceDims = [0]) (h3 : d.operandBatchingDims = [])
    (h4 : d.startIndicesBatchingDims = []) (h5 : d.startIndexMap = [0]) (h6 : d.indexVectorDim = 1) (h7 : d.sliceSizes = ![1, 256])
    (x : (⟨2, ![R, 256]⟩ : Shape).Idx → EReal) (a : IVec S262144 32)
    (hin : ∀ e : Fin 262144, 0 ≤ (a (ix1 e)).toInt ∧ (a (ix1 e)).toInt ≤ hi.toInt) (e : Fin 262144) (k : Fin 256) :
    takeRows A hi d x a (ix2 e k) = gatherRows hR (toMat x) (rowNo A a) e k := by
  have hw : ∀ (e : Fin 262144) (q : Fin 1), wrapCol A a (ix2 e q) = a (ix1 e) := fun e q =>
    (wrapCol_apply A a e q).trans (wrapWord_of_nonneg A _ (hin e).1)
  have hm : rangeMask hi (wrapCol A a) (ix1 e) = 1#1 :=
    rangeMask_ones hi _ (fun e q => by rw [hw e q]; exact hin e) _
  unfold takeRows
  rw [select_apply, brows_apply, hm, select_one, Cert.LibRows.gather_rows_apply hR d h1 h2 h3 h4 h5 h6 h7]
  show x (ix2 _ k) = x (ix2 (rowOf R hR (rowNo A a e)) k)
  refine congrArg (fun r : Fin R => x (ix2 r k)) (Fin.ext ?_)
  show min (wrapCol A a (ix2 e 0)).toInt.toNat (R - 1) = min (rowNo A a e).toNat (R - 1)
  rw [wrapCol_apply]
  rfl

/-- THE SEGMENT SUM of rows: row `n` of the result is zero plus the update rows whose segment number is `n`. -/
theorem segRows_apply (idx : IVec S262144 32) (upd : S262144x256.Idx → EReal) (n : Fin 262144) (k : Fin 256) :
    segRows idx upd (ix2 n k) = segSum 262144 (segOf idx) (toMat upd) n k := by
  unfold segRows
  refine (Cert.LibRows.scatterAdd_rows_apply _ rfl rfl rfl rfl _ _ _ n k).trans ?_
  have hz : (broadcastInDim S262144x256 ![] bcast_S_S262144x256 (constant (F := Ideal) S_ .f32 0x00000000#32)) (ix2 n k) = (0 : EReal) :=
    Ideal.ofBits_zero_f32
  rw [hz]
  unfold segSum segOf toMat
  refine congrArg (fun s => (0 : EReal) + s) (Finset.sum_congr rfl fun e _ => ?_)
  rw [bcol_apply idx e 0]

/-- One hop's aggregate: the rows gathered at `src` (in range) and summed into the segments `seg`. -/
theorem hopAgg_apply (x : S262144x256.Idx → EReal) (src seg : IVec S262144 32)
    (hin : ∀ e : Fin 262144, 0 ≤ (src (ix1 e)).toInt ∧ (src (ix1 e)).toInt ≤ (262143#32 : BitVec 32).toInt)
    (n : Fin 262144) (k : Fin 256) :
    segRows seg (takeRows 262144#32 262143#32 gather_S262144x256_S262144x1_S262144x256_1_0_n_n_0_1_1256 x src) (ix2 n k)
      = segSum 262144 (segOf seg) (gatherRows (by decide : 0 < 262144) (toMat x) (rowNo 262144#32 src)) n k := by
  rw [segRows_apply]
  have e : toMat (takeRows 262144#32 262143#32 gather_S262144x256_S262144x1_S262144x256_1_0_n_n_0_1_1256 x src)
      = gatherRows (by decide : 0 < 262144) (toMat x) (rowNo 262144#32 src) :=
    funext fun e => funext fun k =>
      takeRows_apply (by decide) 262144#32 262143#32 _ rfl rfl rfl rfl rfl rfl rfl x src hin e k
  rw [e]

/-- A slice of the stacked matrices at an index. -/
theorem sliceMat_apply (o : Fin 3 → Nat) (hs : S2x256x256.Slices o S1x256x256) (w : S2x256x256.Idx → EReal) (s : Fin 2)
    (ho0 : o 0 = s.val) (ho1 : o 1 = 0) (ho2 : o 2 = 0) (i j : Fin 256) :
    sliceMat o hs w (ix2 i j) = sliceW s w i j := by
  unfold sliceMat
  rw [shapeCast_1ab_ab_apply]
  exact extractStridedSlice_apply _ _ _ _ (ix3 s i j) (fun a => match a with
    | ⟨0, _⟩ => by show s.val = o 0 + 0; omega
    | ⟨1, _⟩ => by show i.val = o 1 + i.val; omega
    | ⟨2, _⟩ => by show j.val = o 2 + j.val; omega)

/-- A row of the two bias rows at an index. -/
theorem sliceRow_apply (o : Fin 2 → Nat) (hs : S2x256.Slices o S1x256) (b : S2x256.Idx → EReal) (s : Fin 2)
    (ho0 : o 0 = s.val) (ho1 : o 1 = 0) (j : Fin 256) :
    sliceRow o hs b (ix2 0 j) = sliceB s b j := by
  unfold sliceRow
  rw [shapeCast_a_1a_apply, shapeCast_1a_a_apply]
  exact extractStridedSlice_apply _ _ _ _ (ix2 s j) (fun a => match a with
    | ⟨0, _⟩ => by show s.val = o 0 + 0; omega
    | ⟨1, _⟩ => by show j.val = o 1 + j.val; omega)

/-- A vector reshaped to an [N, 1] column reads, at row `n`, the vector at `n`. -/
theorem colCast_apply {α : Type} (v : S262144.Idx → α) (n : Fin 262144) :
    shapeCast S262144x1 v shapeCasts_S262144_S262144x1 (ix2 n 0) = v (ix1 n) :=
  shapeCast_apply _ _ _ (ix1 n) (by
    rw [Shape.rowMajor_val_one, Shape.rowMajor_val_two]
    show n.val = n.val * 1 + 0
    omega)

/-- The two partial sums of the pooling region, added. -/
def halves (x : S2x512x256.Idx → EReal) : Mat 512 256 := fun g d => x (ix3 0 g d) + x (ix3 1 g d)

/-- THE READOUT at an index: the two partial sums added, over the graph's size, at least one. -/
theorem readoutT_apply (p : S2x512x256.Idx → EReal) (gid : IVec S262144 32) (g : Fin 512) (d : Fin 256) :
    readoutT p gid (ix2 g d) = readout oneE (segOf gid) (halves p) g d := by
  unfold readoutT
  rw [hostDivf_apply, addf_apply, shapeCast_1ab_ab_apply, shapeCast_1ab_ab_apply]
  have s0 : extractStridedSlice S1x512x256 ![0, 0, 0] p slices_S2x512x256_S1x512x256_0_0_0 (ix3 (0 : Fin 1) g d) = p (ix3 0 g d) :=
    extractStridedSlice_apply _ _ _ _ (ix3 (0 : Fin 2) g d) (fun a => match a with
      | ⟨0, _⟩ => rfl
      | ⟨1, _⟩ => (Nat.zero_add _).symm
      | ⟨2, _⟩ => (Nat.zero_add _).symm)
  have s1 : extractStridedSlice S1x512x256 ![1, 0, 0] p slices_S2x512x256_S1x512x256_1_0_0 (ix3 (0 : Fin 1) g d) = p (ix3 1 g d) :=
    extractStridedSlice_apply _ _ _ _ (ix3 (1 : Fin 2) g d) (fun a => match a with
      | ⟨0, _⟩ => rfl
      | ⟨1, _⟩ => (Nat.zero_add _).symm
      | ⟨2, _⟩ => (Nat.zero_add _).symm)
  rw [s0, s1]
  have hb : ∀ v : S512x1.Idx → EReal, broadcastInDim S512x256 ![0, 1] bcast_S512x1_S512x256_0_1 v (ix2 g d) = v (ix2 g 0) := fun v =>
    broadcastInDim_apply _ _ _ _ (ix2 g (0 : Fin 1)) (fun a => match a with
      | ⟨0, _⟩ => by show g.val = if (512 : ℕ) = 1 then 0 else g.val; rw [if_neg (by decide)]
      | ⟨1, _⟩ => by show (0 : ℕ) = if (1 : ℕ) = 1 then 0 else d.val; rw [if_pos rfl])
  rw [hb, maximumf_apply]
  have hcnt : Host.scatterAdd (F := Ideal) (φ := .f32) scatter_S512x1_S262144x1_S262144x1_1_0_0_1
      (broadcastInDim S512x1 ![] bcast_S_S512x1 (constant (F := Ideal) S_ .f32 0x00000000#32))
      (broadcastInDim S262144x1 ![0] bcast_S262144_S262144x1_0 gid)
      (broadcastInDim S262144x1 ![] bcast_S_S262144x1 (constant (F := Ideal) S_ .f32 0x3F800000#32)) (ix2 g 0)
      = segSum 512 (segOf gid) (fun (_ : Fin 262144) (_ : Fin 1) => oneE) g 0 := by
    refine (Cert.LibRows.scatterAdd_rows_apply _ rfl rfl rfl rfl _ _ _ g 0).trans ?_
    have hz : (broadcastInDim S512x1 ![] bcast_S_S512x1 (constant (F := Ideal) S_ .f32 0x00000000#32)) (ix2 g 0) = (0 : EReal) :=
      Ideal.ofBits_zero_f32
    rw [hz]
    unfold segSum segOf
    refine congrArg (fun s => (0 : EReal) + s) (Finset.sum_congr rfl fun e _ => ?_)
    rw [bcol_apply gid e 0]
    rfl
  rw [hcnt]
  rfl

end Cert.KernelIdeal.HostValue

end
-- ==== Proof.KernelIdeal.HostStageA.lean ====
import proofs.«401558_j47940424958092_2_alg».proof.Proof.Gen.KernelIdeal.Launch
import proofs.«401558_j47940424958092_2_alg».proof.Proof.KernelIdeal.HostLib

set_option maxRecDepth 16384

noncomputable section

namespace Cert.KernelIdeal.HostValue

open Idealize.ShloMosaic Idealize.ShloMosaic.TcCoe Idealize.ShloMosaic.ValueIdx Idealize.SL.Sem
open Cert.KernelIdeal Cert.KernelIdeal.Gen Cert.Spec

variable (W : Valuation τ sig (Elt Ideal))

/-! The first two row gathers of the program, each a stretch of 23 operations, as one term of the buffers it reads. -/

set_option maxHeartbeats 4000000 in
/-- The first stretch leaves, in its result buffer, the embedding table's rows taken at the node types. -/
theorem stage0 :
    (StableHlo.after hostOps0 W (Proc.devRef .tc main_v0) : S262144x256.Idx → EReal)
      = takeRows 60#32 59#32 gather_S60x256_S262144x1_S262144x256_1_0_n_n_0_1_1256
          (W (Proc.devRef .tc main_arg4)) (W (Proc.devRef .tc main_arg0)) := by
  unfold takeRows rangeMask wrapCol
  host_results
  simp only [cast_eq]

set_option maxHeartbeats 4000000 in
/-- The second stretch leaves the node features' rows taken at the edge sources. -/
theorem stage0_1 :
    (StableHlo.after hostOps0_1 W (Proc.devRef .tc main_v1) : S262144x256.Idx → EReal)
      = takeRows 262144#32 262143#32 gather_S262144x256_S262144x1_S262144x256_1_0_n_n_0_1_1256
          (W (Proc.devRef .tc main_v0)) (W (Proc.devRef .tc main_arg1)) := by
  unfold takeRows rangeMask wrapCol
  host_results
  simp only [cast_eq]

end Cert.KernelIdeal.HostValue

end
-- ==== Proof.KernelIdeal.HostStageB.lean ====
import proofs.«401558_j47940424958092_2_alg».proof.Proof.Gen.KernelIdeal.Launch
import proofs.«401558_j47940424958092_2_alg».proof.Proof.KernelIdeal.HostLib

set_option maxRecDepth 16384

noncomputable section

namespace Cert.KernelIdeal.HostValue

open Idealize.ShloMosaic Idealize.ShloMosaic.TcCoe Idealize.ShloMosaic.ValueIdx Idealize.SL.Sem
open Cert.KernelIdeal Cert.KernelIdeal.Gen Cert.Spec

variable (W : Valuation τ sig (Elt Ideal))

/-! The third row gather of the first hop and the first of the second hop, each as one term of the buffers it reads. -/

set_option maxHeartbeats 4000000 in
/-- The third stretch leaves the node features' rows taken at the edge targets. -/
theorem stage0_2 :
    (StableHlo.after hostOps0_2 W (Proc.devRef .tc main_v2) : S262144x256.Idx → EReal)
      = takeRows 262144#32 262143#32 gather_S262144x256_S262144x1_S262144x256_1_0_n_n_0_1_1256
          (W (Proc.devRef .tc main_v0)) (W (Proc.devRef .tc main_arg2)) := by
  unfold takeRows rangeMask wrapCol
  host_results
  simp only [cast_eq]

set_option maxHeartbeats 4000000 in
/-- After the first region: the new features' rows taken at the edge sources. -/
theorem stage1 :
    (StableHlo.after hostOps1 W (Proc.devRef .tc main_v19) : S262144x256.Idx → EReal)
      = takeRows 262144#32 262143#32 gather_S262144x256_S262144x1_S262144x256_1_0_n_n_0_1_1256
          (W (Proc.devRef .tc main_v18)) (W (Proc.devRef .tc main_arg1)) := by
  unfold takeRows rangeMask wrapCol
  host_results
  simp only [cast_eq]

end Cert.KernelIdeal.HostValue

end
-- ==== Proof.KernelIdeal.HostStageC.lean ====
import proofs.«401558_j47940424958092_2_alg».proof.Proof.Gen.KernelIdeal.Launch
import proofs.«401558_j47940424958092_2_alg».proof.Proof.KernelIdeal.HostLib

set_option maxRecDepth 16384

noncomputable section

namespace Cert.KernelIdeal.HostValue

open Idealize.ShloMosaic Idealize.ShloMosaic.TcCoe Idealize.ShloMosaic.ValueIdx Idealize.SL.Sem
open Cert.KernelIdeal Cert.KernelIdeal.Gen Cert.Spec

variable (W : Valuation τ sig (Elt Ideal))

/-! The second hop's other row gather, the graph numbers as a column, and the readout after the pooling region. -/

set_option maxHeartbeats 4000000 in
/-- After the first region: the new features' rows taken at the edge targets. -/
theorem stage1_1 :
    (StableHlo.after hostOps1_1 W (Proc.devRef .tc main_v20) : S262144x256.Idx → EReal)
      = takeRows 262144#32 262143#32 gather_S262144x256_S262144x1_S262144x256_1_0_n_n_0_1_1256
          (W (Proc.devRef .tc main_v18)) (W (Proc.devRef .tc main_arg2)) := by
  unfold takeRows rangeMask wrapCol
  host_results
  simp only [cast_eq]

/-- The graph numbers as a column. -/
theorem stage2_v37 :
    (StableHlo.after hostOps2 W (Proc.devRef .tc main_v37) : S262144x1.Idx → BitVec 32)
      = shapeCast S262144x1 (W (Proc.devRef .tc main_arg3)) shapeCasts_S262144_S262144x1 := by
  host_results
  rfl

/-- The readout from the pooling region's two partial sums. -/
theorem stage3_v51 :
    (StableHlo.after hostOps3 W (Proc.devRef .tc main_v51) : S512x256.Idx → EReal)
      = readoutT (W (Proc.devRef .tc main_v38)) (W (Proc.devRef .tc main_arg3)) := by
  unfold readoutT
  host_results
  rfl

end Cert.KernelIdeal.HostValue

end
-- ==== Proof.KernelIdeal.HostStageD.lean ====
import proofs.«401558_j47940424958092_2_alg».proof.Proof.Gen.KernelIdeal.Launch
import proofs.«401558_j47940424958092_2_alg».proof.Proof.KernelIdeal.HostLib

set_option maxRecDepth 16384

noncomputable section

namespace Cert.KernelIdeal.HostValue

open Idealize.ShloMosaic Idealize.ShloMosaic.TcCoe Idealize.ShloMosaic.ValueIdx Idealize.SL.Sem
open Cert.KernelIdeal Cert.KernelIdeal.Gen Cert.Spec

variable (W : Valuation τ sig (Elt Ideal))

/-! The operations between the row gathers and each hop's region: the two segment sums, the bias row and the three
    weight matrices of the hop. -/

/-- Hop 1, upward: the rows taken at the sources, summed into the targets. -/
theorem stage0_3_v5 :
    (StableHlo.after hostOps0_3 W (Proc.devRef .tc main_v5) : S262144x256.Idx → EReal)
      = segRows (W (Proc.devRef .tc main_arg2)) (W (Proc.devRef .tc main_v1)) := by
  unfold segRows
  host_results

/-- Hop 1, downward: the rows taken at the targets, summed into the sources. -/
theorem stage0_3_v8 :
    (StableHlo.after hostOps0_3 W (Proc.devRef .tc main_v8) : S262144x256.Idx → EReal)
      = segRows (W (Proc.devRef .tc main_arg1)) (W (Proc.devRef .tc main_v2)) := by
  unfold segRows
  host_results

/-- Hop 1's bias row. -/
theorem stage0_3_v11 :
    (StableHlo.after hostOps0_3 W (Proc.devRef .tc main_v11) : S1x256.Idx → EReal)
      = sliceRow ![0, 0] slices_S2x256_S1x256_0_0 (W (Proc.devRef .tc main_arg8)) := by
  unfold sliceRow
  host_results
  rfl

/-- Hop 1's self weights. -/
theorem stage0_3_v13 :
    (StableHlo.after hostOps0_3 W (Proc.devRef .tc main_v13) : S256x256.Idx → EReal)
      = sliceMat ![0, 0, 0] slices_S2x256x256_S1x256x256_0_0_0 (W (Proc.devRef .tc main_arg7)) := by
  unfold sliceMat
  host_results
  rfl

/-- Hop 1's upward weights. -/
theorem stage0_3_v15 :
    (StableHlo.after hostOps0_3 W (Proc.devRef .tc main_v15) : S256x256.Idx → EReal)
      = sliceMat ![0, 0, 0] slices_S2x256x256_S1x256x256_0_0_0 (W (Proc.devRef .tc main_arg5)) := by
  unfold sliceMat
  host_results
  rfl

/-- Hop 1's downward weights. -/
theorem stage0_3_v17 :
    (StableHlo.after hostOps0_3 W (Proc.devRef .tc main_v17) : S256x256.Idx → EReal)
      = sliceMat ![0, 0, 0] slices_S2x256x256_S1x256x256_0_0_0 (W (Proc.devRef .tc main_arg6)) := by
  unfold sliceMat
  host_results
  rfl

/-- Hop 2, upward. -/
theorem stage1_2_v23 :
    (StableHlo.after hostOps1_2 W (Proc.devRef .tc main_v23) : S262144x256.Idx → EReal)
      = segRows (W (Proc.devRef .tc main_arg2)) (W (Proc.devRef .tc main_v19)) := by
  unfold segRows
  host_results

/-- Hop 2, downward. -/
theorem stage1_2_v26 :
    (StableHlo.after hostOps1_2 W (Proc.devRef .tc main_v26) : S262144x256.Idx → EReal)
      = segRows (W (Proc.devRef .tc main_arg1)) (W (Proc.devRef .tc main_v20)) := by
  unfold segRows
  host_results

/-- Hop 2's bias row. -/
theorem stage1_2_v29 :
    (StableHlo.after hostOps1_2 W (Proc.devRef .tc main_v29) : S1x256.Idx → EReal)
      = sliceRow ![1, 0] slices_S2x256_S1x256_1_0 (W (Proc.devRef .tc main_arg8)) := by
  unfold sliceRow
  host_results
  rfl

/-- Hop 2's self weights. -/
theorem stage1_2_v31 :
    (StableHlo.after hostOps1_2 W (Proc.devRef .tc main_v31) : S256x256.Idx → EReal)
      = sliceMat ![1, 0, 0] slices_S2x256x256_S1x256x256_1_0_0 (W (Proc.devRef .tc main_arg7)) := by
  unfold sliceMat
  host_results
  rfl

/-- Hop 2's upward weights. -/
theorem stage1_2_v33 :
    (StableHlo.after hostOps1_2 W (Proc.devRef .tc main_v33) : S256x256.Idx → EReal)
      = sliceMat ![1, 0, 0] slices_S2x256x256_S1x256x256_1_0_0 (W (Proc.devRef .tc main_arg5)) := by
  unfold sliceMat
  host_results
  rfl

/-- Hop 2's downward weights. -/
theorem stage1_2_v35 :
    (StableHlo.after hostOps1_2 W (Proc.devRef .tc main_v35) : S256x256.Idx → EReal)
      = sliceMat ![1, 0, 0] slices_S2x256x256_S1x256x256_1_0_0 (W (Proc.devRef .tc main_arg6)) := by
  unfold sliceMat
  host_results
  rfl

end Cert.KernelIdeal.HostValue

end
-- ==== Proof.KernelIdeal.HostValue.lean ====
import proofs.«401558_j47940424958092_2_alg».proof.Proof.Gen.KernelIdeal.Regions
import proofs.«401558_j47940424958092_2_alg».proof.Proof.Inputs
import proofs.«401558_j47940424958092_2_alg».proof.Proof.LibRows
import proofs.«401558_j47940424958092_2_alg».proof.Proof.KernelIdeal.HostLib
import proofs.«401558_j47940424958092_2_alg».proof.Proof.KernelIdeal.HostStageA
import proofs.«401558_j47940424958092_2_alg».proof.Proof.KernelIdeal.HostStageB
import proofs.«401558_j47940424958092_2_alg».proof.Proof.KernelIdeal.HostStageC
import proofs.«401558_j47940424958092_2_alg».proof.Proof.KernelIdeal.HostStageD
import Idealize.ShloMosaic.Lib.StableHlo.Run

set_option maxRecDepth 16384

noncomputable section

/-! What the regions of the kernel's program read and what its last stretch leaves, over the nine inputs: between two
    items every buffer is a stretch's term of the buffers before it, a buffer no later stretch writes keeps its contents,
    and each term is read at an index by the lemmas on row gathers, segment sums and slices. The index-range
    hypotheses enter at the row gathers only: with the indices in range the mask is all ones. -/
namespace Cert.KernelIdeal.HostValue

open Idealize.ShloMosaic Idealize.ShloMosaic.TcCoe Idealize.ShloMosaic.ValueIdx Idealize.SL.Sem
open Cert.KernelIdeal Cert.KernelIdeal.Gen Cert.Spec

variable (m : (ℓ : Loc nD τ sig) → Buf (Elt Ideal) ℓ) (outs : Outs (F := Ideal)) (c : Dev nD)

/-! ## The nine inputs on core `c` -/

/-- The node types. -/
abbrev a0 : IdxVec := m ((c.tc : Thread nD τ).loc main_arg0)
/-- The edge sources. -/
abbrev a1 : IdxVec := m ((c.tc : Thread nD τ).loc main_arg1)
/-- The edge targets. -/
abbrev a2 : IdxVec := m ((c.tc : Thread nD τ).loc main_arg2)
/-- The graph numbers. -/
abbrev a3 : IdxVec := m ((c.tc : Thread nD τ).loc main_arg3)
/-- The embedding table. -/
abbrev a4 : S60x256.Idx → EReal := m ((c.tc : Thread nD τ).loc main_arg4)
/-- The upward weights. -/
abbrev a5 : S2x256x256.Idx → EReal := m ((c.tc : Thread nD τ).loc main_arg5)
/-- The downward weights. -/
abbrev a6 : S2x256x256.Idx → EReal := m ((c.tc : Thread nD τ).loc main_arg6)
/-- The self weights. -/
abbrev a7 : S2x256x256.Idx → EReal := m ((c.tc : Thread nD τ).loc main_arg7)
/-- The bias rows. -/
abbrev a8 : S2x256.Idx → EReal := m ((c.tc : Thread nD τ).loc main_arg8)

/-! ## Buffers the stretches so far have not written -/

theorem keep1 (r : Ref sig .tc) (h1 : r ∉ hostOps0_W) : V1 m c r = V0 m c r := V1_of m c r h1
theorem keep2 (r : Ref sig .tc) (h1 : r ∉ hostOps0_W) (h2 : r ∉ hostOps0_1_W) : V2 m c r = V0 m c r :=
  (V2_of m c r h2).trans (keep1 m c r h1)
theorem keep3 (r : Ref sig .tc) (h1 : r ∉ hostOps0_W) (h2 : r ∉ hostOps0_1_W) (h3 : r ∉ hostOps0_2_W) : V3 m c r = V0 m c r :=
  (V3_of m c r h3).trans (keep2 m c r h1 h2)
theorem keep5 (r : Ref sig .tc) (h1 : r ∉ hostOps0_W) (h2 : r ∉ hostOps0_1_W) (h3 : r ∉ hostOps0_2_W) (h4 : r ∉ hostOps0_3_W)
    (h5 : r ∉ ([main_v18] : List (Ref sig .tc))) : V5 m outs c r = V0 m c r :=
  (V5_of m outs c r h5).trans ((V4_of m c r h4).trans (keep3 m c r h1 h2 h3))
theorem keep6 (r : Ref sig .tc) (h1 : r ∉ hostOps0_W) (h2 : r ∉ hostOps0_1_W) (h3 : r ∉ hostOps0_2_W) (h4 : r ∉ hostOps0_3_W)
    (h5 : r ∉ ([main_v18] : List (Ref sig .tc))) (h6 : r ∉ hostOps1_W) : V6 m outs c r = V0 m c r :=
  (V6_of m outs c r h6).trans (keep5 m outs c r h1 h2 h3 h4 h5)
theorem keep7 (r : Ref sig .tc) (h1 : r ∉ hostOps0_W) (h2 : r ∉ hostOps0_1_W) (h3 : r ∉ hostOps0_2_W) (h4 : r ∉ hostOps0_3_W)
    (h5 : r ∉ ([main_v18] : List (Ref sig .tc))) (h6 : r ∉ hostOps1_W) (h7 : r ∉ hostOps1_1_W) : V7 m outs c r = V0 m c r :=
  (V7_of m outs c r h7).trans (keep6 m outs c r h1 h2 h3 h4 h5 h6)
theorem keep9 (r : Ref sig .tc) (h1 : r ∉ hostOps0_W) (h2 : r ∉ hostOps0_1_W) (h3 : r ∉ hostOps0_2_W) (h4 : r ∉ hostOps0_3_W)
    (h5 : r ∉ ([main_v18] : List (Ref sig .tc))) (h6 : r ∉ hostOps1_W) (h7 : r ∉ hostOps1_1_W) (h8 : r ∉ hostOps1_2_W)
    (h9 : r ∉ ([main_v36] : List (Ref sig .tc))) : V9 m outs c r = V0 m c r :=
  (V9_of m outs c r h9).trans ((V8_of m outs c r h8).trans (keep7 m outs c r h1 h2 h3 h4 h5 h6 h7))
theorem keep11 (r : Ref sig .tc) (h1 : r ∉ hostOps0_W) (h2 : r ∉ hostOps0_1_W) (h3 : r ∉ hostOps0_2_W) (h4 : r ∉ hostOps0_3_W)
    (h5 : r ∉ ([main_v18] : List (Ref sig .tc))) (h6 : r ∉ hostOps1_W) (h7 : r ∉ hostOps1_1_W) (h8 : r ∉ hostOps1_2_W)
    (h9 : r ∉ ([main_v36] : List (Ref sig .tc))) (h10 : r ∉ hostOps2_W) (h11 : r ∉ ([main_v38] : List (Ref sig .tc))) :
    V11 m outs c r = V0 m c r :=
  (V11_of m outs c r h11).trans ((V10_of m outs c r h10).trans (keep9 m outs c r h1 h2 h3 h4 h5 h6 h7 h8 h9))

/-- The node features stay in their buffer up to the first region. -/
theorem feat_kept : V4 m c main_v0 = V1 m c main_v0 :=
  (V4_of m c main_v0 (by decide)).trans ((V3_of m c main_v0 (by decide)).trans (V2_of m c main_v0 (by decide)))

/-- The first region's output is what it left, up to the second region. -/
theorem keep18 : V8 m outs c main_v18 = outs 5 main_v18 c :=
  (V8_of m outs c main_v18 (by decide)).trans ((V7_of m outs c main_v18 (by decide)).trans
    ((V6_of m outs c main_v18 (by decide)).trans (Function.update_self _ _ _)))

/-- The second region's output is what it left, up to the pooling region. -/
theorem keep36 : V10 m outs c main_v36 = outs 9 main_v36 c :=
  (V10_of m outs c main_v36 (by decide)).trans (Function.update_self _ _ _)

/-! ## Words in range -/

theorem le59 {z : Int} (h : z < 60) : z ≤ (59#32 : BitVec 32).toInt := by
  rw [show (59#32 : BitVec 32).toInt = 59 from by decide]; omega
theorem leN {z : Int} (h : z < 262144) : z ≤ (262143#32 : BitVec 32).toInt := by
  rw [show (262143#32 : BitVec 32).toInt = 262143 from by decide]; omega

/-! ## Plumbing: a stretch's term with its operands renamed -/

theorem agg_of {v5 v1 x0 x : S262144x256.Idx → EReal} {s s' g g' : IVec S262144 32}
    (h5 : v5 = segRows s v1)
    (h1 : v1 = takeRows 262144#32 262143#32 gather_S262144x256_S262144x1_S262144x256_1_0_n_n_0_1_1256 x0 g)
    (e0 : x0 = x) (es : s = s') (eg : g = g') :
    v5 = segRows s' (takeRows 262144#32 262143#32 gather_S262144x256_S262144x1_S262144x256_1_0_n_n_0_1_1256 x g') := by
  subst e0 es eg h1; exact h5

/-! ## The node features -/

theorem feat (h0 : ∀ e, 0 ≤ segOf (a0 m c) e ∧ segOf (a0 m c) e < 60) (n : Fin 262144) (k : Fin 256) :
    (V4 m c main_v0 : S262144x256.Idx → EReal) (ix2 n k) = feat0 (a0 m c) (a4 m c) n k := by
  have e : (V4 m c main_v0 : S262144x256.Idx → EReal)
      = takeRows 60#32 59#32 gather_S60x256_S262144x1_S262144x256_1_0_n_n_0_1_1256 (a4 m c) (a0 m c) :=
    (feat_kept m c).trans (stage0 (V0 m c))
  refine (congrFun e (ix2 n k)).trans ?_
  exact takeRows_apply (by decide) 60#32 59#32 _ rfl rfl rfl rfl rfl rfl rfl (a4 m c) (a0 m c)
    (fun e => ⟨(h0 e).1, le59 (h0 e).2⟩) n k

/-! ## Hop 1's operands -/

theorem up1 (h1 : ∀ e, 0 ≤ segOf (a1 m c) e ∧ segOf (a1 m c) e < 262144) (n : Fin 262144) (k : Fin 256) :
    (V4 m c main_v5 : S262144x256.Idx → EReal) (ix2 n k)
      = segSum 262144 (segOf (a2 m c)) (gatherRows (by decide : 0 < 262144) (toMat (V4 m c main_v0 : S262144x256.Idx → EReal))
          (rowNo 262144#32 (a1 m c))) n k := by
  have e : (V4 m c main_v5 : S262144x256.Idx → EReal)
      = segRows (a2 m c) (takeRows 262144#32 262143#32 gather_S262144x256_S262144x1_S262144x256_1_0_n_n_0_1_1256
          (V4 m c main_v0) (a1 m c)) :=
    agg_of (stage0_3_v5 (V3 m c)) ((V3_of m c main_v1 (by decide)).trans (stage0_1 (V1 m c))) (feat_kept m c).symm
      (keep3 m c main_arg2 (by decide) (by decide) (by decide)) (keep1 m c main_arg1 (by decide))
  refine (congrFun e (ix2 n k)).trans ?_
  exact hopAgg_apply _ _ _ (fun e => ⟨(h1 e).1, leN (h1 e).2⟩) n k

theorem down1 (h2 : ∀ e, 0 ≤ segOf (a2 m c) e ∧ segOf (a2 m c) e < 262144) (n : Fin 262144) (k : Fin 256) :
    (V4 m c main_v8 : S262144x256.Idx → EReal) (ix2 n k)
      = segSum 262144 (segOf (a1 m c)) (gatherRows (by decide : 0 < 262144) (toMat (V4 m c main_v0 : S262144x256.Idx → EReal))
          (rowNo 262144#32 (a2 m c))) n k := by
  have e : (V4 m c main_v8 : S262144x256.Idx → EReal)
      = segRows (a1 m c) (takeRows 262144#32 262143#32 gather_S262144x256_S262144x1_S262144x256_1_0_n_n_0_1_1256
          (V4 m c main_v0) (a2 m c)) :=
    agg_of (stage0_3_v8 (V3 m c)) (stage0_2 (V2 m c))
      ((V2_of m c main_v0 (by decide)).symm.trans ((V3_of m c main_v0 (by decide)).symm.trans (V4_of m c main_v0 (by decide)).symm))
      (keep3 m c main_arg1 (by decide) (by decide) (by decide)) (keep2 m c main_arg2 (by decide) (by decide))
  refine (congrFun e (ix2 n k)).trans ?_
  exact hopAgg_apply _ _ _ (fun e => ⟨(h2 e).1, leN (h2 e).2⟩) n k

theorem wself1 (i j : Fin 256) : (V4 m c main_v13 : S256x256.Idx → EReal) (ix2 i j) = sliceW 0 (a7 m c) i j :=
  (congrFun ((stage0_3_v13 (V3 m c)).trans (congrArg (sliceMat ![0, 0, 0] slices_S2x256x256_S1x256x256_0_0_0)
    (keep3 m c main_arg7 (by decide) (by decide) (by decide)))) (ix2 i j)).trans
    (sliceMat_apply ![0, 0, 0] slices_S2x256x256_S1x256x256_0_0_0 (a7 m c) 0 rfl rfl rfl i j)

theorem wup1 (i j : Fin 256) : (V4 m c main_v15 : S256x256.Idx → EReal) (ix2 i j) = sliceW 0 (a5 m c) i j :=
  (congrFun ((stage0_3_v15 (V3 m c)).trans (congrArg (sliceMat ![0, 0, 0] slices_S2x256x256_S1x256x256_0_0_0)
    (keep3 m c main_arg5 (by decide) (by decide) (by decide)))) (ix2 i j)).trans
    (sliceMat_apply ![0, 0, 0] slices_S2x256x256_S1x256x256_0_0_0 (a5 m c) 0 rfl rfl rfl i j)

theorem wdown1 (i j : Fin 256) : (V4 m c main_v17 : S256x256.Idx → EReal) (ix2 i j) = sliceW 0 (a6 m c) i j :=
  (congrFun ((stage0_3_v17 (V3 m c)).trans (congrArg (sliceMat ![0, 0, 0] slices_S2x256x256_S1x256x256_0_0_0)
    (keep3 m c main_arg6 (by decide) (by decide) (by decide)))) (ix2 i j)).trans
    (sliceMat_apply ![0, 0, 0] slices_S2x256x256_S1x256x256_0_0_0 (a6 m c) 0 rfl rfl rfl i j)

theorem bias1 (j : Fin 256) : (V4 m c main_v11 : S1x256.Idx → EReal) (ix2 0 j) = sliceB 0 (a8 m c) j :=
  (congrFun ((stage0_3_v11 (V3 m c)).trans (congrArg (sliceRow ![0, 0] slices_S2x256_S1x256_0_0)
    (keep3 m c main_arg8 (by decide) (by decide) (by decide)))) (ix2 0 j)).trans
    (sliceRow_apply ![0, 0] slices_S2x256_S1x256_0_0 (a8 m c) 0 rfl rfl j)

/-! ## Hop 2's operands -/

theorem up2 (h1 : ∀ e, 0 ≤ segOf (a1 m c) e ∧ segOf (a1 m c) e < 262144) (n : Fin 262144) (k : Fin 256) :
    (V8 m outs c main_v23 : S262144x256.Idx → EReal) (ix2 n k)
      = segSum 262144 (segOf (a2 m c)) (gatherRows (by decide : 0 < 262144) (toMat (V8 m outs c main_v18 : S262144x256.Idx → EReal))
          (rowNo 262144#32 (a1 m c))) n k := by
  have e : (V8 m outs c main_v23 : S262144x256.Idx → EReal)
      = segRows (a2 m c) (takeRows 262144#32 262143#32 gather_S262144x256_S262144x1_S262144x256_1_0_n_n_0_1_1256
          (V8 m outs c main_v18) (a1 m c)) :=
    agg_of (stage1_2_v23 (V7 m outs c)) ((V7_of m outs c main_v19 (by decide)).trans (stage1 (V5 m outs c)))
      ((V6_of m outs c main_v18 (by decide)).symm.trans ((V7_of m outs c main_v18 (by decide)).symm.trans (V8_of m outs c main_v18 (by decide)).symm))
      (keep7 m outs c main_arg2 (by decide) (by decide) (by decide) (by decide) (by decide) (by decide) (by decide))
      (keep5 m outs c main_arg1 (by decide) (by decide) (by decide) (by decide) (by decide))
  refine (congrFun e (ix2 n k)).trans ?_
  exact hopAgg_apply _ _ _ (fun e => ⟨(h1 e).1, leN (h1 e).2⟩) n k

theorem down2 (h2 : ∀ e, 0 ≤ segOf (a2 m c) e ∧ segOf (a2 m c) e < 262144) (n : Fin 262144) (k : Fin 256) :
    (V8 m outs c main_v26 : S262144x256.Idx → EReal) (ix2 n k)
      = segSum 262144 (segOf (a1 m c)) (gatherRows (by decide : 0 < 262144) (toMat (V8 m outs c main_v18 : S262144x256.Idx → EReal))
          (rowNo 262144#32 (a2 m c))) n k := by
  have e : (V8 m outs c main_v26 : S262144x256.Idx → EReal)
      = segRows (a1 m c) (takeRows 262144#32 262143#32 gather_S262144x256_S262144x1_S262144x256_1_0_n_n_0_1_1256
          (V8 m outs c main_v18) (a2 m c)) :=
    agg_of (stage1_2_v26 (V7 m outs c)) (stage1_1 (V6 m outs c))
      ((V7_of m outs c main_v18 (by decide)).symm.trans (V8_of m outs c main_v18 (by decide)).symm)
      (keep7 m outs c main_arg1 (by decide) (by decide) (by decide) (by decide) (by decide) (by decide) (by decide))
      (keep6 m outs c main_arg2 (by decide) (by decide) (by decide) (by decide) (by decide) (by decide))
  refine (congrFun e (ix2 n k)).trans ?_
  exact hopAgg_apply _ _ _ (fun e => ⟨(h2 e).1, leN (h2 e).2⟩) n k

theorem wself2 (i j : Fin 256) : (V8 m outs c main_v31 : S256x256.Idx → EReal) (ix2 i j) = sliceW 1 (a7 m c) i j :=
  (congrFun ((stage1_2_v31 (V7 m outs c)).trans (congrArg (sliceMat ![1, 0, 0] slices_S2x256x256_S1x256x256_1_0_0)
    (keep7 m outs c main_arg7 (by decide) (by decide) (by decide) (by decide) (by decide) (by decide) (by decide)))) (ix2 i j)).trans
    (sliceMat_apply ![1, 0, 0] slices_S2x256x256_S1x256x256_1_0_0 (a7 m c) 1 rfl rfl rfl i j)

theorem wup2 (i j : Fin 256) : (V8 m outs c main_v33 : S256x256.Idx → EReal) (ix2 i j) = sliceW 1 (a5 m c) i j :=
  (congrFun ((stage1_2_v33 (V7 m outs c)).trans (congrArg (sliceMat ![1, 0, 0] slices_S2x256x256_S1x256x256_1_0_0)
    (keep7 m outs c main_arg5 (by decide) (by decide) (by decide) (by decide) (by decide) (by decide) (by decide)))) (ix2 i j)).trans
    (sliceMat_apply ![1, 0, 0] slices_S2x256x256_S1x256x256_1_0_0 (a5 m c) 1 rfl rfl rfl i j)

theorem wdown2 (i j : Fin 256) : (V8 m outs c main_v35 : S256x256.Idx → EReal) (ix2 i j) = sliceW 1 (a6 m c) i j :=
  (congrFun ((stage1_2_v35 (V7 m outs c)).trans (congrArg (sliceMat ![1, 0, 0] slices_S2x256x256_S1x256x256_1_0_0)
    (keep7 m outs c main_arg6 (by decide) (by decide) (by decide) (by decide) (by decide) (by decide) (by decide)))) (ix2 i j)).trans
    (sliceMat_apply ![1, 0, 0] slices_S2x256x256_S1x256x256_1_0_0 (a6 m c) 1 rfl rfl rfl i j)

theorem bias2 (j : Fin 256) : (V8 m outs c main_v29 : S1x256.Idx → EReal) (ix2 0 j) = sliceB 1 (a8 m c) j :=
  (congrFun ((stage1_2_v29 (V7 m outs c)).trans (congrArg (sliceRow ![1, 0] slices_S2x256_S1x256_1_0)
    (keep7 m outs c main_arg8 (by decide) (by decide) (by decide) (by decide) (by decide) (by decide) (by decide)))) (ix2 0 j)).trans
    (sliceRow_apply ![1, 0] slices_S2x256_S1x256_1_0 (a8 m c) 1 rfl rfl j)

/-! ## The pooling region's operands -/

theorem gidcol (n : Fin 262144) : (V10 m outs c main_v37 : S262144x1.Idx → BitVec 32) (ix2 n 0) = (a3 m c) (ix1 n) :=
  (congrFun ((stage2_v37 (V9 m outs c)).trans (congrArg (fun v => shapeCast S262144x1 v shapeCasts_S262144_S262144x1)
    (keep9 m outs c main_arg3 (by decide) (by decide) (by decide) (by decide) (by decide) (by decide) (by decide) (by decide) (by decide))))
    (ix2 n 0)).trans (colCast_apply (a3 m c) n)

/-! ## The tail after the last region -/

theorem result (g : Fin 512) (d : Fin 256) :
    (V12 m outs c main_v51 : S512x256.Idx → EReal) (ix2 g d)
      = readout oneE (segOf (a3 m c)) (halves (outs 11 main_v38 c)) g d := by
  have e : (V12 m outs c main_v51 : S512x256.Idx → EReal) = readoutT (outs 11 main_v38 c) (a3 m c) := by
    refine (stage3_v51 (V11 m outs c)).trans ?_
    rw [show V11 m outs c (Proc.devRef .tc main_v38) = outs 11 main_v38 c from Function.update_self _ _ _,
      keep11 m outs c main_arg3 (by decide) (by decide) (by decide) (by decide) (by decide) (by decide) (by decide) (by decide)
        (by decide) (by decide) (by decide)]
  refine (congrFun e (ix2 g d)).trans ?_
  exact readoutT_apply _ _ g d

end Cert.KernelIdeal.HostValue

end
-- ==== Proof.KernelIdeal.Hop0Value.lean ====
import proofs.«401558_j47940424958092_2_alg».proof.Proof.KernelIdeal.Hop0
import proofs.«401558_j47940424958092_2_alg».proof.Proof.Inputs
import Idealize.ShloMosaic.Lib.Pipeline.Value
import Idealize.ShloMosaic.Lib.ValueIdx
import Idealize.ShloMosaic.Lib.ValueLayout
import Idealize.ShloMosaic.PureOps.Ideal.Laws

noncomputable section

/-! What the hop's kernel region leaves in its output array, at the ideal instance, entry by entry: the body's value at an
    entry of a block (three block products into zero, added, plus the bias row, rectified), each input block read off its
    array (the three row windows at rows 4096 t … 4096 t + 4095, the weights and the bias whole), and the 64 row blocks
    covering the array. -/
namespace Cert.KernelIdeal.Hop0Value

open Idealize.ShloMosaic Idealize.ShloMosaic.TcCoe Idealize.ShloMosaic.ValueIdx Idealize.SL.Sem Cert.KernelIdeal Cert.KernelIdeal.Gen Cert.KernelIdeal.Hop0 Cert.Spec

variable (V : (c : Dev nD) → (b : Ref sig .tc) → Buf (Elt Ideal) ((c : Thread nD τ).loc b)) (c : Dev nD)

/-! ## One block product at an index

The product contracts the left operand's columns with the right operand's rows: at output entry (r, k) and contraction
index q the left operand is read at (r, q) and the right at (q, k). -/

theorem lhs_ax0 (i : S4096x256.Idx) (q : dot_S4096x256_S256x256_S4096x256_1_0_0_1_n_n.contr.Idx) :
    (dot_S4096x256_S256x256_S4096x256_1_0_0_1_n_n.lhsIdx i q 0).val = (i 0).val := by
  unfold DotDims.lhsIdx
  rw [dif_neg (show ¬(0 : Fin S4096x256.rank) ∈ dot_S4096x256_S256x256_S4096x256_1_0_0_1_n_n.lhsBatch by decide), dif_pos (show (0 : Fin S4096x256.rank) ∈ dot_S4096x256_S256x256_S4096x256_1_0_0_1_n_n.lhsNonContracting by decide)]
  rfl
theorem lhs_ax1 (i : S4096x256.Idx) (q : dot_S4096x256_S256x256_S4096x256_1_0_0_1_n_n.contr.Idx) :
    (dot_S4096x256_S256x256_S4096x256_1_0_0_1_n_n.lhsIdx i q 1).val = (q ⟨0, by decide⟩).val :=
  dot_S4096x256_S256x256_S4096x256_1_0_0_1_n_n.lhsIdx_val_of_single rfl i q
theorem rhs_ax0 (i : S4096x256.Idx) (q : dot_S4096x256_S256x256_S4096x256_1_0_0_1_n_n.contr.Idx) :
    (dot_S4096x256_S256x256_S4096x256_1_0_0_1_n_n.rhsIdx i q 0).val = (q ⟨0, by decide⟩).val :=
  dot_S4096x256_S256x256_S4096x256_1_0_0_1_n_n.rhsIdx_val_of_single rfl i q
theorem rhs_ax1 (i : S4096x256.Idx) (q : dot_S4096x256_S256x256_S4096x256_1_0_0_1_n_n.contr.Idx) :
    (dot_S4096x256_S256x256_S4096x256_1_0_0_1_n_n.rhsIdx i q 1).val = (i 1).val := by
  unfold DotDims.rhsIdx
  rw [dif_neg (show ¬(1 : Fin S256x256.rank) ∈ dot_S4096x256_S256x256_S4096x256_1_0_0_1_n_n.rhsBatch by decide), dif_pos (show (1 : Fin S256x256.rank) ∈ dot_S4096x256_S256x256_S4096x256_1_0_0_1_n_n.rhsNonContracting by decide)]
  rfl

/-- A block of rows times a weight matrix, both narrowed to bf16 (the identity on extended reals), accumulated into
    zero: entry (r, k) is the sum over j of row r's entry j times the weight's entry (j, k). -/
theorem mm_apply (x : FVec Ideal S4096x256 .f32) (w : FVec Ideal S256x256 .f32) (r : Fin 4096) (k : Fin 256) :
    matmul dot_S4096x256_S256x256_S4096x256_1_0_0_1_n_n none (truncf .bf16 x bitsLt_bf16_f32) (truncf .bf16 w bitsLt_bf16_f32)
        (constant (F := Ideal) S4096x256 .f32 0x00000000#32) (ix2 r k)
      = ∑ j : Fin 256, x (ix2 r j) * w (ix2 j k) := by
  simp only [matmul]
  rw [Ideal.matmul_constant_zero_apply, ← Equiv.sum_comp (contrEquiv1 dot_S4096x256_S256x256_S4096x256_1_0_0_1_n_n 256 rfl rfl).symm]
  refine Finset.sum_congr rfl fun j _ => ?_
  have hj := contrEquiv1_symm_val dot_S4096x256_S256x256_S4096x256_1_0_0_1_n_n 256 rfl rfl j
  have el : dot_S4096x256_S256x256_S4096x256_1_0_0_1_n_n.lhsIdx (ix2 r k) ((contrEquiv1 dot_S4096x256_S256x256_S4096x256_1_0_0_1_n_n 256 rfl rfl).symm j) = ix2 r j := funext fun a => Fin.ext (by
    match a with
    | ⟨0, _⟩ => exact lhs_ax0 _ _
    | ⟨1, _⟩ => exact (lhs_ax1 _ _).trans hj)
  have er : dot_S4096x256_S256x256_S4096x256_1_0_0_1_n_n.rhsIdx (ix2 r k) ((contrEquiv1 dot_S4096x256_S256x256_S4096x256_1_0_0_1_n_n 256 rfl rfl).symm j) = ix2 j k := funext fun a => Fin.ext (by
    match a with
    | ⟨0, _⟩ => exact (rhs_ax0 _ _).trans hj
    | ⟨1, _⟩ => exact rhs_ax1 _ _)
  rw [el, er]
  rfl

/-! ## The body's value at an index -/

/-- Entry (r, k) of what the body computes from its seven blocks: the three block products added in order, plus the
    bias row's entry k, rectified. -/
theorem pay_apply (x0 x1 x2 : Vec Ideal S4096x256 .f32) (x3 x4 x5 : Vec Ideal S256x256 .f32) (x6 : Vec Ideal S1x256 .f32)
    (r : Fin 4096) (k : Fin 256) :
    (k0_pay1 (F := Ideal) x0 x1 x2 x3 x4 x5 x6 : S4096x256.Idx → EReal) (ix2 r k)
      = max (((∑ j : Fin 256, x0 (ix2 r j) * x3 (ix2 j k) + ∑ j : Fin 256, x1 (ix2 r j) * x4 (ix2 j k))
          + ∑ j : Fin 256, x2 (ix2 r j) * x5 (ix2 j k)) + x6 (ix2 0 k)) 0 := by
  unfold k0_pay1
  simp only [shapeCast_self]
  rw [maximumf_apply, addf_apply, addf_apply, addf_apply, mm_apply, mm_apply, mm_apply, broadcast_apply,
    broadcastTo_1b_ab_apply]
  show max _ (Ideal.ofBits .f32 0x00000000#32) = _
  rw [Ideal.ofBits_zero_f32]

/-! ## The output block is the body's value of the input blocks -/

theorem zero_offsets : (![0, 0] : Fin 2 → Nat) = fun _ => 0 := funext fun a => by fin_cases a <;> rfl

/-- One store over the whole block leaves its value; a load of a whole block reads the block. -/
theorem outBlk_eq (x0 x1 x2 : Vec Ideal S4096x256 .f32) (x3 x4 x5 : Vec Ideal S256x256 .f32) (x6 : Vec Ideal S1x256 .f32) :
    outBlk x0 x1 x2 x3 x4 x5 x6 = k0_pay1 (F := Ideal) x0 x1 x2 x3 x4 x5 x6 := by
  unfold outBlk
  rw [View.canon_unit_zero zero_offsets]
  simp only [View.ld_unit_zero (S := S4096x256) zero_offsets, View.ld_unit_zero (S := S256x256) zero_offsets,
    View.ld_unit_zero (S := S1x256) zero_offsets]

/-! ## Where each block sits in its array -/

/-- The index maps over the grid: the three row windows and the output are at block row t, column block 0; the
    weights and the bias row never move. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0 :=
  (by decide +kernel : ∀ t : Fin grid0.N, _)

theorem points : cfg0.N = 64 := by decide

theorem flushes : ∀ t : Fin cfg0.N, (cfg0.win 7).flush t = true :=
  (by decide +kernel : ∀ t : Fin grid0.N, win0_7.flush t = true)

/-- Row r of the first row window's block at point t is row 4096 t + r of its array. -/
theorem blk0_apply (t : Fin cfg0.N) (r : Fin 4096) (j : Fin 256) (n : Fin 262144) (hn : n.val = 4096 * t.val + r.val) :
    (blk V c 0 t : Vec Ideal S4096x256 .f32) (ix2 r j)
      = (V c (Pipeline.arrRef spec0 0) : S262144x256.Idx → EReal) (ix2 n j) := by
  obtain ⟨e0, e1, -⟩ := idx_facts t
  unfold blk
  rw [View.read_apply]
  show (V c (Pipeline.arrRef spec0 0) : S262144x256.Idx → EReal) _ = _
  congr 1
  funext a
  apply Fin.ext
  match a with
  | ⟨0, _⟩ => show win0_0.index t (0 : Fin 2) * 4096 + 1 * r.val = n.val; rw [e0, hn]; omega
  | ⟨1, _⟩ => show win0_0.index t (1 : Fin 2) * 256 + 1 * j.val = j.val; rw [e1]; omega

/-- The same for the second row window … -/
theorem blk1_apply (t : Fin cfg0.N) (r : Fin 4096) (j : Fin 256) (n : Fin 262144) (hn : n.val = 4096 * t.val + r.val) :
    (blk V c 1 t : Vec Ideal S4096x256 .f32) (ix2 r j)
      = (V c (Pipeline.arrRef spec0 1) : S262144x256.Idx → EReal) (ix2 n j) := by
  obtain ⟨-, -, e0, e1, -⟩ := idx_facts t
  unfold blk
  rw [View.read_apply]
  show (V c (Pipeline.arrRef spec0 1) : S262144x256.Idx → EReal) _ = _
  congr 1
  funext a
  apply Fin.ext
  match a with
  | ⟨0, _⟩ => show win0_1.index t (0 : Fin 2) * 4096 + 1 * r.val = n.val; rw [e0, hn]; omega
  | ⟨1, _⟩ => show win0_1.index t (1 : Fin 2) * 256 + 1 * j.val = j.val; rw [e1]; omega

/-- … and the third. -/
theorem blk2_apply (t : Fin cfg0.N) (r : Fin 4096) (j : Fin 256) (n : Fin 262144) (hn : n.val = 4096 * t.val + r.val) :
    (blk V c 2 t : Vec Ideal S4096x256 .f32) (ix2 r j)
      = (V c (Pipeline.arrRef spec0 2) : S262144x256.Idx → EReal) (ix2 n j) := by
  obtain ⟨-, -, -, -, e0, e1, -⟩ := idx_facts t
  unfold blk
  rw [View.read_apply]
  show (V c (Pipeline.arrRef spec0 2) : S262144x256.Idx → EReal) _ = _
  congr 1
  funext a
  apply Fin.ext
  match a with
  | ⟨0, _⟩ => show win0_2.index t (0 : Fin 2) * 4096 + 1 * r.val = n.val; rw [e0, hn]; omega
  | ⟨1, _⟩ => show win0_2.index t (1 : Fin 2) * 256 + 1 * j.val = j.val; rw [e1]; omega

/-- A weight window's block is its whole array, at every point. -/
theorem blk3_apply (t : Fin cfg0.N) (j k : Fin 256) :
    (blk V c 3 t : Vec Ideal S256x256 .f32) (ix2 j k) = (V c (Pipeline.arrRef spec0 3) : S256x256.Idx → EReal) (ix2 j k) := by
  obtain ⟨-, -, -, -, -, -, e0, e1, -⟩ := idx_facts t
  unfold blk
  rw [View.read_apply]
  show (V c (Pipeline.arrRef spec0 3) : S256x256.Idx → EReal) _ = _
  congr 1
  funext a
  apply Fin.ext
  match a with
  | ⟨0, _⟩ => show win0_3.index t (0 : Fin 2) * 256 + 1 * j.val = j.val; rw [e0]; omega
  | ⟨1, _⟩ => show win0_3.index t (1 : Fin 2) * 256 + 1 * k.val = k.val; rw [e1]; omega

theorem blk4_apply (t : Fin cfg0.N) (j k : Fin 256) :
    (blk V c 4 t : Vec Ideal S256x256 .f32) (ix2 j k) = (V c (Pipeline.arrRef spec0 4) : S256x256.Idx → EReal) (ix2 j k) := by
  obtain ⟨-, -, -, -, -, -, -, -, e0, e1, -⟩ := idx_facts t
  unfold blk
  rw [View.read_apply]
  show (V c (Pipeline.arrRef spec0 4) : S256x256.Idx → EReal) _ = _
  congr 1
  funext a
  apply Fin.ext
  match a with
  | ⟨0, _⟩ => show win0_4.index t (0 : Fin 2) * 256 + 1 * j.val = j.val; rw [e0]; omega
  | ⟨1, _⟩ => show win0_4.index t (1 : Fin 2) * 256 + 1 * k.val = k.val; rw [e1]; omega

theorem blk5_apply (t : Fin cfg0.N) (j k : Fin 256) :
    (blk V c 5 t : Vec Ideal S256x256 .f32) (ix2 j k) = (V c (Pipeline.arrRef spec0 5) : S256x256.Idx → EReal) (ix2 j k) := by
  obtain ⟨-, -, -, -, -, -, -, -, -, -, e0, e1, -⟩ := idx_facts t
  unfold blk
  rw [View.read_apply]
  show (V c (Pipeline.arrRef spec0 5) : S256x256.Idx → EReal) _ = _
  congr 1
  funext a
  apply Fin.ext
  match a with
  | ⟨0, _⟩ => show win0_5.index t (0 : Fin 2) * 256 + 1 * j.val = j.val; rw [e0]; omega
  | ⟨1, _⟩ => show win0_5.index t (1 : Fin 2) * 256 + 1 * k.val = k.val; rw [e1]; omega

/-- The bias window's block is the bias row, at every point. -/
theorem blk6_apply (t : Fin cfg0.N) (k : Fin 256) :
    (blk V c 6 t : Vec Ideal S1x256 .f32) (ix2 0 k) = (V c (Pipeline.arrRef spec0 6) : S1x256.Idx → EReal) (ix2 0 k) := by
  obtain ⟨-, -, -, -, -, -, -, -, -, -, -, -, e0, e1, -⟩ := idx_facts t
  unfold blk
  rw [View.read_apply]
  show (V c (Pipeline.arrRef spec0 6) : S1x256.Idx → EReal) _ = _
  congr 1
  funext a
  apply Fin.ext
  match a with
  | ⟨0, _⟩ => show win0_6.index t (0 : Fin 2) * 1 + 1 * 0 = 0; rw [e0]
  | ⟨1, _⟩ => show win0_6.index t (1 : Fin 2) * 256 + 1 * k.val = k.val; rw [e1]; omega

/-! ## The array the run leaves -/

/-- The hop over whole arrays as the region finds them, as a function of the output array's index. -/
def hopArr : S262144x256.Idx → EReal := fun i =>
  hopK (toMat (V c (Pipeline.arrRef spec0 0) : S262144x256.Idx → EReal)) (toMat (V c (Pipeline.arrRef spec0 1) : S262144x256.Idx → EReal))
    (toMat (V c (Pipeline.arrRef spec0 2) : S262144x256.Idx → EReal))
    (toMat (V c (Pipeline.arrRef spec0 3) : S256x256.Idx → EReal)) (toMat (V c (Pipeline.arrRef spec0 4) : S256x256.Idx → EReal))
    (toMat (V c (Pipeline.arrRef spec0 5) : S256x256.Idx → EReal))
    (fun j => (V c (Pipeline.arrRef spec0 6) : S1x256.Idx → EReal) (ix2 0 j)) ⟨(i 0).val, idx2_lt0 i⟩ ⟨(i 1).val, idx2_lt1 i⟩

/-- Entry (r, k) of the body's value of the blocks at point t is the hop at row 4096 t + r, column k. -/
theorem out_at (t : Fin cfg0.N) (r : Fin 4096) (k : Fin 256) (n : Fin 262144) (hn : n.val = 4096 * t.val + r.val) :
    (k0_pay1 (F := Ideal) (blk V c 0 t) (blk V c 1 t) (blk V c 2 t) (blk V c 3 t) (blk V c 4 t) (blk V c 5 t) (blk V c 6 t)
        : S4096x256.Idx → EReal) (ix2 r k) = hopArr V c (ix2 n k) := by
  rw [pay_apply (blk V c 0 t) (blk V c 1 t) (blk V c 2 t) (blk V c 3 t) (blk V c 4 t) (blk V c 5 t) (blk V c 6 t) r k]
  simp only [blk0_apply V c t r _ n hn, blk1_apply V c t r _ n hn, blk2_apply V c t r _ n hn, blk3_apply V c t, blk4_apply V c t,
    blk5_apply V c t, blk6_apply V c t]
  rfl

/-- What point t writes back is block t of the hop over the whole arrays. -/
theorem flushed_eq (t : Fin cfg0.N) :
    (dat V c).flushed 7 t = ((cfg0.win 7).blk t).view.read (Elt Ideal) (hopArr V c) := by
  show (cfg0.win 7).cut (grid0.coords t) ((dat V c).after 7 t) = _
  rw [after7, outBlk_eq]
  obtain ⟨-, -, -, -, -, -, -, -, -, -, -, -, -, -, e0, e1⟩ := idx_facts t
  funext y
  obtain ⟨r, k, rfl⟩ : ∃ (r : Fin 4096) (k : Fin 256), y = ix2 r k := ⟨y 0, y 1, eq_ix2 y⟩
  have hN : cfg0.N = 64 := points
  have ht : t.val < 64 := hN ▸ t.isLt
  refine (out_at V c t r k ⟨4096 * t.val + r.val, by have := r.isLt; omega⟩ rfl).trans ?_
  rw [View.read_apply]
  show hopArr V c _ = hopArr V c _
  congr 1
  funext a
  apply Fin.ext
  match a with
  | ⟨0, _⟩ => show 4096 * t.val + r.val = win0_7.index t (0 : Fin 2) * 4096 + 1 * r.val; rw [e0]; omega
  | ⟨1, _⟩ => show k.val = win0_7.index t (1 : Fin 2) * 256 + 1 * k.val; rw [e1]; omega

/-- An index of the output array is in point t's block when each coordinate is in the block's range on its axis. -/
theorem mem_blk (t : Fin cfg0.N) (i : S262144x256.Idx) :
    i ∈ ((cfg0.win 7).blk t).view.set ↔ ∀ a : Fin 2, win0_7.index t a * S4096x256.size a ≤ (i a).val
      ∧ (i a).val < win0_7.index t a * S4096x256.size a + S4096x256.size a := by
  show i ∈ ((View.whole (Pipeline.arrRef spec0 7)).slice (win0_7.rect t)).set ↔ _
  rw [View.set_slice_whole, Rect.mem_set_unit]
  exact Iff.rfl

/-- Row n lies in the block of point n / 4096. -/
theorem covered (i : S262144x256.Idx) :
    ∃ t : Fin cfg0.N, (cfg0.win 7).flush t = true ∧ i ∈ ((cfg0.win 7).blk t).view.set := by
  have h0 : (i 0).val < 262144 := idx2_lt0 i
  have h1 : (i 1).val < 256 := idx2_lt1 i
  have hN : cfg0.N = 64 := points
  have ht : (i 0).val / 4096 < cfg0.N := by rw [hN]; omega
  refine ⟨⟨(i 0).val / 4096, ht⟩, flushes _, ?_⟩
  obtain ⟨-, -, -, -, -, -, -, -, -, -, -, -, -, -, e0, e1⟩ := idx_facts ⟨(i 0).val / 4096, ht⟩
  rw [mem_blk]
  intro a
  match a with
  | ⟨0, _⟩ =>
    show win0_7.index ⟨(i 0).val / 4096, ht⟩ (0 : Fin 2) * 4096 ≤ (i 0).val
      ∧ (i 0).val < win0_7.index ⟨(i 0).val / 4096, ht⟩ (0 : Fin 2) * 4096 + 4096
    rw [e0]; show (i 0).val / 4096 * 4096 ≤ (i 0).val ∧ (i 0).val < (i 0).val / 4096 * 4096 + 4096; omega
  | ⟨1, _⟩ =>
    show win0_7.index ⟨(i 0).val / 4096, ht⟩ (1 : Fin 2) * 256 ≤ (i 1).val
      ∧ (i 1).val < win0_7.index ⟨(i 0).val / 4096, ht⟩ (1 : Fin 2) * 256 + 256
    rw [e1]; omega

/-- The output array after the run is the hop over the whole arrays. -/
theorem arr_eq : (dat V c).arrAt 7 cfg0.N = hopArr V c :=
  (dat V c).arrAt_eq_of_cover 7 (hopArr V c) (fun t _ => flushed_eq V c t) covered

/-- The region's output array after the run: row n, column k is the rectified affine combination of three matrix products. -/
theorem arr_apply (n : Fin 262144) (k : Fin 256) :
    ((dat V c).arrAt 7 cfg0.N : S262144x256.Idx → EReal) (ix2 n k)
      = hopK (toMat (V c main_v0 : S262144x256.Idx → EReal)) (toMat (V c main_v5 : S262144x256.Idx → EReal)) (toMat (V c main_v8 : S262144x256.Idx → EReal))
          (toMat (V c main_v13 : S256x256.Idx → EReal)) (toMat (V c main_v15 : S256x256.Idx → EReal)) (toMat (V c main_v17 : S256x256.Idx → EReal))
          (fun j => (V c main_v11 : S1x256.Idx → EReal) (ix2 0 j)) n k := by
  rw [arr_eq]
  rfl

end Cert.KernelIdeal.Hop0Value

end
-- ==== Proof.KernelIdeal.Hop1Value.lean ====
import proofs.«401558_j47940424958092_2_alg».proof.Proof.KernelIdeal.Hop1
import proofs.«401558_j47940424958092_2_alg».proof.Proof.Inputs
import Idealize.ShloMosaic.Lib.Pipeline.Value
import Idealize.ShloMosaic.Lib.ValueIdx
import Idealize.ShloMosaic.Lib.ValueLayout
import Idealize.ShloMosaic.PureOps.Ideal.Laws

noncomputable section

/-! What the hop's kernel region leaves in its output array, at the ideal instance, entry by entry: the body's value at an
    entry of a block (three block products into zero, added, plus the bias row, rectified), each input block read off its
    array (the three row windows at rows 4096 t … 4096 t + 4095, the weights and the bias whole), and the 64 row blocks
    covering the array. -/
namespace Cert.KernelIdeal.Hop1Value

open Idealize.ShloMosaic Idealize.ShloMosaic.TcCoe Idealize.ShloMosaic.ValueIdx Idealize.SL.Sem Cert.KernelIdeal Cert.KernelIdeal.Gen Cert.KernelIdeal.Hop1 Cert.Spec

variable (V : (c : Dev nD) → (b : Ref sig .tc) → Buf (Elt Ideal) ((c : Thread nD τ).loc b)) (c : Dev nD)

/-! ## One block product at an index

The product contracts the left operand's columns with the right operand's rows: at output entry (r, k) and contraction
index q the left operand is read at (r, q) and the right at (q, k). -/

theorem lhs_ax0 (i : S4096x256.Idx) (q : dot_S4096x256_S256x256_S4096x256_1_0_0_1_n_n.contr.Idx) :
    (dot_S4096x256_S256x256_S4096x256_1_0_0_1_n_n.lhsIdx i q 0).val = (i 0).val := by
  unfold DotDims.lhsIdx
  rw [dif_neg (show ¬(0 : Fin S4096x256.rank) ∈ dot_S4096x256_S256x256_S4096x256_1_0_0_1_n_n.lhsBatch by decide), dif_pos (show (0 : Fin S4096x256.rank) ∈ dot_S4096x256_S256x256_S4096x256_1_0_0_1_n_n.lhsNonContracting by decide)]
  rfl
theorem lhs_ax1 (i : S4096x256.Idx) (q : dot_S4096x256_S256x256_S4096x256_1_0_0_1_n_n.contr.Idx) :
    (dot_S4096x256_S256x256_S4096x256_1_0_0_1_n_n.lhsIdx i q 1).val = (q ⟨0, by decide⟩).val :=
  dot_S4096x256_S256x256_S4096x256_1_0_0_1_n_n.lhsIdx_val_of_single rfl i q
theorem rhs_ax0 (i : S4096x256.Idx) (q : dot_S4096x256_S256x256_S4096x256_1_0_0_1_n_n.contr.Idx) :
    (dot_S4096x256_S256x256_S4096x256_1_0_0_1_n_n.rhsIdx i q 0).val = (q ⟨0, by decide⟩).val :=
  dot_S4096x256_S256x256_S4096x256_1_0_0_1_n_n.rhsIdx_val_of_single rfl i q
theorem rhs_ax1 (i : S4096x256.Idx) (q : dot_S4096x256_S256x256_S4096x256_1_0_0_1_n_n.contr.Idx) :
    (dot_S4096x256_S256x256_S4096x256_1_0_0_1_n_n.rhsIdx i q 1).val = (i 1).val := by
  unfold DotDims.rhsIdx
  rw [dif_neg (show ¬(1 : Fin S256x256.rank) ∈ dot_S4096x256_S256x256_S4096x256_1_0_0_1_n_n.rhsBatch by decide), dif_pos (show (1 : Fin S256x256.rank) ∈ dot_S4096x256_S256x256_S4096x256_1_0_0_1_n_n.rhsNonContracting by decide)]
  rfl

/-- A block of rows times a weight matrix, both narrowed to bf16 (the identity on extended reals), accumulated into
    zero: entry (r, k) is the sum over j of row r's entry j times the weight's entry (j, k). -/
theorem mm_apply (x : FVec Ideal S4096x256 .f32) (w : FVec Ideal S256x256 .f32) (r : Fin 4096) (k : Fin 256) :
    matmul dot_S4096x256_S256x256_S4096x256_1_0_0_1_n_n none (truncf .bf16 x bitsLt_bf16_f32) (truncf .bf16 w bitsLt_bf16_f32)
        (constant (F := Ideal) S4096x256 .f32 0x00000000#32) (ix2 r k)
      = ∑ j : Fin 256, x (ix2 r j) * w (ix2 j k) := by
  simp only [matmul]
  rw [Ideal.matmul_constant_zero_apply, ← Equiv.sum_comp (contrEquiv1 dot_S4096x256_S256x256_S4096x256_1_0_0_1_n_n 256 rfl rfl).symm]
  refine Finset.sum_congr rfl fun j _ => ?_
  have hj := contrEquiv1_symm_val dot_S4096x256_S256x256_S4096x256_1_0_0_1_n_n 256 rfl rfl j
  have el : dot_S4096x256_S256x256_S4096x256_1_0_0_1_n_n.lhsIdx (ix2 r k) ((contrEquiv1 dot_S4096x256_S256x256_S4096x256_1_0_0_1_n_n 256 rfl rfl).symm j) = ix2 r j := funext fun a => Fin.ext (by
    match a with
    | ⟨0, _⟩ => exact lhs_ax0 _ _
    | ⟨1, _⟩ => exact (lhs_ax1 _ _).trans hj)
  have er : dot_S4096x256_S256x256_S4096x256_1_0_0_1_n_n.rhsIdx (ix2 r k) ((contrEquiv1 dot_S4096x256_S256x256_S4096x256_1_0_0_1_n_n 256 rfl rfl).symm j) = ix2 j k := funext fun a => Fin.ext (by
    match a with
    | ⟨0, _⟩ => exact (rhs_ax0 _ _).trans hj
    | ⟨1, _⟩ => exact rhs_ax1 _ _)
  rw [el, er]
  rfl

/-! ## The body's value at an index -/

/-- Entry (r, k) of what the body computes from its seven blocks: the three block products added in order, plus the
    bias row's entry k, rectified. -/
theorem pay_apply (x0 x1 x2 : Vec Ideal S4096x256 .f32) (x3 x4 x5 : Vec Ideal S256x256 .f32) (x6 : Vec Ideal S1x256 .f32)
    (r : Fin 4096) (k : Fin 256) :
    (k1_pay1 (F := Ideal) x0 x1 x2 x3 x4 x5 x6 : S4096x256.Idx → EReal) (ix2 r k)
      = max (((∑ j : Fin 256, x0 (ix2 r j) * x3 (ix2 j k) + ∑ j : Fin 256, x1 (ix2 r j) * x4 (ix2 j k))
          + ∑ j : Fin 256, x2 (ix2 r j) * x5 (ix2 j k)) + x6 (ix2 0 k)) 0 := by
  unfold k1_pay1
  simp only [shapeCast_self]
  rw [maximumf_apply, addf_apply, addf_apply, addf_apply, mm_apply, mm_apply, mm_apply, broadcast_apply,
    broadcastTo_1b_ab_apply]
  show max _ (Ideal.ofBits .f32 0x00000000#32) = _
  rw [Ideal.ofBits_zero_f32]

/-! ## The output block is the body's value of the input blocks -/

theorem zero_offsets : (![0, 0] : Fin 2 → Nat) = fun _ => 0 := funext fun a => by fin_cases a <;> rfl

/-- One store over the whole block leaves its value; a load of a whole block reads the block. -/
theorem outBlk_eq (x0 x1 x2 : Vec Ideal S4096x256 .f32) (x3 x4 x5 : Vec Ideal S256x256 .f32) (x6 : Vec Ideal S1x256 .f32) :
    outBlk x0 x1 x2 x3 x4 x5 x6 = k1_pay1 (F := Ideal) x0 x1 x2 x3 x4 x5 x6 := by
  unfold outBlk
  rw [View.canon_unit_zero zero_offsets]
  simp only [View.ld_unit_zero (S := S4096x256) zero_offsets, View.ld_unit_zero (S := S256x256) zero_offsets,
    View.ld_unit_zero (S := S1x256) zero_offsets]

/-! ## Where each block sits in its array -/

/-- The index maps over the grid: the three row windows and the output are at block row t, column block 0; the
    weights and the bias row never move. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = t.val ∧ win1_7.index t (1 : Fin 2) = 0 :=
  (by decide +kernel : ∀ t : Fin grid1.N, _)

theorem points : cfg1.N = 64 := by decide

theorem flushes : ∀ t : Fin cfg1.N, (cfg1.win 7).flush t = true :=
  (by decide +kernel : ∀ t : Fin grid1.N, win1_7.flush t = true)

/-- Row r of the first row window's block at point t is row 4096 t + r of its array. -/
theorem blk0_apply (t : Fin cfg1.N) (r : Fin 4096) (j : Fin 256) (n : Fin 262144) (hn : n.val = 4096 * t.val + r.val) :
    (blk V c 0 t : Vec Ideal S4096x256 .f32) (ix2 r j)
      = (V c (Pipeline.arrRef spec1 0) : S262144x256.Idx → EReal) (ix2 n j) := by
  obtain ⟨e0, e1, -⟩ := idx_facts t
  unfold blk
  rw [View.read_apply]
  show (V c (Pipeline.arrRef spec1 0) : S262144x256.Idx → EReal) _ = _
  congr 1
  funext a
  apply Fin.ext
  match a with
  | ⟨0, _⟩ => show win1_0.index t (0 : Fin 2) * 4096 + 1 * r.val = n.val; rw [e0, hn]; omega
  | ⟨1, _⟩ => show win1_0.index t (1 : Fin 2) * 256 + 1 * j.val = j.val; rw [e1]; omega

/-- The same for the second row window … -/
theorem blk1_apply (t : Fin cfg1.N) (r : Fin 4096) (j : Fin 256) (n : Fin 262144) (hn : n.val = 4096 * t.val + r.val) :
    (blk V c 1 t : Vec Ideal S4096x256 .f32) (ix2 r j)
      = (V c (Pipeline.arrRef spec1 1) : S262144x256.Idx → EReal) (ix2 n j) := by
  obtain ⟨-, -, e0, e1, -⟩ := idx_facts t
  unfold blk
  rw [View.read_apply]
  show (V c (Pipeline.arrRef spec1 1) : S262144x256.Idx → EReal) _ = _
  congr 1
  funext a
  apply Fin.ext
  match a with
  | ⟨0, _⟩ => show win1_1.index t (0 : Fin 2) * 4096 + 1 * r.val = n.val; rw [e0, hn]; omega
  | ⟨1, _⟩ => show win1_1.index t (1 : Fin 2) * 256 + 1 * j.val = j.val; rw [e1]; omega

/-- … and the third. -/
theorem blk2_apply (t : Fin cfg1.N) (r : Fin 4096) (j : Fin 256) (n : Fin 262144) (hn : n.val = 4096 * t.val + r.val) :
    (blk V c 2 t : Vec Ideal S4096x256 .f32) (ix2 r j)
      = (V c (Pipeline.arrRef spec1 2) : S262144x256.Idx → EReal) (ix2 n j) := by
  obtain ⟨-, -, -, -, e0, e1, -⟩ := idx_facts t
  unfold blk
  rw [View.read_apply]
  show (V c (Pipeline.arrRef spec1 2) : S262144x256.Idx → EReal) _ = _
  congr 1
  funext a
  apply Fin.ext
  match a with
  | ⟨0, _⟩ => show win1_2.index t (0 : Fin 2) * 4096 + 1 * r.val = n.val; rw [e0, hn]; omega
  | ⟨1, _⟩ => show win1_2.index t (1 : Fin 2) * 256 + 1 * j.val = j.val; rw [e1]; omega

/-- A weight window's block is its whole array, at every point. -/
theorem blk3_apply (t : Fin cfg1.N) (j k : Fin 256) :
    (blk V c 3 t : Vec Ideal S256x256 .f32) (ix2 j k) = (V c (Pipeline.arrRef spec1 3) : S256x256.Idx → EReal) (ix2 j k) := by
  obtain ⟨-, -, -, -, -, -, e0, e1, -⟩ := idx_facts t
  unfold blk
  rw [View.read_apply]
  show (V c (Pipeline.arrRef spec1 3) : S256x256.Idx → EReal) _ = _
  congr 1
  funext a
  apply Fin.ext
  match a with
  | ⟨0, _⟩ => show win1_3.index t (0 : Fin 2) * 256 + 1 * j.val = j.val; rw [e0]; omega
  | ⟨1, _⟩ => show win1_3.index t (1 : Fin 2) * 256 + 1 * k.val = k.val; rw [e1]; omega

theorem blk4_apply (t : Fin cfg1.N) (j k : Fin 256) :
    (blk V c 4 t : Vec Ideal S256x256 .f32) (ix2 j k) = (V c (Pipeline.arrRef spec1 4) : S256x256.Idx → EReal) (ix2 j k) := by
  obtain ⟨-, -, -, -, -, -, -, -, e0, e1, -⟩ := idx_facts t
  unfold blk
  rw [View.read_apply]
  show (V c (Pipeline.arrRef spec1 4) : S256x256.Idx → EReal) _ = _
  congr 1
  funext a
  apply Fin.ext
  match a with
  | ⟨0, _⟩ => show win1_4.index t (0 : Fin 2) * 256 + 1 * j.val = j.val; rw [e0]; omega
  | ⟨1, _⟩ => show win1_4.index t (1 : Fin 2) * 256 + 1 * k.val = k.val; rw [e1]; omega

theorem blk5_apply (t : Fin cfg1.N) (j k : Fin 256) :
    (blk V c 5 t : Vec Ideal S256x256 .f32) (ix2 j k) = (V c (Pipeline.arrRef spec1 5) : S256x256.Idx → EReal) (ix2 j k) := by
  obtain ⟨-, -, -, -, -, -, -, -, -, -, e0, e1, -⟩ := idx_facts t
  unfold blk
  rw [View.read_apply]
  show (V c (Pipeline.arrRef spec1 5) : S256x256.Idx → EReal) _ = _
  congr 1
  funext a
  apply Fin.ext
  match a with
  | ⟨0, _⟩ => show win1_5.index t (0 : Fin 2) * 256 + 1 * j.val = j.val; rw [e0]; omega
  | ⟨1, _⟩ => show win1_5.index t (1 : Fin 2) * 256 + 1 * k.val = k.val; rw [e1]; omega

/-- The bias window's block is the bias row, at every point. -/
theorem blk6_apply (t : Fin cfg1.N) (k : Fin 256) :
    (blk V c 6 t : Vec Ideal S1x256 .f32) (ix2 0 k) = (V c (Pipeline.arrRef spec1 6) : S1x256.Idx → EReal) (ix2 0 k) := by
  obtain ⟨-, -, -, -, -, -, -, -, -, -, -, -, e0, e1, -⟩ := idx_facts t
  unfold blk
  rw [View.read_apply]
  show (V c (Pipeline.arrRef spec1 6) : S1x256.Idx → EReal) _ = _
  congr 1
  funext a
  apply Fin.ext
  match a with
  | ⟨0, _⟩ => show win1_6.index t (0 : Fin 2) * 1 + 1 * 0 = 0; rw [e0]
  | ⟨1, _⟩ => show win1_6.index t (1 : Fin 2) * 256 + 1 * k.val = k.val; rw [e1]; omega

/-! ## The array the run leaves -/

/-- The hop over whole arrays as the region finds them, as a function of the output array's index. -/
def hopArr : S262144x256.Idx → EReal := fun i =>
  hopK (toMat (V c (Pipeline.arrRef spec1 0) : S262144x256.Idx → EReal)) (toMat (V c (Pipeline.arrRef spec1 1) : S262144x256.Idx → EReal))
    (toMat (V c (Pipeline.arrRef spec1 2) : S262144x256.Idx → EReal))
    (toMat (V c (Pipeline.arrRef spec1 3) : S256x256.Idx → EReal)) (toMat (V c (Pipeline.arrRef spec1 4) : S256x256.Idx → EReal))
    (toMat (V c (Pipeline.arrRef spec1 5) : S256x256.Idx → EReal))
    (fun j => (V c (Pipeline.arrRef spec1 6) : S1x256.Idx → EReal) (ix2 0 j)) ⟨(i 0).val, idx2_lt0 i⟩ ⟨(i 1).val, idx2_lt1 i⟩

/-- Entry (r, k) of the body's value of the blocks at point t is the hop at row 4096 t + r, column k. -/
theorem out_at (t : Fin cfg1.N) (r : Fin 4096) (k : Fin 256) (n : Fin 262144) (hn : n.val = 4096 * t.val + r.val) :
    (k1_pay1 (F := Ideal) (blk V c 0 t) (blk V c 1 t) (blk V c 2 t) (blk V c 3 t) (blk V c 4 t) (blk V c 5 t) (blk V c 6 t)
        : S4096x256.Idx → EReal) (ix2 r k) = hopArr V c (ix2 n k) := by
  rw [pay_apply (blk V c 0 t) (blk V c 1 t) (blk V c 2 t) (blk V c 3 t) (blk V c 4 t) (blk V c 5 t) (blk V c 6 t) r k]
  simp only [blk0_apply V c t r _ n hn, blk1_apply V c t r _ n hn, blk2_apply V c t r _ n hn, blk3_apply V c t, blk4_apply V c t,
    blk5_apply V c t, blk6_apply V c t]
  rfl

/-- What point t writes back is block t of the hop over the whole arrays. -/
theorem flushed_eq (t : Fin cfg1.N) :
    (dat V c).flushed 7 t = ((cfg1.win 7).blk t).view.read (Elt Ideal) (hopArr V c) := by
  show (cfg1.win 7).cut (grid1.coords t) ((dat V c).after 7 t) = _
  rw [after7, outBlk_eq]
  obtain ⟨-, -, -, -, -, -, -, -, -, -, -, -, -, -, e0, e1⟩ := idx_facts t
  funext y
  obtain ⟨r, k, rfl⟩ : ∃ (r : Fin 4096) (k : Fin 256), y = ix2 r k := ⟨y 0, y 1, eq_ix2 y⟩
  have hN : cfg1.N = 64 := points
  have ht : t.val < 64 := hN ▸ t.isLt
  refine (out_at V c t r k ⟨4096 * t.val + r.val, by have := r.isLt; omega⟩ rfl).trans ?_
  rw [View.read_apply]
  show hopArr V c _ = hopArr V c _
  congr 1
  funext a
  apply Fin.ext
  match a with
  | ⟨0, _⟩ => show 4096 * t.val + r.val = win1_7.index t (0 : Fin 2) * 4096 + 1 * r.val; rw [e0]; omega
  | ⟨1, _⟩ => show k.val = win1_7.index t (1 : Fin 2) * 256 + 1 * k.val; rw [e1]; omega

/-- An index of the output array is in point t's block when each coordinate is in the block's range on its axis. -/
theorem mem_blk (t : Fin cfg1.N) (i : S262144x256.Idx) :
    i ∈ ((cfg1.win 7).blk t).view.set ↔ ∀ a : Fin 2, win1_7.index t a * S4096x256.size a ≤ (i a).val
      ∧ (i a).val < win1_7.index t a * S4096x256.size a + S4096x256.size a := by
  show i ∈ ((View.whole (Pipeline.arrRef spec1 7)).slice (win1_7.rect t)).set ↔ _
  rw [View.set_slice_whole, Rect.mem_set_unit]
  exact Iff.rfl

/-- Row n lies in the block of point n / 4096. -/
theorem covered (i : S262144x256.Idx) :
    ∃ t : Fin cfg1.N, (cfg1.win 7).flush t = true ∧ i ∈ ((cfg1.win 7).blk t).view.set := by
  have h0 : (i 0).val < 262144 := idx2_lt0 i
  have h1 : (i 1).val < 256 := idx2_lt1 i
  have hN : cfg1.N = 64 := points
  have ht : (i 0).val / 4096 < cfg1.N := by rw [hN]; omega
  refine ⟨⟨(i 0).val / 4096, ht⟩, flushes _, ?_⟩
  obtain ⟨-, -, -, -, -, -, -, -, -, -, -, -, -, -, e0, e1⟩ := idx_facts ⟨(i 0).val / 4096, ht⟩
  rw [mem_blk]
  intro a
  match a with
  | ⟨0, _⟩ =>
    show win1_7.index ⟨(i 0).val / 4096, ht⟩ (0 : Fin 2) * 4096 ≤ (i 0).val
      ∧ (i 0).val < win1_7.index ⟨(i 0).val / 4096, ht⟩ (0 : Fin 2) * 4096 + 4096
    rw [e0]; show (i 0).val / 4096 * 4096 ≤ (i 0).val ∧ (i 0).val < (i 0).val / 4096 * 4096 + 4096; omega
  | ⟨1, _⟩ =>
    show win1_7.index ⟨(i 0).val / 4096, ht⟩ (1 : Fin 2) * 256 ≤ (i 1).val
      ∧ (i 1).val < win1_7.index ⟨(i 0).val / 4096, ht⟩ (1 : Fin 2) * 256 + 256
    rw [e1]; omega

/-- The output array after the run is the hop over the whole arrays. -/
theorem arr_eq : (dat V c).arrAt 7 cfg1.N = hopArr V c :=
  (dat V c).arrAt_eq_of_cover 7 (hopArr V c) (fun t _ => flushed_eq V c t) covered

/-- The region's output array after the run: row n, column k is the rectified affine combination of three matrix products. -/
theorem arr_apply (n : Fin 262144) (k : Fin 256) :
    ((dat V c).arrAt 7 cfg1.N : S262144x256.Idx → EReal) (ix2 n k)
      = hopK (toMat (V c main_v18 : S262144x256.Idx → EReal)) (toMat (V c main_v23 : S262144x256.Idx → EReal)) (toMat (V c main_v26 : S262144x256.Idx → EReal))
          (toMat (V c main_v31 : S256x256.Idx → EReal)) (toMat (V c main_v33 : S256x256.Idx → EReal)) (toMat (V c main_v35 : S256x256.Idx → EReal))
          (fun j => (V c main_v29 : S1x256.Idx → EReal) (ix2 0 j)) n k := by
  rw [arr_eq]
  rfl

end Cert.KernelIdeal.Hop1Value

end
-- ==== Proof.KernelIdeal.PoolValue.lean ====
import proofs.«401558_j47940424958092_2_alg».proof.Proof.KernelIdeal.Pool
import proofs.«401558_j47940424958092_2_alg».proof.Proof.Inputs
import Idealize.ShloMosaic.Lib.Pipeline.Value
import Idealize.ShloMosaic.Lib.ValueIdx
import Idealize.ShloMosaic.Lib.ValueLayout
import Idealize.ShloMosaic.PureOps.Ideal.Laws

noncomputable section

/-! What the pooling kernel's region leaves in its output array, at the ideal instance, entry by entry: the body's values
    at an entry (the zero accumulator; one block's update, a product of the block's one-hot graph-number matrix with the
    block's features contracted over the block's 4096 rows, added to the accumulator; the accumulator copied under a
    leading axis of size one), each input block read off its array (rows 4096 t … 4096 t + 4095), the accumulator
    after every point by induction over the points, and the two output blocks, each written back at its half's last
    point, covering the array. -/
namespace Cert.KernelIdeal.PoolValue

open Idealize.ShloMosaic Idealize.ShloMosaic.TcCoe Idealize.ShloMosaic.ValueIdx Idealize.SL.Sem Cert.KernelIdeal Cert.KernelIdeal.Gen Cert.KernelIdeal.Pool Cert.Spec

/-! ## The block product at an index

The product contracts the rows of both operands: at output entry (g, d) and contraction index r the one-hot operand is
read at (r, g) and the feature block at (r, d). -/

theorem lhs_ax0 (i : S512x256.Idx) (q : dot_S4096x512_S4096x256_S512x256_0_0_1_1_n_n.contr.Idx) :
    (dot_S4096x512_S4096x256_S512x256_0_0_1_1_n_n.lhsIdx i q 0).val = (q ⟨0, by decide⟩).val :=
  dot_S4096x512_S4096x256_S512x256_0_0_1_1_n_n.lhsIdx_val_of_single rfl i q
theorem lhs_ax1 (i : S512x256.Idx) (q : dot_S4096x512_S4096x256_S512x256_0_0_1_1_n_n.contr.Idx) :
    (dot_S4096x512_S4096x256_S512x256_0_0_1_1_n_n.lhsIdx i q 1).val = (i 0).val := by
  unfold DotDims.lhsIdx
  rw [dif_neg (show ¬(1 : Fin S4096x512.rank) ∈ dot_S4096x512_S4096x256_S512x256_0_0_1_1_n_n.lhsBatch by decide), dif_pos (show (1 : Fin S4096x512.rank) ∈ dot_S4096x512_S4096x256_S512x256_0_0_1_1_n_n.lhsNonContracting by decide)]
  rfl
theorem rhs_ax0 (i : S512x256.Idx) (q : dot_S4096x512_S4096x256_S512x256_0_0_1_1_n_n.contr.Idx) :
    (dot_S4096x512_S4096x256_S512x256_0_0_1_1_n_n.rhsIdx i q 0).val = (q ⟨0, by decide⟩).val :=
  dot_S4096x512_S4096x256_S512x256_0_0_1_1_n_n.rhsIdx_val_of_single rfl i q
theorem rhs_ax1 (i : S512x256.Idx) (q : dot_S4096x512_S4096x256_S512x256_0_0_1_1_n_n.contr.Idx) :
    (dot_S4096x512_S4096x256_S512x256_0_0_1_1_n_n.rhsIdx i q 1).val = (i 1).val := by
  unfold DotDims.rhsIdx
  rw [dif_neg (show ¬(1 : Fin S4096x256.rank) ∈ dot_S4096x512_S4096x256_S512x256_0_0_1_1_n_n.rhsBatch by decide), dif_pos (show (1 : Fin S4096x256.rank) ∈ dot_S4096x512_S4096x256_S512x256_0_0_1_1_n_n.rhsNonContracting by decide)]
  rfl

/-- A [4096, 512] operand against a [4096, 256] operand, contracted over the 4096 rows into zero: entry (g, d) is the
    sum over the rows r of the first operand's entry (r, g) times the second's entry (r, d). -/
theorem mm_apply (a : FVec Ideal S4096x512 .bf16) (x : FVec Ideal S4096x256 .bf16) (g : Fin 512) (d : Fin 256) :
    matmul dot_S4096x512_S4096x256_S512x256_0_0_1_1_n_n none a x (constant (F := Ideal) S512x256 .f32 0x00000000#32) (ix2 g d)
      = ∑ r : Fin 4096, a (ix2 r g) * x (ix2 r d) := by
  simp only [matmul]
  rw [Ideal.matmul_constant_zero_apply, ← Equiv.sum_comp (contrEquiv1 dot_S4096x512_S4096x256_S512x256_0_0_1_1_n_n 4096 rfl rfl).symm]
  refine Finset.sum_congr rfl fun r _ => ?_
  have hr := contrEquiv1_symm_val dot_S4096x512_S4096x256_S512x256_0_0_1_1_n_n 4096 rfl rfl r
  have el : dot_S4096x512_S4096x256_S512x256_0_0_1_1_n_n.lhsIdx (ix2 g d) ((contrEquiv1 dot_S4096x512_S4096x256_S512x256_0_0_1_1_n_n 4096 rfl rfl).symm r) = ix2 r g := funext fun ax => Fin.ext (by
    match ax with
    | ⟨0, _⟩ => exact (lhs_ax0 _ _).trans hr
    | ⟨1, _⟩ => exact lhs_ax1 _ _)
  have er : dot_S4096x512_S4096x256_S512x256_0_0_1_1_n_n.rhsIdx (ix2 g d) ((contrEquiv1 dot_S4096x512_S4096x256_S512x256_0_0_1_1_n_n 4096 rfl rfl).symm r) = ix2 r d := funext fun ax => Fin.ext (by
    match ax with
    | ⟨0, _⟩ => exact (rhs_ax0 _ _).trans hr
    | ⟨1, _⟩ => exact rhs_ax1 _ _)
  rw [el, er]

/-! ## The one-hot operand at an index -/

/-- A small number as a 32-bit word reads back, signed, as itself. -/
theorem toInt_ofNat_small (g : Nat) (hg : g < 512) : (BitVec.ofNat 32 g).toInt = (g : Int) := by
  have hn : (BitVec.ofNat 32 g).toNat = g := by rw [BitVec.toNat_ofNat]; omega
  rw [BitVec.toInt_eq_toNat_of_lt (by rw [hn]; omega), hn]

/-- The word test "x is the number g", widened and converted to a float, is the indicator of x's signed value being g. -/
theorem word_entry (x : BitVec 32) (g : Nat) (hg : g < 512) :
    (FloatOps.sitofp .f32 ((IntOp.cmpi .eq x (BitVec.ofNat 32 g)).setWidth 32) : Ideal .f32) = oh x.toInt g := by
  unfold oh
  by_cases h : x = BitVec.ofNat 32 g
  · have hi : x.toInt = (g : Int) := by rw [h]; exact toInt_ofNat_small g hg
    rw [if_pos hi]
    have hc : IntOp.cmpi .eq x (BitVec.ofNat 32 g) = 1#1 := by
      show BitVec.ofBool (x == BitVec.ofNat 32 g) = 1#1
      rw [beq_iff_eq.mpr h]; rfl
    rw [hc]
    show (((((1#1 : BitVec 1).setWidth 32).toInt : ℝ)) : EReal) = 1
    rw [show ((1#1 : BitVec 1).setWidth 32).toInt = 1 from by decide]
    simp
  · have hi : ¬ x.toInt = (g : Int) := fun e => h (BitVec.eq_of_toInt_eq (e.trans (toInt_ofNat_small g hg).symm))
    rw [if_neg hi]
    have hc : IntOp.cmpi .eq x (BitVec.ofNat 32 g) = 0#1 := by
      show BitVec.ofBool (x == BitVec.ofNat 32 g) = 0#1
      rw [show (x == BitVec.ofNat 32 g) = false from beq_eq_false_iff_ne.mpr h]; rfl
    rw [hc]
    show (((((0#1 : BitVec 1).setWidth 32).toInt : ℝ)) : EReal) = 0
    rw [show ((0#1 : BitVec 1).setWidth 32).toInt = 0 from by decide]
    simp

/-- Entry (r, g) of the one-hot operand: the graph-number column spread over 512 columns, compared with the column
    number, widened, converted and narrowed (the identity on extended reals), is the indicator of row r's graph number
    being g. -/
theorem onehot_apply (x1 : IVec S4096x1 32) (r : Fin 4096) (g : Fin 512) :
    (truncf .bf16 (sitofp (F := Ideal) .f32 (extui 32 (cmpi .eq
        (broadcastTo S4096x512 x1 broadcasts_S4096x1_S4096x512)
        (iota .tc S4096x512 32 [1] iota_S4096x512_d1_w32)) natLt_1_32)) bitsLt_bf16_f32 : FVec Ideal S4096x512 .bf16) (ix2 r g)
      = oh ((x1 (ix2 r 0)).toInt) g.val := by
  show (FloatOps.sitofp .f32 ((IntOp.cmpi .eq (broadcastTo S4096x512 x1 broadcasts_S4096x1_S4096x512 (ix2 r g))
      (iota .tc S4096x512 32 [1] iota_S4096x512_d1_w32 (ix2 r g))).setWidth 32) : Ideal .f32) = _
  rw [iota_single_apply, broadcastTo_apply x1 broadcasts_S4096x1_S4096x512 (ix2 r g) (ix2 r 0) (fun ax => by
    match ax with
    | ⟨0, _⟩ => rfl
    | ⟨1, _⟩ => rfl)]
  exact word_entry _ g.val g.isLt

/-! ## The body's values at an index -/

/-- The accumulator a half starts from is zero at every entry. -/
theorem accZero_apply (g : Fin 512) (d : Fin 256) : (accZero (F := Ideal) : S512x256.Idx → EReal) (ix2 g d) = 0 := by
  unfold accZero k2_pay1
  simp only [shapeCast_self]
  show Ideal.ofBits .f32 0x00000000#32 = 0
  exact Ideal.ofBits_zero_f32

/-- One block's update at entry (g, d): the accumulator's entry plus the sum, over the block's rows r, of the indicator of
    row r's graph number being g times the row's feature d. -/
theorem accStep_apply (x0 : Vec Ideal S4096x256 .f32) (x1 : Vec Ideal S4096x1 .i32) (s : Vec Ideal S512x256 .f32)
    (g : Fin 512) (d : Fin 256) :
    (accStep x0 x1 s : S512x256.Idx → EReal) (ix2 g d)
      = s (ix2 g d) + ∑ r : Fin 4096, oh ((x1 (ix2 r 0) : BitVec 32).toInt) g.val * x0 (ix2 r d) := by
  unfold accStep k2_pay2
  simp only [shapeCast_self]
  rw [addf_apply, mm_apply]
  refine congrArg (s (ix2 g d) + ·) (Finset.sum_congr rfl fun r _ => ?_)
  rw [onehot_apply]
  rfl

/-- The output block is the accumulator under one more leading axis of size one. -/
theorem outOf_apply (s : Vec Ideal S512x256 .f32) (u : Fin 1) (g : Fin 512) (d : Fin 256) :
    (outOf s : S1x512x256.Idx → EReal) (ix3 u g d) = s (ix2 g d) := by
  unfold outOf k2_pay3
  exact shapeCast_ab_1ab_apply s shapeCasts_S512x256_S1x512x256 u g d

/-! ## Where each block sits in its array -/

variable (V : (c : Dev nD) → (b : Ref sig .tc) → Buf (Elt Ideal) ((c : Thread nD τ).loc b)) (c : Dev nD)

/-- The index maps over the grid: the two input windows are at block row t, column block 0; the output window is at
    half t / 32. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 3) = t.val / 32 ∧ win2_2.index t (1 : Fin 3) = 0 ∧ win2_2.index t (2 : Fin 3) = 0 :=
  (by decide +kernel : ∀ t : Fin grid2.N, _)

theorem points : cfg2.N = 64 := by decide

/-- Row r of the feature window's block at point t is row 4096 t + r of the node features. -/
theorem blk0_apply (t : Fin cfg2.N) (r : Fin 4096) (d : Fin 256) (n : Fin 262144) (hn : n.val = 4096 * t.val + r.val) :
    (blk V c 0 t : Vec Ideal S4096x256 .f32) (ix2 r d) = (V c main_v36 : S262144x256.Idx → EReal) (ix2 n d) := by
  obtain ⟨e0, e1, -⟩ := idx_facts t
  unfold blk
  rw [View.read_apply]
  show (V c main_v36 : S262144x256.Idx → EReal) _ = _
  congr 1
  funext a
  apply Fin.ext
  match a with
  | ⟨0, _⟩ => show win2_0.index t (0 : Fin 2) * 4096 + 1 * r.val = n.val; rw [e0, hn]; omega
  | ⟨1, _⟩ => show win2_0.index t (1 : Fin 2) * 256 + 1 * d.val = d.val; rw [e1]; omega

/-- Row r of the graph-number window's block at point t is row 4096 t + r of the graph-number column. -/
theorem blk1_apply (t : Fin cfg2.N) (r : Fin 4096) (n : Fin 262144) (hn : n.val = 4096 * t.val + r.val) :
    (blk V c 1 t : Vec Ideal S4096x1 .i32) (ix2 r 0) = (V c main_v37 : S262144x1.Idx → BitVec 32) (ix2 n 0) := by
  obtain ⟨-, -, e0, e1, -⟩ := idx_facts t
  unfold blk
  rw [View.read_apply]
  show (V c main_v37 : S262144x1.Idx → BitVec 32) _ = _
  congr 1
  funext a
  apply Fin.ext
  match a with
  | ⟨0, _⟩ => show win2_1.index t (0 : Fin 2) * 4096 + 1 * r.val = n.val; rw [e0, hn]; omega
  | ⟨1, _⟩ => show win2_1.index t (1 : Fin 2) * 1 + 1 * 0 = 0; rw [e1]

/-! ## The accumulator after a point -/

/-- the graph numbers as the region reads them: the column main_v37, read signed -/
def gidOf : Fin 262144 → Int := fun n => ((V c main_v37 : S262144x1.Idx → BitVec 32) (ix2 n 0)).toInt

/-- One point's update of any accumulator adds that block's pooled sums. -/
theorem step_apply (t : Fin cfg2.N) (ht : t.val < 64) (s : Vec Ideal S512x256 .f32) (g : Fin 512) (d : Fin 256) :
    (accStep (blk V c 0 t) (blk V c 1 t) s : S512x256.Idx → EReal) (ix2 g d)
      = s (ix2 g d) + blockSum (gidOf V c) (toMat (V c main_v36 : S262144x256.Idx → EReal)) ⟨t.val, ht⟩ g d := by
  rw [accStep_apply (blk V c 0 t) (blk V c 1 t) s g d]
  unfold blockSum
  refine congrArg (s (ix2 g d) + ·) (Finset.sum_congr rfl fun r _ => ?_)
  have hr : r.val < 4096 := r.isLt
  rw [blk0_apply V c t r d ⟨t.val * 4096 + r.val, by omega⟩ (by show t.val * 4096 + r.val = 4096 * t.val + r.val; omega),
    blk1_apply V c t r ⟨t.val * 4096 + r.val, by omega⟩ (by show t.val * 4096 + r.val = 4096 * t.val + r.val; omega)]
  rfl

/-- The accumulator after point n is the specification's: both restart from zero where a half begins and add the
    point's block otherwise. -/
theorem acc_apply : ∀ (n : Nat) (hn : n < cfg2.N) (hn' : n < 64) (g : Fin 512) (d : Fin 256),
    (acc V c n hn : S512x256.Idx → EReal) (ix2 g d)
      = accAt (gidOf V c) (toMat (V c main_v36 : S262144x256.Idx → EReal)) n hn' g d
  | 0, hn, hn', g, d => by
    show (accStep (blk V c 0 ⟨0, hn⟩) (blk V c 1 ⟨0, hn⟩) accZero : S512x256.Idx → EReal) (ix2 g d)
      = 0 + blockSum (gidOf V c) (toMat (V c main_v36 : S262144x256.Idx → EReal)) ⟨0, hn'⟩ g d
    rw [step_apply V c ⟨0, hn⟩ hn' accZero g d, accZero_apply]
  | n + 1, hn, hn', g, d => by
    show (accStep (blk V c 0 ⟨n + 1, hn⟩) (blk V c 1 ⟨n + 1, hn⟩)
        (if (n + 1) % 32 = 0 then accZero else acc V c n (Nat.lt_of_succ_lt hn)) : S512x256.Idx → EReal) (ix2 g d)
      = (if (n + 1) % 32 = 0 then (0 : EReal)
          else accAt (gidOf V c) (toMat (V c main_v36 : S262144x256.Idx → EReal)) n (by omega) g d)
        + blockSum (gidOf V c) (toMat (V c main_v36 : S262144x256.Idx → EReal)) ⟨n + 1, hn'⟩ g d
    rw [step_apply V c ⟨n + 1, hn⟩ hn' _ g d]
    by_cases h0 : (n + 1) % 32 = 0
    · rw [if_pos h0, if_pos h0, accZero_apply]
    · rw [if_neg h0, if_neg h0, acc_apply n (Nat.lt_of_succ_lt hn) (by omega) g d]

/-! ## The array the run leaves -/

theorem idx3_lt0 (i : S2x512x256.Idx) : (i 0).val < 2 := (i 0).isLt
theorem idx3_lt1 (i : S2x512x256.Idx) : (i 1).val < 512 := (i 1).isLt
theorem idx3_lt2 (i : S2x512x256.Idx) : (i 2).val < 256 := (i 2).isLt

/-- The specification's accumulator does not depend on how its point and its entry are spelt. -/
theorem accAt_congr (gid : Fin 262144 → Int) (h : Mat 262144 256) {n n' : Nat} (e : n = n') (hn : n < 64) (hn' : n' < 64)
    {g g' : Fin 512} (eg : g = g') {d d' : Fin 256} (ed : d = d') : accAt gid h n hn g d = accAt gid h n' hn' g' d' := by
  subst e eg ed; rfl

/-- Each half of the output array as a function of the array's index: the accumulator after the half's last block. -/
def poolArr : S2x512x256.Idx → EReal := fun i =>
  accAt (gidOf V c) (toMat (V c main_v36 : S262144x256.Idx → EReal)) (32 * (i 0).val + 31) (by have := idx3_lt0 i; omega)
    ⟨(i 1).val, idx3_lt1 i⟩ ⟨(i 2).val, idx3_lt2 i⟩

/-- What a half's last point writes back is that half of the pooled array. -/
theorem flushed_eq (t : Fin cfg2.N) (hf : (cfg2.win 2).flush t = true) :
    (dat V c).flushed 2 t = ((cfg2.win 2).blk t).view.read (Elt Ideal) (poolArr V c) := by
  have hl : t.val % 32 = 31 := (flush2_2 t).mp hf
  have hN : cfg2.N = 64 := points
  have ht : t.val < 64 := hN ▸ t.isLt
  show (cfg2.win 2).cut (grid2.coords t) ((dat V c).after 2 t) = _
  rw [after2]
  obtain ⟨-, -, -, -, e0, e1, e2⟩ := idx_facts t
  funext y
  obtain ⟨u, g, d, rfl⟩ : ∃ (u : Fin 1) (g : Fin 512) (d : Fin 256), y = ix3 u g d := ⟨y 0, y 1, y 2, eq_ix3 y⟩
  refine (outOf_apply (acc V c t.val t.isLt) u g d).trans ?_
  rw [acc_apply V c t.val t.isLt ht g d, View.read_apply]
  show _ = poolArr V c _
  unfold poolArr
  have hu : u.val = 0 := by omega
  refine accAt_congr _ _ ?_ _ _ (Fin.ext ?_) (Fin.ext ?_)
  · show t.val = 32 * (win2_2.index t (0 : Fin 3) * 1 + 1 * u.val) + 31; rw [e0, hu]; omega
  · show g.val = win2_2.index t (1 : Fin 3) * 512 + 1 * g.val; rw [e1]; omega
  · show d.val = win2_2.index t (2 : Fin 3) * 256 + 1 * d.val; rw [e2]; omega

/-- An index of the output array is in point t's block when each coordinate is in the block's range on its axis. -/
theorem mem_blk (t : Fin cfg2.N) (i : S2x512x256.Idx) :
    i ∈ ((cfg2.win 2).blk t).view.set ↔ ∀ a : Fin 3, win2_2.index t a * S1x512x256.size a ≤ (i a).val
      ∧ (i a).val < win2_2.index t a * S1x512x256.size a + S1x512x256.size a := by
  show i ∈ ((View.whole (Pipeline.arrRef spec2 2)).slice (win2_2.rect t)).set ↔ _
  rw [View.set_slice_whole, Rect.mem_set_unit]
  exact Iff.rfl

/-- Half p lies in the block of the half's last point, 32 p + 31, which is written back. -/
theorem covered (i : S2x512x256.Idx) :
    ∃ t : Fin cfg2.N, (cfg2.win 2).flush t = true ∧ i ∈ ((cfg2.win 2).blk t).view.set := by
  have h0 : (i 0).val < 2 := idx3_lt0 i
  have h1 : (i 1).val < 512 := idx3_lt1 i
  have h2 : (i 2).val < 256 := idx3_lt2 i
  have hN : cfg2.N = 64 := points
  have ht : 32 * (i 0).val + 31 < cfg2.N := by rw [hN]; omega
  refine ⟨⟨32 * (i 0).val + 31, ht⟩, (flush2_2 _).mpr (by show (32 * (i 0).val + 31) % 32 = 31; omega), ?_⟩
  obtain ⟨-, -, -, -, e0, e1, e2⟩ := idx_facts ⟨32 * (i 0).val + 31, ht⟩
  rw [mem_blk]
  intro a
  match a with
  | ⟨0, _⟩ =>
    show win2_2.index ⟨32 * (i 0).val + 31, ht⟩ (0 : Fin 3) * 1 ≤ (i 0).val
      ∧ (i 0).val < win2_2.index ⟨32 * (i 0).val + 31, ht⟩ (0 : Fin 3) * 1 + 1
    rw [e0]; show (32 * (i 0).val + 31) / 32 * 1 ≤ (i 0).val ∧ (i 0).val < (32 * (i 0).val + 31) / 32 * 1 + 1; omega
  | ⟨1, _⟩ =>
    show win2_2.index ⟨32 * (i 0).val + 31, ht⟩ (1 : Fin 3) * 512 ≤ (i 1).val
      ∧ (i 1).val < win2_2.index ⟨32 * (i 0).val + 31, ht⟩ (1 : Fin 3) * 512 + 512
    rw [e1]; omega
  | ⟨2, _⟩ =>
    show win2_2.index ⟨32 * (i 0).val + 31, ht⟩ (2 : Fin 3) * 256 ≤ (i 2).val
      ∧ (i 2).val < win2_2.index ⟨32 * (i 0).val + 31, ht⟩ (2 : Fin 3) * 256 + 256
    rw [e2]; omega

/-- The output array after the run holds, in each half, the accumulator after the half's last block. -/
theorem arr_eq : (dat V c).arrAt 2 cfg2.N = poolArr V c :=
  (dat V c).arrAt_eq_of_cover 2 (poolArr V c) (fun t hf => flushed_eq V c t hf) (covered)

/-- Half p of the output array is the accumulator after the half's last block. -/
theorem arr_apply (p : Fin 2) (g : Fin 512) (d : Fin 256) :
    ((dat V c).arrAt 2 cfg2.N : S2x512x256.Idx → EReal) (ix3 p g d)
      = accAt (gidOf V c) (toMat (V c main_v36 : S262144x256.Idx → EReal)) (32 * p.val + 31) (by omega) g d := by
  rw [arr_eq]
  rfl

end Cert.KernelIdeal.PoolValue

end
-- ==== Proof.KernelIdeal.KernelValue.lean ====
import proofs.«401558_j47940424958092_2_alg».proof.Proof.KernelIdeal.Regs
import proofs.«401558_j47940424958092_2_alg».proof.Proof.KernelIdeal.HostValue
import proofs.«401558_j47940424958092_2_alg».proof.Proof.KernelIdeal.Hop0Value
import proofs.«401558_j47940424958092_2_alg».proof.Proof.KernelIdeal.Hop1Value
import proofs.«401558_j47940424958092_2_alg».proof.Proof.KernelIdeal.PoolValue
import proofs.«401558_j47940424958092_2_alg».proof.Proof.Inputs

noncomputable section

/-! The idealized kernel program's result, index by index, over the nine inputs: the host stretches feed each region
    its operands (the embedding rows; the gathered and aggregated neighbour rows; the weight slices; the graph-number
    column), each hop region leaves the rectified affine combination of three matrix products, the pooling region leaves
    the two halves' accumulators, and the tail adds the halves and divides by the graphs' sizes. The index ranges of the
    node types and the edge ends enter only where a gather's in-range mask must be all ones. -/
namespace Cert.KernelIdeal.KernelValue

open Idealize.ShloMosaic Idealize.ShloMosaic.TcCoe Idealize.ShloMosaic.ValueIdx Idealize.SL.Sem
open Cert.KernelIdeal Cert.KernelIdeal.Gen Cert.KernelIdeal.Regs Cert.KernelIdeal.HostValue Cert.Spec

variable (m : (ℓ : Loc nD τ sig) → Buf (Elt Ideal) ℓ) (c : Dev nD)

/-- The features after the first hop region, as a matrix. -/
theorem hop1 (h0 : ∀ e, 0 ≤ segOf (a0 m c) e ∧ segOf (a0 m c) e < 60) (h1 : ∀ e, 0 ≤ segOf (a1 m c) e ∧ segOf (a1 m c) e < 262144)
    (h2 : ∀ e, 0 ≤ segOf (a2 m c) e ∧ segOf (a2 m c) e < 262144) :
    toMat (o5 m c : S262144x256.Idx → EReal)
      = kerHop (a1 m c) (a2 m c) (a5 m c) (a6 m c) (a7 m c) (a8 m c) 0 (feat0 (a0 m c) (a4 m c)) := by
  funext n k
  show (o5 m c : S262144x256.Idx → EReal) (ix2 n k) = _
  unfold o5
  rw [Hop0Value.arr_apply (E0 m) c n k]
  have e0 : toMat (E0 m c main_v0 : S262144x256.Idx → EReal) = feat0 (a0 m c) (a4 m c) := by
    funext n k; exact feat m c h0 n k
  have e5 : toMat (E0 m c main_v5 : S262144x256.Idx → EReal)
      = segSum 262144 (segOf (a2 m c)) (gatherRows (by decide : 0 < 262144) (feat0 (a0 m c) (a4 m c)) (rowNo 262144#32 (a1 m c))) := by
    funext n k; rw [← e0]; exact up1 m c h1 n k
  have e8 : toMat (E0 m c main_v8 : S262144x256.Idx → EReal)
      = segSum 262144 (segOf (a1 m c)) (gatherRows (by decide : 0 < 262144) (feat0 (a0 m c) (a4 m c)) (rowNo 262144#32 (a2 m c))) := by
    funext n k; rw [← e0]; exact down1 m c h2 n k
  have e13 : toMat (E0 m c main_v13 : S256x256.Idx → EReal) = sliceW 0 (a7 m c) := by funext i j; exact wself1 m c i j
  have e15 : toMat (E0 m c main_v15 : S256x256.Idx → EReal) = sliceW 0 (a5 m c) := by funext i j; exact wup1 m c i j
  have e17 : toMat (E0 m c main_v17 : S256x256.Idx → EReal) = sliceW 0 (a6 m c) := by funext i j; exact wdown1 m c i j
  have e11 : (fun j => (E0 m c main_v11 : S1x256.Idx → EReal) (ix2 0 j)) = sliceB 0 (a8 m c) := by funext j; exact bias1 m c j
  rw [e0, e5, e8, e13, e15, e17, e11]
  rfl

/-- The features after the second hop region. -/
theorem hop2 (h0 : ∀ e, 0 ≤ segOf (a0 m c) e ∧ segOf (a0 m c) e < 60) (h1 : ∀ e, 0 ≤ segOf (a1 m c) e ∧ segOf (a1 m c) e < 262144)
    (h2 : ∀ e, 0 ≤ segOf (a2 m c) e ∧ segOf (a2 m c) e < 262144) :
    toMat (o9 m c : S262144x256.Idx → EReal)
      = kerHop (a1 m c) (a2 m c) (a5 m c) (a6 m c) (a7 m c) (a8 m c) 1
          (kerHop (a1 m c) (a2 m c) (a5 m c) (a6 m c) (a7 m c) (a8 m c) 0 (feat0 (a0 m c) (a4 m c))) := by
  funext n k
  show (o9 m c : S262144x256.Idx → EReal) (ix2 n k) = _
  unfold o9
  rw [Hop1Value.arr_apply (E1 m) c n k]
  have hE : ∀ b : Ref sig .tc, E1 m c b = V8 m (outs m) c b := fun b => by rw [V8_eq]
  have e18 : toMat (E1 m c main_v18 : S262144x256.Idx → EReal)
      = kerHop (a1 m c) (a2 m c) (a5 m c) (a6 m c) (a7 m c) (a8 m c) 0 (feat0 (a0 m c) (a4 m c)) := by
    rw [hE, keep18 m (outs m) c, outs5]; exact hop1 m c h0 h1 h2
  have e23 : toMat (E1 m c main_v23 : S262144x256.Idx → EReal)
      = segSum 262144 (segOf (a2 m c)) (gatherRows (by decide : 0 < 262144) (toMat (E1 m c main_v18 : S262144x256.Idx → EReal)) (rowNo 262144#32 (a1 m c))) := by
    funext n k; rw [hE, hE]; exact up2 m (outs m) c h1 n k
  have e26 : toMat (E1 m c main_v26 : S262144x256.Idx → EReal)
      = segSum 262144 (segOf (a1 m c)) (gatherRows (by decide : 0 < 262144) (toMat (E1 m c main_v18 : S262144x256.Idx → EReal)) (rowNo 262144#32 (a2 m c))) := by
    funext n k; rw [hE, hE]; exact down2 m (outs m) c h2 n k
  have e31 : toMat (E1 m c main_v31 : S256x256.Idx → EReal) = sliceW 1 (a7 m c) := by funext i j; rw [hE]; exact wself2 m (outs m) c i j
  have e33 : toMat (E1 m c main_v33 : S256x256.Idx → EReal) = sliceW 1 (a5 m c) := by funext i j; rw [hE]; exact wup2 m (outs m) c i j
  have e35 : toMat (E1 m c main_v35 : S256x256.Idx → EReal) = sliceW 1 (a6 m c) := by funext i j; rw [hE]; exact wdown2 m (outs m) c i j
  have e29 : (fun j => (E1 m c main_v29 : S1x256.Idx → EReal) (ix2 0 j)) = sliceB 1 (a8 m c) := by funext j; rw [hE]; exact bias2 m (outs m) c j
  rw [e23, e26, e18, e31, e33, e35, e29]
  rfl

/-- The program's result. -/
theorem result_apply (h0 : ∀ e, 0 ≤ segOf (a0 m c) e ∧ segOf (a0 m c) e < 60) (h1 : ∀ e, 0 ≤ segOf (a1 m c) e ∧ segOf (a1 m c) e < 262144)
    (h2 : ∀ e, 0 ≤ segOf (a2 m c) e ∧ segOf (a2 m c) e < 262144) (g : Fin 512) (d : Fin 256) :
    (V12 m (outs m) c main_v51 : S512x256.Idx → EReal) (ix2 g d)
      = kerOut (a0 m c) (a1 m c) (a2 m c) (a3 m c) (a4 m c) (a5 m c) (a6 m c) (a7 m c) (a8 m c) g d := by
  rw [result m (outs m) c g d]
  unfold kerOut
  have hE : ∀ b : Ref sig .tc, E2 m c b = V10 m (outs m) c b := fun b => by rw [V10_eq]
  have hgid : PoolValue.gidOf (E2 m) c = segOf (a3 m c) := by
    funext n; unfold PoolValue.gidOf; rw [hE, gidcol m (outs m) c n]; rfl
  have h36 : toMat (E2 m c main_v36 : S262144x256.Idx → EReal)
      = kerHop (a1 m c) (a2 m c) (a5 m c) (a6 m c) (a7 m c) (a8 m c) 1
          (kerHop (a1 m c) (a2 m c) (a5 m c) (a6 m c) (a7 m c) (a8 m c) 0 (feat0 (a0 m c) (a4 m c))) := by
    rw [hE, keep36 m (outs m) c, outs9]; exact hop2 m c h0 h1 h2
  have hsum : halves (outs m 11 main_v38 c)
      = poolK (segOf (a3 m c)) (kerHop (a1 m c) (a2 m c) (a5 m c) (a6 m c) (a7 m c) (a8 m c) 1
          (kerHop (a1 m c) (a2 m c) (a5 m c) (a6 m c) (a7 m c) (a8 m c) 0 (feat0 (a0 m c) (a4 m c)))) := by
    funext g d
    rw [outs11]; unfold o11
    unfold halves
    rw [PoolValue.arr_apply (E2 m) c 0 g d, PoolValue.arr_apply (E2 m) c 1 g d, hgid, h36]
    rfl
  rw [hsum]

end Cert.KernelIdeal.KernelValue

end
-- ==== Proof.RefRead.lean ====
import proofs.«401558_j47940424958092_2_alg».proof.Proof.Gen.ReferenceIdeal.Run
import proofs.«401558_j47940424958092_2_alg».proof.Proof.Gen.ReferenceIdeal.Read

/-! The reference's run and its stages read at an index are taken from the generated modules imported here;
    the modules that compare the reference's stages with the kernel's import this one. -/
-- ==== Proof.RefValue.lean ====
import proofs.«401558_j47940424958092_2_alg».proof.Proof.RefRead
import proofs.«401558_j47940424958092_2_alg».proof.Proof.Inputs
import proofs.«401558_j47940424958092_2_alg».proof.Proof.LibRows
import Idealize.ShloMosaic.Lib.ValueIdx
import Idealize.ShloMosaic.PureOps.Ideal.Laws

noncomputable section

open scoped BigOperators

/-! The reference's result, read index by index, is the specification's term: the index columns are the edge lists
    after the negative-index convention (for the gathers) or as they are (for the segment sums); the gathered
    embedding rows are the node features; each hop is three matrix products, two of them of gathered rows summed
    into segments, plus the bias row, rectified; the pooling is a segment sum by graph number and the readout divides
    it by the segment sizes, at least one. -/
namespace Cert.RefValue

open Idealize.ShloMosaic Idealize.ShloMosaic.ValueIdx Cert.ReferenceIdeal Cert.ReferenceIdeal.Read Cert.Spec

/-! ## The index columns -/

/-- The node types after the negative-index convention, as a column. -/
theorem col_v5 (x0 : (⟨S262144, .i32⟩ : BufTy).Contents (Elt Ideal)) (e : Fin 262144) :
    val_main_v5 (F := Ideal) x0 (ix2 e 0) = wrapWord 60#32 (x0 (ix1 e)) := by
  have hi : idx_main_v5 (ix2 e 0) = ix1 e := funext fun a => by match a with | ⟨0, _⟩ => rfl
  rw [val_main_v5_apply, hi, val_main_v4_apply, val_main_v1_apply, val_main_v3_apply, val_main_v0_apply, val_main_v2_apply,
    val_main_c_apply, val_main_c_0_apply]
  rfl

/-- The edge sources after the negative-index convention, as a column (first hop). -/
theorem col_v12 (x1 : (⟨S262144, .i32⟩ : BufTy).Contents (Elt Ideal)) (e : Fin 262144) :
    val_main_v12 (F := Ideal) x1 (ix2 e 0) = wrapWord 262144#32 (x1 (ix1 e)) := by
  have hi : idx_main_v12 (ix2 e 0) = ix1 e := funext fun a => by match a with | ⟨0, _⟩ => rfl
  rw [val_main_v12_apply, hi, val_main_v11_apply, val_main_v8_apply, val_main_v10_apply, val_main_v7_apply, val_main_v9_apply,
    val_main_c_1_apply, val_main_c_2_apply]
  rfl

/-- The edge targets after the negative-index convention, as a column (first hop). -/
theorem col_v25 (x2 : (⟨S262144, .i32⟩ : BufTy).Contents (Elt Ideal)) (e : Fin 262144) :
    val_main_v25 (F := Ideal) x2 (ix2 e 0) = wrapWord 262144#32 (x2 (ix1 e)) := by
  have hi : idx_main_v25 (ix2 e 0) = ix1 e := funext fun a => by match a with | ⟨0, _⟩ => rfl
  rw [val_main_v25_apply, hi, val_main_v24_apply, val_main_v21_apply, val_main_v23_apply, val_main_v20_apply, val_main_v22_apply,
    val_main_c_3_apply, val_main_c_4_apply]
  rfl

/-- The edge sources after the negative-index convention, as a column (second hop). -/
theorem col_v49 (x1 : (⟨S262144, .i32⟩ : BufTy).Contents (Elt Ideal)) (e : Fin 262144) :
    val_main_v49 (F := Ideal) x1 (ix2 e 0) = wrapWord 262144#32 (x1 (ix1 e)) := by
  have hi : idx_main_v49 (ix2 e 0) = ix1 e := funext fun a => by match a with | ⟨0, _⟩ => rfl
  rw [val_main_v49_apply, hi, val_main_v48_apply, val_main_v45_apply, val_main_v47_apply, val_main_v44_apply, val_main_v46_apply,
    val_main_c_6_apply, val_main_c_7_apply]
  rfl

/-- The edge targets after the negative-index convention, as a column (second hop). -/
theorem col_v62 (x2 : (⟨S262144, .i32⟩ : BufTy).Contents (Elt Ideal)) (e : Fin 262144) :
    val_main_v62 (F := Ideal) x2 (ix2 e 0) = wrapWord 262144#32 (x2 (ix1 e)) := by
  have hi : idx_main_v62 (ix2 e 0) = ix1 e := funext fun a => by match a with | ⟨0, _⟩ => rfl
  rw [val_main_v62_apply, hi, val_main_v61_apply, val_main_v58_apply, val_main_v60_apply, val_main_v57_apply, val_main_v59_apply,
    val_main_c_9_apply, val_main_c_10_apply]
  rfl

/-- The edge targets as a segment column (first hop): a segment column is its vector, entry by entry. -/
theorem col_v18 (x2 : (⟨S262144, .i32⟩ : BufTy).Contents (Elt Ideal)) (e : Fin 262144) :
    val_main_v18 (F := Ideal) x2 (ix2 e 0) = x2 (ix1 e) := by
  have hi : idx_main_v18 (ix2 e 0) = ix1 e := funext fun a => by match a with | ⟨0, _⟩ => rfl
  rw [val_main_v18_apply, hi]

/-- The edge sources as a segment column (first hop). -/
theorem col_v31 (x1 : (⟨S262144, .i32⟩ : BufTy).Contents (Elt Ideal)) (e : Fin 262144) :
    val_main_v31 (F := Ideal) x1 (ix2 e 0) = x1 (ix1 e) := by
  have hi : idx_main_v31 (ix2 e 0) = ix1 e := funext fun a => by match a with | ⟨0, _⟩ => rfl
  rw [val_main_v31_apply, hi]

/-- The edge targets as a segment column (second hop). -/
theorem col_v55 (x2 : (⟨S262144, .i32⟩ : BufTy).Contents (Elt Ideal)) (e : Fin 262144) :
    val_main_v55 (F := Ideal) x2 (ix2 e 0) = x2 (ix1 e) := by
  have hi : idx_main_v55 (ix2 e 0) = ix1 e := funext fun a => by match a with | ⟨0, _⟩ => rfl
  rw [val_main_v55_apply, hi]

/-- The edge sources as a segment column (second hop). -/
theorem col_v68 (x1 : (⟨S262144, .i32⟩ : BufTy).Contents (Elt Ideal)) (e : Fin 262144) :
    val_main_v68 (F := Ideal) x1 (ix2 e 0) = x1 (ix1 e) := by
  have hi : idx_main_v68 (ix2 e 0) = ix1 e := funext fun a => by match a with | ⟨0, _⟩ => rfl
  rw [val_main_v68_apply, hi]

/-- The graph numbers as a segment column (for the pooled sums). -/
theorem col_v82 (x3 : (⟨S262144, .i32⟩ : BufTy).Contents (Elt Ideal)) (e : Fin 262144) :
    val_main_v82 (F := Ideal) x3 (ix2 e 0) = x3 (ix1 e) := by
  have hi : idx_main_v82 (ix2 e 0) = ix1 e := funext fun a => by match a with | ⟨0, _⟩ => rfl
  rw [val_main_v82_apply, hi]

/-- The graph numbers as a segment column (for the segment sizes). -/
theorem col_v86 (x3 : (⟨S262144, .i32⟩ : BufTy).Contents (Elt Ideal)) (e : Fin 262144) :
    val_main_v86 (F := Ideal) x3 (ix2 e 0) = x3 (ix1 e) := by
  have hi : idx_main_v86 (ix2 e 0) = ix1 e := funext fun a => by match a with | ⟨0, _⟩ => rfl
  rw [val_main_v86_apply, hi]

/-! ## The constant arrays: the zero word is the number zero, the word of one is kept as it is spelt -/

theorem zero_v17 (i : S262144x256.Idx) : val_main_v17 (F := Ideal) i = 0 := by
  rw [val_main_v17_apply, val_main_cst_apply, Ideal.ofBits_def, Ideal.ofBits_zero_f32]

theorem zero_v30 (i : S262144x256.Idx) : val_main_v30 (F := Ideal) i = 0 := by
  rw [val_main_v30_apply, val_main_cst_5_apply, Ideal.ofBits_def, Ideal.ofBits_zero_f32]

theorem zero_v54 (i : S262144x256.Idx) : val_main_v54 (F := Ideal) i = 0 := by
  rw [val_main_v54_apply, val_main_cst_8_apply, Ideal.ofBits_def, Ideal.ofBits_zero_f32]

theorem zero_v67 (i : S262144x256.Idx) : val_main_v67 (F := Ideal) i = 0 := by
  rw [val_main_v67_apply, val_main_cst_11_apply, Ideal.ofBits_def, Ideal.ofBits_zero_f32]

theorem zero_call0 (i : S262144x256.Idx) : val_main_call0_v0 (F := Ideal) i = 0 := by
  rw [val_main_call0_v0_apply, val_main_call0_cst_apply, Ideal.ofBits_def, Ideal.ofBits_zero_f32]

theorem zero_call1 (i : S262144x256.Idx) : val_main_call1_v0 (F := Ideal) i = 0 := by
  rw [val_main_call1_v0_apply, val_main_call1_cst_apply, Ideal.ofBits_def, Ideal.ofBits_zero_f32]

theorem zero_v81 (i : S512x256.Idx) : val_main_v81 (F := Ideal) i = 0 := by
  rw [val_main_v81_apply, val_main_cst_12_apply, Ideal.ofBits_def, Ideal.ofBits_zero_f32]

theorem zero_v85 (i : S512x1.Idx) : val_main_v85 (F := Ideal) i = 0 := by
  rw [val_main_v85_apply, val_main_cst_14_apply, Ideal.ofBits_def, Ideal.ofBits_zero_f32]

theorem one_v84 (i : S262144x1.Idx) : val_main_v84 (F := Ideal) i = oneE := by
  rw [val_main_v84_apply, val_main_cst_13_apply, Ideal.ofBits_def]; rfl

theorem one_v88 (i : S512x1.Idx) : val_main_v88 (F := Ideal) i = oneE := by
  rw [val_main_v88_apply, val_main_cst_15_apply, Ideal.ofBits_def]; rfl

/-! ## The weight slices and the bias rows -/

/-- The first slice of the upward weights. -/
theorem w_v15 (x5 : (⟨S2x256x256, .f32⟩ : BufTy).Contents (Elt Ideal)) (i j : Fin 256) :
    val_main_v15 (F := Ideal) x5 (ix2 i j) = sliceW 0 x5 i j := by
  have hi : idx_main_v14 (idx_main_v15 (ix2 i j)) = ix3 (0 : Fin 2) i j := funext fun a => Fin.ext (by
    have h0 : i.val < 256 := i.isLt
    have h1 : j.val < 256 := j.isLt
    match a with
    | ⟨0, _⟩ => rfl
    | ⟨1, _⟩ => show (i.val * 256 + j.val) / 256 % 256 = i.val; omega
    | ⟨2, _⟩ => show (i.val * 256 + j.val) % 256 = j.val; omega)
  rw [val_main_v15_apply, val_main_v14_apply, hi]
  rfl

/-- The first slice of the downward weights. -/
theorem w_v28 (x6 : (⟨S2x256x256, .f32⟩ : BufTy).Contents (Elt Ideal)) (i j : Fin 256) :
    val_main_v28 (F := Ideal) x6 (ix2 i j) = sliceW 0 x6 i j := by
  have hi : idx_main_v27 (idx_main_v28 (ix2 i j)) = ix3 (0 : Fin 2) i j := funext fun a => Fin.ext (by
    have h0 : i.val < 256 := i.isLt
    have h1 : j.val < 256 := j.isLt
    match a with
    | ⟨0, _⟩ => rfl
    | ⟨1, _⟩ => show (i.val * 256 + j.val) / 256 % 256 = i.val; omega
    | ⟨2, _⟩ => show (i.val * 256 + j.val) % 256 = j.val; omega)
  rw [val_main_v28_apply, val_main_v27_apply, hi]
  rfl

/-- The first slice of the self weights. -/
theorem w_v34 (x7 : (⟨S2x256x256, .f32⟩ : BufTy).Contents (Elt Ideal)) (i j : Fin 256) :
    val_main_v34 (F := Ideal) x7 (ix2 i j) = sliceW 0 x7 i j := by
  have hi : idx_main_v33 (idx_main_v34 (ix2 i j)) = ix3 (0 : Fin 2) i j := funext fun a => Fin.ext (by
    have h0 : i.val < 256 := i.isLt
    have h1 : j.val < 256 := j.isLt
    match a with
    | ⟨0, _⟩ => rfl
    | ⟨1, _⟩ => show (i.val * 256 + j.val) / 256 % 256 = i.val; omega
    | ⟨2, _⟩ => show (i.val * 256 + j.val) % 256 = j.val; omega)
  rw [val_main_v34_apply, val_main_v33_apply, hi]
  rfl

/-- The second slice of the upward weights. -/
theorem w_v52 (x5 : (⟨S2x256x256, .f32⟩ : BufTy).Contents (Elt Ideal)) (i j : Fin 256) :
    val_main_v52 (F := Ideal) x5 (ix2 i j) = sliceW 1 x5 i j := by
  have hi : idx_main_v51 (idx_main_v52 (ix2 i j)) = ix3 (1 : Fin 2) i j := funext fun a => Fin.ext (by
    have h0 : i.val < 256 := i.isLt
    have h1 : j.val < 256 := j.isLt
    match a with
    | ⟨0, _⟩ => rfl
    | ⟨1, _⟩ => show (i.val * 256 + j.val) / 256 % 256 = i.val; omega
    | ⟨2, _⟩ => show (i.val * 256 + j.val) % 256 = j.val; omega)
  rw [val_main_v52_apply, val_main_v51_apply, hi]
  rfl

/-- The second slice of the downward weights. -/
theorem w_v65 (x6 : (⟨S2x256x256, .f32⟩ : BufTy).Contents (Elt Ideal)) (i j : Fin 256) :
    val_main_v65 (F := Ideal) x6 (ix2 i j) = sliceW 1 x6 i j := by
  have hi : idx_main_v64 (idx_main_v65 (ix2 i j)) = ix3 (1 : Fin 2) i j := funext fun a => Fin.ext (by
    have h0 : i.val < 256 := i.isLt
    have h1 : j.val < 256 := j.isLt
    match a with
    | ⟨0, _⟩ => rfl
    | ⟨1, _⟩ => show (i.val * 256 + j.val) / 256 % 256 = i.val; omega
    | ⟨2, _⟩ => show (i.val * 256 + j.val) % 256 = j.val; omega)
  rw [val_main_v65_apply, val_main_v64_apply, hi]
  rfl

/-- The second slice of the self weights. -/
theorem w_v71 (x7 : (⟨S2x256x256, .f32⟩ : BufTy).Contents (Elt Ideal)) (i j : Fin 256) :
    val_main_v71 (F := Ideal) x7 (ix2 i j) = sliceW 1 x7 i j := by
  have hi : idx_main_v70 (idx_main_v71 (ix2 i j)) = ix3 (1 : Fin 2) i j := funext fun a => Fin.ext (by
    have h0 : i.val < 256 := i.isLt
    have h1 : j.val < 256 := j.isLt
    match a with
    | ⟨0, _⟩ => rfl
    | ⟨1, _⟩ => show (i.val * 256 + j.val) / 256 % 256 = i.val; omega
    | ⟨2, _⟩ => show (i.val * 256 + j.val) % 256 = j.val; omega)
  rw [val_main_v71_apply, val_main_v70_apply, hi]
  rfl

/-- The first bias row, copied into every row. -/
theorem b_v41 (x8 : (⟨S2x256, .f32⟩ : BufTy).Contents (Elt Ideal)) (n : Fin 262144) (d : Fin 256) :
    val_main_v41 (F := Ideal) x8 (ix2 n d) = sliceB 0 x8 d := by
  have hi : idx_main_v38 (idx_main_v39 (idx_main_v40 (idx_main_v41 (ix2 n d)))) = ix2 (0 : Fin 2) d := funext fun a => Fin.ext (by
    have h1 : d.val < 256 := d.isLt
    match a with
    | ⟨0, _⟩ => rfl
    | ⟨1, _⟩ => show d.val % 256 = d.val; omega)
  rw [val_main_v41_apply, val_main_v40_apply, val_main_v39_apply, val_main_v38_apply, hi]
  rfl

/-- The second bias row, copied into every row. -/
theorem b_v78 (x8 : (⟨S2x256, .f32⟩ : BufTy).Contents (Elt Ideal)) (n : Fin 262144) (d : Fin 256) :
    val_main_v78 (F := Ideal) x8 (ix2 n d) = sliceB 1 x8 d := by
  have hi : idx_main_v75 (idx_main_v76 (idx_main_v77 (idx_main_v78 (ix2 n d)))) = ix2 (1 : Fin 2) d := funext fun a => Fin.ext (by
    have h1 : d.val < 256 := d.isLt
    match a with
    | ⟨0, _⟩ => rfl
    | ⟨1, _⟩ => show d.val % 256 = d.val; omega)
  rw [val_main_v78_apply, val_main_v77_apply, val_main_v76_apply, val_main_v75_apply, hi]
  rfl

/-! ## A row gather, a matrix product and a hop over arbitrary operand arrays -/

/-- The embedding rows at the wrapped node types. -/
theorem feat_v6 (x0 : (⟨S262144, .i32⟩ : BufTy).Contents (Elt Ideal)) (x4 : (⟨S60x256, .f32⟩ : BufTy).Contents (Elt Ideal))
    (n : Fin 262144) (k : Fin 256) :
    val_main_v6 (F := Ideal) x0 x4 (ix2 n k) = feat0 x0 x4 n k := by
  unfold val_main_v6
  rw [Cert.LibRows.gather_rows_apply (by decide : 0 < 60) _ rfl rfl rfl rfl rfl rfl rfl]
  simp only [col_v5]
  rfl

/-- A gather of node rows at a column of wrapped edge ends. -/
theorem gatherNodes_apply (h : FVec Ideal S262144x256 .f32) (H : Mat 262144 256)
    (hH : ∀ n k, h (ix2 n k) = H n k) (col : IVec S262144x1 32) (a : IdxVec)
    (hcol : ∀ e, col (ix2 e 0) = wrapWord 262144#32 (a (ix1 e))) (e : Fin 262144) (k : Fin 256) :
    Host.gather gather_S262144x256_S262144x1_S262144x256_1_0_n_n_0_1_1256 h col (ix2 e k)
      = gatherRows (by decide : 0 < 262144) H (rowNo 262144#32 a) e k := by
  rw [Cert.LibRows.gather_rows_apply (by decide : 0 < 262144) _ rfl rfl rfl rfl rfl rfl rfl, hH]
  simp only [hcol]
  rfl

/-- The host's product of a node array by a weight matrix, at an index. -/
theorem dot_apply (l : FVec Ideal S262144x256 .f32) (r : FVec Ideal S256x256 .f32)
    (L : Mat 262144 256) (R : Mat 256 256) (hl : ∀ n k, l (ix2 n k) = L n k) (hr : ∀ k d, r (ix2 k d) = R k d)
    (n : Fin 262144) (d : Fin 256) :
    Host.dotGeneral (F := Ideal) dot_S262144x256_S256x256_S262144x256_1_0_0_1_n_n none l r (ix2 n d) = mm L R n d := by
  simp only [Host.dotGeneral]
  rw [Ideal.dotGeneral_apply,
    ← Equiv.sum_comp (contrEquiv1 dot_S262144x256_S256x256_S262144x256_1_0_0_1_n_n 256 rfl rfl).symm]
  unfold mm
  refine Finset.sum_congr rfl fun k _ => ?_
  have hk := contrEquiv1_symm_val dot_S262144x256_S256x256_S262144x256_1_0_0_1_n_n 256 rfl rfl k
  have el : dot_S262144x256_S256x256_S262144x256_1_0_0_1_n_n.lhsIdx (ix2 n d)
      ((contrEquiv1 dot_S262144x256_S256x256_S262144x256_1_0_0_1_n_n 256 rfl rfl).symm k) = ix2 n k :=
    funext fun a => Fin.ext (by
      match a with
      | ⟨0, _⟩ => exact lhs_main_v16_0 _ _
      | ⟨1, _⟩ => exact (lhs_main_v16_1 _ _).trans hk)
  have er : dot_S262144x256_S256x256_S262144x256_1_0_0_1_n_n.rhsIdx (ix2 n d)
      ((contrEquiv1 dot_S262144x256_S256x256_S262144x256_1_0_0_1_n_n 256 rfl rfl).symm k) = ix2 k d :=
    funext fun a => Fin.ext (by
      match a with
      | ⟨0, _⟩ => exact (rhs_main_v16_0 _ _).trans hk
      | ⟨1, _⟩ => exact rhs_main_v16_1 _ _)
  rw [el, er, hl, hr]

/-- A segment sum of message rows into the node rows, from the zero array. -/
theorem scatterNodes_apply (z : FVec Ideal S262144x256 .f32) (hz : ∀ i, z i = 0)
    (col : IVec S262144x1 32) (a : IdxVec) (hcol : ∀ e, col (ix2 e 0) = a (ix1 e))
    (u : FVec Ideal S262144x256 .f32) (U : Mat 262144 256) (hu : ∀ e c, u (ix2 e c) = U e c)
    (n : Fin 262144) (d : Fin 256) :
    Host.scatterAdd (F := Ideal) scatter_S262144x256_S262144x1_S262144x256_1_0_0_1 z col u (ix2 n d)
      = segSum 262144 (segOf a) U n d := by
  rw [Cert.LibRows.scatterAdd_rows_apply _ rfl rfl rfl rfl, hz]
  unfold segSum segOf
  refine congrArg (HAdd.hAdd (0 : EReal)) (Finset.sum_congr rfl fun e _ => ?_)
  rw [hcol, hu]

/-- One hop of the reference over arbitrary operand arrays: the previous features `h` with their matrix `H`, the two
    gather columns and the two segment columns read off the edge lists, the three weight matrices, the bias rows and
    the zero arrays. -/
theorem hop_apply (h : FVec Ideal S262144x256 .f32) (H : Mat 262144 256) (hH : ∀ n k, h (ix2 n k) = H n k)
    (cs cd ss sd : IVec S262144x1 32) (es ed : IdxVec)
    (hcs : ∀ e, cs (ix2 e 0) = wrapWord 262144#32 (es (ix1 e)))
    (hcd : ∀ e, cd (ix2 e 0) = wrapWord 262144#32 (ed (ix1 e)))
    (hss : ∀ e, ss (ix2 e 0) = es (ix1 e)) (hsd : ∀ e, sd (ix2 e 0) = ed (ix1 e))
    (wu wd ws : FVec Ideal S256x256 .f32) (Wu Wd Ws : Mat 256 256)
    (hwu : ∀ i j, wu (ix2 i j) = Wu i j) (hwd : ∀ i j, wd (ix2 i j) = Wd i j) (hws : ∀ i j, ws (ix2 i j) = Ws i j)
    (b : FVec Ideal S262144x256 .f32) (B : Fin 256 → EReal) (hb : ∀ n d, b (ix2 n d) = B d)
    (z1 z2 z3 : FVec Ideal S262144x256 .f32) (hz1 : ∀ i, z1 i = 0) (hz2 : ∀ i, z2 i = 0)
    (hz3 : ∀ i, z3 i = 0) (n : Fin 262144) (d : Fin 256) :
    maximumf (F := Ideal) (addf (addf (addf (Host.dotGeneral dot_S262144x256_S256x256_S262144x256_1_0_0_1_n_n none h ws)
        (Host.scatterAdd scatter_S262144x256_S262144x1_S262144x256_1_0_0_1 z1 sd
          (Host.dotGeneral dot_S262144x256_S256x256_S262144x256_1_0_0_1_n_n none
            (Host.gather gather_S262144x256_S262144x1_S262144x256_1_0_n_n_0_1_1256 h cs) wu)))
        (Host.scatterAdd scatter_S262144x256_S262144x1_S262144x256_1_0_0_1 z2 ss
          (Host.dotGeneral dot_S262144x256_S256x256_S262144x256_1_0_0_1_n_n none
            (Host.gather gather_S262144x256_S262144x1_S262144x256_1_0_n_n_0_1_1256 h cd) wd))) b) z3 (ix2 n d)
      = referenceHop (by decide : 0 < 262144) H (rowNo 262144#32 es) (rowNo 262144#32 ed) (segOf es) (segOf ed) Ws Wu Wd B n d := by
  rw [maximumf_apply, addf_apply, addf_apply, addf_apply, hz3, hb,
    dot_apply h ws H Ws hH hws,
    scatterNodes_apply z1 hz1 sd ed hsd _ (mm (gatherRows (by decide : 0 < 262144) H (rowNo 262144#32 es)) Wu)
      (fun e c => dot_apply _ wu _ Wu (gatherNodes_apply h H hH cs es hcs) hwu e c),
    scatterNodes_apply z2 hz2 ss es hss _ (mm (gatherRows (by decide : 0 < 262144) H (rowNo 262144#32 ed)) Wd)
      (fun e c => dot_apply _ wd _ Wd (gatherNodes_apply h H hH cd ed hcd) hwd e c)]
  rfl

/-! ## The two hops, the pooling and the readout -/

/-- The first hop of the reference. -/
theorem hop1 (x0 x1 x2 : (⟨S262144, .i32⟩ : BufTy).Contents (Elt Ideal)) (x4 : (⟨S60x256, .f32⟩ : BufTy).Contents (Elt Ideal))
    (x5 x6 x7 : (⟨S2x256x256, .f32⟩ : BufTy).Contents (Elt Ideal)) (x8 : (⟨S2x256, .f32⟩ : BufTy).Contents (Elt Ideal)) (n : Fin 262144) (d : Fin 256) :
    val_main_v43 (F := Ideal) x0 x1 x2 x4 x5 x6 x7 x8 (ix2 n d) = refHop x1 x2 x5 x6 x7 x8 0 (feat0 x0 x4) n d := by
  unfold val_main_v43 val_main_v42 val_main_v37 val_main_v36 val_main_v35 val_main_v19 val_main_v32 val_main_v16 val_main_v29
    val_main_v13 val_main_v26 refHop
  exact hop_apply (val_main_v6 (F := Ideal) x0 x4) (feat0 x0 x4) (feat_v6 x0 x4)
    (val_main_v12 (F := Ideal) x1) (val_main_v25 (F := Ideal) x2) (val_main_v31 (F := Ideal) x1) (val_main_v18 (F := Ideal) x2) x1 x2
    (col_v12 x1) (col_v25 x2) (col_v31 x1) (col_v18 x2)
    (val_main_v15 (F := Ideal) x5) (val_main_v28 (F := Ideal) x6) (val_main_v34 (F := Ideal) x7)
    (sliceW 0 x5) (sliceW 0 x6) (sliceW 0 x7) (w_v15 x5) (w_v28 x6) (w_v34 x7)
    (val_main_v41 (F := Ideal) x8) (sliceB 0 x8) (b_v41 x8)
    (val_main_v17 (F := Ideal)) (val_main_v30 (F := Ideal)) (val_main_call0_v0 (F := Ideal)) zero_v17 zero_v30 zero_call0 n d

/-- The second hop of the reference. -/
theorem hop2 (x0 x1 x2 : (⟨S262144, .i32⟩ : BufTy).Contents (Elt Ideal)) (x4 : (⟨S60x256, .f32⟩ : BufTy).Contents (Elt Ideal))
    (x5 x6 x7 : (⟨S2x256x256, .f32⟩ : BufTy).Contents (Elt Ideal)) (x8 : (⟨S2x256, .f32⟩ : BufTy).Contents (Elt Ideal)) (n : Fin 262144) (d : Fin 256) :
    val_main_v80 (F := Ideal) x0 x1 x2 x4 x5 x6 x7 x8 (ix2 n d)
      = refHop x1 x2 x5 x6 x7 x8 1 (refHop x1 x2 x5 x6 x7 x8 0 (feat0 x0 x4)) n d := by
  unfold val_main_v80 val_main_v79 val_main_v74 val_main_v73 val_main_v72 val_main_v56 val_main_v69 val_main_v53 val_main_v66
    val_main_v50 val_main_v63
  generalize hh : val_main_v43 (F := Ideal) x0 x1 x2 x4 x5 x6 x7 x8 = h
  have hH : ∀ n k, h (ix2 n k) = refHop x1 x2 x5 x6 x7 x8 0 (feat0 x0 x4) n k := fun n k => by
    rw [← hh]; exact hop1 x0 x1 x2 x4 x5 x6 x7 x8 n k
  generalize refHop x1 x2 x5 x6 x7 x8 0 (feat0 x0 x4) = H at hH ⊢
  unfold refHop
  exact hop_apply h H hH
    (val_main_v49 (F := Ideal) x1) (val_main_v62 (F := Ideal) x2) (val_main_v68 (F := Ideal) x1) (val_main_v55 (F := Ideal) x2) x1 x2
    (col_v49 x1) (col_v62 x2) (col_v68 x1) (col_v55 x2)
    (val_main_v52 (F := Ideal) x5) (val_main_v65 (F := Ideal) x6) (val_main_v71 (F := Ideal) x7)
    (sliceW 1 x5) (sliceW 1 x6) (sliceW 1 x7) (w_v52 x5) (w_v65 x6) (w_v71 x7)
    (val_main_v78 (F := Ideal) x8) (sliceB 1 x8) (b_v78 x8)
    (val_main_v54 (F := Ideal)) (val_main_v67 (F := Ideal)) (val_main_call1_v0 (F := Ideal)) zero_v54 zero_v67 zero_call1 n d

/-- The pooled sums of the reference. -/
theorem pool_v83 (x0 x1 x2 x3 : (⟨S262144, .i32⟩ : BufTy).Contents (Elt Ideal)) (x4 : (⟨S60x256, .f32⟩ : BufTy).Contents (Elt Ideal))
    (x5 x6 x7 : (⟨S2x256x256, .f32⟩ : BufTy).Contents (Elt Ideal)) (x8 : (⟨S2x256, .f32⟩ : BufTy).Contents (Elt Ideal))
    (g : Fin 512) (d : Fin 256) :
    val_main_v83 (F := Ideal) x0 x1 x2 x3 x4 x5 x6 x7 x8 (ix2 g d)
      = poolR (segOf x3) (refHop x1 x2 x5 x6 x7 x8 1 (refHop x1 x2 x5 x6 x7 x8 0 (feat0 x0 x4))) g d := by
  unfold val_main_v83
  rw [Cert.LibRows.scatterAdd_rows_apply _ rfl rfl rfl rfl, zero_v81]
  unfold poolR segSum segOf
  refine congrArg (HAdd.hAdd (0 : EReal)) (Finset.sum_congr rfl fun e _ => ?_)
  rw [col_v82, hop2]

/-- The segment sizes of the reference. -/
theorem count_v87 (x3 : (⟨S262144, .i32⟩ : BufTy).Contents (Elt Ideal)) (g : Fin 512) :
    val_main_v87 (F := Ideal) x3 (ix2 g 0) = segSum 512 (segOf x3) (fun (_ : Fin 262144) (_ : Fin 1) => oneE) g 0 := by
  unfold val_main_v87
  rw [Cert.LibRows.scatterAdd_rows_apply _ rfl rfl rfl rfl, zero_v85]
  unfold segSum segOf
  refine congrArg (HAdd.hAdd (0 : EReal)) (Finset.sum_congr rfl fun e _ => ?_)
  rw [col_v86, one_v84]

/-- The divisor of the readout: the segment sizes, at least one, copied along the columns. -/
theorem denom_v90 (x3 : (⟨S262144, .i32⟩ : BufTy).Contents (Elt Ideal)) (g : Fin 512) (d : Fin 256) :
    val_main_v90 (F := Ideal) x3 (ix2 g d)
      = max (segSum 512 (segOf x3) (fun (_ : Fin 262144) (_ : Fin 1) => oneE) g 0) oneE := by
  have hi : idx_main_v90 (ix2 g d) = ix2 g (0 : Fin 1) := funext fun a => Fin.ext (by
    match a with
    | ⟨0, _⟩ => rfl
    | ⟨1, _⟩ => rfl)
  rw [val_main_v90_apply, hi, val_main_v89_apply, Ideal.maximumf_def, count_v87, one_v88]

/-- The reference's result at an index is the specification's. -/
theorem result_apply (x0 x1 x2 x3 : (⟨S262144, .i32⟩ : BufTy).Contents (Elt Ideal)) (x4 : (⟨S60x256, .f32⟩ : BufTy).Contents (Elt Ideal))
    (x5 x6 x7 : (⟨S2x256x256, .f32⟩ : BufTy).Contents (Elt Ideal)) (x8 : (⟨S2x256, .f32⟩ : BufTy).Contents (Elt Ideal)) (g : Fin 512) (d : Fin 256) :
    val_main_v91 (F := Ideal) x0 x1 x2 x3 x4 x5 x6 x7 x8 (ix2 g d) = refOut x0 x1 x2 x3 x4 x5 x6 x7 x8 g d := by
  rw [val_main_v91_apply, Ideal.hostDivf_def, pool_v83, denom_v90]
  rfl

end Cert.RefValue

end
-- ==== Proof.PreFacts.lean ====
import proofs.«401558_j47940424958092_2_alg».proof.Proof.Gen.Pre_finite_inputs
import Idealize.ShloMosaic.PureOps.Ideal
import Idealize.ShloMosaic.Lib.ReduceAll
import Idealize.ShloMosaic.Lib.StableHlo.Predicate

/-!
The precondition read back. The printed predicate is a conjunction of eight universally quantified
masks: five say that every entry of a float input has absolute value below +∞, three say that every
entry of an index input lies in a half-open range. Each is a reduction by `and` of a mask to a single
bit, and the bits are joined by `and`. From the whole being 1 we recover, entry by entry, that the
floats are neither infinity and that the index words, read signed, lie in their ranges.
-/

noncomputable section

namespace Cert.PreFacts

open Idealize.ShloMosaic Cert.Pre_finite_inputs

/-- The rank-0 shape has one index. -/
private instance subsingleton_scalar_idx : Subsingleton S_.Idx := ⟨fun a b => funext fun d => d.elim0⟩

/-- In the extended reals, `max x (-x) < ⊤` (the mask bit `|x| < +∞`) says `x` is neither infinity:
`x = ⊤` makes the left operand of the maximum `⊤`, and `x = ⊥` makes `-x = ⊤`. -/
private theorem finite_of_mask (x : EReal)
    (h : Ideal.cmp .olt (max x (-x)) (Ideal.ofBits .f32 0x7F800000#32) = 1#1) : x ≠ ⊤ ∧ x ≠ ⊥ := by
  have htop : Ideal.ofBits .f32 0x7F800000#32 = ⊤ := by simp [Ideal.ofBits, Ideal.ieee]
  rw [htop, Ideal.cmp, StableHlo.Predicate.ofBool_eq_one_iff, decide_eq_true_iff, max_lt_iff] at h
  refine ⟨ne_of_lt h.1, ?_⟩
  rintro rfl
  exact absurd h.2 (by simp)

/-- One entry of a float mask: the compare of `|x|` against the broadcast pattern of +∞. -/
private theorem float_entry {T : Shape} (hb : S_.BroadcastsInDim T (![] : Fin 0 → Fin T.rank))
    (x : FVec Ideal T .f32) (i : T.Idx)
    (h : cmpf .olt (Host.absf x) (broadcastInDim T ![] hb (constant S_ .f32 0x7F800000#32)) i = 1#1) :
    x i ≠ ⊤ ∧ x i ≠ ⊥ :=
  finite_of_mask (x i) h

/-- One entry of an index mask: `0 ≤ a` and `a < n`, both signed compares against broadcast literals. -/
private theorem index_entry (hb : S_.BroadcastsInDim S262144 (![] : Fin 0 → Fin S262144.rank))
    (a : IVec S262144 32) (n : BitVec 32) (i : S262144.Idx)
    (h : andi (cmpi .sge a (broadcastInDim S262144 ![] hb (constantI S_ 32 0#32)))
          (cmpi .slt a (broadcastInDim S262144 ![] hb (constantI S_ 32 n))) i = 1#1) :
    0 ≤ (a i).toInt ∧ (a i).toInt < n.toInt := by
  obtain ⟨h1, h2⟩ := IntOp.andi_eq_one.1 h
  exact ⟨IntOp.cmpi_sge.1 h1, IntOp.cmpi_slt.1 h2⟩

theorem of_pre (a0 a1 a2 a3 : IVec S262144 32) (a4 : FVec Ideal S60x256 .f32) (a5 a6 a7 : FVec Ideal S2x256x256 .f32) (a8 : FVec Ideal S2x256 .f32)
    (h : Cert.Pre_finite_inputs.fn (F := Ideal) a0 a1 a2 a3 a4 a5 a6 a7 a8 = fun _ => 1#1) :
    (∀ i, a4 i ≠ ⊤ ∧ a4 i ≠ ⊥) ∧ (∀ i, a5 i ≠ ⊤ ∧ a5 i ≠ ⊥) ∧ (∀ i, a6 i ≠ ⊤ ∧ a6 i ≠ ⊥) ∧ (∀ i, a7 i ≠ ⊤ ∧ a7 i ≠ ⊥) ∧ (∀ i, a8 i ≠ ⊤ ∧ a8 i ≠ ⊥)
    ∧ (∀ i, 0 ≤ (a0 i).toInt ∧ (a0 i).toInt < 60) ∧ (∀ i, 0 ≤ (a1 i).toInt ∧ (a1 i).toInt < 262144) ∧ (∀ i, 0 ≤ (a2 i).toInt ∧ (a2 i).toInt < 262144) := by
  have h0 := congrFun h (fun d => d.elim0)
  dsimp only [fn, fn_part1, fn_part2] at h0
  obtain ⟨h0, h43⟩ := IntOp.andi_eq_one.1 h0
  obtain ⟨h0, h36⟩ := IntOp.andi_eq_one.1 h0
  obtain ⟨h0, h29⟩ := IntOp.andi_eq_one.1 h0
  obtain ⟨h0, h22⟩ := IntOp.andi_eq_one.1 h0
  obtain ⟨h0, h17⟩ := IntOp.andi_eq_one.1 h0
  obtain ⟨h0, h12⟩ := IntOp.andi_eq_one.1 h0
  obtain ⟨h3, h7⟩ := IntOp.andi_eq_one.1 h0
  have F4 : ∀ i, a4 i ≠ ⊤ ∧ a4 i ≠ ⊥ := fun i =>
    float_entry _ a4 i (Host.reduce_andi_all _ _ _ _ _ h3 i)
  have F5 : ∀ i, a5 i ≠ ⊤ ∧ a5 i ≠ ⊥ := fun i =>
    float_entry _ a5 i (Host.reduce_andi_all _ _ _ _ _ h7 i)
  have F6 : ∀ i, a6 i ≠ ⊤ ∧ a6 i ≠ ⊥ := fun i =>
    float_entry _ a6 i (Host.reduce_andi_all _ _ _ _ _ h12 i)
  have F7 : ∀ i, a7 i ≠ ⊤ ∧ a7 i ≠ ⊥ := fun i =>
    float_entry _ a7 i (Host.reduce_andi_all _ _ _ _ _ h17 i)
  have F8 : ∀ i, a8 i ≠ ⊤ ∧ a8 i ≠ ⊥ := fun i =>
    float_entry _ a8 i (Host.reduce_andi_all _ _ _ _ _ h22 i)
  have I0 : ∀ i, 0 ≤ (a0 i).toInt ∧ (a0 i).toInt < 60 := fun i =>
    index_entry _ a0 60#32 i (Host.reduce_andi_all _ _ _ _ _ h29 i)
  have I1 : ∀ i, 0 ≤ (a1 i).toInt ∧ (a1 i).toInt < 262144 := fun i =>
    index_entry _ a1 262144#32 i (Host.reduce_andi_all _ _ _ _ _ h36 i)
  have I2 : ∀ i, 0 ≤ (a2 i).toInt ∧ (a2 i).toInt < 262144 := fun i =>
    index_entry _ a2 262144#32 i (Host.reduce_andi_all _ _ _ _ _ h43 i)
  exact ⟨F4, F5, F6, F7, F8, I0, I1, I2⟩

end Cert.PreFacts

end
-- ==== Proof.Algebra.lean ====
import proofs.«401558_j47940424958092_2_alg».proof.Proof.Spec
import Mathlib.Algebra.BigOperators.Ring.Finset
import Mathlib.Algebra.BigOperators.Fin
import Mathlib.Algebra.BigOperators.Intervals
import Mathlib.Logic.Equiv.Fin.Basic
import Mathlib.Data.EReal.Basic

noncomputable section

open scoped BigOperators

/-! The algebra of one hop and of the pooling, over the extended reals.  A matrix product is linear over the reals
    only: the extended reals have the two infinities, where distributivity fails, so the linearity law is stated
    for matrices all of whose entries are real, and is proved by writing every entry as the coercion of a real
    number, pushing the coercion to the outside, and computing in the reals.  The pooling needs no such care: it
    only adds, multiplies by zero or one, and regroups a sum. -/
namespace Cert.Algebra

open Cert.Spec

/-! ### Real numbers inside the extended reals -/
section Scalars

/-- An extended real that is neither infinity. -/
def IsR (x : EReal) : Prop := x ≠ ⊤ ∧ x ≠ ⊥

theorem isR_coe (r : ℝ) : IsR (r : EReal) := ⟨EReal.coe_ne_top r, EReal.coe_ne_bot r⟩

theorem isR_iff (x : EReal) : IsR x ↔ ∃ r : ℝ, x = (r : EReal) :=
  ⟨fun hx => ⟨x.toReal, (EReal.coe_toReal hx.1 hx.2).symm⟩, fun ⟨r, hr⟩ => hr ▸ isR_coe r⟩

theorem isR_zero : IsR (0 : EReal) := by
  rw [← EReal.coe_zero]; exact isR_coe 0

theorem isR_add {x y : EReal} (hx : IsR x) (hy : IsR y) : IsR (x + y) := by
  obtain ⟨a, rfl⟩ := (isR_iff x).1 hx
  obtain ⟨b, rfl⟩ := (isR_iff y).1 hy
  rw [← EReal.coe_add]; exact isR_coe _

theorem isR_mul {x y : EReal} (hx : IsR x) (hy : IsR y) : IsR (x * y) := by
  obtain ⟨a, rfl⟩ := (isR_iff x).1 hx
  obtain ⟨b, rfl⟩ := (isR_iff y).1 hy
  rw [← EReal.coe_mul]; exact isR_coe _

theorem isR_max {x y : EReal} (hx : IsR x) (hy : IsR y) : IsR (max x y) := by
  rcases le_total x y with hxy | hxy
  · rw [max_eq_right hxy]; exact hy
  · rw [max_eq_left hxy]; exact hx

theorem isR_ite (p : Prop) [Decidable p] {x y : EReal} (hx : IsR x) (hy : IsR y) : IsR (if p then x else y) := by
  split_ifs
  · exact hx
  · exact hy

theorem isR_sum {ι : Type*} (s : Finset ι) (f : ι → EReal) (hf : ∀ i ∈ s, IsR (f i)) : IsR (∑ i ∈ s, f i) :=
  Finset.sum_induction f IsR (fun _ _ => isR_add) isR_zero hf

/-- The coercion of a finite real sum is the sum of the coercions. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The coercion of a choice is the choice of the coercions. -/
theorem coe_ite (p : Prop) [Decidable p] (a b : ℝ) :
    ((if p then a else b : ℝ) : EReal) = if p then (a : EReal) else (b : EReal) := by
  split_ifs <;> rfl

end Scalars

/-! ### Matrices of real entries -/
section Closure

/-- A matrix of real entries is the coercion of a real matrix. -/
theorem exists_real {A C : Nat} (x : Mat A C) (hx : IsRealM x) :
    ∃ x' : Fin A → Fin C → ℝ, x = fun a c => (x' a c : EReal) :=
  ⟨fun a c => (x a c).toReal, by
    funext a c; exact (EReal.coe_toReal (hx a c).1 (hx a c).2).symm⟩

theorem isReal_gatherRows {N A C : Nat} (hA : 0 < A) (x : Mat A C) (z : Fin N → Int) (hx : IsRealM x) :
    IsRealM (gatherRows hA x z) :=
  fun e c => hx (rowOf A hA (z e)) c

theorem isReal_mm {A K C : Nat} (x : Mat A K) (w : Mat K C) (hx : IsRealM x) (hw : IsRealM w) :
    IsRealM (mm x w) :=
  fun a c => isR_sum _ _ (fun k _ => isR_mul (hx a k) (hw k c))

theorem isReal_segSum {N C : Nat} (A : Nat) (seg : Fin N → Int) (x : Mat N C) (hx : IsRealM x) :
    IsRealM (segSum A seg x) :=
  fun _ c => isR_add isR_zero (isR_sum _ _ (fun e _ => isR_ite _ (hx e c) isR_zero))

theorem isReal_referenceHop {N D : Nat} (hN : 0 < N) (h : Mat N D) (src dst ssrc sdst : Fin N → Int)
    (ws wu wd : Mat D D) (b : Fin D → EReal)
    (hh : IsRealM h) (hws : IsRealM ws) (hwu : IsRealM wu) (hwd : IsRealM wd) (hb : IsRealV b) :
    IsRealM (referenceHop hN h src dst ssrc sdst ws wu wd b) :=
  fun n d =>
    isR_max
      (isR_add
        (isR_add
          (isR_add (isReal_mm h ws hh hws n d)
            (isReal_segSum N sdst _ (isReal_mm _ wu (isReal_gatherRows hN h src hh) hwu) n d))
          (isReal_segSum N ssrc _ (isReal_mm _ wd (isReal_gatherRows hN h dst hh) hwd) n d))
        (hb d))
      isR_zero

end Closure

/-! ### The linearity law -/
section Linearity

/-- Summing rows and then multiplying by a matrix is multiplying each row and then summing, for real entries. -/
theorem mm_segSum {N K C : Nat} (A : Nat) (seg : Fin N → Int) (x : Mat N K) (w : Mat K C)
    (hx : IsRealM x) (hw : IsRealM w) :
    mm (segSum A seg x) w = segSum A seg (mm x w) := by
  obtain ⟨x', rfl⟩ := exists_real x hx
  obtain ⟨w', rfl⟩ := exists_real w hw
  funext a c
  -- the identity in the reals: distribute the product over the inner sum and exchange the two sums
  have key : (∑ k : Fin K, (0 + ∑ e : Fin N, if seg e = (a.val : Int) then x' e k else 0) * w' k c : ℝ)
      = 0 + ∑ e : Fin N, if seg e = (a.val : Int) then ∑ k : Fin K, x' e k * w' k c else 0 := by
    simp only [zero_add, Finset.sum_mul, ite_mul, zero_mul]
    rw [Finset.sum_comm]
    refine Finset.sum_congr rfl (fun e _ => ?_)
    split_ifs
    · rfl
    · exact Finset.sum_const_zero
  have key' := congrArg (fun r : ℝ => (r : EReal)) key
  simp only [coe_sum, EReal.coe_add, EReal.coe_mul, EReal.coe_zero, coe_ite] at key'
  exact key'

end Linearity

/-! ### The hop -/
section Hop

theorem kernelHop_eq_referenceHop {N D : Nat} (hN : 0 < N) (h : Mat N D) (src dst ssrc sdst : Fin N → Int)
    (ws wu wd : Mat D D) (b : Fin D → EReal)
    (hh : IsRealM h) (hwu : IsRealM wu) (hwd : IsRealM wd) :
    kernelHop hN h src dst ssrc sdst ws wu wd b = referenceHop hN h src dst ssrc sdst ws wu wd b := by
  unfold kernelHop referenceHop hopK hopR
  rw [mm_segSum N sdst _ wu (isReal_gatherRows hN h src hh) hwu,
    mm_segSum N ssrc _ wd (isReal_gatherRows hN h dst hh) hwd]

end Hop

/-! ### The pooling -/
section Pool

/-- A sum over the numbers below m·n is the sum, over the m blocks of n consecutive numbers, of the blocks' sums. -/
theorem sum_fin_mul {M : Type*} [AddCommMonoid M] (m n : Nat) (f : Fin (m * n) → M) :
    ∑ e : Fin (m * n), f e
      = ∑ t : Fin m, ∑ r : Fin n, f ⟨t.val * n + r.val, by
          have ht := t.isLt; have hr := r.isLt
          calc t.val * n + r.val < t.val * n + n := by omega
            _ = (t.val + 1) * n := by ring
            _ ≤ m * n := Nat.mul_le_mul_right n ht⟩ := by
  rw [← Equiv.sum_comp finProdFinEquiv f, Fintype.sum_prod_type]
  refine Finset.sum_congr rfl (fun t _ => Finset.sum_congr rfl (fun r _ => ?_))
  congr 1
  apply Fin.ext
  simp only [finProdFinEquiv_apply_val]
  ring

variable (gid : Fin 262144 → Int) (h : Mat 262144 256)

/-- One block's sum as a function of the natural block number, zero past the 64 blocks. -/
def bs (g : Fin 512) (d : Fin 256) (t : Nat) : EReal :=
  if ht : t < 64 then blockSum gid h ⟨t, ht⟩ g d else 0

theorem bs_of_lt (g : Fin 512) (d : Fin 256) (t : Nat) (ht : t < 64) :
    bs gid h g d t = blockSum gid h ⟨t, ht⟩ g d := dif_pos ht

/-- The accumulator after block n is the sum of the blocks of n's half, from the half's first block to n. -/
theorem accAt_eq (g : Fin 512) (d : Fin 256) : ∀ (n : Nat) (hn : n < 64),
    accAt gid h n hn g d = ∑ t ∈ Finset.Ico (32 * (n / 32)) (n + 1), bs gid h g d t
  | 0, hn => by
      rw [accAt]
      beta_reduce
      rw [zero_add, Nat.zero_div, Nat.mul_zero, Nat.Ico_succ_singleton, Finset.sum_singleton,
        bs_of_lt gid h g d 0 hn]
  | n + 1, hn => by
      rw [accAt]
      beta_reduce
      by_cases hm : (n + 1) % 32 = 0
      · have e : 32 * ((n + 1) / 32) = n + 1 := by omega
        rw [if_pos hm, zero_add, e, Nat.Ico_succ_singleton, Finset.sum_singleton, bs_of_lt gid h g d (n + 1) hn]
      · have e : 32 * ((n + 1) / 32) = 32 * (n / 32) := by omega
        have le : 32 * (n / 32) ≤ n + 1 := by omega
        rw [if_neg hm, accAt_eq g d n (by omega), e, Finset.sum_Ico_succ_top le, bs_of_lt gid h g d (n + 1) hn]

/-- The two halves' accumulators add up to the sum of all 64 blocks. -/
theorem poolK_eq_blocks (g : Fin 512) (d : Fin 256) :
    poolK gid h g d = ∑ t : Fin 64, blockSum gid h t g d := by
  unfold poolK
  rw [accAt_eq gid h g d 31 (by omega), accAt_eq gid h g d 63 (by omega)]
  have e1 : 32 * (31 / 32) = 0 := by norm_num
  have e2 : 32 * (63 / 32) = 32 := by norm_num
  rw [e1, e2, Finset.sum_Ico_consecutive _ (by omega) (by omega), ← Finset.range_eq_Ico, Finset.sum_range]
  exact Finset.sum_congr rfl (fun t _ => bs_of_lt gid h g d t.val t.isLt)

/-- A one-hot factor selects: the product is the other factor where the graph number matches, zero elsewhere. -/
theorem oh_mul (z : Int) (g : Nat) (y : EReal) : oh z g * y = if z = (g : Int) then y else 0 := by
  unfold oh
  split_ifs
  · exact one_mul y
  · exact zero_mul y

theorem poolK_eq_poolR (gid : Fin 262144 → Int) (h : Mat 262144 256) (hh : IsRealM h) :
    poolK gid h = poolR gid h := by
  funext g d
  rw [poolK_eq_blocks]
  unfold poolR segSum blockSum
  rw [zero_add]
  have e := sum_fin_mul 64 4096 (fun e : Fin 262144 => if gid e = (g.val : Int) then h e d else 0)
  rw [e]
  refine Finset.sum_congr rfl (fun t _ => Finset.sum_congr rfl (fun r _ => ?_))
  exact oh_mul _ _ _

end Pool

end Cert.Algebra

end
-- ==== Proof.Bridge.lean ====
import proofs.«401558_j47940424958092_2_alg».proof.Proof.Inputs
import proofs.«401558_j47940424958092_2_alg».proof.Proof.Algebra

noncomputable section

/-! The kernel's result and the reference's are one matrix when the float inputs are real: the embedding rows are
    real, so are the features after each hop (sums, products and maxima of reals), and on real features a hop that
    aggregates before multiplying is the hop that multiplies before aggregating (a matrix product is linear); the
    block-by-block one-hot pooling is the segment sum. -/
namespace Cert.Bridge

open Idealize.ShloMosaic Cert.Spec Cert.Algebra

theorem kerOut_eq_refOut (nt es ed gid : IdxVec) (emb : (⟨2, ![60, 256]⟩ : Shape).Idx → EReal)
    (wup wdown wself : (⟨3, ![2, 256, 256]⟩ : Shape).Idx → EReal) (bias : (⟨2, ![2, 256]⟩ : Shape).Idx → EReal)
    (hemb : ∀ i, emb i ≠ ⊤ ∧ emb i ≠ ⊥) (hwup : ∀ i, wup i ≠ ⊤ ∧ wup i ≠ ⊥) (hwdown : ∀ i, wdown i ≠ ⊤ ∧ wdown i ≠ ⊥)
    (hwself : ∀ i, wself i ≠ ⊤ ∧ wself i ≠ ⊥) (hbias : ∀ i, bias i ≠ ⊤ ∧ bias i ≠ ⊥) :
    kerOut nt es ed gid emb wup wdown wself bias = refOut nt es ed gid emb wup wdown wself bias := by
  have h0 : IsRealM (feat0 nt emb) := isReal_gatherRows _ _ _ (fun a c => hemb _)
  have hs : ∀ k, IsRealM (sliceW k wself) := fun k i j => hwself _
  have hu : ∀ k, IsRealM (sliceW k wup) := fun k i j => hwup _
  have hd : ∀ k, IsRealM (sliceW k wdown) := fun k i j => hwdown _
  have hb : ∀ k, IsRealV (sliceB k bias) := fun k j => hbias _
  have e1 : kerHop es ed wup wdown wself bias 0 (feat0 nt emb) = refHop es ed wup wdown wself bias 0 (feat0 nt emb) :=
    kernelHop_eq_referenceHop _ _ _ _ _ _ _ _ _ _ h0 (hu 0) (hd 0)
  have h1 : IsRealM (refHop es ed wup wdown wself bias 0 (feat0 nt emb)) :=
    isReal_referenceHop _ _ _ _ _ _ _ _ _ _ h0 (hs 0) (hu 0) (hd 0) (hb 0)
  have e2 : kerHop es ed wup wdown wself bias 1 (refHop es ed wup wdown wself bias 0 (feat0 nt emb))
      = refHop es ed wup wdown wself bias 1 (refHop es ed wup wdown wself bias 0 (feat0 nt emb)) :=
    kernelHop_eq_referenceHop _ _ _ _ _ _ _ _ _ _ h1 (hu 1) (hd 1)
  have h2 : IsRealM (refHop es ed wup wdown wself bias 1 (refHop es ed wup wdown wself bias 0 (feat0 nt emb))) :=
    isReal_referenceHop _ _ _ _ _ _ _ _ _ _ h1 (hs 1) (hu 1) (hd 1) (hb 1)
  unfold kerOut refOut
  rw [e1, e2, poolK_eq_poolR _ _ h2]

end Cert.Bridge

end
-- ==== Proof.lean ====
/- The certificate of the two-hop graph message passing with per-graph mean pooling: the Pallas program (three kernel
   regions among host gathers and segment sums) against the jnp reference, over the extended reals, for float inputs that
   are finite and node types and edge ends that index inside their tables.

   The frames: each program runs to the end from any memory, faults nowhere and keeps its arguments. For the two kernel
   programs this is the run of @main's items in order — a host stretch moves the buffers' contents by its operations, a
   kernel region changes only its output array —, each region discharged by its body's triple at every grid point; the
   pooling region carries its scratch accumulator in its invariant. The reference has no kernel: its frame is its run.

   The value: at the ideal instance both results are the readout of pooled features after two hops. The kernel multiplies
   by the neighbour weights after aggregating the gathered rows, the reference before; on real features the two agree
   because a matrix product is linear, and the features stay real because the inputs are finite. The kernel pools block by
   block with one-hot products, the reference with one segment sum: the same sum, regrouped. The index ranges are used once:
   the kernel's gathers fill rows with out-of-range indices with a junk value where the reference's clamp, and in range the
   two coincide. No operation was rewritten by the idealization, so nothing is owed for it. -/
import proofs.«401558_j47940424958092_2_alg».proof.Defs
import proofs.«401558_j47940424958092_2_alg».proof.Proof.Gen.Kernel
import proofs.«401558_j47940424958092_2_alg».proof.Proof.Gen.KernelIdeal
import proofs.«401558_j47940424958092_2_alg».proof.Proof.Gen.ReferenceIdeal
import proofs.«401558_j47940424958092_2_alg».proof.Proof.Gen.Pre_finite_inputs
import proofs.«401558_j47940424958092_2_alg».proof.Proof.Kernel.Frame
import proofs.«401558_j47940424958092_2_alg».proof.Proof.KernelIdeal.RunValue
import proofs.«401558_j47940424958092_2_alg».proof.Proof.KernelIdeal.KernelValue
import proofs.«401558_j47940424958092_2_alg».proof.Proof.RefValue
import proofs.«401558_j47940424958092_2_alg».proof.Proof.PreFacts
import proofs.«401558_j47940424958092_2_alg».proof.Proof.Bridge
import Idealize.ShloMosaic.Adequacy
import Idealize.ShloMosaic.Init

noncomputable section

namespace Cert.Proof

open Idealize.ShloMosaic Idealize.ShloMosaic.TcCoe Idealize.ShloMosaic.ValueIdx Idealize.SL.Sem

theorem frame_k : Cert.frame_Kernel := fun m ρ _ => Cert.Kernel.Launched.run (F := Bits) m ρ

theorem frame_ki : Cert.frame_KernelIdeal := fun m ρ _ =>
  (θ_run Cert.KernelIdeal.defs _ _).mono (fun _ h c => (h c).2) (Cert.KernelIdeal.Launched.run (F := Ideal) m ρ)

theorem frame_ri : Cert.frame_ReferenceIdeal := fun m ρ _ =>
  (θ_run Cert.ReferenceIdeal.defs _ _).mono (fun _ h c => (h c).2) (Cert.ReferenceIdeal.Value.run (F := Ideal) m ρ)

/-- From memories agreeing on the arguments both programs end with the same result: the kernel's is the specification's
    kernel term of its inputs, the reference's the specification's reference term of the same inputs, and under the
    precondition the two terms are equal. -/
theorem algebraic : Cert.algebraic_KernelIdeal_ReferenceIdeal := by
  intro m ρ m' ρ' hpre hagree
  refine ⟨fun c => Cert.KernelIdeal.Gen.V12 m (Cert.KernelIdeal.Regs.outs m) c Cert.KernelIdeal.main_v51,
    Cert.KernelIdeal.Launched.run (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨e4, e5, e6, e7, e8, r0, r1, r2⟩ := Cert.PreFacts.of_pre _ _ _ _ _ _ _ _ _ (hpre c)
  obtain ⟨g0, g1, g2, g3, g4, g5, g6, g7, g8⟩ := hagree c
  rw [Cert.ReferenceIdeal.Read.val_main_v91_eq, g0, g1, g2, g3, g4, g5, g6, g7, g8]
  funext i
  obtain ⟨g, d, rfl⟩ : ∃ (g : Fin 512) (d : Fin 256), i = ix2 g d := ⟨i 0, i 1, eq_ix2 i⟩
  rw [Cert.RefValue.result_apply]
  refine Eq.trans ?_ (Cert.KernelIdeal.KernelValue.result_apply m c (fun e => r0 (ix1 e)) (fun e => r1 (ix1 e)) (fun e => r2 (ix1 e)) g d).symm
  exact (congrFun (congrFun (Cert.Bridge.kerOut_eq_refOut _ _ _ _ _ _ _ _ _ e4 e5 e6 e7 e8) g) d).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
